-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1609) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15x256x512 : Shape := ⟨3, ![15, 256, 512]⟩
abbrev S2x4096x1024 : Shape := ⟨3, ![2, 4096, 1024]⟩
abbrev S2x4096 : Shape := ⟨2, ![2, 4096]⟩
abbrev S_ : Shape := ⟨0, ![]⟩

class Facts : Prop where
  bcast_S_S15x256x512 : S_.BroadcastsInDim S15x256x512 (![] : Fin 0 → Fin S15x256x512.rank)
  reducesTo_S15x256x512_S_d0_1_2 : S15x256x512.ReducesTo [0, 1, 2] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S2x4096 : S_.BroadcastsInDim S2x4096 (![] : Fin 0 → Fin S2x4096.rank)
  reducesTo_S2x4096_S_d0_1 : S2x4096.ReducesTo [0, 1] S_

variable [Facts]

def fn_part1 {F : FTy → Type} [FloatOps F] (main_arg4 : FVec F S2x4096 .f32) (main_arg5 : FVec F S2x4096 .f32) (main_v13 : IVec S_ 1) (main_v16 : IVec S2x4096x1024 1) : IVec S_ 1 :=
  let main_c_5 : IVec S_ 1 := constantI S_ 1 1#1
  let main_v17 : IVec S_ 1 := (fun x v => Host.reduce IntOp.andi x v reducesTo_S2x4096x1024_S_d0_1_2 h_S_) main_v16 main_c_5
  let main_v18 : IVec S_ 1 := andi main_v13 main_v17
  let main_v19 : FVec F S2x4096 .f32 := Host.absf main_arg4
  let main_cst_6 : FVec F S_ .f32 := constant S_ .f32 0x7F800000#32
  let main_v20 : FVec F S2x4096 .f32 := broadcastInDim S2x4096 ![] bcast_S_S2x4096 main_cst_6
  let main_v21 : IVec S2x4096 1 := cmpf .olt main_v19 main_v20
  let main_c_7 : IVec S_ 1 := constantI S_ 1 1#1
  let main_v22 : IVec S_ 1 := (fun x v => Host.reduce IntOp.andi x v reducesTo_S2x4096_S_d0_1 h_S_) main_v21 main_c_7
  let main_v23 : IVec S_ 1 := andi main_v18 main_v22
  let main_v24 : FVec F S2x4096 .f32 := Host.absf main_arg5
  let main_cst_8 : FVec F S_ .f32 := constant S_ .f32 0x7F800000#32
  let main_v25 : FVec F S2x4096 .f32 := broadcastInDim S2x4096 ![] bcast_S_S2x4096 main_cst_8
  let main_v26 : IVec S2x4096 1 := cmpf .olt main_v24 main_v25
  let main_c_9 : IVec S_ 1 := constantI S_ 1 1#1
  let main_v27 : IVec S_ 1 := (fun x v => Host.reduce IntOp.andi x v reducesTo_S2x4096_S_d0_1 h_S_) main_v26 main_c_9
  let main_v28 : IVec S_ 1 := andi main_v23 main_v27
  main_v28

def fn {F : FTy → Type} [FloatOps F] (main_arg0 : FVec F S15x256x512 .f32) (main_arg1 : FVec F S15x256x512 .f32) (main_arg2 : FVec F S2x4096x1024 .f32) (main_arg3 : FVec F S2x4096x1024 .f32) (main_arg4 : FVec F S2x4096 .f32) (main_arg5 : FVec F S2x4096 .f32) : IVec S_ 1 :=
  let main_v0 : FVec F S15x256x512 .f32 := Host.absf main_arg0
  let main_cst : FVec F S_ .f32 := constant S_ .f32 0x7F800000#32
  let main_v1 : FVec F S15x256x512 .f32 := broadcastInDim S15x256x512 ![] bcast_S_S15x256x512 main_cst
  let main_v2 : IVec S15x256x512 1 := cmpf .olt main_v0 main_v1
  let main_c : IVec S_ 1 := constantI S_ 1 1#1
  let main_v3 : IVec S_ 1 := (fun x v => Host.reduce IntOp.andi x v reducesTo_S15x256x512_S_d0_1_2 h_S_) main_v2 main_c
  let main_v4 : FVec F S15x256x512 .f32 := Host.absf main_arg1
  let main_cst_0 : FVec F S_ .f32 := constant S_ .f32 0x7F800000#32
  let main_v5 : FVec F S15x256x512 .f32 := broadcastInDim S15x256x512 ![] bcast_S_S15x256x512 main_cst_0
  let main_v6 : IVec S15x256x512 1 := cmpf .olt main_v4 main_v5
  let main_c_1 : IVec S_ 1 := constantI S_ 1 1#1
  let main_v7 : IVec S_ 1 := (fun x v => Host.reduce IntOp.andi x v reducesTo_S15x256x512_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S2x4096x1024 .f32 := Host.absf main_arg3
  let main_cst_4 : FVec F S_ .f32 := constant S_ .f32 0x7F800000#32
  let main_v15 : FVec F S2x4096x1024 .f32 := broadcastInDim S2x4096x1024 ![] bcast_S_S2x4096x1024 main_cst_4
  let main_v16 : IVec S2x4096x1024 1 := cmpf .olt main_v14 main_v15
  fn_part1 (F := F) main_arg4 main_arg5 main_v13 main_v16
-- ==== Kernel.lean ====
abbrev S15x256x512 : Shape := ⟨3, ![15, 256, 512]⟩
abbrev S2x4096x1024 : Shape := ⟨3, ![2, 4096, 1024]⟩
abbrev S2x4096 : Shape := ⟨2, ![2, 4096]⟩
abbrev S15 : Shape := ⟨1, ![15]⟩
abbrev S3840x512 : Shape := ⟨2, ![3840, 512]⟩
abbrev S1x4096x1024 : Shape := ⟨3, ![1, 4096, 1024]⟩
abbrev S4096x1024 : Shape := ⟨2, ![4096, 1024]⟩
abbrev S1x4096 : Shape := ⟨2, ![1, 4096]⟩
abbrev S4096 : Shape := ⟨1, ![4096]⟩
abbrev S3840x4096 : Shape := ⟨2, ![3840, 4096]⟩
abbrev S192x512 : Shape := ⟨2, ![192, 512]⟩
abbrev S192x4096 : Shape := ⟨2, ![192, 4096]⟩
abbrev S192x1024 : Shape := ⟨2, ![192, 1024]⟩
abbrev S15x256x4096 : Shape := ⟨3, ![15, 256, 4096]⟩
abbrev S15x256x1024 : Shape := ⟨3, ![15, 256, 1024]⟩
abbrev S1x128x4096 : Shape := ⟨3, ![1, 128, 4096]⟩
abbrev S1x128x1024 : Shape := ⟨3, ![1, 128, 1024]⟩
abbrev S16x128x1024 : Shape := ⟨3, ![16, 128, 1024]⟩
abbrev S128x1024 : Shape := ⟨2, ![128, 1024]⟩
abbrev S1 : Shape := ⟨1, ![1]⟩
abbrev S128x4096 : Shape := ⟨2, ![128, 4096]⟩
abbrev S3840x1024 : Shape := ⟨2, ![3840, 1024]⟩

abbrev nBuf : Space → Nat
  | .hbm => 39
  | .vmem => 28
  | .smem => 1
  | _ => 0

abbrev bufTy : (tb : Table) → Fin (tcTables nBuf tb) → BufTy
  | .hbm, ⟨0, _⟩ => ⟨S15x256x512, .f32⟩
  | .hbm, ⟨1, _⟩ => ⟨S15x256x512, .f32⟩
  | .hbm, ⟨2, _⟩ => ⟨S2x4096x1024, .f32⟩
  | .hbm, ⟨3, _⟩ => ⟨S2x4096x1024, .f32⟩
  | .hbm, ⟨4, _⟩ => ⟨S2x4096, .f32⟩
  | .hbm, ⟨5, _⟩ => ⟨S2x4096, .f32⟩
  | .hbm, ⟨6, _⟩ => ⟨S3840x512, .f32⟩
  | .hbm, ⟨7, _⟩ => ⟨S3840x512, .f32⟩
  | .hbm, ⟨8, _⟩ => ⟨S1x4096x1024, .f32⟩
  | .hbm, ⟨9, _⟩ => ⟨S4096x1024, .f32⟩
  | .hbm, ⟨10, _⟩ => ⟨S4096x1024, .bf16⟩
  | .hbm, ⟨11, _⟩ => ⟨S1x4096x1024, .f32⟩
  | .hbm, ⟨12, _⟩ => ⟨S4096x1024, .f32⟩
  | .hbm, ⟨13, _⟩ => ⟨S4096x1024, .bf16⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S3840x4096, .bf16⟩
  | .hbm, ⟨21, _⟩ => ⟨S15x256x4096, .bf16⟩
  | .hbm, ⟨22, _⟩ => ⟨S15x256x1024, .bf16⟩
  | .hbm, ⟨23, _⟩ => ⟨S3840x1024, .bf16⟩
  | .hbm, ⟨24, _⟩ => ⟨S1x4096x1024, .f32⟩
  | .hbm, ⟨25, _⟩ => ⟨S4096x1024, .f32⟩
  | .hbm, ⟨26, _⟩ => ⟨S4096x1024, .bf16⟩
  | .hbm, ⟨27, _⟩ => ⟨S1x4096x1024, .f32⟩
  | .hbm, ⟨28, _⟩ => ⟨S4096x1024, .f32⟩
  | .hbm, ⟨29, _⟩ => ⟨S4096x1024, .bf16⟩
  | .hbm, ⟨30, _⟩ => ⟨S1x4096, .f32⟩
  | .hbm, ⟨31, _⟩ => ⟨S4096, .f32⟩
  | .hbm, ⟨32, _⟩ => ⟨S1x4096, .f32⟩
  | .hbm, ⟨33, _⟩ => ⟨S4096, .f32⟩
  | .hbm, ⟨34, _⟩ => ⟨S4096, .f32⟩
  | .hbm, ⟨35, _⟩ => ⟨S1x4096, .f32⟩
  | .hbm, ⟨36, _⟩ => ⟨S3840x4096, .bf16⟩
  | .hbm, ⟨37, _⟩ => ⟨S15x256x4096, .bf16⟩
  | .hbm, ⟨38, _⟩ => ⟨S15x256x1024, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S4096x1024, .bf16⟩
  | .local _ .vmem, ⟨5, _⟩ => ⟨S1x4096, .f32⟩
  | .local _ .vmem, ⟨6, _⟩ => ⟨S192x4096, .bf16⟩
  | .local _ .vmem, ⟨7, _⟩ => ⟨S192x4096, .bf16⟩
  | .local _ .vmem, ⟨8, _⟩ => ⟨S1x128x4096, .bf16⟩
  | .local _ .vmem, ⟨9, _⟩ => ⟨S1x128x4096, .bf16⟩
  | .local _ .vmem, ⟨10, _⟩ => ⟨S4096x1024, .bf16⟩
  | .local _ .vmem, ⟨11, _⟩ => ⟨S1x128x1024, .bf16⟩
  | .local _ .vmem, ⟨12, _⟩ => ⟨S1x128x1024, .bf16⟩
  | .local _ .vmem, ⟨13, _⟩ => ⟨S16x128x1024, .bf16⟩
  | .local _ .vmem, ⟨14, _⟩ => ⟨S16x128x1024, .f32⟩
  | .local _ .vmem, ⟨15, _⟩ => ⟨S192x1024, .bf16⟩
  | .local _ .vmem, ⟨16, _⟩ => ⟨S192x1024, .bf16⟩
  | .local _ .vmem, ⟨17, _⟩ => ⟨S4096x1024, .bf16⟩
  | .local _ .vmem, ⟨18, _⟩ => ⟨S1x4096, .f32⟩
  | .local _ .vmem, ⟨19, _⟩ => ⟨S192x4096, .bf16⟩
  | .local _ .vmem, ⟨20, _⟩ => ⟨S192x4096, .bf16⟩
  | .local _ .vmem, ⟨21, _⟩ => ⟨S1x128x4096, .bf16⟩
  | .local _ .vmem, ⟨22, _⟩ => ⟨S1x128x4096, .bf16⟩
  | .local _ .vmem, ⟨23, _⟩ => ⟨S4096x1024, .bf16⟩
  | .local _ .vmem, ⟨24, _⟩ => ⟨S1x128x1024, .f32⟩
  | .local _ .vmem, ⟨25, _⟩ => ⟨S1x128x1024, .f32⟩
  | .local _ .vmem, ⟨26, _⟩ => ⟨S16x128x1024, .bf16⟩
  | .local _ .vmem, ⟨27, _⟩ => ⟨S16x128x1024, .f32⟩
  | .local _ .smem, ⟨0, _⟩ => ⟨S15, .i32⟩
  | _, _ => ⟨S15x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc3_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 15], ![false, false]⟩

abbrev pre1 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v3 : Index := Scalar.indexCast arg1
  ![v3.toNat]
def k1_off2 (v4 : BitVec 32) : Fin 3 → Nat :=
  let v5 : Index := Scalar.indexCast v4
  let c0 : Index := 0#32
  let c0_1 : Index := 0#32
  ![v5.toNat, 0, 0]

def k1_chk1 (v4 : BitVec 32) : Prop :=
  (∀ a, (k1_off2 v4) a + S1x128x1024.size a ≤ S16x128x1024.size a)
instance k1_chk1.dec : ∀ (v4 : BitVec 32), Decidable (k1_chk1 v4) := fun v4 => decidable_of_iff' _ (Iff.of_eq (k1_chk1.eq_1 v4))
theorem k1_off2_inb : ∀ (v4 : BitVec 32) (k1_hw1 : k1_chk1 v4), ∀ a, (k1_off2 v4) a + S1x128x1024.size a ≤ S16x128x1024.size a := fun v4 k1_hw1 => k1_hw1

def k1_off3 (i : grid1.Coords) : Fin 3 → Nat :=
  let arg1 : BitVec 32 := BitVec.ofNat 32 (i 1).val
  let c1_i32 : BitVec 32 := 1#32
  let v32 : BitVec 32 := Scalar.addi arg1 c1_i32
  let v33 : Index := Scalar.indexCast v32
  let c0_9 : Index := 0#32
  let c0_10 : Index := 0#32
  ![v33.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1x128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S192x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S192x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 15], ![false, false]⟩

abbrev pre3 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg1 : BitVec 32 := BitVec.ofNat 32 (i 1).val
  let v3 : Index := Scalar.indexCast arg1
  ![v3.toNat]
def k3_off2 (v4 : BitVec 32) : Fin 3 → Nat :=
  let v5 : Index := Scalar.indexCast v4
  let c0 : Index := 0#32
  let c0_1 : Index := 0#32
  ![v5.toNat, 0, 0]

def k3_chk1 (v4 : BitVec 32) : Prop :=
  (∀ a, (k3_off2 v4) a + S1x128x1024.size a ≤ S16x128x1024.size a)
instance k3_chk1.dec : ∀ (v4 : BitVec 32), Decidable (k3_chk1 v4) := fun v4 => decidable_of_iff' _ (Iff.of_eq (k3_chk1.eq_1 v4))
theorem k3_off2_inb : ∀ (v4 : BitVec 32) (k3_hw1 : k3_chk1 v4), ∀ a, (k3_off2 v4) a + S1x128x1024.size a ≤ S16x128x1024.size a := fun v4 k3_hw1 => k3_hw1

def k3_off3 (i : grid3.Coords) : Fin 3 → Nat :=
  let arg1 : BitVec 32 := BitVec.ofNat 32 (i 1).val
  let c1_i32 : BitVec 32 := 1#32
  let v32 : BitVec 32 := Scalar.addi arg1 c1_i32
  let v33 : Index := Scalar.indexCast v32
  let c0_9 : Index := 0#32
  let c0_10 : Index := 0#32
  ![v33.toNat, 0, 0]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1x128x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S15x256x512_S3840x512 : S15x256x512.ShapeCasts S3840x512
  slices_S2x4096x1024_S1x4096x1024_0_0_0 : S2x4096x1024.Slices ![0, 0, 0] S1x4096x1024
  shapeCasts_S1x4096x1024_S4096x1024 : S1x4096x1024.ShapeCasts S4096x1024
  bitsLt_bf16_f32 : FTy.bits .bf16 < FTy.bits .f32
  slices_S2x4096_S1x4096_0_0 : S2x4096.Slices ![0, 0] S1x4096
  shapeCasts_S1x4096_S4096 : S1x4096.ShapeCasts S4096
  shapeCasts_S4096_S1x4096 : S4096.ShapeCasts S1x4096
  inb_S192x512_S192x512_0_0 : ∀ a, (![0, 0] : Fin 2 → Nat) a + S192x512.size a ≤ S192x512.size a
  h_S192x512 : 0 < S192x512.numel
  shapeCasts_S192x512_S192x512 : S192x512.ShapeCasts S192x512
  concatenates_S192x512_S192x512_S192x1024_d1 : Shape.Concatenates [S192x512, S192x512] S192x1024 1
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S192x4096 : S1x4096.Broadcasts S192x4096
  inb_S192x4096_S192x4096_0_0 : ∀ a, (![0, 0] : Fin 2 → Nat) a + S192x4096.size a ≤ S192x4096.size a
  h_S192x4096 : 0 < S192x4096.numel
  packedbf16_S192x4096_S192x4096_0_0 : (Rect.unit (s := S192x4096) ![0, 0] S192x4096.size inb_S192x4096_S192x4096_0_0).PackedRows (EltTy.packing .bf16)
  shapeCasts_S3840x4096_S15x256x4096 : S3840x4096.ShapeCasts S15x256x4096
  inb_S16x128x1024_S1x128x1024_0_0_0 : ∀ a, (![0, 0, 0] : Fin 3 → Nat) a + S1x128x1024.size a ≤ S16x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  packedbf16_S16x128x1024_S1x128x1024_0_0_0 : (Rect.unit (s := S16x128x1024) ![0, 0, 0] S1x128x1024.size inb_S16x128x1024_S1x128x1024_0_0_0).PackedRows (EltTy.packing .bf16)
  numel1_S1 : S1.numel = 1
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1x128x1024_S1x128x1024_0_0_0 : ∀ a, (![0, 0, 0] : Fin 3 → Nat) a + S1x128x1024.size a ≤ S1x128x1024.size a
  packedbf16_S1x128x1024_S1x128x1024_0_0_0 : (Rect.unit (s := S1x128x1024) ![0, 0, 0] S1x128x1024.size inb_S1x128x1024_S1x128x1024_0_0_0).PackedRows (EltTy.packing .bf16)
  shapeCasts_S15x256x1024_S3840x1024 : S15x256x1024.ShapeCasts S3840x1024
  slices_S2x4096x1024_S1x4096x1024_1_0_0 : S2x4096x1024.Slices ![1, 0, 0] S1x4096x1024
  slices_S2x4096_S1x4096_1_0 : S2x4096.Slices ![1, 0] S1x4096
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  dot_S192x1024_S4096x1024_S192x4096_1_1_0_0_n_n_wf : DotDims.WF S192x1024 S4096x1024 S192x4096 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S192x512.size a ≤ S3840x512.size a
  hwx0_0 : ∀ i : grid0.Coords, EltTy.bits .f32 = 32 ∨ (Rect.block (s := S3840x512) S192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S192x512.size a ≤ S3840x512.size a
  hwx0_1 : ∀ i : grid0.Coords, EltTy.bits .f32 = 32 ∨ (Rect.block (s := S3840x512) S192x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S192x4096.size a ≤ S3840x4096.size a
  hwx0_4 : ∀ i : grid0.Coords, EltTy.bits .bf16 = 32 ∨ (Rect.block (s := S3840x4096) S192x4096.size (cc0_transform_4 i) (hinb0_4 i)).WholeWords (EltTy.packing .bf16)
  hrank1 : 0 < grid1.rank
  k1_off1_inb : ∀ i : grid1.Coords, ∀ a, (k1_off1 i) a + S1.size a ≤ S15.size a
  k1_off3_inb : ∀ i : grid1.Coords, ∀ a, (k1_off3 i) a + S1x128x1024.size a ≤ S16x128x1024.size a
  k1_off3_packedbf16 : ∀ i : grid1.Coords, (Rect.unit (s := S16x128x1024) (k1_off3 i) S1x128x1024.size (k1_off3_inb i)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x4096.size a ≤ S15x256x4096.size a
  hwx1_0 : ∀ i : grid1.Coords, EltTy.bits .bf16 = 32 ∨ (Rect.block (s := S15x256x4096) S1x128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S15x256x1024.size a
  hwx1_2 : ∀ i : grid1.Coords, EltTy.bits .bf16 = 32 ∨ (Rect.block (s := S15x256x1024) S1x128x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S192x1024.size a ≤ S3840x1024.size a
  hwx2_0 : ∀ i : grid2.Coords, EltTy.bits .bf16 = 32 ∨ (Rect.block (s := S3840x1024) S192x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x4096.size a
  hwx2_2 : ∀ i : grid2.Coords, EltTy.bits .f32 = 32 ∨ (Rect.block (s := S1x4096) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S192x4096.size a ≤ S3840x4096.size a
  hwx2_3 : ∀ i : grid2.Coords, EltTy.bits .bf16 = 32 ∨ (Rect.block (s := S3840x4096) S192x4096.size (cc2_transform_3 i) (hinb2_3 i)).WholeWords (EltTy.packing .bf16)
  hrank3 : 0 < grid3.rank
  k3_off1_inb : ∀ i : grid3.Coords, ∀ a, (k3_off1 i) a + S1.size a ≤ S15.size a
  k3_off3_inb : ∀ i : grid3.Coords, ∀ a, (k3_off3 i) a + S1x128x1024.size a ≤ S16x128x1024.size a
  k3_off3_packedbf16 : ∀ i : grid3.Coords, (Rect.unit (s := S16x128x1024) (k3_off3 i) S1x128x1024.size (k3_off3_inb i)).PackedRows (EltTy.packing .bf16)
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x128x4096.size a ≤ S15x256x4096.size a
  hwx3_0 : ∀ i : grid3.Coords, EltTy.bits .bf16 = 32 ∨ (Rect.block (s := S15x256x4096) S1x128x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x1024.size a ≤ S4096x1024.size a
  hwx3_1 : ∀ i : grid3.Coords, EltTy.bits .bf16 = 32 ∨ (Rect.block (s := S4096x1024) S4096x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128x1024.size a ≤ S15x256x1024.size a
  hwx3_2 : ∀ i : grid3.Coords, EltTy.bits .f32 = 32 ∨ (Rect.block (s := S15x256x1024) S1x128x1024.size (cc3_transform_2 i) (hinb3_2 i)).WholeWords (EltTy.packing .f32)

variable [Facts₀]

def dot_S192x1024_S4096x1024_S192x4096_1_1_0_0_n_n : DotDims S192x1024 S4096x1024 S192x4096 where
  lhsContracting := [1]
  rhsContracting := [1]
  lhsNonContracting := [0]
  rhsNonContracting := [0]
  lhsBatch := []
  rhsBatch := []
  wf := dot_S192x1024_S4096x1024_S192x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v0) S192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S192x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S192x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v15) S1x128x4096.size reads1_0 false false 2 stage1_0 sem1_0 nbuf1_0 hstage1_0

abbrev spec1_1 : Pipeline.WinSpec sig grid1.rank :=
  Pipeline.WinSpec.ofSpec (Memref.whole main_v7) S4096x1024.size reads1_1 false true 1 stage1_1 sem1_1 nbuf1_1 hstage1_1

abbrev spec1_2 : Pipeline.WinSpec sig grid1.rank :=
  Pipeline.WinSpec.ofSpec (Memref.whole main_v16) S1x128x1024.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev win2_0 : Pipeline.Window sig grid2 :=
  Pipeline.Window.ofSpec (Memref.whole main_v17) S192x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S4096x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S192x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev spec3_0 : Pipeline.WinSpec sig grid3.rank :=
  Pipeline.WinSpec.ofSpec (Memref.whole main_v31) S1x128x4096.size reads3_0 false false 2 stage3_0 sem3_0 nbuf3_0 hstage3_0

abbrev spec3_1 : Pipeline.WinSpec sig grid3.rank :=
  Pipeline.WinSpec.ofSpec (Memref.whole main_v23) S4096x1024.size reads3_1 false true 1 stage3_1 sem3_1 nbuf3_1 hstage3_1

abbrev spec3_2 : Pipeline.WinSpec sig grid3.rank :=
  Pipeline.WinSpec.ofSpec (Memref.whole main_v32) S1x128x1024.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 | 1 => cc3_transform_1 | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | 2 => hreads3_2 | ⟨_ + 3, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | 2 => hwx3_2 | ⟨_ + 3, h⟩ => absurd h (Nat.not_lt.2 (Nat.le_add_left _ _))

class Facts : Prop extends Facts₀ where
  harr1 : ∀ w, (spec1 w).arr.IsWhole
  harr3 : ∀ w, (spec3 w).arr.IsWhole

variable [Facts]
-- ==== ReferenceIdeal.lean ====
abbrev S15x256x512 : Shape := ⟨3, ![15, 256, 512]⟩
abbrev S2x4096x1024 : Shape := ⟨3, ![2, 4096, 1024]⟩
abbrev S2x4096 : Shape := ⟨2, ![2, 4096]⟩
abbrev S15x256x1024 : Shape := ⟨3, ![15, 256, 1024]⟩
abbrev S256x15x1024 : Shape := ⟨3, ![256, 15, 1024]⟩
abbrev S_ : Shape := ⟨0, ![]⟩
abbrev S2x256x1024 : Shape := ⟨3, ![2, 256, 1024]⟩
abbrev S256x1x1024 : Shape := ⟨3, ![256, 1, 1024]⟩
abbrev S256x1024 : Shape := ⟨2, ![256, 1024]⟩
abbrev S1x256x1024 : Shape := ⟨3, ![1, 256, 1024]⟩
abbrev S1x4096x1024 : Shape := ⟨3, ![1, 4096, 1024]⟩
abbrev S4096x1024 : Shape := ⟨2, ![4096, 1024]⟩
abbrev S1x4096 : Shape := ⟨2, ![1, 4096]⟩
abbrev S4096 : Shape := ⟨1, ![4096]⟩
abbrev S1024x4096 : Shape := ⟨2, ![1024, 4096]⟩
abbrev S256x4096 : Shape := ⟨2, ![256, 4096]⟩

abbrev nBuf : Space → Nat
  | .hbm => 1797
  | .vmem => 0
  | .smem => 0
  | _ => 0

abbrev hbmTy0_0 (i : Nat) : BufTy := match i % 128 with
  | 0 => ⟨S15x256x512, .f32⟩
  | 1 => ⟨S15x256x512, .f32⟩
  | 2 => ⟨S2x4096x1024, .f32⟩
  | 3 => ⟨S2x4096x1024, .f32⟩
  | 4 => ⟨S2x4096, .f32⟩
  | 5 => ⟨S2x4096, .f32⟩
  | 6 => ⟨S15x256x1024, .f32⟩
  | 7 => ⟨S256x15x1024, .f32⟩
  | 8 => ⟨S_, .f32⟩
  | 9 => ⟨S2x256x1024, .f32⟩
  | 10 => ⟨S256x1x1024, .f32⟩
  | 11 => ⟨S256x1024, .f32⟩
  | 12 => ⟨S1x256x1024, .f32⟩
  | 13 => ⟨S256x1024, .f32⟩
  | 14 => ⟨S1x256x1024, .f32⟩
  | 15 => ⟨S256x1024, .f32⟩
  | 16 => ⟨S1x4096x1024, .f32⟩
  | 17 => ⟨S4096x1024, .f32⟩
  | 18 => ⟨S1x4096x1024, .f32⟩
  | 19 => ⟨S4096x1024, .f32⟩
  | 20 => ⟨S1x4096, .f32⟩
  | 21 => ⟨S4096, .f32⟩
  | 22 => ⟨S1x4096, .f32⟩
  | 23 => ⟨S4096, .f32⟩
  | 24 => ⟨S1024x4096, .f32⟩
  | 25 => ⟨S256x4096, .f32⟩
  | 26 => ⟨S1024x4096, .f32⟩
  | 27 => ⟨S256x4096, .f32⟩
  | 28 => ⟨S256x4096, .f32⟩
  | 29 => ⟨S4096, .f32⟩
  | 30 => ⟨S1x4096, .f32⟩
  | 31 => ⟨S256x4096, .f32⟩
  | 32 => ⟨S256x4096, .f32⟩
  | 33 => ⟨S256x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S256x1024, .f32⟩
  | 47 => ⟨S256x1024, .f32⟩
  | 48 => ⟨S_, .f32⟩
  | 49 => ⟨S256x1024, .f32⟩
  | 50 => ⟨S256x1024, .f32⟩
  | 51 => ⟨S_, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S256x1024, .f32⟩
  | 58 => ⟨S256x1024, .f32⟩
  | 59 => ⟨S_, .f32⟩
  | 60 => ⟨S256x1024, .f32⟩
  | 61 => ⟨S256x1024, .f32⟩
  | 62 => ⟨S_, .f32⟩
  | 63 => ⟨S256x1024, .f32⟩
  | 64 => ⟨S256x1024, .f32⟩
  | 65 => ⟨S256x1024, .f32⟩
  | 66 => ⟨S256x1024, .f32⟩
  | 67 => ⟨S1x256x1024, .f32⟩
  | 68 => ⟨S256x1024, .f32⟩
  | 69 => ⟨S1x256x1024, .f32⟩
  | 70 => ⟨S256x1024, .f32⟩
  | 71 => ⟨S1x4096x1024, .f32⟩
  | 72 => ⟨S4096x1024, .f32⟩
  | 73 => ⟨S1x4096x1024, .f32⟩
  | 74 => ⟨S4096x1024, .f32⟩
  | 75 => ⟨S1x4096, .f32⟩
  | 76 => ⟨S4096, .f32⟩
  | 77 => ⟨S1x4096, .f32⟩
  | 78 => ⟨S4096, .f32⟩
  | 79 => ⟨S1024x4096, .f32⟩
  | 80 => ⟨S256x4096, .f32⟩
  | 81 => ⟨S1024x4096, .f32⟩
  | 82 => ⟨S256x4096, .f32⟩
  | 83 => ⟨S256x4096, .f32⟩
  | 84 => ⟨S4096, .f32⟩
  | 85 => ⟨S1x4096, .f32⟩
  | 86 => ⟨S256x4096, .f32⟩
  | 87 => ⟨S256x4096, .f32⟩
  | 88 => ⟨S256x1024, .f32⟩
  | 89 => ⟨S256x1024, .f32⟩
  | 90 => ⟨S256x1024, .f32⟩
  | 91 => ⟨S256x1024, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S256x1024, .f32⟩
  | 110 => ⟨S256x1024, .f32⟩
  | 111 => ⟨S256x1024, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S256x1024, .f32⟩
  | 121 => ⟨S256x1024, .f32⟩
  | 122 => ⟨S1x256x1024, .f32⟩
  | 123 => ⟨S1x256x1024, .f32⟩
  | 124 => ⟨S2x256x1024, .f32⟩
  | 125 => ⟨S1x256x1024, .f32⟩
  | 126 => ⟨S1x256x1024, .f32⟩
  | 127 => ⟨S2x256x1024, .f32⟩
  | _ => ⟨S15x256x512, .f32⟩

abbrev hbmTy0_1 (i : Nat) : BufTy := match i % 128 with
  | 0 => ⟨S256x1x1024, .f32⟩
  | 1 => ⟨S256x1024, .f32⟩
  | 2 => ⟨S1x256x1024, .f32⟩
  | 3 => ⟨S256x1024, .f32⟩
  | 4 => ⟨S1x256x1024, .f32⟩
  | 5 => ⟨S256x1024, .f32⟩
  | 6 => ⟨S1x4096x1024, .f32⟩
  | 7 => ⟨S4096x1024, .f32⟩
  | 8 => ⟨S1x4096x1024, .f32⟩
  | 9 => ⟨S4096x1024, .f32⟩
  | 10 => ⟨S1x4096, .f32⟩
  | 11 => ⟨S4096, .f32⟩
  | 12 => ⟨S1x4096, .f32⟩
  | 13 => ⟨S4096, .f32⟩
  | 14 => ⟨S1024x4096, .f32⟩
  | 15 => ⟨S256x4096, .f32⟩
  | 16 => ⟨S1024x4096, .f32⟩
  | 17 => ⟨S256x4096, .f32⟩
  | 18 => ⟨S256x4096, .f32⟩
  | 19 => ⟨S4096, .f32⟩
  | 20 => ⟨S1x4096, .f32⟩
  | 21 => ⟨S256x4096, .f32⟩
  | 22 => ⟨S256x4096, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S_, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S_, .f32⟩
  | 53 => ⟨S256x1024, .f32⟩
  | 54 => ⟨S256x1024, .f32⟩
  | 55 => ⟨S256x1024, .f32⟩
  | 56 => ⟨S256x1024, .f32⟩
  | 57 => ⟨S1x256x1024, .f32⟩
  | 58 => ⟨S256x1024, .f32⟩
  | 59 => ⟨S1x256x1024, .f32⟩
  | 60 => ⟨S256x1024, .f32⟩
  | 61 => ⟨S1x4096x1024, .f32⟩
  | 62 => ⟨S4096x1024, .f32⟩
  | 63 => ⟨S1x4096x1024, .f32⟩
  | 64 => ⟨S4096x1024, .f32⟩
  | 65 => ⟨S1x4096, .f32⟩
  | 66 => ⟨S4096, .f32⟩
  | 67 => ⟨S1x4096, .f32⟩
  | 68 => ⟨S4096, .f32⟩
  | 69 => ⟨S1024x4096, .f32⟩
  | 70 => ⟨S256x4096, .f32⟩
  | 71 => ⟨S1024x4096, .f32⟩
  | 72 => ⟨S256x4096, .f32⟩
  | 73 => ⟨S256x4096, .f32⟩
  | 74 => ⟨S4096, .f32⟩
  | 75 => ⟨S1x4096, .f32⟩
  | 76 => ⟨S256x4096, .f32⟩
  | 77 => ⟨S256x4096, .f32⟩
  | 78 => ⟨S256x1024, .f32⟩
  | 79 => ⟨S256x1024, .f32⟩
  | 80 => ⟨S256x1024, .f32⟩
  | 81 => ⟨S256x1024, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S256x1024, .f32⟩
  | 91 => ⟨S256x1024, .f32⟩
  | 92 => ⟨S256x1024, .f32⟩
  | 93 => ⟨S_, .f32⟩
  | 94 => ⟨S256x1024, .f32⟩
  | 95 => ⟨S256x1024, .f32⟩
  | 96 => ⟨S_, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S256x1024, .f32⟩
  | 111 => ⟨S256x1024, .f32⟩
  | 112 => ⟨S1x256x1024, .f32⟩
  | 113 => ⟨S1x256x1024, .f32⟩
  | 114 => ⟨S2x256x1024, .f32⟩
  | 115 => ⟨S1x256x1024, .f32⟩
  | 116 => ⟨S1x256x1024, .f32⟩
  | 117 => ⟨S2x256x1024, .f32⟩
  | 118 => ⟨S256x1x1024, .f32⟩
  | 119 => ⟨S256x1024, .f32⟩
  | 120 => ⟨S1x256x1024, .f32⟩
  | 121 => ⟨S256x1024, .f32⟩
  | 122 => ⟨S1x256x1024, .f32⟩
  | 123 => ⟨S256x1024, .f32⟩
  | 124 => ⟨S1x4096x1024, .f32⟩
  | 125 => ⟨S4096x1024, .f32⟩
  | 126 => ⟨S1x4096x1024, .f32⟩
  | 127 => ⟨S4096x1024, .f32⟩
  | _ => ⟨S15x256x512, .f32⟩

abbrev hbmTy0_2 (i : Nat) : BufTy := match i % 128 with
  | 0 => ⟨S1x4096, .f32⟩
  | 1 => ⟨S4096, .f32⟩
  | 2 => ⟨S1x4096, .f32⟩
  | 3 => ⟨S4096, .f32⟩
  | 4 => ⟨S1024x4096, .f32⟩
  | 5 => ⟨S256x4096, .f32⟩
  | 6 => ⟨S1024x4096, .f32⟩
  | 7 => ⟨S256x4096, .f32⟩
  | 8 => ⟨S256x4096, .f32⟩
  | 9 => ⟨S4096, .f32⟩
  | 10 => ⟨S1x4096, .f32⟩
  | 11 => ⟨S256x4096, .f32⟩
  | 12 => ⟨S256x4096, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S_, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S_, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S256x1024, .f32⟩
  | 35 => ⟨S256x1024, .f32⟩
  | 36 => ⟨S256x1024, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S256x1024, .f32⟩
  | 47 => ⟨S1x256x1024, .f32⟩
  | 48 => ⟨S256x1024, .f32⟩
  | 49 => ⟨S1x256x1024, .f32⟩
  | 50 => ⟨S256x1024, .f32⟩
  | 51 => ⟨S1x4096x1024, .f32⟩
  | 52 => ⟨S4096x1024, .f32⟩
  | 53 => ⟨S1x4096x1024, .f32⟩
  | 54 => ⟨S4096x1024, .f32⟩
  | 55 => ⟨S1x4096, .f32⟩
  | 56 => ⟨S4096, .f32⟩
  | 57 => ⟨S1x4096, .f32⟩
  | 58 => ⟨S4096, .f32⟩
  | 59 => ⟨S1024x4096, .f32⟩
  | 60 => ⟨S256x4096, .f32⟩
  | 61 => ⟨S1024x4096, .f32⟩
  | 62 => ⟨S256x4096, .f32⟩
  | 63 => ⟨S256x4096, .f32⟩
  | 64 => ⟨S4096, .f32⟩
  | 65 => ⟨S1x4096, .f32⟩
  | 66 => ⟨S256x4096, .f32⟩
  | 67 => ⟨S256x4096, .f32⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S256x1024, .f32⟩
  | 74 => ⟨S_, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S256x1024, .f32⟩
  | 90 => ⟨S256x1024, .f32⟩
  | 91 => ⟨S256x1024, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S256x1024, .f32⟩
  | 102 => ⟨S1x256x1024, .f32⟩
  | 103 => ⟨S1x256x1024, .f32⟩
  | 104 => ⟨S2x256x1024, .f32⟩
  | 105 => ⟨S1x256x1024, .f32⟩
  | 106 => ⟨S1x256x1024, .f32⟩
  | 107 => ⟨S2x256x1024, .f32⟩
  | 108 => ⟨S256x1x1024, .f32⟩
  | 109 => ⟨S256x1024, .f32⟩
  | 110 => ⟨S1x256x1024, .f32⟩
  | 111 => ⟨S256x1024, .f32⟩
  | 112 => ⟨S1x256x1024, .f32⟩
  | 113 => ⟨S256x1024, .f32⟩
  | 114 => ⟨S1x4096x1024, .f32⟩
  | 115 => ⟨S4096x1024, .f32⟩
  | 116 => ⟨S1x4096x1024, .f32⟩
  | 117 => ⟨S4096x1024, .f32⟩
  | 118 => ⟨S1x4096, .f32⟩
  | 119 => ⟨S4096, .f32⟩
  | 120 => ⟨S1x4096, .f32⟩
  | 121 => ⟨S4096, .f32⟩
  | 122 => ⟨S1024x4096, .f32⟩
  | 123 => ⟨S256x4096, .f32⟩
  | 124 => ⟨S1024x4096, .f32⟩
  | 125 => ⟨S256x4096, .f32⟩
  | 126 => ⟨S256x4096, .f32⟩
  | 127 => ⟨S4096, .f32⟩
  | _ => ⟨S15x256x512, .f32⟩

abbrev hbmTy0_3 (i : Nat) : BufTy := match i % 128 with
  | 0 => ⟨S1x4096, .f32⟩
  | 1 => ⟨S256x4096, .f32⟩
  | 2 => ⟨S256x4096, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S_, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S_, .f32⟩
  | 19 => ⟨S256x1024, .f32⟩
  | 20 => ⟨S256x1024, .f32⟩
  | 21 => ⟨S_, .f32⟩
  | 22 => ⟨S256x1024, .f32⟩
  | 23 => ⟨S256x1024, .f32⟩
  | 24 => ⟨S256x1024, .f32⟩
  | 25 => ⟨S256x1024, .f32⟩
  | 26 => ⟨S256x1024, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S256x1024, .f32⟩
  | 37 => ⟨S1x256x1024, .f32⟩
  | 38 => ⟨S256x1024, .f32⟩
  | 39 => ⟨S1x256x1024, .f32⟩
  | 40 => ⟨S256x1024, .f32⟩
  | 41 => ⟨S1x4096x1024, .f32⟩
  | 42 => ⟨S4096x1024, .f32⟩
  | 43 => ⟨S1x4096x1024, .f32⟩
  | 44 => ⟨S4096x1024, .f32⟩
  | 45 => ⟨S1x4096, .f32⟩
  | 46 => ⟨S4096, .f32⟩
  | 47 => ⟨S1x4096, .f32⟩
  | 48 => ⟨S4096, .f32⟩
  | 49 => ⟨S1024x4096, .f32⟩
  | 50 => ⟨S256x4096, .f32⟩
  | 51 => ⟨S1024x4096, .f32⟩
  | 52 => ⟨S256x4096, .f32⟩
  | 53 => ⟨S256x4096, .f32⟩
  | 54 => ⟨S4096, .f32⟩
  | 55 => ⟨S1x4096, .f32⟩
  | 56 => ⟨S256x4096, .f32⟩
  | 57 => ⟨S256x4096, .f32⟩
  | 58 => ⟨S256x1024, .f32⟩
  | 59 => ⟨S256x1024, .f32⟩
  | 60 => ⟨S256x1024, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S_, .f32⟩
  | 74 => ⟨S256x1024, .f32⟩
  | 75 => ⟨S256x1024, .f32⟩
  | 76 => ⟨S_, .f32⟩
  | 77 => ⟨S256x1024, .f32⟩
  | 78 => ⟨S256x1024, .f32⟩
  | 79 => ⟨S256x1024, .f32⟩
  | 80 => ⟨S256x1024, .f32⟩
  | 81 => ⟨S256x1024, .f32⟩
  | 82 => ⟨S256x1024, .f32⟩
  | 83 => ⟨S256x1024, .f32⟩
  | 84 => ⟨S_, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S256x1024, .f32⟩
  | 91 => ⟨S256x1024, .f32⟩
  | 92 => ⟨S1x256x1024, .f32⟩
  | 93 => ⟨S1x256x1024, .f32⟩
  | 94 => ⟨S2x256x1024, .f32⟩
  | 95 => ⟨S1x256x1024, .f32⟩
  | 96 => ⟨S1x256x1024, .f32⟩
  | 97 => ⟨S2x256x1024, .f32⟩
  | 98 => ⟨S256x1x1024, .f32⟩
  | 99 => ⟨S256x1024, .f32⟩
  | 100 => ⟨S1x256x1024, .f32⟩
  | 101 => ⟨S256x1024, .f32⟩
  | 102 => ⟨S1x256x1024, .f32⟩
  | 103 => ⟨S256x1024, .f32⟩
  | 104 => ⟨S1x4096x1024, .f32⟩
  | 105 => ⟨S4096x1024, .f32⟩
  | 106 => ⟨S1x4096x1024, .f32⟩
  | 107 => ⟨S4096x1024, .f32⟩
  | 108 => ⟨S1x4096, .f32⟩
  | 109 => ⟨S4096, .f32⟩
  | 110 => ⟨S1x4096, .f32⟩
  | 111 => ⟨S4096, .f32⟩
  | 112 => ⟨S1024x4096, .f32⟩
  | 113 => ⟨S256x4096, .f32⟩
  | 114 => ⟨S1024x4096, .f32⟩
  | 115 => ⟨S256x4096, .f32⟩
  | 116 => ⟨S256x4096, .f32⟩
  | 117 => ⟨S4096, .f32⟩
  | 118 => ⟨S1x4096, .f32⟩
  | 119 => ⟨S256x4096, .f32⟩
  | 120 => ⟨S256x4096, .f32⟩
  | 121 => ⟨S256x1024, .f32⟩
  | 122 => ⟨S256x1024, .f32⟩
  | 123 => ⟨S256x1024, .f32⟩
  | 124 => ⟨S256x1024, .f32⟩
  | 125 => ⟨S256x1024, .f32⟩
  | 126 => ⟨S256x1024, .f32⟩
  | 127 => ⟨S_, .f32⟩
  | _ => ⟨S15x256x512, .f32⟩

abbrev hbmTy0_4 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S_, .f32⟩
  | 9 => ⟨S256x1024, .f32⟩
  | 10 => ⟨S256x1024, .f32⟩
  | 11 => ⟨S_, .f32⟩
  | 12 => ⟨S256x1024, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S_, .f32⟩
  | 23 => ⟨S256x1024, .f32⟩
  | 24 => ⟨S256x1024, .f32⟩
  | 25 => ⟨S256x1024, .f32⟩
  | 26 => ⟨S256x1024, .f32⟩
  | 27 => ⟨S1x256x1024, .f32⟩
  | 28 => ⟨S256x1024, .f32⟩
  | 29 => ⟨S1x256x1024, .f32⟩
  | 30 => ⟨S256x1024, .f32⟩
  | 31 => ⟨S1x4096x1024, .f32⟩
  | 32 => ⟨S4096x1024, .f32⟩
  | 33 => ⟨S1x4096x1024, .f32⟩
  | 34 => ⟨S4096x1024, .f32⟩
  | 35 => ⟨S1x4096, .f32⟩
  | 36 => ⟨S4096, .f32⟩
  | 37 => ⟨S1x4096, .f32⟩
  | 38 => ⟨S4096, .f32⟩
  | 39 => ⟨S1024x4096, .f32⟩
  | 40 => ⟨S256x4096, .f32⟩
  | 41 => ⟨S1024x4096, .f32⟩
  | 42 => ⟨S256x4096, .f32⟩
  | 43 => ⟨S256x4096, .f32⟩
  | 44 => ⟨S4096, .f32⟩
  | 45 => ⟨S1x4096, .f32⟩
  | 46 => ⟨S256x4096, .f32⟩
  | 47 => ⟨S256x4096, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S256x1024, .f32⟩
  | 61 => ⟨S256x1024, .f32⟩
  | 62 => ⟨S256x1024, .f32⟩
  | 63 => ⟨S_, .f32⟩
  | 64 => ⟨S256x1024, .f32⟩
  | 65 => ⟨S256x1024, .f32⟩
  | 66 => ⟨S_, .f32⟩
  | 67 => ⟨S256x1024, .f32⟩
  | 68 => ⟨S256x1024, .f32⟩
  | 69 => ⟨S256x1024, .f32⟩
  | 70 => ⟨S256x1024, .f32⟩
  | 71 => ⟨S256x1024, .f32⟩
  | 72 => ⟨S256x1024, .f32⟩
  | 73 => ⟨S256x1024, .f32⟩
  | 74 => ⟨S_, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S256x1024, .f32⟩
  | 81 => ⟨S256x1024, .f32⟩
  | 82 => ⟨S1x256x1024, .f32⟩
  | 83 => ⟨S1x256x1024, .f32⟩
  | 84 => ⟨S2x256x1024, .f32⟩
  | 85 => ⟨S1x256x1024, .f32⟩
  | 86 => ⟨S1x256x1024, .f32⟩
  | 87 => ⟨S2x256x1024, .f32⟩
  | 88 => ⟨S256x1x1024, .f32⟩
  | 89 => ⟨S256x1024, .f32⟩
  | 90 => ⟨S1x256x1024, .f32⟩
  | 91 => ⟨S256x1024, .f32⟩
  | 92 => ⟨S1x256x1024, .f32⟩
  | 93 => ⟨S256x1024, .f32⟩
  | 94 => ⟨S1x4096x1024, .f32⟩
  | 95 => ⟨S4096x1024, .f32⟩
  | 96 => ⟨S1x4096x1024, .f32⟩
  | 97 => ⟨S4096x1024, .f32⟩
  | 98 => ⟨S1x4096, .f32⟩
  | 99 => ⟨S4096, .f32⟩
  | 100 => ⟨S1x4096, .f32⟩
  | 101 => ⟨S4096, .f32⟩
  | 102 => ⟨S1024x4096, .f32⟩
  | 103 => ⟨S256x4096, .f32⟩
  | 104 => ⟨S1024x4096, .f32⟩
  | 105 => ⟨S256x4096, .f32⟩
  | 106 => ⟨S256x4096, .f32⟩
  | 107 => ⟨S4096, .f32⟩
  | 108 => ⟨S1x4096, .f32⟩
  | 109 => ⟨S256x4096, .f32⟩
  | 110 => ⟨S256x4096, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S256x1024, .f32⟩
  | 125 => ⟨S256x1024, .f32⟩
  | 126 => ⟨S_, .f32⟩
  | 127 => ⟨S256x1024, .f32⟩
  | _ => ⟨S15x256x512, .f32⟩

abbrev hbmTy0_5 (i : Nat) : BufTy := match i % 128 with
  | 0 => ⟨S256x1024, .f32⟩
  | 1 => ⟨S_, .f32⟩
  | 2 => ⟨S256x1024, .f32⟩
  | 3 => ⟨S256x1024, .f32⟩
  | 4 => ⟨S256x1024, .f32⟩
  | 5 => ⟨S256x1024, .f32⟩
  | 6 => ⟨S256x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S_, .f32⟩
  | 13 => ⟨S256x1024, .f32⟩
  | 14 => ⟨S256x1024, .f32⟩
  | 15 => ⟨S256x1024, .f32⟩
  | 16 => ⟨S256x1024, .f32⟩
  | 17 => ⟨S1x256x1024, .f32⟩
  | 18 => ⟨S256x1024, .f32⟩
  | 19 => ⟨S1x256x1024, .f32⟩
  | 20 => ⟨S256x1024, .f32⟩
  | 21 => ⟨S1x4096x1024, .f32⟩
  | 22 => ⟨S4096x1024, .f32⟩
  | 23 => ⟨S1x4096x1024, .f32⟩
  | 24 => ⟨S4096x1024, .f32⟩
  | 25 => ⟨S1x4096, .f32⟩
  | 26 => ⟨S4096, .f32⟩
  | 27 => ⟨S1x4096, .f32⟩
  | 28 => ⟨S4096, .f32⟩
  | 29 => ⟨S1024x4096, .f32⟩
  | 30 => ⟨S256x4096, .f32⟩
  | 31 => ⟨S1024x4096, .f32⟩
  | 32 => ⟨S256x4096, .f32⟩
  | 33 => ⟨S256x4096, .f32⟩
  | 34 => ⟨S4096, .f32⟩
  | 35 => ⟨S1x4096, .f32⟩
  | 36 => ⟨S256x4096, .f32⟩
  | 37 => ⟨S256x4096, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S_, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S_, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S256x1024, .f32⟩
  | 60 => ⟨S256x1024, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S256x1024, .f32⟩
  | 71 => ⟨S256x1024, .f32⟩
  | 72 => ⟨S1x256x1024, .f32⟩
  | 73 => ⟨S1x256x1024, .f32⟩
  | 74 => ⟨S2x256x1024, .f32⟩
  | 75 => ⟨S1x256x1024, .f32⟩
  | 76 => ⟨S1x256x1024, .f32⟩
  | 77 => ⟨S2x256x1024, .f32⟩
  | 78 => ⟨S256x1x1024, .f32⟩
  | 79 => ⟨S256x1024, .f32⟩
  | 80 => ⟨S1x256x1024, .f32⟩
  | 81 => ⟨S256x1024, .f32⟩
  | 82 => ⟨S1x256x1024, .f32⟩
  | 83 => ⟨S256x1024, .f32⟩
  | 84 => ⟨S1x4096x1024, .f32⟩
  | 85 => ⟨S4096x1024, .f32⟩
  | 86 => ⟨S1x4096x1024, .f32⟩
  | 87 => ⟨S4096x1024, .f32⟩
  | 88 => ⟨S1x4096, .f32⟩
  | 89 => ⟨S4096, .f32⟩
  | 90 => ⟨S1x4096, .f32⟩
  | 91 => ⟨S4096, .f32⟩
  | 92 => ⟨S1024x4096, .f32⟩
  | 93 => ⟨S256x4096, .f32⟩
  | 94 => ⟨S1024x4096, .f32⟩
  | 95 => ⟨S256x4096, .f32⟩
  | 96 => ⟨S256x4096, .f32⟩
  | 97 => ⟨S4096, .f32⟩
  | 98 => ⟨S1x4096, .f32⟩
  | 99 => ⟨S256x4096, .f32⟩
  | 100 => ⟨S256x4096, .f32⟩
  | 101 => ⟨S256x1024, .f32⟩
  | 102 => ⟨S256x1024, .f32⟩
  | 103 => ⟨S256x1024, .f32⟩
  | 104 => ⟨S256x1024, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S_, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S_, .f32⟩
  | 120 => ⟨S256x1024, .f32⟩
  | 121 => ⟨S256x1024, .f32⟩
  | 122 => ⟨S256x1024, .f32⟩
  | 123 => ⟨S256x1024, .f32⟩
  | 124 => ⟨S256x1024, .f32⟩
  | 125 => ⟨S256x1024, .f32⟩
  | 126 => ⟨S256x1024, .f32⟩
  | 127 => ⟨S_, .f32⟩
  | _ => ⟨S15x256x512, .f32⟩

abbrev hbmTy0_6 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S256x1024, .f32⟩
  | 6 => ⟨S256x1024, .f32⟩
  | 7 => ⟨S1x256x1024, .f32⟩
  | 8 => ⟨S256x1024, .f32⟩
  | 9 => ⟨S1x256x1024, .f32⟩
  | 10 => ⟨S256x1024, .f32⟩
  | 11 => ⟨S1x4096x1024, .f32⟩
  | 12 => ⟨S4096x1024, .f32⟩
  | 13 => ⟨S1x4096x1024, .f32⟩
  | 14 => ⟨S4096x1024, .f32⟩
  | 15 => ⟨S1x4096, .f32⟩
  | 16 => ⟨S4096, .f32⟩
  | 17 => ⟨S1x4096, .f32⟩
  | 18 => ⟨S4096, .f32⟩
  | 19 => ⟨S1024x4096, .f32⟩
  | 20 => ⟨S256x4096, .f32⟩
  | 21 => ⟨S1024x4096, .f32⟩
  | 22 => ⟨S256x4096, .f32⟩
  | 23 => ⟨S256x4096, .f32⟩
  | 24 => ⟨S4096, .f32⟩
  | 25 => ⟨S1x4096, .f32⟩
  | 26 => ⟨S256x4096, .f32⟩
  | 27 => ⟨S256x4096, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S_, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S256x1024, .f32⟩
  | 50 => ⟨S256x1024, .f32⟩
  | 51 => ⟨S256x1024, .f32⟩
  | 52 => ⟨S256x1024, .f32⟩
  | 53 => ⟨S256x1024, .f32⟩
  | 54 => ⟨S_, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S256x1024, .f32⟩
  | 61 => ⟨S256x1024, .f32⟩
  | 62 => ⟨S1x256x1024, .f32⟩
  | 63 => ⟨S1x256x1024, .f32⟩
  | 64 => ⟨S2x256x1024, .f32⟩
  | 65 => ⟨S1x256x1024, .f32⟩
  | 66 => ⟨S1x256x1024, .f32⟩
  | 67 => ⟨S2x256x1024, .f32⟩
  | 68 => ⟨S256x1x1024, .f32⟩
  | 69 => ⟨S256x1024, .f32⟩
  | 70 => ⟨S1x256x1024, .f32⟩
  | 71 => ⟨S256x1024, .f32⟩
  | 72 => ⟨S1x256x1024, .f32⟩
  | 73 => ⟨S256x1024, .f32⟩
  | 74 => ⟨S1x4096x1024, .f32⟩
  | 75 => ⟨S4096x1024, .f32⟩
  | 76 => ⟨S1x4096x1024, .f32⟩
  | 77 => ⟨S4096x1024, .f32⟩
  | 78 => ⟨S1x4096, .f32⟩
  | 79 => ⟨S4096, .f32⟩
  | 80 => ⟨S1x4096, .f32⟩
  | 81 => ⟨S4096, .f32⟩
  | 82 => ⟨S1024x4096, .f32⟩
  | 83 => ⟨S256x4096, .f32⟩
  | 84 => ⟨S1024x4096, .f32⟩
  | 85 => ⟨S256x4096, .f32⟩
  | 86 => ⟨S256x4096, .f32⟩
  | 87 => ⟨S4096, .f32⟩
  | 88 => ⟨S1x4096, .f32⟩
  | 89 => ⟨S256x4096, .f32⟩
  | 90 => ⟨S256x4096, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S_, .f32⟩
  | 110 => ⟨S256x1024, .f32⟩
  | 111 => ⟨S256x1024, .f32⟩
  | 112 => ⟨S256x1024, .f32⟩
  | 113 => ⟨S256x1024, .f32⟩
  | 114 => ⟨S256x1024, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S256x1024, .f32⟩
  | 125 => ⟨S1x256x1024, .f32⟩
  | 126 => ⟨S256x1024, .f32⟩
  | 127 => ⟨S1x256x1024, .f32⟩
  | _ => ⟨S15x256x512, .f32⟩

abbrev hbmTy0_7 (i : Nat) : BufTy := match i % 128 with
  | 0 => ⟨S256x1024, .f32⟩
  | 1 => ⟨S1x4096x1024, .f32⟩
  | 2 => ⟨S4096x1024, .f32⟩
  | 3 => ⟨S1x4096x1024, .f32⟩
  | 4 => ⟨S4096x1024, .f32⟩
  | 5 => ⟨S1x4096, .f32⟩
  | 6 => ⟨S4096, .f32⟩
  | 7 => ⟨S1x4096, .f32⟩
  | 8 => ⟨S4096, .f32⟩
  | 9 => ⟨S1024x4096, .f32⟩
  | 10 => ⟨S256x4096, .f32⟩
  | 11 => ⟨S1024x4096, .f32⟩
  | 12 => ⟨S256x4096, .f32⟩
  | 13 => ⟨S256x4096, .f32⟩
  | 14 => ⟨S4096, .f32⟩
  | 15 => ⟨S1x4096, .f32⟩
  | 16 => ⟨S256x4096, .f32⟩
  | 17 => ⟨S256x4096, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S256x1024, .f32⟩
  | 24 => ⟨S_, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S_, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S256x1024, .f32⟩
  | 40 => ⟨S256x1024, .f32⟩
  | 41 => ⟨S256x1024, .f32⟩
  | 42 => ⟨S256x1024, .f32⟩
  | 43 => ⟨S256x1024, .f32⟩
  | 44 => ⟨S_, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S256x1024, .f32⟩
  | 51 => ⟨S256x1024, .f32⟩
  | 52 => ⟨S1x256x1024, .f32⟩
  | 53 => ⟨S1x256x1024, .f32⟩
  | 54 => ⟨S2x256x1024, .f32⟩
  | 55 => ⟨S1x256x1024, .f32⟩
  | 56 => ⟨S1x256x1024, .f32⟩
  | 57 => ⟨S2x256x1024, .f32⟩
  | 58 => ⟨S256x1x1024, .f32⟩
  | 59 => ⟨S256x1024, .f32⟩
  | 60 => ⟨S1x256x1024, .f32⟩
  | 61 => ⟨S256x1024, .f32⟩
  | 62 => ⟨S1x256x1024, .f32⟩
  | 63 => ⟨S256x1024, .f32⟩
  | 64 => ⟨S1x4096x1024, .f32⟩
  | 65 => ⟨S4096x1024, .f32⟩
  | 66 => ⟨S1x4096x1024, .f32⟩
  | 67 => ⟨S4096x1024, .f32⟩
  | 68 => ⟨S1x4096, .f32⟩
  | 69 => ⟨S4096, .f32⟩
  | 70 => ⟨S1x4096, .f32⟩
  | 71 => ⟨S4096, .f32⟩
  | 72 => ⟨S1024x4096, .f32⟩
  | 73 => ⟨S256x4096, .f32⟩
  | 74 => ⟨S1024x4096, .f32⟩
  | 75 => ⟨S256x4096, .f32⟩
  | 76 => ⟨S256x4096, .f32⟩
  | 77 => ⟨S4096, .f32⟩
  | 78 => ⟨S1x4096, .f32⟩
  | 79 => ⟨S256x4096, .f32⟩
  | 80 => ⟨S256x4096, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S_, .f32⟩
  | 97 => ⟨S256x1024, .f32⟩
  | 98 => ⟨S256x1024, .f32⟩
  | 99 => ⟨S_, .f32⟩
  | 100 => ⟨S256x1024, .f32⟩
  | 101 => ⟨S256x1024, .f32⟩
  | 102 => ⟨S256x1024, .f32⟩
  | 103 => ⟨S256x1024, .f32⟩
  | 104 => ⟨S256x1024, .f32⟩
  | 105 => ⟨S256x1024, .f32⟩
  | 106 => ⟨S256x1024, .f32⟩
  | 107 => ⟨S_, .f32⟩
  | 108 => ⟨S256x1024, .f32⟩
  | 109 => ⟨S256x1024, .f32⟩
  | 110 => ⟨S_, .f32⟩
  | 111 => ⟨S256x1024, .f32⟩
  | 112 => ⟨S256x1024, .f32⟩
  | 113 => ⟨S256x1024, .f32⟩
  | 114 => ⟨S256x1024, .f32⟩
  | 115 => ⟨S1x256x1024, .f32⟩
  | 116 => ⟨S256x1024, .f32⟩
  | 117 => ⟨S1x256x1024, .f32⟩
  | 118 => ⟨S256x1024, .f32⟩
  | 119 => ⟨S1x4096x1024, .f32⟩
  | 120 => ⟨S4096x1024, .f32⟩
  | 121 => ⟨S1x4096x1024, .f32⟩
  | 122 => ⟨S4096x1024, .f32⟩
  | 123 => ⟨S1x4096, .f32⟩
  | 124 => ⟨S4096, .f32⟩
  | 125 => ⟨S1x4096, .f32⟩
  | 126 => ⟨S4096, .f32⟩
  | 127 => ⟨S1024x4096, .f32⟩
  | _ => ⟨S15x256x512, .f32⟩

abbrev hbmTy0_8 (i : Nat) : BufTy := match i % 128 with
  | 0 => ⟨S256x4096, .f32⟩
  | 1 => ⟨S1024x4096, .f32⟩
  | 2 => ⟨S256x4096, .f32⟩
  | 3 => ⟨S256x4096, .f32⟩
  | 4 => ⟨S4096, .f32⟩
  | 5 => ⟨S1x4096, .f32⟩
  | 6 => ⟨S256x4096, .f32⟩
  | 7 => ⟨S256x4096, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S_, .f32⟩
  | 15 => ⟨S256x1024, .f32⟩
  | 16 => ⟨S256x1024, .f32⟩
  | 17 => ⟨S_, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S_, .f32⟩
  | 27 => ⟨S256x1024, .f32⟩
  | 28 => ⟨S256x1024, .f32⟩
  | 29 => ⟨S256x1024, .f32⟩
  | 30 => ⟨S256x1024, .f32⟩
  | 31 => ⟨S256x1024, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S256x1024, .f32⟩
  | 41 => ⟨S256x1024, .f32⟩
  | 42 => ⟨S1x256x1024, .f32⟩
  | 43 => ⟨S1x256x1024, .f32⟩
  | 44 => ⟨S2x256x1024, .f32⟩
  | 45 => ⟨S1x256x1024, .f32⟩
  | 46 => ⟨S1x256x1024, .f32⟩
  | 47 => ⟨S2x256x1024, .f32⟩
  | 48 => ⟨S256x1x1024, .f32⟩
  | 49 => ⟨S256x1024, .f32⟩
  | 50 => ⟨S1x256x1024, .f32⟩
  | 51 => ⟨S256x1024, .f32⟩
  | 52 => ⟨S1x256x1024, .f32⟩
  | 53 => ⟨S256x1024, .f32⟩
  | 54 => ⟨S1x4096x1024, .f32⟩
  | 55 => ⟨S4096x1024, .f32⟩
  | 56 => ⟨S1x4096x1024, .f32⟩
  | 57 => ⟨S4096x1024, .f32⟩
  | 58 => ⟨S1x4096, .f32⟩
  | 59 => ⟨S4096, .f32⟩
  | 60 => ⟨S1x4096, .f32⟩
  | 61 => ⟨S4096, .f32⟩
  | 62 => ⟨S1024x4096, .f32⟩
  | 63 => ⟨S256x4096, .f32⟩
  | 64 => ⟨S1024x4096, .f32⟩
  | 65 => ⟨S256x4096, .f32⟩
  | 66 => ⟨S256x4096, .f32⟩
  | 67 => ⟨S4096, .f32⟩
  | 68 => ⟨S1x4096, .f32⟩
  | 69 => ⟨S256x4096, .f32⟩
  | 70 => ⟨S256x4096, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S_, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S_, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S256x1024, .f32⟩
  | 93 => ⟨S256x1024, .f32⟩
  | 94 => ⟨S256x1024, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S_, .f32⟩
  | 101 => ⟨S256x1024, .f32⟩
  | 102 => ⟨S256x1024, .f32⟩
  | 103 => ⟨S256x1024, .f32⟩
  | 104 => ⟨S256x1024, .f32⟩
  | 105 => ⟨S1x256x1024, .f32⟩
  | 106 => ⟨S256x1024, .f32⟩
  | 107 => ⟨S1x256x1024, .f32⟩
  | 108 => ⟨S256x1024, .f32⟩
  | 109 => ⟨S1x4096x1024, .f32⟩
  | 110 => ⟨S4096x1024, .f32⟩
  | 111 => ⟨S1x4096x1024, .f32⟩
  | 112 => ⟨S4096x1024, .f32⟩
  | 113 => ⟨S1x4096, .f32⟩
  | 114 => ⟨S4096, .f32⟩
  | 115 => ⟨S1x4096, .f32⟩
  | 116 => ⟨S4096, .f32⟩
  | 117 => ⟨S1024x4096, .f32⟩
  | 118 => ⟨S256x4096, .f32⟩
  | 119 => ⟨S1024x4096, .f32⟩
  | 120 => ⟨S256x4096, .f32⟩
  | 121 => ⟨S256x4096, .f32⟩
  | 122 => ⟨S4096, .f32⟩
  | 123 => ⟨S1x4096, .f32⟩
  | 124 => ⟨S256x4096, .f32⟩
  | 125 => ⟨S256x4096, .f32⟩
  | 126 => ⟨S256x1024, .f32⟩
  | 127 => ⟨S256x1024, .f32⟩
  | _ => ⟨S15x256x512, .f32⟩

abbrev hbmTy0_9 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S_, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S_, .f32⟩
  | 17 => ⟨S256x1024, .f32⟩
  | 18 => ⟨S256x1024, .f32⟩
  | 19 => ⟨S256x1024, .f32⟩
  | 20 => ⟨S256x1024, .f32⟩
  | 21 => ⟨S256x1024, .f32⟩
  | 22 => ⟨S256x1024, .f32⟩
  | 23 => ⟨S256x1024, .f32⟩
  | 24 => ⟨S_, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S256x1024, .f32⟩
  | 32 => ⟨S1x256x1024, .f32⟩
  | 33 => ⟨S1x256x1024, .f32⟩
  | 34 => ⟨S2x256x1024, .f32⟩
  | 35 => ⟨S1x256x1024, .f32⟩
  | 36 => ⟨S1x256x1024, .f32⟩
  | 37 => ⟨S2x256x1024, .f32⟩
  | 38 => ⟨S256x1x1024, .f32⟩
  | 39 => ⟨S256x1024, .f32⟩
  | 40 => ⟨S1x256x1024, .f32⟩
  | 41 => ⟨S256x1024, .f32⟩
  | 42 => ⟨S1x256x1024, .f32⟩
  | 43 => ⟨S256x1024, .f32⟩
  | 44 => ⟨S1x4096x1024, .f32⟩
  | 45 => ⟨S4096x1024, .f32⟩
  | 46 => ⟨S1x4096x1024, .f32⟩
  | 47 => ⟨S4096x1024, .f32⟩
  | 48 => ⟨S1x4096, .f32⟩
  | 49 => ⟨S4096, .f32⟩
  | 50 => ⟨S1x4096, .f32⟩
  | 51 => ⟨S4096, .f32⟩
  | 52 => ⟨S1024x4096, .f32⟩
  | 53 => ⟨S256x4096, .f32⟩
  | 54 => ⟨S1024x4096, .f32⟩
  | 55 => ⟨S256x4096, .f32⟩
  | 56 => ⟨S256x4096, .f32⟩
  | 57 => ⟨S4096, .f32⟩
  | 58 => ⟨S1x4096, .f32⟩
  | 59 => ⟨S256x4096, .f32⟩
  | 60 => ⟨S256x4096, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S_, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S256x1024, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S256x1024, .f32⟩
  | 92 => ⟨S256x1024, .f32⟩
  | 93 => ⟨S256x1024, .f32⟩
  | 94 => ⟨S256x1024, .f32⟩
  | 95 => ⟨S1x256x1024, .f32⟩
  | 96 => ⟨S256x1024, .f32⟩
  | 97 => ⟨S1x256x1024, .f32⟩
  | 98 => ⟨S256x1024, .f32⟩
  | 99 => ⟨S1x4096x1024, .f32⟩
  | 100 => ⟨S4096x1024, .f32⟩
  | 101 => ⟨S1x4096x1024, .f32⟩
  | 102 => ⟨S4096x1024, .f32⟩
  | 103 => ⟨S1x4096, .f32⟩
  | 104 => ⟨S4096, .f32⟩
  | 105 => ⟨S1x4096, .f32⟩
  | 106 => ⟨S4096, .f32⟩
  | 107 => ⟨S1024x4096, .f32⟩
  | 108 => ⟨S256x4096, .f32⟩
  | 109 => ⟨S1024x4096, .f32⟩
  | 110 => ⟨S256x4096, .f32⟩
  | 111 => ⟨S256x4096, .f32⟩
  | 112 => ⟨S4096, .f32⟩
  | 113 => ⟨S1x4096, .f32⟩
  | 114 => ⟨S256x4096, .f32⟩
  | 115 => ⟨S256x4096, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S_, .f32⟩
  | 126 => ⟨S256x1024, .f32⟩
  | 127 => ⟨S256x1024, .f32⟩
  | _ => ⟨S15x256x512, .f32⟩

abbrev hbmTy0_10 (i : Nat) : BufTy := match i % 128 with
  | 0 => ⟨S256x1024, .f32⟩
  | 1 => ⟨S256x1024, .f32⟩
  | 2 => ⟨S256x1024, .f32⟩
  | 3 => ⟨S_, .f32⟩
  | 4 => ⟨S256x1024, .f32⟩
  | 5 => ⟨S256x1024, .f32⟩
  | 6 => ⟨S_, .f32⟩
  | 7 => ⟨S256x1024, .f32⟩
  | 8 => ⟨S256x1024, .f32⟩
  | 9 => ⟨S256x1024, .f32⟩
  | 10 => ⟨S256x1024, .f32⟩
  | 11 => ⟨S256x1024, .f32⟩
  | 12 => ⟨S256x1024, .f32⟩
  | 13 => ⟨S256x1024, .f32⟩
  | 14 => ⟨S_, .f32⟩
  | 15 => ⟨S256x1024, .f32⟩
  | 16 => ⟨S256x1024, .f32⟩
  | 17 => ⟨S_, .f32⟩
  | 18 => ⟨S256x1024, .f32⟩
  | 19 => ⟨S256x1024, .f32⟩
  | 20 => ⟨S256x1024, .f32⟩
  | 21 => ⟨S256x1024, .f32⟩
  | 22 => ⟨S1x256x1024, .f32⟩
  | 23 => ⟨S1x256x1024, .f32⟩
  | 24 => ⟨S2x256x1024, .f32⟩
  | 25 => ⟨S1x256x1024, .f32⟩
  | 26 => ⟨S1x256x1024, .f32⟩
  | 27 => ⟨S2x256x1024, .f32⟩
  | 28 => ⟨S256x1x1024, .f32⟩
  | 29 => ⟨S256x1024, .f32⟩
  | 30 => ⟨S1x256x1024, .f32⟩
  | 31 => ⟨S256x1024, .f32⟩
  | 32 => ⟨S1x256x1024, .f32⟩
  | 33 => ⟨S256x1024, .f32⟩
  | 34 => ⟨S1x4096x1024, .f32⟩
  | 35 => ⟨S4096x1024, .f32⟩
  | 36 => ⟨S1x4096x1024, .f32⟩
  | 37 => ⟨S4096x1024, .f32⟩
  | 38 => ⟨S1x4096, .f32⟩
  | 39 => ⟨S4096, .f32⟩
  | 40 => ⟨S1x4096, .f32⟩
  | 41 => ⟨S4096, .f32⟩
  | 42 => ⟨S1024x4096, .f32⟩
  | 43 => ⟨S256x4096, .f32⟩
  | 44 => ⟨S1024x4096, .f32⟩
  | 45 => ⟨S256x4096, .f32⟩
  | 46 => ⟨S256x4096, .f32⟩
  | 47 => ⟨S4096, .f32⟩
  | 48 => ⟨S1x4096, .f32⟩
  | 49 => ⟨S256x4096, .f32⟩
  | 50 => ⟨S256x4096, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S_, .f32⟩
  | 67 => ⟨S256x1024, .f32⟩
  | 68 => ⟨S256x1024, .f32⟩
  | 69 => ⟨S_, .f32⟩
  | 70 => ⟨S256x1024, .f32⟩
  | 71 => ⟨S256x1024, .f32⟩
  | 72 => ⟨S256x1024, .f32⟩
  | 73 => ⟨S256x1024, .f32⟩
  | 74 => ⟨S256x1024, .f32⟩
  | 75 => ⟨S256x1024, .f32⟩
  | 76 => ⟨S256x1024, .f32⟩
  | 77 => ⟨S_, .f32⟩
  | 78 => ⟨S256x1024, .f32⟩
  | 79 => ⟨S256x1024, .f32⟩
  | 80 => ⟨S_, .f32⟩
  | 81 => ⟨S256x1024, .f32⟩
  | 82 => ⟨S256x1024, .f32⟩
  | 83 => ⟨S256x1024, .f32⟩
  | 84 => ⟨S256x1024, .f32⟩
  | 85 => ⟨S1x256x1024, .f32⟩
  | 86 => ⟨S256x1024, .f32⟩
  | 87 => ⟨S1x256x1024, .f32⟩
  | 88 => ⟨S256x1024, .f32⟩
  | 89 => ⟨S1x4096x1024, .f32⟩
  | 90 => ⟨S4096x1024, .f32⟩
  | 91 => ⟨S1x4096x1024, .f32⟩
  | 92 => ⟨S4096x1024, .f32⟩
  | 93 => ⟨S1x4096, .f32⟩
  | 94 => ⟨S4096, .f32⟩
  | 95 => ⟨S1x4096, .f32⟩
  | 96 => ⟨S4096, .f32⟩
  | 97 => ⟨S1024x4096, .f32⟩
  | 98 => ⟨S256x4096, .f32⟩
  | 99 => ⟨S1024x4096, .f32⟩
  | 100 => ⟨S256x4096, .f32⟩
  | 101 => ⟨S256x4096, .f32⟩
  | 102 => ⟨S4096, .f32⟩
  | 103 => ⟨S1x4096, .f32⟩
  | 104 => ⟨S256x4096, .f32⟩
  | 105 => ⟨S256x4096, .f32⟩
  | 106 => ⟨S256x1024, .f32⟩
  | 107 => ⟨S256x1024, .f32⟩
  | 108 => ⟨S256x1024, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S_, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S_, .f32⟩
  | 125 => ⟨S256x1024, .f32⟩
  | 126 => ⟨S256x1024, .f32⟩
  | 127 => ⟨S256x1024, .f32⟩
  | _ => ⟨S15x256x512, .f32⟩

abbrev hbmTy0_11 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S_, .f32⟩
  | 5 => ⟨S256x1024, .f32⟩
  | 6 => ⟨S256x1024, .f32⟩
  | 7 => ⟨S_, .f32⟩
  | 8 => ⟨S256x1024, .f32⟩
  | 9 => ⟨S256x1024, .f32⟩
  | 10 => ⟨S256x1024, .f32⟩
  | 11 => ⟨S256x1024, .f32⟩
  | 12 => ⟨S1x256x1024, .f32⟩
  | 13 => ⟨S1x256x1024, .f32⟩
  | 14 => ⟨S2x256x1024, .f32⟩
  | 15 => ⟨S1x256x1024, .f32⟩
  | 16 => ⟨S1x256x1024, .f32⟩
  | 17 => ⟨S2x256x1024, .f32⟩
  | 18 => ⟨S256x1x1024, .f32⟩
  | 19 => ⟨S256x1024, .f32⟩
  | 20 => ⟨S1x256x1024, .f32⟩
  | 21 => ⟨S256x1024, .f32⟩
  | 22 => ⟨S1x256x1024, .f32⟩
  | 23 => ⟨S256x1024, .f32⟩
  | 24 => ⟨S1x4096x1024, .f32⟩
  | 25 => ⟨S4096x1024, .f32⟩
  | 26 => ⟨S1x4096x1024, .f32⟩
  | 27 => ⟨S4096x1024, .f32⟩
  | 28 => ⟨S1x4096, .f32⟩
  | 29 => ⟨S4096, .f32⟩
  | 30 => ⟨S1x4096, .f32⟩
  | 31 => ⟨S4096, .f32⟩
  | 32 => ⟨S1024x4096, .f32⟩
  | 33 => ⟨S256x4096, .f32⟩
  | 34 => ⟨S1024x4096, .f32⟩
  | 35 => ⟨S256x4096, .f32⟩
  | 36 => ⟨S256x4096, .f32⟩
  | 37 => ⟨S4096, .f32⟩
  | 38 => ⟨S1x4096, .f32⟩
  | 39 => ⟨S256x4096, .f32⟩
  | 40 => ⟨S256x4096, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S_, .f32⟩
  | 60 => ⟨S256x1024, .f32⟩
  | 61 => ⟨S256x1024, .f32⟩
  | 62 => ⟨S256x1024, .f32⟩
  | 63 => ⟨S256x1024, .f32⟩
  | 64 => ⟨S256x1024, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S_, .f32⟩
  | 71 => ⟨S256x1024, .f32⟩
  | 72 => ⟨S256x1024, .f32⟩
  | 73 => ⟨S256x1024, .f32⟩
  | 74 => ⟨S256x1024, .f32⟩
  | 75 => ⟨S1x256x1024, .f32⟩
  | 76 => ⟨S256x1024, .f32⟩
  | 77 => ⟨S1x256x1024, .f32⟩
  | 78 => ⟨S256x1024, .f32⟩
  | 79 => ⟨S1x4096x1024, .f32⟩
  | 80 => ⟨S4096x1024, .f32⟩
  | 81 => ⟨S1x4096x1024, .f32⟩
  | 82 => ⟨S4096x1024, .f32⟩
  | 83 => ⟨S1x4096, .f32⟩
  | 84 => ⟨S4096, .f32⟩
  | 85 => ⟨S1x4096, .f32⟩
  | 86 => ⟨S4096, .f32⟩
  | 87 => ⟨S1024x4096, .f32⟩
  | 88 => ⟨S256x4096, .f32⟩
  | 89 => ⟨S1024x4096, .f32⟩
  | 90 => ⟨S256x4096, .f32⟩
  | 91 => ⟨S256x4096, .f32⟩
  | 92 => ⟨S4096, .f32⟩
  | 93 => ⟨S1x4096, .f32⟩
  | 94 => ⟨S256x4096, .f32⟩
  | 95 => ⟨S256x4096, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S_, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S256x1024, .f32⟩
  | 109 => ⟨S256x1024, .f32⟩
  | 110 => ⟨S256x1024, .f32⟩
  | 111 => ⟨S_, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S_, .f32⟩
  | 126 => ⟨S256x1024, .f32⟩
  | 127 => ⟨S256x1024, .f32⟩
  | _ => ⟨S15x256x512, .f32⟩

abbrev hbmTy0_12 (i : Nat) : BufTy := match i % 128 with
  | 0 => ⟨S256x1024, .f32⟩
  | 1 => ⟨S256x1024, .f32⟩
  | 2 => ⟨S1x256x1024, .f32⟩
  | 3 => ⟨S1x256x1024, .f32⟩
  | 4 => ⟨S2x256x1024, .f32⟩
  | 5 => ⟨S1x256x1024, .f32⟩
  | 6 => ⟨S1x256x1024, .f32⟩
  | 7 => ⟨S2x256x1024, .f32⟩
  | 8 => ⟨S256x1x1024, .f32⟩
  | 9 => ⟨S256x1024, .f32⟩
  | 10 => ⟨S1x256x1024, .f32⟩
  | 11 => ⟨S256x1024, .f32⟩
  | 12 => ⟨S1x256x1024, .f32⟩
  | 13 => ⟨S256x1024, .f32⟩
  | 14 => ⟨S1x4096x1024, .f32⟩
  | 15 => ⟨S4096x1024, .f32⟩
  | 16 => ⟨S1x4096x1024, .f32⟩
  | 17 => ⟨S4096x1024, .f32⟩
  | 18 => ⟨S1x4096, .f32⟩
  | 19 => ⟨S4096, .f32⟩
  | 20 => ⟨S1x4096, .f32⟩
  | 21 => ⟨S4096, .f32⟩
  | 22 => ⟨S1024x4096, .f32⟩
  | 23 => ⟨S256x4096, .f32⟩
  | 24 => ⟨S1024x4096, .f32⟩
  | 25 => ⟨S256x4096, .f32⟩
  | 26 => ⟨S256x4096, .f32⟩
  | 27 => ⟨S4096, .f32⟩
  | 28 => ⟨S1x4096, .f32⟩
  | 29 => ⟨S256x4096, .f32⟩
  | 30 => ⟨S256x4096, .f32⟩
  | 31 => ⟨S256x1024, .f32⟩
  | 32 => ⟨S256x1024, .f32⟩
  | 33 => ⟨S256x1024, .f32⟩
  | 34 => ⟨S256x1024, .f32⟩
  | 35 => ⟨S256x1024, .f32⟩
  | 36 => ⟨S256x1024, .f32⟩
  | 37 => ⟨S_, .f32⟩
  | 38 => ⟨S256x1024, .f32⟩
  | 39 => ⟨S256x1024, .f32⟩
  | 40 => ⟨S_, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S_, .f32⟩
  | 50 => ⟨S256x1024, .f32⟩
  | 51 => ⟨S256x1024, .f32⟩
  | 52 => ⟨S256x1024, .f32⟩
  | 53 => ⟨S256x1024, .f32⟩
  | 54 => ⟨S256x1024, .f32⟩
  | 55 => ⟨S256x1024, .f32⟩
  | 56 => ⟨S256x1024, .f32⟩
  | 57 => ⟨S_, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S256x1024, .f32⟩
  | 65 => ⟨S1x256x1024, .f32⟩
  | 66 => ⟨S256x1024, .f32⟩
  | 67 => ⟨S1x256x1024, .f32⟩
  | 68 => ⟨S256x1024, .f32⟩
  | 69 => ⟨S1x4096x1024, .f32⟩
  | 70 => ⟨S4096x1024, .f32⟩
  | 71 => ⟨S1x4096x1024, .f32⟩
  | 72 => ⟨S4096x1024, .f32⟩
  | 73 => ⟨S1x4096, .f32⟩
  | 74 => ⟨S4096, .f32⟩
  | 75 => ⟨S1x4096, .f32⟩
  | 76 => ⟨S4096, .f32⟩
  | 77 => ⟨S1024x4096, .f32⟩
  | 78 => ⟨S256x4096, .f32⟩
  | 79 => ⟨S1024x4096, .f32⟩
  | 80 => ⟨S256x4096, .f32⟩
  | 81 => ⟨S256x4096, .f32⟩
  | 82 => ⟨S4096, .f32⟩
  | 83 => ⟨S1x4096, .f32⟩
  | 84 => ⟨S256x4096, .f32⟩
  | 85 => ⟨S256x4096, .f32⟩
  | 86 => ⟨S256x1024, .f32⟩
  | 87 => ⟨S256x1024, .f32⟩
  | 88 => ⟨S256x1024, .f32⟩
  | 89 => ⟨S256x1024, .f32⟩
  | 90 => ⟨S256x1024, .f32⟩
  | 91 => ⟨S256x1024, .f32⟩
  | 92 => ⟨S_, .f32⟩
  | 93 => ⟨S256x1024, .f32⟩
  | 94 => ⟨S256x1024, .f32⟩
  | 95 => ⟨S_, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S_, .f32⟩
  | 102 => ⟨S256x1024, .f32⟩
  | 103 => ⟨S256x1024, .f32⟩
  | 104 => ⟨S_, .f32⟩
  | 105 => ⟨S256x1024, .f32⟩
  | 106 => ⟨S256x1024, .f32⟩
  | 107 => ⟨S256x1024, .f32⟩
  | 108 => ⟨S256x1024, .f32⟩
  | 109 => ⟨S256x1024, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S_, .f32⟩
  | 116 => ⟨S256x1024, .f32⟩
  | 117 => ⟨S256x1024, .f32⟩
  | 118 => ⟨S256x1024, .f32⟩
  | 119 => ⟨S256x1024, .f32⟩
  | 120 => ⟨S1x256x1024, .f32⟩
  | 121 => ⟨S1x256x1024, .f32⟩
  | 122 => ⟨S2x256x1024, .f32⟩
  | 123 => ⟨S1x256x1024, .f32⟩
  | 124 => ⟨S1x256x1024, .f32⟩
  | 125 => ⟨S2x256x1024, .f32⟩
  | 126 => ⟨S256x1x1024, .f32⟩
  | 127 => ⟨S256x1024, .f32⟩
  | _ => ⟨S15x256x512, .f32⟩

abbrev hbmTy0_13 (i : Nat) : BufTy := match i % 128 with
  | 0 => ⟨S1x256x1024, .f32⟩
  | 1 => ⟨S256x1024, .f32⟩
  | 2 => ⟨S1x256x1024, .f32⟩
  | 3 => ⟨S256x1024, .f32⟩
  | 4 => ⟨S1x4096x1024, .f32⟩
  | 5 => ⟨S4096x1024, .f32⟩
  | 6 => ⟨S1x4096x1024, .f32⟩
  | 7 => ⟨S4096x1024, .f32⟩
  | 8 => ⟨S1x4096, .f32⟩
  | 9 => ⟨S4096, .f32⟩
  | 10 => ⟨S1x4096, .f32⟩
  | 11 => ⟨S4096, .f32⟩
  | 12 => ⟨S1024x4096, .f32⟩
  | 13 => ⟨S256x4096, .f32⟩
  | 14 => ⟨S1024x4096, .f32⟩
  | 15 => ⟨S256x4096, .f32⟩
  | 16 => ⟨S256x4096, .f32⟩
  | 17 => ⟨S4096, .f32⟩
  | 18 => ⟨S1x4096, .f32⟩
  | 19 => ⟨S256x4096, .f32⟩
  | 20 => ⟨S256x4096, .f32⟩
  | 21 => ⟨S256x1024, .f32⟩
  | 22 => ⟨S256x1024, .f32⟩
  | 23 => ⟨S256x1024, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S_, .f32⟩
  | 31 => ⟨S256x1024, .f32⟩
  | 32 => ⟨S256x1024, .f32⟩
  | 33 => ⟨S256x1024, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S_, .f32⟩
  | 40 => ⟨S256x1024, .f32⟩
  | 41 => ⟨S256x1024, .f32⟩
  | 42 => ⟨S256x1024, .f32⟩
  | 43 => ⟨S256x1024, .f32⟩
  | 44 => ⟨S256x1024, .f32⟩
  | 45 => ⟨S256x1024, .f32⟩
  | 46 => ⟨S256x1024, .f32⟩
  | 47 => ⟨S_, .f32⟩
  | 48 => ⟨S256x1024, .f32⟩
  | 49 => ⟨S256x1024, .f32⟩
  | 50 => ⟨S_, .f32⟩
  | 51 => ⟨S256x1024, .f32⟩
  | 52 => ⟨S256x1024, .f32⟩
  | 53 => ⟨S256x1024, .f32⟩
  | 54 => ⟨S256x1024, .f32⟩
  | 55 => ⟨S1x256x1024, .f32⟩
  | 56 => ⟨S256x1024, .f32⟩
  | 57 => ⟨S1x256x1024, .f32⟩
  | 58 => ⟨S256x1024, .f32⟩
  | 59 => ⟨S1x4096x1024, .f32⟩
  | 60 => ⟨S4096x1024, .f32⟩
  | 61 => ⟨S1x4096x1024, .f32⟩
  | 62 => ⟨S4096x1024, .f32⟩
  | 63 => ⟨S1x4096, .f32⟩
  | 64 => ⟨S4096, .f32⟩
  | 65 => ⟨S1x4096, .f32⟩
  | 66 => ⟨S4096, .f32⟩
  | 67 => ⟨S1024x4096, .f32⟩
  | 68 => ⟨S256x4096, .f32⟩
  | 69 => ⟨S1024x4096, .f32⟩
  | 70 => ⟨S256x4096, .f32⟩
  | 71 => ⟨S256x4096, .f32⟩
  | 72 => ⟨S4096, .f32⟩
  | 73 => ⟨S1x4096, .f32⟩
  | 74 => ⟨S256x4096, .f32⟩
  | 75 => ⟨S256x4096, .f32⟩
  | 76 => ⟨S256x1024, .f32⟩
  | 77 => ⟨S256x1024, .f32⟩
  | 78 => ⟨S256x1024, .f32⟩
  | 79 => ⟨S256x1024, .f32⟩
  | 80 => ⟨S256x1024, .f32⟩
  | 81 => ⟨S256x1024, .f32⟩
  | 82 => ⟨S_, .f32⟩
  | 83 => ⟨S256x1024, .f32⟩
  | 84 => ⟨S256x1024, .f32⟩
  | 85 => ⟨S_, .f32⟩
  | 86 => ⟨S256x1024, .f32⟩
  | 87 => ⟨S256x1024, .f32⟩
  | 88 => ⟨S256x1024, .f32⟩
  | 89 => ⟨S256x1024, .f32⟩
  | 90 => ⟨S256x1024, .f32⟩
  | 91 => ⟨S_, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S256x1024, .f32⟩
  | 98 => ⟨S256x1024, .f32⟩
  | 99 => ⟨S256x1024, .f32⟩
  | 100 => ⟨S256x1024, .f32⟩
  | 101 => ⟨S256x1024, .f32⟩
  | 102 => ⟨S_, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S256x1024, .f32⟩
  | 109 => ⟨S256x1024, .f32⟩
  | 110 => ⟨S1x256x1024, .f32⟩
  | 111 => ⟨S1x256x1024, .f32⟩
  | 112 => ⟨S2x256x1024, .f32⟩
  | 113 => ⟨S1x256x1024, .f32⟩
  | 114 => ⟨S1x256x1024, .f32⟩
  | 115 => ⟨S2x256x1024, .f32⟩
  | 116 => ⟨S256x1x1024, .f32⟩
  | 117 => ⟨S256x1x1024, .f32⟩
  | 118 => ⟨S256x1x1024, .f32⟩
  | 119 => ⟨S256x1x1024, .f32⟩
  | 120 => ⟨S256x1x1024, .f32⟩
  | 121 => ⟨S256x1x1024, .f32⟩
  | 122 => ⟨S256x1x1024, .f32⟩
  | 123 => ⟨S256x1x1024, .f32⟩
  | 124 => ⟨S256x1x1024, .f32⟩
  | 125 => ⟨S256x1x1024, .f32⟩
  | 126 => ⟨S256x1x1024, .f32⟩
  | 127 => ⟨S256x1x1024, .f32⟩
  | _ => ⟨S15x256x512, .f32⟩

abbrev hbmTy0_14 (i : Nat) : BufTy := match i % 128 with
  | 0 => ⟨S256x1x1024, .f32⟩
  | 1 => ⟨S256x1x1024, .f32⟩
  | 2 => ⟨S256x1x1024, .f32⟩
  | 3 => ⟨S256x15x1024, .f32⟩
  | 4 => ⟨S15x256x1024, .f32⟩
  | _ => ⟨S15x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S15x256x512, .f32⟩

abbrev bufTy : (tb : Table) → Fin (tcTables nBuf tb) → BufTy
  | .hbm, ⟨i, _⟩ => hbmTy i
  | _, _ => ⟨S15x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_0 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_6 : Ref sig .tc := ⟨.hbm, 94, rfl⟩
abbrev main_v81 : Ref sig .tc := ⟨.hbm, 95, rfl⟩
abbrev main_v82 : Ref sig .tc := ⟨.hbm, 96, rfl⟩
abbrev main_cst_7 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_8 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_10 : Ref sig .tc := ⟨.hbm, 114, rfl⟩
abbrev main_v97 : Ref sig .tc := ⟨.hbm, 115, rfl⟩
abbrev main_v98 : Ref sig .tc := ⟨.hbm, 116, rfl⟩
abbrev main_cst_11 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_12 : Ref sig .tc := ⟨.hbm, 157, rfl⟩
abbrev main_v138 : Ref sig .tc := ⟨.hbm, 158, rfl⟩
abbrev main_v139 : Ref sig .tc := ⟨.hbm, 159, rfl⟩
abbrev main_cst_13 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_14 : Ref sig .tc := ⟨.hbm, 166, rfl⟩
abbrev main_v145 : Ref sig .tc := ⟨.hbm, 167, rfl⟩
abbrev main_v146 : Ref sig .tc := ⟨.hbm, 168, rfl⟩
abbrev main_cst_15 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_cst_16 : Ref sig .tc := ⟨.hbm, 177, rfl⟩
abbrev main_v154 : Ref sig .tc := ⟨.hbm, 178, rfl⟩
abbrev main_v155 : Ref sig .tc := ⟨.hbm, 179, rfl⟩
abbrev main_cst_17 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_cst_18 : Ref sig .tc := ⟨.hbm, 212, rfl⟩
abbrev main_v187 : Ref sig .tc := ⟨.hbm, 213, rfl⟩
abbrev main_v188 : Ref sig .tc := ⟨.hbm, 214, rfl⟩
abbrev main_cst_19 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_cst_20 : Ref sig .tc := ⟨.hbm, 221, rfl⟩
abbrev main_v194 : Ref sig .tc := ⟨.hbm, 222, rfl⟩
abbrev main_v195 : Ref sig .tc := ⟨.hbm, 223, rfl⟩
abbrev main_cst_21 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_cst_22 : Ref sig .tc := ⟨.hbm, 232, rfl⟩
abbrev main_v203 : Ref sig .tc := ⟨.hbm, 233, rfl⟩
abbrev main_v204 : Ref sig .tc := ⟨.hbm, 234, rfl⟩
abbrev main_cst_23 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_v243 : Ref sig .tc := ⟨.hbm, 274, rfl⟩
abbrev main_cst_24 : Ref sig .tc := ⟨.hbm, 275, rfl⟩
abbrev main_v244 : Ref sig .tc := ⟨.hbm, 276, rfl⟩
abbrev main_v245 : Ref sig .tc := ⟨.hbm, 277, rfl⟩
abbrev main_cst_25 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_cst_26 : Ref sig .tc := ⟨.hbm, 284, rfl⟩
abbrev main_v251 : Ref sig .tc := ⟨.hbm, 285, rfl⟩
abbrev main_v252 : Ref sig .tc := ⟨.hbm, 286, rfl⟩
abbrev main_cst_27 : Ref sig .tc := ⟨.hbm, 287, rfl⟩
abbrev main_v253 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_cst_28 : Ref sig .tc := ⟨.hbm, 295, rfl⟩
abbrev main_v260 : Ref sig .tc := ⟨.hbm, 296, rfl⟩
abbrev main_v261 : Ref sig .tc := ⟨.hbm, 297, rfl⟩
abbrev main_cst_29 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_cst_30 : Ref sig .tc := ⟨.hbm, 330, rfl⟩
abbrev main_v293 : Ref sig .tc := ⟨.hbm, 331, rfl⟩
abbrev main_v294 : Ref sig .tc := ⟨.hbm, 332, rfl⟩
abbrev main_cst_31 : Ref sig .tc := ⟨.hbm, 333, rfl⟩
abbrev main_v295 : Ref sig .tc := ⟨.hbm, 334, rfl⟩
abbrev main_v296 : Ref sig .tc := ⟨.hbm, 335, rfl⟩
abbrev main_v297 : Ref sig .tc := ⟨.hbm, 336, rfl⟩
abbrev main_v298 : Ref sig .tc := ⟨.hbm, 337, rfl⟩
abbrev main_v299 : Ref sig .tc := ⟨.hbm, 338, rfl⟩
abbrev main_cst_32 : Ref sig .tc := ⟨.hbm, 339, rfl⟩
abbrev main_v300 : Ref sig .tc := ⟨.hbm, 340, rfl⟩
abbrev main_v301 : Ref sig .tc := ⟨.hbm, 341, rfl⟩
abbrev main_cst_33 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_cst_34 : Ref sig .tc := ⟨.hbm, 350, rfl⟩
abbrev main_v309 : Ref sig .tc := ⟨.hbm, 351, rfl⟩
abbrev main_v310 : Ref sig .tc := ⟨.hbm, 352, rfl⟩
abbrev main_cst_35 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_v339 : Ref sig .tc := ⟨.hbm, 382, rfl⟩
abbrev main_v340 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_cst_36 : Ref sig .tc := ⟨.hbm, 393, rfl⟩
abbrev main_v350 : Ref sig .tc := ⟨.hbm, 394, rfl⟩
abbrev main_v351 : Ref sig .tc := ⟨.hbm, 395, rfl⟩
abbrev main_cst_37 : Ref sig .tc := ⟨.hbm, 396, rfl⟩
abbrev main_v352 : Ref sig .tc := ⟨.hbm, 397, rfl⟩
abbrev main_v353 : Ref sig .tc := ⟨.hbm, 398, rfl⟩
abbrev main_v354 : Ref sig .tc := ⟨.hbm, 399, rfl⟩
abbrev main_v355 : Ref sig .tc := ⟨.hbm, 400, rfl⟩
abbrev main_v356 : Ref sig .tc := ⟨.hbm, 401, rfl⟩
abbrev main_cst_38 : Ref sig .tc := ⟨.hbm, 402, rfl⟩
abbrev main_v357 : Ref sig .tc := ⟨.hbm, 403, rfl⟩
abbrev main_v358 : Ref sig .tc := ⟨.hbm, 404, rfl⟩
abbrev main_cst_39 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_cst_40 : Ref sig .tc := ⟨.hbm, 413, rfl⟩
abbrev main_v366 : Ref sig .tc := ⟨.hbm, 414, rfl⟩
abbrev main_v367 : Ref sig .tc := ⟨.hbm, 415, rfl⟩
abbrev main_cst_41 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_v397 : Ref sig .tc := ⟨.hbm, 446, rfl⟩
abbrev main_v398 : Ref sig .tc := ⟨.hbm, 447, rfl⟩
abbrev main_cst_42 : Ref sig .tc := ⟨.hbm, 448, rfl⟩
abbrev main_v399 : Ref sig .tc := ⟨.hbm, 449, rfl⟩
abbrev main_v400 : Ref sig .tc := ⟨.hbm, 450, rfl⟩
abbrev main_cst_43 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_cst_44 : Ref sig .tc := ⟨.hbm, 457, rfl⟩
abbrev main_v406 : Ref sig .tc := ⟨.hbm, 458, rfl⟩
abbrev main_v407 : Ref sig .tc := ⟨.hbm, 459, rfl⟩
abbrev main_cst_45 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_cst_46 : Ref sig .tc := ⟨.hbm, 468, rfl⟩
abbrev main_v415 : Ref sig .tc := ⟨.hbm, 469, rfl⟩
abbrev main_v416 : Ref sig .tc := ⟨.hbm, 470, rfl⟩
abbrev main_cst_47 : Ref sig .tc := ⟨.hbm, 471, rfl⟩
abbrev main_v417 : Ref sig .tc := ⟨.hbm, 472, rfl⟩
abbrev main_v418 : Ref sig .tc := ⟨.hbm, 473, rfl⟩
abbrev main_v419 : Ref sig .tc := ⟨.hbm, 474, rfl⟩
abbrev main_v420 : Ref sig .tc := ⟨.hbm, 475, rfl⟩
abbrev main_v421 : Ref sig .tc := ⟨.hbm, 476, rfl⟩
abbrev main_v422 : Ref sig .tc := ⟨.hbm, 477, rfl⟩
abbrev main_v423 : Ref sig .tc := ⟨.hbm, 478, rfl⟩
abbrev main_v424 : Ref sig .tc := ⟨.hbm, 479, rfl⟩
abbrev main_v425 : Ref sig .tc := ⟨.hbm, 480, rfl⟩
abbrev main_v426 : Ref sig .tc := ⟨.hbm, 481, rfl⟩
abbrev main_v427 : Ref sig .tc := ⟨.hbm, 482, rfl⟩
abbrev main_v428 : Ref sig .tc := ⟨.hbm, 483, rfl⟩
abbrev main_v429 : Ref sig .tc := ⟨.hbm, 484, rfl⟩
abbrev main_v430 : Ref sig .tc := ⟨.hbm, 485, rfl⟩
abbrev main_v431 : Ref sig .tc := ⟨.hbm, 486, rfl⟩
abbrev main_v432 : Ref sig .tc := ⟨.hbm, 487, rfl⟩
abbrev main_v433 : Ref sig .tc := ⟨.hbm, 488, rfl⟩
abbrev main_v434 : Ref sig .tc := ⟨.hbm, 489, rfl⟩
abbrev main_v435 : Ref sig .tc := ⟨.hbm, 490, rfl⟩
abbrev main_v436 : Ref sig .tc := ⟨.hbm, 491, rfl⟩
abbrev main_v437 : Ref sig .tc := ⟨.hbm, 492, rfl⟩
abbrev main_v438 : Ref sig .tc := ⟨.hbm, 493, rfl⟩
abbrev main_v439 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩
abbrev main_v453 : Ref sig .tc := ⟨.hbm, 508, rfl⟩
abbrev main_v454 : Ref sig .tc := ⟨.hbm, 509, rfl⟩
abbrev main_v455 : Ref sig .tc := ⟨.hbm, 510, rfl⟩
abbrev main_cst_48 : Ref sig .tc := ⟨.hbm, 511, rfl⟩
abbrev main_v456 : Ref sig .tc := ⟨.hbm, 512, rfl⟩
abbrev main_v457 : Ref sig .tc := ⟨.hbm, 513, rfl⟩
abbrev main_cst_49 : Ref sig .tc := ⟨.hbm, 514, rfl⟩
abbrev main_v458 : Ref sig .tc := ⟨.hbm, 515, rfl⟩
abbrev main_v459 : Ref sig .tc := ⟨.hbm, 516, rfl⟩
abbrev main_v460 : Ref sig .tc := ⟨.hbm, 517, rfl⟩
abbrev main_v461 : Ref sig .tc := ⟨.hbm, 518, rfl⟩
abbrev main_v462 : Ref sig .tc := ⟨.hbm, 519, rfl⟩
abbrev main_cst_50 : Ref sig .tc := ⟨.hbm, 520, rfl⟩
abbrev main_v463 : Ref sig .tc := ⟨.hbm, 521, rfl⟩
abbrev main_v464 : Ref sig .tc := ⟨.hbm, 522, rfl⟩
abbrev main_cst_51 : Ref sig .tc := ⟨.hbm, 523, rfl⟩
abbrev main_v465 : Ref sig .tc := ⟨.hbm, 524, rfl⟩
abbrev main_v466 : Ref sig .tc := ⟨.hbm, 525, rfl⟩
abbrev main_v467 : Ref sig .tc := ⟨.hbm, 526, rfl⟩
abbrev main_v468 : Ref sig .tc := ⟨.hbm, 527, rfl⟩
abbrev main_v469 : Ref sig .tc := ⟨.hbm, 528, rfl⟩
abbrev main_v470 : Ref sig .tc := ⟨.hbm, 529, rfl⟩
abbrev main_v471 : Ref sig .tc := ⟨.hbm, 530, rfl⟩
abbrev main_cst_52 : Ref sig .tc := ⟨.hbm, 531, rfl⟩
abbrev main_v472 : Ref sig .tc := ⟨.hbm, 532, rfl⟩
abbrev main_v473 : Ref sig .tc := ⟨.hbm, 533, rfl⟩
abbrev main_cst_53 : Ref sig .tc := ⟨.hbm, 534, rfl⟩
abbrev main_v474 : Ref sig .tc := ⟨.hbm, 535, rfl⟩
abbrev main_v475 : Ref sig .tc := ⟨.hbm, 536, rfl⟩
abbrev main_v476 : Ref sig .tc := ⟨.hbm, 537, rfl⟩
abbrev main_v477 : Ref sig .tc := ⟨.hbm, 538, rfl⟩
abbrev main_v478 : Ref sig .tc := ⟨.hbm, 539, rfl⟩
abbrev main_v479 : Ref sig .tc := ⟨.hbm, 540, rfl⟩
abbrev main_v480 : Ref sig .tc := ⟨.hbm, 541, rfl⟩
abbrev main_v481 : Ref sig .tc := ⟨.hbm, 542, rfl⟩
abbrev main_v482 : Ref sig .tc := ⟨.hbm, 543, rfl⟩
abbrev main_v483 : Ref sig .tc := ⟨.hbm, 544, rfl⟩
abbrev main_v484 : Ref sig .tc := ⟨.hbm, 545, rfl⟩
abbrev main_v485 : Ref sig .tc := ⟨.hbm, 546, rfl⟩
abbrev main_v486 : Ref sig .tc := ⟨.hbm, 547, rfl⟩
abbrev main_v487 : Ref sig .tc := ⟨.hbm, 548, rfl⟩
abbrev main_v488 : Ref sig .tc := ⟨.hbm, 549, rfl⟩
abbrev main_v489 : Ref sig .tc := ⟨.hbm, 550, rfl⟩
abbrev main_v490 : Ref sig .tc := ⟨.hbm, 551, rfl⟩
abbrev main_v491 : Ref sig .tc := ⟨.hbm, 552, rfl⟩
abbrev main_v492 : Ref sig .tc := ⟨.hbm, 553, rfl⟩
abbrev main_v493 : Ref sig .tc := ⟨.hbm, 554, rfl⟩
abbrev main_v494 : Ref sig .tc := ⟨.hbm, 555, rfl⟩
abbrev main_v495 : Ref sig .tc := ⟨.hbm, 556, rfl⟩
abbrev main_v496 : Ref sig .tc := ⟨.hbm, 557, rfl⟩
abbrev main_v497 : Ref sig .tc := ⟨.hbm, 558, rfl⟩
abbrev main_v498 : Ref sig .tc := ⟨.hbm, 559, rfl⟩
abbrev main_v499 : Ref sig .tc := ⟨.hbm, 560, rfl⟩
abbrev main_v500 : Ref sig .tc := ⟨.hbm, 561, rfl⟩
abbrev main_v501 : Ref sig .tc := ⟨.hbm, 562, rfl⟩
abbrev main_v502 : Ref sig .tc := ⟨.hbm, 563, rfl⟩
abbrev main_v503 : Ref sig .tc := ⟨.hbm, 564, rfl⟩
abbrev main_v504 : Ref sig .tc := ⟨.hbm, 565, rfl⟩
abbrev main_cst_54 : Ref sig .tc := ⟨.hbm, 566, rfl⟩
abbrev main_v505 : Ref sig .tc := ⟨.hbm, 567, rfl⟩
abbrev main_v506 : Ref sig .tc := ⟨.hbm, 568, rfl⟩
abbrev main_cst_55 : Ref sig .tc := ⟨.hbm, 569, rfl⟩
abbrev main_v507 : Ref sig .tc := ⟨.hbm, 570, rfl⟩
abbrev main_v508 : Ref sig .tc := ⟨.hbm, 571, rfl⟩
abbrev main_v509 : Ref sig .tc := ⟨.hbm, 572, rfl⟩
abbrev main_v510 : Ref sig .tc := ⟨.hbm, 573, rfl⟩
abbrev main_v511 : Ref sig .tc := ⟨.hbm, 574, rfl⟩
abbrev main_cst_56 : Ref sig .tc := ⟨.hbm, 575, rfl⟩
abbrev main_v512 : Ref sig .tc := ⟨.hbm, 576, rfl⟩
abbrev main_v513 : Ref sig .tc := ⟨.hbm, 577, rfl⟩
abbrev main_cst_57 : Ref sig .tc := ⟨.hbm, 578, rfl⟩
abbrev main_v514 : Ref sig .tc := ⟨.hbm, 579, rfl⟩
abbrev main_v515 : Ref sig .tc := ⟨.hbm, 580, rfl⟩
abbrev main_v516 : Ref sig .tc := ⟨.hbm, 581, rfl⟩
abbrev main_v517 : Ref sig .tc := ⟨.hbm, 582, rfl⟩
abbrev main_v518 : Ref sig .tc := ⟨.hbm, 583, rfl⟩
abbrev main_v519 : Ref sig .tc := ⟨.hbm, 584, rfl⟩
abbrev main_v520 : Ref sig .tc := ⟨.hbm, 585, rfl⟩
abbrev main_cst_58 : Ref sig .tc := ⟨.hbm, 586, rfl⟩
abbrev main_v521 : Ref sig .tc := ⟨.hbm, 587, rfl⟩
abbrev main_v522 : Ref sig .tc := ⟨.hbm, 588, rfl⟩
abbrev main_cst_59 : Ref sig .tc := ⟨.hbm, 589, rfl⟩
abbrev main_v523 : Ref sig .tc := ⟨.hbm, 590, rfl⟩
abbrev main_v524 : Ref sig .tc := ⟨.hbm, 591, rfl⟩
abbrev main_v525 : Ref sig .tc := ⟨.hbm, 592, rfl⟩
abbrev main_v526 : Ref sig .tc := ⟨.hbm, 593, rfl⟩
abbrev main_v527 : Ref sig .tc := ⟨.hbm, 594, rfl⟩
abbrev main_v528 : Ref sig .tc := ⟨.hbm, 595, rfl⟩
abbrev main_v529 : Ref sig .tc := ⟨.hbm, 596, rfl⟩
abbrev main_v530 : Ref sig .tc := ⟨.hbm, 597, rfl⟩
abbrev main_v531 : Ref sig .tc := ⟨.hbm, 598, rfl⟩
abbrev main_v532 : Ref sig .tc := ⟨.hbm, 599, rfl⟩
abbrev main_v533 : Ref sig .tc := ⟨.hbm, 600, rfl⟩
abbrev main_v534 : Ref sig .tc := ⟨.hbm, 601, rfl⟩
abbrev main_v535 : Ref sig .tc := ⟨.hbm, 602, rfl⟩
abbrev main_v536 : Ref sig .tc := ⟨.hbm, 603, rfl⟩
abbrev main_v537 : Ref sig .tc := ⟨.hbm, 604, rfl⟩
abbrev main_v538 : Ref sig .tc := ⟨.hbm, 605, rfl⟩
abbrev main_v539 : Ref sig .tc := ⟨.hbm, 606, rfl⟩
abbrev main_v540 : Ref sig .tc := ⟨.hbm, 607, rfl⟩
abbrev main_v541 : Ref sig .tc := ⟨.hbm, 608, rfl⟩
abbrev main_v542 : Ref sig .tc := ⟨.hbm, 609, rfl⟩
abbrev main_v543 : Ref sig .tc := ⟨.hbm, 610, rfl⟩
abbrev main_v544 : Ref sig .tc := ⟨.hbm, 611, rfl⟩
abbrev main_v545 : Ref sig .tc := ⟨.hbm, 612, rfl⟩
abbrev main_v546 : Ref sig .tc := ⟨.hbm, 613, rfl⟩
abbrev main_v547 : Ref sig .tc := ⟨.hbm, 614, rfl⟩
abbrev main_v548 : Ref sig .tc := ⟨.hbm, 615, rfl⟩
abbrev main_v549 : Ref sig .tc := ⟨.hbm, 616, rfl⟩
abbrev main_v550 : Ref sig .tc := ⟨.hbm, 617, rfl⟩
abbrev main_v551 : Ref sig .tc := ⟨.hbm, 618, rfl⟩
abbrev main_v552 : Ref sig .tc := ⟨.hbm, 619, rfl⟩
abbrev main_v553 : Ref sig .tc := ⟨.hbm, 620, rfl⟩
abbrev main_v554 : Ref sig .tc := ⟨.hbm, 621, rfl⟩
abbrev main_v555 : Ref sig .tc := ⟨.hbm, 622, rfl⟩
abbrev main_v556 : Ref sig .tc := ⟨.hbm, 623, rfl⟩
abbrev main_v557 : Ref sig .tc := ⟨.hbm, 624, rfl⟩
abbrev main_v558 : Ref sig .tc := ⟨.hbm, 625, rfl⟩
abbrev main_v559 : Ref sig .tc := ⟨.hbm, 626, rfl⟩
abbrev main_v560 : Ref sig .tc := ⟨.hbm, 627, rfl⟩
abbrev main_v561 : Ref sig .tc := ⟨.hbm, 628, rfl⟩
abbrev main_cst_60 : Ref sig .tc := ⟨.hbm, 629, rfl⟩
abbrev main_v562 : Ref sig .tc := ⟨.hbm, 630, rfl⟩
abbrev main_v563 : Ref sig .tc := ⟨.hbm, 631, rfl⟩
abbrev main_cst_61 : Ref sig .tc := ⟨.hbm, 632, rfl⟩
abbrev main_v564 : Ref sig .tc := ⟨.hbm, 633, rfl⟩
abbrev main_v565 : Ref sig .tc := ⟨.hbm, 634, rfl⟩
abbrev main_v566 : Ref sig .tc := ⟨.hbm, 635, rfl⟩
abbrev main_v567 : Ref sig .tc := ⟨.hbm, 636, rfl⟩
abbrev main_v568 : Ref sig .tc := ⟨.hbm, 637, rfl⟩
abbrev main_cst_62 : Ref sig .tc := ⟨.hbm, 638, rfl⟩
abbrev main_v569 : Ref sig .tc := ⟨.hbm, 639, rfl⟩
abbrev main_v570 : Ref sig .tc := ⟨.hbm, 640, rfl⟩
abbrev main_cst_63 : Ref sig .tc := ⟨.hbm, 641, rfl⟩
abbrev main_v571 : Ref sig .tc := ⟨.hbm, 642, rfl⟩
abbrev main_v572 : Ref sig .tc := ⟨.hbm, 643, rfl⟩
abbrev main_v573 : Ref sig .tc := ⟨.hbm, 644, rfl⟩
abbrev main_v574 : Ref sig .tc := ⟨.hbm, 645, rfl⟩
abbrev main_v575 : Ref sig .tc := ⟨.hbm, 646, rfl⟩
abbrev main_v576 : Ref sig .tc := ⟨.hbm, 647, rfl⟩
abbrev main_v577 : Ref sig .tc := ⟨.hbm, 648, rfl⟩
abbrev main_cst_64 : Ref sig .tc := ⟨.hbm, 649, rfl⟩
abbrev main_v578 : Ref sig .tc := ⟨.hbm, 650, rfl⟩
abbrev main_v579 : Ref sig .tc := ⟨.hbm, 651, rfl⟩
abbrev main_cst_65 : Ref sig .tc := ⟨.hbm, 652, rfl⟩
abbrev main_v580 : Ref sig .tc := ⟨.hbm, 653, rfl⟩
abbrev main_v581 : Ref sig .tc := ⟨.hbm, 654, rfl⟩
abbrev main_v582 : Ref sig .tc := ⟨.hbm, 655, rfl⟩
abbrev main_v583 : Ref sig .tc := ⟨.hbm, 656, rfl⟩
abbrev main_v584 : Ref sig .tc := ⟨.hbm, 657, rfl⟩
abbrev main_v585 : Ref sig .tc := ⟨.hbm, 658, rfl⟩
abbrev main_v586 : Ref sig .tc := ⟨.hbm, 659, rfl⟩
abbrev main_v587 : Ref sig .tc := ⟨.hbm, 660, rfl⟩
abbrev main_v588 : Ref sig .tc := ⟨.hbm, 661, rfl⟩
abbrev main_v589 : Ref sig .tc := ⟨.hbm, 662, rfl⟩
abbrev main_v590 : Ref sig .tc := ⟨.hbm, 663, rfl⟩
abbrev main_v591 : Ref sig .tc := ⟨.hbm, 664, rfl⟩
abbrev main_v592 : Ref sig .tc := ⟨.hbm, 665, rfl⟩
abbrev main_v593 : Ref sig .tc := ⟨.hbm, 666, rfl⟩
abbrev main_v594 : Ref sig .tc := ⟨.hbm, 667, rfl⟩
abbrev main_v595 : Ref sig .tc := ⟨.hbm, 668, rfl⟩
abbrev main_v596 : Ref sig .tc := ⟨.hbm, 669, rfl⟩
abbrev main_v597 : Ref sig .tc := ⟨.hbm, 670, rfl⟩
abbrev main_v598 : Ref sig .tc := ⟨.hbm, 671, rfl⟩
abbrev main_v599 : Ref sig .tc := ⟨.hbm, 672, rfl⟩
abbrev main_v600 : Ref sig .tc := ⟨.hbm, 673, rfl⟩
abbrev main_v601 : Ref sig .tc := ⟨.hbm, 674, rfl⟩
abbrev main_v602 : Ref sig .tc := ⟨.hbm, 675, rfl⟩
abbrev main_v603 : Ref sig .tc := ⟨.hbm, 676, rfl⟩
abbrev main_v604 : Ref sig .tc := ⟨.hbm, 677, rfl⟩
abbrev main_v605 : Ref sig .tc := ⟨.hbm, 678, rfl⟩
abbrev main_v606 : Ref sig .tc := ⟨.hbm, 679, rfl⟩
abbrev main_v607 : Ref sig .tc := ⟨.hbm, 680, rfl⟩
abbrev main_v608 : Ref sig .tc := ⟨.hbm, 681, rfl⟩
abbrev main_v609 : Ref sig .tc := ⟨.hbm, 682, rfl⟩
abbrev main_v610 : Ref sig .tc := ⟨.hbm, 683, rfl⟩
abbrev main_cst_66 : Ref sig .tc := ⟨.hbm, 684, rfl⟩
abbrev main_v611 : Ref sig .tc := ⟨.hbm, 685, rfl⟩
abbrev main_v612 : Ref sig .tc := ⟨.hbm, 686, rfl⟩
abbrev main_cst_67 : Ref sig .tc := ⟨.hbm, 687, rfl⟩
abbrev main_v613 : Ref sig .tc := ⟨.hbm, 688, rfl⟩
abbrev main_v614 : Ref sig .tc := ⟨.hbm, 689, rfl⟩
abbrev main_v615 : Ref sig .tc := ⟨.hbm, 690, rfl⟩
abbrev main_v616 : Ref sig .tc := ⟨.hbm, 691, rfl⟩
abbrev main_v617 : Ref sig .tc := ⟨.hbm, 692, rfl⟩
abbrev main_cst_68 : Ref sig .tc := ⟨.hbm, 693, rfl⟩
abbrev main_v618 : Ref sig .tc := ⟨.hbm, 694, rfl⟩
abbrev main_v619 : Ref sig .tc := ⟨.hbm, 695, rfl⟩
abbrev main_cst_69 : Ref sig .tc := ⟨.hbm, 696, rfl⟩
abbrev main_v620 : Ref sig .tc := ⟨.hbm, 697, rfl⟩
abbrev main_v621 : Ref sig .tc := ⟨.hbm, 698, rfl⟩
abbrev main_v622 : Ref sig .tc := ⟨.hbm, 699, rfl⟩
abbrev main_v623 : Ref sig .tc := ⟨.hbm, 700, rfl⟩
abbrev main_v624 : Ref sig .tc := ⟨.hbm, 701, rfl⟩
abbrev main_v625 : Ref sig .tc := ⟨.hbm, 702, rfl⟩
abbrev main_v626 : Ref sig .tc := ⟨.hbm, 703, rfl⟩
abbrev main_cst_70 : Ref sig .tc := ⟨.hbm, 704, rfl⟩
abbrev main_v627 : Ref sig .tc := ⟨.hbm, 705, rfl⟩
abbrev main_v628 : Ref sig .tc := ⟨.hbm, 706, rfl⟩
abbrev main_cst_71 : Ref sig .tc := ⟨.hbm, 707, rfl⟩
abbrev main_v629 : Ref sig .tc := ⟨.hbm, 708, rfl⟩
abbrev main_v630 : Ref sig .tc := ⟨.hbm, 709, rfl⟩
abbrev main_v631 : Ref sig .tc := ⟨.hbm, 710, rfl⟩
abbrev main_v632 : Ref sig .tc := ⟨.hbm, 711, rfl⟩
abbrev main_v633 : Ref sig .tc := ⟨.hbm, 712, rfl⟩
abbrev main_v634 : Ref sig .tc := ⟨.hbm, 713, rfl⟩
abbrev main_v635 : Ref sig .tc := ⟨.hbm, 714, rfl⟩
abbrev main_v636 : Ref sig .tc := ⟨.hbm, 715, rfl⟩
abbrev main_v637 : Ref sig .tc := ⟨.hbm, 716, rfl⟩
abbrev main_v638 : Ref sig .tc := ⟨.hbm, 717, rfl⟩
abbrev main_v639 : Ref sig .tc := ⟨.hbm, 718, rfl⟩
abbrev main_v640 : Ref sig .tc := ⟨.hbm, 719, rfl⟩
abbrev main_v641 : Ref sig .tc := ⟨.hbm, 720, rfl⟩
abbrev main_v642 : Ref sig .tc := ⟨.hbm, 721, rfl⟩
abbrev main_v643 : Ref sig .tc := ⟨.hbm, 722, rfl⟩
abbrev main_v644 : Ref sig .tc := ⟨.hbm, 723, rfl⟩
abbrev main_v645 : Ref sig .tc := ⟨.hbm, 724, rfl⟩
abbrev main_v646 : Ref sig .tc := ⟨.hbm, 725, rfl⟩
abbrev main_v647 : Ref sig .tc := ⟨.hbm, 726, rfl⟩
abbrev main_v648 : Ref sig .tc := ⟨.hbm, 727, rfl⟩
abbrev main_v649 : Ref sig .tc := ⟨.hbm, 728, rfl⟩
abbrev main_v650 : Ref sig .tc := ⟨.hbm, 729, rfl⟩
abbrev main_v651 : Ref sig .tc := ⟨.hbm, 730, rfl⟩
abbrev main_v652 : Ref sig .tc := ⟨.hbm, 731, rfl⟩
abbrev main_v653 : Ref sig .tc := ⟨.hbm, 732, rfl⟩
abbrev main_v654 : Ref sig .tc := ⟨.hbm, 733, rfl⟩
abbrev main_v655 : Ref sig .tc := ⟨.hbm, 734, rfl⟩
abbrev main_v656 : Ref sig .tc := ⟨.hbm, 735, rfl⟩
abbrev main_v657 : Ref sig .tc := ⟨.hbm, 736, rfl⟩
abbrev main_v658 : Ref sig .tc := ⟨.hbm, 737, rfl⟩
abbrev main_v659 : Ref sig .tc := ⟨.hbm, 738, rfl⟩
abbrev main_v660 : Ref sig .tc := ⟨.hbm, 739, rfl⟩
abbrev main_v661 : Ref sig .tc := ⟨.hbm, 740, rfl⟩
abbrev main_v662 : Ref sig .tc := ⟨.hbm, 741, rfl⟩
abbrev main_v663 : Ref sig .tc := ⟨.hbm, 742, rfl⟩
abbrev main_v664 : Ref sig .tc := ⟨.hbm, 743, rfl⟩
abbrev main_v665 : Ref sig .tc := ⟨.hbm, 744, rfl⟩
abbrev main_v666 : Ref sig .tc := ⟨.hbm, 745, rfl⟩
abbrev main_v667 : Ref sig .tc := ⟨.hbm, 746, rfl⟩
abbrev main_cst_72 : Ref sig .tc := ⟨.hbm, 747, rfl⟩
abbrev main_v668 : Ref sig .tc := ⟨.hbm, 748, rfl⟩
abbrev main_v669 : Ref sig .tc := ⟨.hbm, 749, rfl⟩
abbrev main_cst_73 : Ref sig .tc := ⟨.hbm, 750, rfl⟩
abbrev main_v670 : Ref sig .tc := ⟨.hbm, 751, rfl⟩
abbrev main_v671 : Ref sig .tc := ⟨.hbm, 752, rfl⟩
abbrev main_v672 : Ref sig .tc := ⟨.hbm, 753, rfl⟩
abbrev main_v673 : Ref sig .tc := ⟨.hbm, 754, rfl⟩
abbrev main_v674 : Ref sig .tc := ⟨.hbm, 755, rfl⟩
abbrev main_cst_74 : Ref sig .tc := ⟨.hbm, 756, rfl⟩
abbrev main_v675 : Ref sig .tc := ⟨.hbm, 757, rfl⟩
abbrev main_v676 : Ref sig .tc := ⟨.hbm, 758, rfl⟩
abbrev main_cst_75 : Ref sig .tc := ⟨.hbm, 759, rfl⟩
abbrev main_v677 : Ref sig .tc := ⟨.hbm, 760, rfl⟩
abbrev main_v678 : Ref sig .tc := ⟨.hbm, 761, rfl⟩
abbrev main_v679 : Ref sig .tc := ⟨.hbm, 762, rfl⟩
abbrev main_v680 : Ref sig .tc := ⟨.hbm, 763, rfl⟩
abbrev main_v681 : Ref sig .tc := ⟨.hbm, 764, rfl⟩
abbrev main_v682 : Ref sig .tc := ⟨.hbm, 765, rfl⟩
abbrev main_v683 : Ref sig .tc := ⟨.hbm, 766, rfl⟩
abbrev main_cst_76 : Ref sig .tc := ⟨.hbm, 767, rfl⟩
abbrev main_v684 : Ref sig .tc := ⟨.hbm, 768, rfl⟩
abbrev main_v685 : Ref sig .tc := ⟨.hbm, 769, rfl⟩
abbrev main_cst_77 : Ref sig .tc := ⟨.hbm, 770, rfl⟩
abbrev main_v686 : Ref sig .tc := ⟨.hbm, 771, rfl⟩
abbrev main_v687 : Ref sig .tc := ⟨.hbm, 772, rfl⟩
abbrev main_v688 : Ref sig .tc := ⟨.hbm, 773, rfl⟩
abbrev main_v689 : Ref sig .tc := ⟨.hbm, 774, rfl⟩
abbrev main_v690 : Ref sig .tc := ⟨.hbm, 775, rfl⟩
abbrev main_v691 : Ref sig .tc := ⟨.hbm, 776, rfl⟩
abbrev main_v692 : Ref sig .tc := ⟨.hbm, 777, rfl⟩
abbrev main_v693 : Ref sig .tc := ⟨.hbm, 778, rfl⟩
abbrev main_v694 : Ref sig .tc := ⟨.hbm, 779, rfl⟩
abbrev main_v695 : Ref sig .tc := ⟨.hbm, 780, rfl⟩
abbrev main_v696 : Ref sig .tc := ⟨.hbm, 781, rfl⟩
abbrev main_v697 : Ref sig .tc := ⟨.hbm, 782, rfl⟩
abbrev main_v698 : Ref sig .tc := ⟨.hbm, 783, rfl⟩
abbrev main_v699 : Ref sig .tc := ⟨.hbm, 784, rfl⟩
abbrev main_v700 : Ref sig .tc := ⟨.hbm, 785, rfl⟩
abbrev main_v701 : Ref sig .tc := ⟨.hbm, 786, rfl⟩
abbrev main_v702 : Ref sig .tc := ⟨.hbm, 787, rfl⟩
abbrev main_v703 : Ref sig .tc := ⟨.hbm, 788, rfl⟩
abbrev main_v704 : Ref sig .tc := ⟨.hbm, 789, rfl⟩
abbrev main_v705 : Ref sig .tc := ⟨.hbm, 790, rfl⟩
abbrev main_v706 : Ref sig .tc := ⟨.hbm, 791, rfl⟩
abbrev main_v707 : Ref sig .tc := ⟨.hbm, 792, rfl⟩
abbrev main_v708 : Ref sig .tc := ⟨.hbm, 793, rfl⟩
abbrev main_v709 : Ref sig .tc := ⟨.hbm, 794, rfl⟩
abbrev main_v710 : Ref sig .tc := ⟨.hbm, 795, rfl⟩
abbrev main_v711 : Ref sig .tc := ⟨.hbm, 796, rfl⟩
abbrev main_v712 : Ref sig .tc := ⟨.hbm, 797, rfl⟩
abbrev main_v713 : Ref sig .tc := ⟨.hbm, 798, rfl⟩
abbrev main_v714 : Ref sig .tc := ⟨.hbm, 799, rfl⟩
abbrev main_v715 : Ref sig .tc := ⟨.hbm, 800, rfl⟩
abbrev main_v716 : Ref sig .tc := ⟨.hbm, 801, rfl⟩
abbrev main_cst_78 : Ref sig .tc := ⟨.hbm, 802, rfl⟩
abbrev main_v717 : Ref sig .tc := ⟨.hbm, 803, rfl⟩
abbrev main_v718 : Ref sig .tc := ⟨.hbm, 804, rfl⟩
abbrev main_cst_79 : Ref sig .tc := ⟨.hbm, 805, rfl⟩
abbrev main_v719 : Ref sig .tc := ⟨.hbm, 806, rfl⟩
abbrev main_v720 : Ref sig .tc := ⟨.hbm, 807, rfl⟩
abbrev main_v721 : Ref sig .tc := ⟨.hbm, 808, rfl⟩
abbrev main_v722 : Ref sig .tc := ⟨.hbm, 809, rfl⟩
abbrev main_v723 : Ref sig .tc := ⟨.hbm, 810, rfl⟩
abbrev main_cst_80 : Ref sig .tc := ⟨.hbm, 811, rfl⟩
abbrev main_v724 : Ref sig .tc := ⟨.hbm, 812, rfl⟩
abbrev main_v725 : Ref sig .tc := ⟨.hbm, 813, rfl⟩
abbrev main_cst_81 : Ref sig .tc := ⟨.hbm, 814, rfl⟩
abbrev main_v726 : Ref sig .tc := ⟨.hbm, 815, rfl⟩
abbrev main_v727 : Ref sig .tc := ⟨.hbm, 816, rfl⟩
abbrev main_v728 : Ref sig .tc := ⟨.hbm, 817, rfl⟩
abbrev main_v729 : Ref sig .tc := ⟨.hbm, 818, rfl⟩
abbrev main_v730 : Ref sig .tc := ⟨.hbm, 819, rfl⟩
abbrev main_v731 : Ref sig .tc := ⟨.hbm, 820, rfl⟩
abbrev main_v732 : Ref sig .tc := ⟨.hbm, 821, rfl⟩
abbrev main_cst_82 : Ref sig .tc := ⟨.hbm, 822, rfl⟩
abbrev main_v733 : Ref sig .tc := ⟨.hbm, 823, rfl⟩
abbrev main_v734 : Ref sig .tc := ⟨.hbm, 824, rfl⟩
abbrev main_cst_83 : Ref sig .tc := ⟨.hbm, 825, rfl⟩
abbrev main_v735 : Ref sig .tc := ⟨.hbm, 826, rfl⟩
abbrev main_v736 : Ref sig .tc := ⟨.hbm, 827, rfl⟩
abbrev main_v737 : Ref sig .tc := ⟨.hbm, 828, rfl⟩
abbrev main_v738 : Ref sig .tc := ⟨.hbm, 829, rfl⟩
abbrev main_v739 : Ref sig .tc := ⟨.hbm, 830, rfl⟩
abbrev main_v740 : Ref sig .tc := ⟨.hbm, 831, rfl⟩
abbrev main_v741 : Ref sig .tc := ⟨.hbm, 832, rfl⟩
abbrev main_v742 : Ref sig .tc := ⟨.hbm, 833, rfl⟩
abbrev main_v743 : Ref sig .tc := ⟨.hbm, 834, rfl⟩
abbrev main_v744 : Ref sig .tc := ⟨.hbm, 835, rfl⟩
abbrev main_v745 : Ref sig .tc := ⟨.hbm, 836, rfl⟩
abbrev main_v746 : Ref sig .tc := ⟨.hbm, 837, rfl⟩
abbrev main_v747 : Ref sig .tc := ⟨.hbm, 838, rfl⟩
abbrev main_v748 : Ref sig .tc := ⟨.hbm, 839, rfl⟩
abbrev main_v749 : Ref sig .tc := ⟨.hbm, 840, rfl⟩
abbrev main_v750 : Ref sig .tc := ⟨.hbm, 841, rfl⟩
abbrev main_v751 : Ref sig .tc := ⟨.hbm, 842, rfl⟩
abbrev main_v752 : Ref sig .tc := ⟨.hbm, 843, rfl⟩
abbrev main_v753 : Ref sig .tc := ⟨.hbm, 844, rfl⟩
abbrev main_v754 : Ref sig .tc := ⟨.hbm, 845, rfl⟩
abbrev main_v755 : Ref sig .tc := ⟨.hbm, 846, rfl⟩
abbrev main_v756 : Ref sig .tc := ⟨.hbm, 847, rfl⟩
abbrev main_v757 : Ref sig .tc := ⟨.hbm, 848, rfl⟩
abbrev main_v758 : Ref sig .tc := ⟨.hbm, 849, rfl⟩
abbrev main_v759 : Ref sig .tc := ⟨.hbm, 850, rfl⟩
abbrev main_v760 : Ref sig .tc := ⟨.hbm, 851, rfl⟩
abbrev main_v761 : Ref sig .tc := ⟨.hbm, 852, rfl⟩
abbrev main_v762 : Ref sig .tc := ⟨.hbm, 853, rfl⟩
abbrev main_v763 : Ref sig .tc := ⟨.hbm, 854, rfl⟩
abbrev main_v764 : Ref sig .tc := ⟨.hbm, 855, rfl⟩
abbrev main_v765 : Ref sig .tc := ⟨.hbm, 856, rfl⟩
abbrev main_v766 : Ref sig .tc := ⟨.hbm, 857, rfl⟩
abbrev main_v767 : Ref sig .tc := ⟨.hbm, 858, rfl⟩
abbrev main_v768 : Ref sig .tc := ⟨.hbm, 859, rfl⟩
abbrev main_v769 : Ref sig .tc := ⟨.hbm, 860, rfl⟩
abbrev main_v770 : Ref sig .tc := ⟨.hbm, 861, rfl⟩
abbrev main_v771 : Ref sig .tc := ⟨.hbm, 862, rfl⟩
abbrev main_v772 : Ref sig .tc := ⟨.hbm, 863, rfl⟩
abbrev main_v773 : Ref sig .tc := ⟨.hbm, 864, rfl⟩
abbrev main_cst_84 : Ref sig .tc := ⟨.hbm, 865, rfl⟩
abbrev main_v774 : Ref sig .tc := ⟨.hbm, 866, rfl⟩
abbrev main_v775 : Ref sig .tc := ⟨.hbm, 867, rfl⟩
abbrev main_cst_85 : Ref sig .tc := ⟨.hbm, 868, rfl⟩
abbrev main_v776 : Ref sig .tc := ⟨.hbm, 869, rfl⟩
abbrev main_v777 : Ref sig .tc := ⟨.hbm, 870, rfl⟩
abbrev main_v778 : Ref sig .tc := ⟨.hbm, 871, rfl⟩
abbrev main_v779 : Ref sig .tc := ⟨.hbm, 872, rfl⟩
abbrev main_v780 : Ref sig .tc := ⟨.hbm, 873, rfl⟩
abbrev main_cst_86 : Ref sig .tc := ⟨.hbm, 874, rfl⟩
abbrev main_v781 : Ref sig .tc := ⟨.hbm, 875, rfl⟩
abbrev main_v782 : Ref sig .tc := ⟨.hbm, 876, rfl⟩
abbrev main_cst_87 : Ref sig .tc := ⟨.hbm, 877, rfl⟩
abbrev main_v783 : Ref sig .tc := ⟨.hbm, 878, rfl⟩
abbrev main_v784 : Ref sig .tc := ⟨.hbm, 879, rfl⟩
abbrev main_v785 : Ref sig .tc := ⟨.hbm, 880, rfl⟩
abbrev main_v786 : Ref sig .tc := ⟨.hbm, 881, rfl⟩
abbrev main_v787 : Ref sig .tc := ⟨.hbm, 882, rfl⟩
abbrev main_v788 : Ref sig .tc := ⟨.hbm, 883, rfl⟩
abbrev main_v789 : Ref sig .tc := ⟨.hbm, 884, rfl⟩
abbrev main_cst_88 : Ref sig .tc := ⟨.hbm, 885, rfl⟩
abbrev main_v790 : Ref sig .tc := ⟨.hbm, 886, rfl⟩
abbrev main_v791 : Ref sig .tc := ⟨.hbm, 887, rfl⟩
abbrev main_cst_89 : Ref sig .tc := ⟨.hbm, 888, rfl⟩
abbrev main_v792 : Ref sig .tc := ⟨.hbm, 889, rfl⟩
abbrev main_v793 : Ref sig .tc := ⟨.hbm, 890, rfl⟩
abbrev main_v794 : Ref sig .tc := ⟨.hbm, 891, rfl⟩
abbrev main_v795 : Ref sig .tc := ⟨.hbm, 892, rfl⟩
abbrev main_v796 : Ref sig .tc := ⟨.hbm, 893, rfl⟩
abbrev main_v797 : Ref sig .tc := ⟨.hbm, 894, rfl⟩
abbrev main_v798 : Ref sig .tc := ⟨.hbm, 895, rfl⟩
abbrev main_v799 : Ref sig .tc := ⟨.hbm, 896, rfl⟩
abbrev main_v800 : Ref sig .tc := ⟨.hbm, 897, rfl⟩
abbrev main_v801 : Ref sig .tc := ⟨.hbm, 898, rfl⟩
abbrev main_v802 : Ref sig .tc := ⟨.hbm, 899, rfl⟩
abbrev main_v803 : Ref sig .tc := ⟨.hbm, 900, rfl⟩
abbrev main_v804 : Ref sig .tc := ⟨.hbm, 901, rfl⟩
abbrev main_v805 : Ref sig .tc := ⟨.hbm, 902, rfl⟩
abbrev main_v806 : Ref sig .tc := ⟨.hbm, 903, rfl⟩
abbrev main_v807 : Ref sig .tc := ⟨.hbm, 904, rfl⟩
abbrev main_v808 : Ref sig .tc := ⟨.hbm, 905, rfl⟩
abbrev main_v809 : Ref sig .tc := ⟨.hbm, 906, rfl⟩
abbrev main_v810 : Ref sig .tc := ⟨.hbm, 907, rfl⟩
abbrev main_v811 : Ref sig .tc := ⟨.hbm, 908, rfl⟩
abbrev main_v812 : Ref sig .tc := ⟨.hbm, 909, rfl⟩
abbrev main_v813 : Ref sig .tc := ⟨.hbm, 910, rfl⟩
abbrev main_v814 : Ref sig .tc := ⟨.hbm, 911, rfl⟩
abbrev main_v815 : Ref sig .tc := ⟨.hbm, 912, rfl⟩
abbrev main_v816 : Ref sig .tc := ⟨.hbm, 913, rfl⟩
abbrev main_v817 : Ref sig .tc := ⟨.hbm, 914, rfl⟩
abbrev main_v818 : Ref sig .tc := ⟨.hbm, 915, rfl⟩
abbrev main_v819 : Ref sig .tc := ⟨.hbm, 916, rfl⟩
abbrev main_v820 : Ref sig .tc := ⟨.hbm, 917, rfl⟩
abbrev main_v821 : Ref sig .tc := ⟨.hbm, 918, rfl⟩
abbrev main_v822 : Ref sig .tc := ⟨.hbm, 919, rfl⟩
abbrev main_cst_90 : Ref sig .tc := ⟨.hbm, 920, rfl⟩
abbrev main_v823 : Ref sig .tc := ⟨.hbm, 921, rfl⟩
abbrev main_v824 : Ref sig .tc := ⟨.hbm, 922, rfl⟩
abbrev main_cst_91 : Ref sig .tc := ⟨.hbm, 923, rfl⟩
abbrev main_v825 : Ref sig .tc := ⟨.hbm, 924, rfl⟩
abbrev main_v826 : Ref sig .tc := ⟨.hbm, 925, rfl⟩
abbrev main_v827 : Ref sig .tc := ⟨.hbm, 926, rfl⟩
abbrev main_v828 : Ref sig .tc := ⟨.hbm, 927, rfl⟩
abbrev main_v829 : Ref sig .tc := ⟨.hbm, 928, rfl⟩
abbrev main_cst_92 : Ref sig .tc := ⟨.hbm, 929, rfl⟩
abbrev main_v830 : Ref sig .tc := ⟨.hbm, 930, rfl⟩
abbrev main_v831 : Ref sig .tc := ⟨.hbm, 931, rfl⟩
abbrev main_cst_93 : Ref sig .tc := ⟨.hbm, 932, rfl⟩
abbrev main_v832 : Ref sig .tc := ⟨.hbm, 933, rfl⟩
abbrev main_v833 : Ref sig .tc := ⟨.hbm, 934, rfl⟩
abbrev main_v834 : Ref sig .tc := ⟨.hbm, 935, rfl⟩
abbrev main_v835 : Ref sig .tc := ⟨.hbm, 936, rfl⟩
abbrev main_v836 : Ref sig .tc := ⟨.hbm, 937, rfl⟩
abbrev main_v837 : Ref sig .tc := ⟨.hbm, 938, rfl⟩
abbrev main_v838 : Ref sig .tc := ⟨.hbm, 939, rfl⟩
abbrev main_cst_94 : Ref sig .tc := ⟨.hbm, 940, rfl⟩
abbrev main_v839 : Ref sig .tc := ⟨.hbm, 941, rfl⟩
abbrev main_v840 : Ref sig .tc := ⟨.hbm, 942, rfl⟩
abbrev main_cst_95 : Ref sig .tc := ⟨.hbm, 943, rfl⟩
abbrev main_v841 : Ref sig .tc := ⟨.hbm, 944, rfl⟩
abbrev main_v842 : Ref sig .tc := ⟨.hbm, 945, rfl⟩
abbrev main_v843 : Ref sig .tc := ⟨.hbm, 946, rfl⟩
abbrev main_v844 : Ref sig .tc := ⟨.hbm, 947, rfl⟩
abbrev main_v845 : Ref sig .tc := ⟨.hbm, 948, rfl⟩
abbrev main_v846 : Ref sig .tc := ⟨.hbm, 949, rfl⟩
abbrev main_v847 : Ref sig .tc := ⟨.hbm, 950, rfl⟩
abbrev main_v848 : Ref sig .tc := ⟨.hbm, 951, rfl⟩
abbrev main_v849 : Ref sig .tc := ⟨.hbm, 952, rfl⟩
abbrev main_v850 : Ref sig .tc := ⟨.hbm, 953, rfl⟩
abbrev main_v851 : Ref sig .tc := ⟨.hbm, 954, rfl⟩
abbrev main_v852 : Ref sig .tc := ⟨.hbm, 955, rfl⟩
abbrev main_v853 : Ref sig .tc := ⟨.hbm, 956, rfl⟩
abbrev main_v854 : Ref sig .tc := ⟨.hbm, 957, rfl⟩
abbrev main_v855 : Ref sig .tc := ⟨.hbm, 958, rfl⟩
abbrev main_v856 : Ref sig .tc := ⟨.hbm, 959, rfl⟩
abbrev main_v857 : Ref sig .tc := ⟨.hbm, 960, rfl⟩
abbrev main_v858 : Ref sig .tc := ⟨.hbm, 961, rfl⟩
abbrev main_v859 : Ref sig .tc := ⟨.hbm, 962, rfl⟩
abbrev main_v860 : Ref sig .tc := ⟨.hbm, 963, rfl⟩
abbrev main_v861 : Ref sig .tc := ⟨.hbm, 964, rfl⟩
abbrev main_v862 : Ref sig .tc := ⟨.hbm, 965, rfl⟩
abbrev main_v863 : Ref sig .tc := ⟨.hbm, 966, rfl⟩
abbrev main_v864 : Ref sig .tc := ⟨.hbm, 967, rfl⟩
abbrev main_v865 : Ref sig .tc := ⟨.hbm, 968, rfl⟩
abbrev main_v866 : Ref sig .tc := ⟨.hbm, 969, rfl⟩
abbrev main_v867 : Ref sig .tc := ⟨.hbm, 970, rfl⟩
abbrev main_v868 : Ref sig .tc := ⟨.hbm, 971, rfl⟩
abbrev main_v869 : Ref sig .tc := ⟨.hbm, 972, rfl⟩
abbrev main_v870 : Ref sig .tc := ⟨.hbm, 973, rfl⟩
abbrev main_v871 : Ref sig .tc := ⟨.hbm, 974, rfl⟩
abbrev main_v872 : Ref sig .tc := ⟨.hbm, 975, rfl⟩
abbrev main_v873 : Ref sig .tc := ⟨.hbm, 976, rfl⟩
abbrev main_v874 : Ref sig .tc := ⟨.hbm, 977, rfl⟩
abbrev main_v875 : Ref sig .tc := ⟨.hbm, 978, rfl⟩
abbrev main_v876 : Ref sig .tc := ⟨.hbm, 979, rfl⟩
abbrev main_v877 : Ref sig .tc := ⟨.hbm, 980, rfl⟩
abbrev main_v878 : Ref sig .tc := ⟨.hbm, 981, rfl⟩
abbrev main_v879 : Ref sig .tc := ⟨.hbm, 982, rfl⟩
abbrev main_cst_96 : Ref sig .tc := ⟨.hbm, 983, rfl⟩
abbrev main_v880 : Ref sig .tc := ⟨.hbm, 984, rfl⟩
abbrev main_v881 : Ref sig .tc := ⟨.hbm, 985, rfl⟩
abbrev main_cst_97 : Ref sig .tc := ⟨.hbm, 986, rfl⟩
abbrev main_v882 : Ref sig .tc := ⟨.hbm, 987, rfl⟩
abbrev main_v883 : Ref sig .tc := ⟨.hbm, 988, rfl⟩
abbrev main_v884 : Ref sig .tc := ⟨.hbm, 989, rfl⟩
abbrev main_v885 : Ref sig .tc := ⟨.hbm, 990, rfl⟩
abbrev main_v886 : Ref sig .tc := ⟨.hbm, 991, rfl⟩
abbrev main_cst_98 : Ref sig .tc := ⟨.hbm, 992, rfl⟩
abbrev main_v887 : Ref sig .tc := ⟨.hbm, 993, rfl⟩
abbrev main_v888 : Ref sig .tc := ⟨.hbm, 994, rfl⟩
abbrev main_cst_99 : Ref sig .tc := ⟨.hbm, 995, rfl⟩
abbrev main_v889 : Ref sig .tc := ⟨.hbm, 996, rfl⟩
abbrev main_v890 : Ref sig .tc := ⟨.hbm, 997, rfl⟩
abbrev main_v891 : Ref sig .tc := ⟨.hbm, 998, rfl⟩
abbrev main_v892 : Ref sig .tc := ⟨.hbm, 999, rfl⟩
abbrev main_v893 : Ref sig .tc := ⟨.hbm, 1000, rfl⟩
abbrev main_v894 : Ref sig .tc := ⟨.hbm, 1001, rfl⟩
abbrev main_v895 : Ref sig .tc := ⟨.hbm, 1002, rfl⟩
abbrev main_cst_100 : Ref sig .tc := ⟨.hbm, 1003, rfl⟩
abbrev main_v896 : Ref sig .tc := ⟨.hbm, 1004, rfl⟩
abbrev main_v897 : Ref sig .tc := ⟨.hbm, 1005, rfl⟩
abbrev main_cst_101 : Ref sig .tc := ⟨.hbm, 1006, rfl⟩
abbrev main_v898 : Ref sig .tc := ⟨.hbm, 1007, rfl⟩
abbrev main_v899 : Ref sig .tc := ⟨.hbm, 1008, rfl⟩
abbrev main_v900 : Ref sig .tc := ⟨.hbm, 1009, rfl⟩
abbrev main_v901 : Ref sig .tc := ⟨.hbm, 1010, rfl⟩
abbrev main_v902 : Ref sig .tc := ⟨.hbm, 1011, rfl⟩
abbrev main_v903 : Ref sig .tc := ⟨.hbm, 1012, rfl⟩
abbrev main_v904 : Ref sig .tc := ⟨.hbm, 1013, rfl⟩
abbrev main_v905 : Ref sig .tc := ⟨.hbm, 1014, rfl⟩
abbrev main_v906 : Ref sig .tc := ⟨.hbm, 1015, rfl⟩
abbrev main_v907 : Ref sig .tc := ⟨.hbm, 1016, rfl⟩
abbrev main_v908 : Ref sig .tc := ⟨.hbm, 1017, rfl⟩
abbrev main_v909 : Ref sig .tc := ⟨.hbm, 1018, rfl⟩
abbrev main_v910 : Ref sig .tc := ⟨.hbm, 1019, rfl⟩
abbrev main_v911 : Ref sig .tc := ⟨.hbm, 1020, rfl⟩
abbrev main_v912 : Ref sig .tc := ⟨.hbm, 1021, rfl⟩
abbrev main_v913 : Ref sig .tc := ⟨.hbm, 1022, rfl⟩
abbrev main_v914 : Ref sig .tc := ⟨.hbm, 1023, rfl⟩
abbrev main_v915 : Ref sig .tc := ⟨.hbm, 1024, rfl⟩
abbrev main_v916 : Ref sig .tc := ⟨.hbm, 1025, rfl⟩
abbrev main_v917 : Ref sig .tc := ⟨.hbm, 1026, rfl⟩
abbrev main_v918 : Ref sig .tc := ⟨.hbm, 1027, rfl⟩
abbrev main_v919 : Ref sig .tc := ⟨.hbm, 1028, rfl⟩
abbrev main_v920 : Ref sig .tc := ⟨.hbm, 1029, rfl⟩
abbrev main_v921 : Ref sig .tc := ⟨.hbm, 1030, rfl⟩
abbrev main_v922 : Ref sig .tc := ⟨.hbm, 1031, rfl⟩
abbrev main_v923 : Ref sig .tc := ⟨.hbm, 1032, rfl⟩
abbrev main_v924 : Ref sig .tc := ⟨.hbm, 1033, rfl⟩
abbrev main_v925 : Ref sig .tc := ⟨.hbm, 1034, rfl⟩
abbrev main_v926 : Ref sig .tc := ⟨.hbm, 1035, rfl⟩
abbrev main_v927 : Ref sig .tc := ⟨.hbm, 1036, rfl⟩
abbrev main_v928 : Ref sig .tc := ⟨.hbm, 1037, rfl⟩
abbrev main_cst_102 : Ref sig .tc := ⟨.hbm, 1038, rfl⟩
abbrev main_v929 : Ref sig .tc := ⟨.hbm, 1039, rfl⟩
abbrev main_v930 : Ref sig .tc := ⟨.hbm, 1040, rfl⟩
abbrev main_cst_103 : Ref sig .tc := ⟨.hbm, 1041, rfl⟩
abbrev main_v931 : Ref sig .tc := ⟨.hbm, 1042, rfl⟩
abbrev main_v932 : Ref sig .tc := ⟨.hbm, 1043, rfl⟩
abbrev main_v933 : Ref sig .tc := ⟨.hbm, 1044, rfl⟩
abbrev main_v934 : Ref sig .tc := ⟨.hbm, 1045, rfl⟩
abbrev main_v935 : Ref sig .tc := ⟨.hbm, 1046, rfl⟩
abbrev main_cst_104 : Ref sig .tc := ⟨.hbm, 1047, rfl⟩
abbrev main_v936 : Ref sig .tc := ⟨.hbm, 1048, rfl⟩
abbrev main_v937 : Ref sig .tc := ⟨.hbm, 1049, rfl⟩
abbrev main_cst_105 : Ref sig .tc := ⟨.hbm, 1050, rfl⟩
abbrev main_v938 : Ref sig .tc := ⟨.hbm, 1051, rfl⟩
abbrev main_v939 : Ref sig .tc := ⟨.hbm, 1052, rfl⟩
abbrev main_v940 : Ref sig .tc := ⟨.hbm, 1053, rfl⟩
abbrev main_v941 : Ref sig .tc := ⟨.hbm, 1054, rfl⟩
abbrev main_v942 : Ref sig .tc := ⟨.hbm, 1055, rfl⟩
abbrev main_v943 : Ref sig .tc := ⟨.hbm, 1056, rfl⟩
abbrev main_v944 : Ref sig .tc := ⟨.hbm, 1057, rfl⟩
abbrev main_cst_106 : Ref sig .tc := ⟨.hbm, 1058, rfl⟩
abbrev main_v945 : Ref sig .tc := ⟨.hbm, 1059, rfl⟩
abbrev main_v946 : Ref sig .tc := ⟨.hbm, 1060, rfl⟩
abbrev main_cst_107 : Ref sig .tc := ⟨.hbm, 1061, rfl⟩
abbrev main_v947 : Ref sig .tc := ⟨.hbm, 1062, rfl⟩
abbrev main_v948 : Ref sig .tc := ⟨.hbm, 1063, rfl⟩
abbrev main_v949 : Ref sig .tc := ⟨.hbm, 1064, rfl⟩
abbrev main_v950 : Ref sig .tc := ⟨.hbm, 1065, rfl⟩
abbrev main_v951 : Ref sig .tc := ⟨.hbm, 1066, rfl⟩
abbrev main_v952 : Ref sig .tc := ⟨.hbm, 1067, rfl⟩
abbrev main_v953 : Ref sig .tc := ⟨.hbm, 1068, rfl⟩
abbrev main_v954 : Ref sig .tc := ⟨.hbm, 1069, rfl⟩
abbrev main_v955 : Ref sig .tc := ⟨.hbm, 1070, rfl⟩
abbrev main_v956 : Ref sig .tc := ⟨.hbm, 1071, rfl⟩
abbrev main_v957 : Ref sig .tc := ⟨.hbm, 1072, rfl⟩
abbrev main_v958 : Ref sig .tc := ⟨.hbm, 1073, rfl⟩
abbrev main_v959 : Ref sig .tc := ⟨.hbm, 1074, rfl⟩
abbrev main_v960 : Ref sig .tc := ⟨.hbm, 1075, rfl⟩
abbrev main_v961 : Ref sig .tc := ⟨.hbm, 1076, rfl⟩
abbrev main_v962 : Ref sig .tc := ⟨.hbm, 1077, rfl⟩
abbrev main_v963 : Ref sig .tc := ⟨.hbm, 1078, rfl⟩
abbrev main_v964 : Ref sig .tc := ⟨.hbm, 1079, rfl⟩
abbrev main_v965 : Ref sig .tc := ⟨.hbm, 1080, rfl⟩
abbrev main_v966 : Ref sig .tc := ⟨.hbm, 1081, rfl⟩
abbrev main_v967 : Ref sig .tc := ⟨.hbm, 1082, rfl⟩
abbrev main_v968 : Ref sig .tc := ⟨.hbm, 1083, rfl⟩
abbrev main_v969 : Ref sig .tc := ⟨.hbm, 1084, rfl⟩
abbrev main_v970 : Ref sig .tc := ⟨.hbm, 1085, rfl⟩
abbrev main_v971 : Ref sig .tc := ⟨.hbm, 1086, rfl⟩
abbrev main_v972 : Ref sig .tc := ⟨.hbm, 1087, rfl⟩
abbrev main_v973 : Ref sig .tc := ⟨.hbm, 1088, rfl⟩
abbrev main_v974 : Ref sig .tc := ⟨.hbm, 1089, rfl⟩
abbrev main_v975 : Ref sig .tc := ⟨.hbm, 1090, rfl⟩
abbrev main_v976 : Ref sig .tc := ⟨.hbm, 1091, rfl⟩
abbrev main_v977 : Ref sig .tc := ⟨.hbm, 1092, rfl⟩
abbrev main_v978 : Ref sig .tc := ⟨.hbm, 1093, rfl⟩
abbrev main_v979 : Ref sig .tc := ⟨.hbm, 1094, rfl⟩
abbrev main_v980 : Ref sig .tc := ⟨.hbm, 1095, rfl⟩
abbrev main_v981 : Ref sig .tc := ⟨.hbm, 1096, rfl⟩
abbrev main_v982 : Ref sig .tc := ⟨.hbm, 1097, rfl⟩
abbrev main_v983 : Ref sig .tc := ⟨.hbm, 1098, rfl⟩
abbrev main_v984 : Ref sig .tc := ⟨.hbm, 1099, rfl⟩
abbrev main_v985 : Ref sig .tc := ⟨.hbm, 1100, rfl⟩
abbrev main_cst_108 : Ref sig .tc := ⟨.hbm, 1101, rfl⟩
abbrev main_v986 : Ref sig .tc := ⟨.hbm, 1102, rfl⟩
abbrev main_v987 : Ref sig .tc := ⟨.hbm, 1103, rfl⟩
abbrev main_cst_109 : Ref sig .tc := ⟨.hbm, 1104, rfl⟩
abbrev main_v988 : Ref sig .tc := ⟨.hbm, 1105, rfl⟩
abbrev main_v989 : Ref sig .tc := ⟨.hbm, 1106, rfl⟩
abbrev main_v990 : Ref sig .tc := ⟨.hbm, 1107, rfl⟩
abbrev main_v991 : Ref sig .tc := ⟨.hbm, 1108, rfl⟩
abbrev main_v992 : Ref sig .tc := ⟨.hbm, 1109, rfl⟩
abbrev main_cst_110 : Ref sig .tc := ⟨.hbm, 1110, rfl⟩
abbrev main_v993 : Ref sig .tc := ⟨.hbm, 1111, rfl⟩
abbrev main_v994 : Ref sig .tc := ⟨.hbm, 1112, rfl⟩
abbrev main_cst_111 : Ref sig .tc := ⟨.hbm, 1113, rfl⟩
abbrev main_v995 : Ref sig .tc := ⟨.hbm, 1114, rfl⟩
abbrev main_v996 : Ref sig .tc := ⟨.hbm, 1115, rfl⟩
abbrev main_v997 : Ref sig .tc := ⟨.hbm, 1116, rfl⟩
abbrev main_v998 : Ref sig .tc := ⟨.hbm, 1117, rfl⟩
abbrev main_v999 : Ref sig .tc := ⟨.hbm, 1118, rfl⟩
abbrev main_v1000 : Ref sig .tc := ⟨.hbm, 1119, rfl⟩
abbrev main_v1001 : Ref sig .tc := ⟨.hbm, 1120, rfl⟩
abbrev main_cst_112 : Ref sig .tc := ⟨.hbm, 1121, rfl⟩
abbrev main_v1002 : Ref sig .tc := ⟨.hbm, 1122, rfl⟩
abbrev main_v1003 : Ref sig .tc := ⟨.hbm, 1123, rfl⟩
abbrev main_cst_113 : Ref sig .tc := ⟨.hbm, 1124, rfl⟩
abbrev main_v1004 : Ref sig .tc := ⟨.hbm, 1125, rfl⟩
abbrev main_v1005 : Ref sig .tc := ⟨.hbm, 1126, rfl⟩
abbrev main_v1006 : Ref sig .tc := ⟨.hbm, 1127, rfl⟩
abbrev main_v1007 : Ref sig .tc := ⟨.hbm, 1128, rfl⟩
abbrev main_v1008 : Ref sig .tc := ⟨.hbm, 1129, rfl⟩
abbrev main_v1009 : Ref sig .tc := ⟨.hbm, 1130, rfl⟩
abbrev main_v1010 : Ref sig .tc := ⟨.hbm, 1131, rfl⟩
abbrev main_v1011 : Ref sig .tc := ⟨.hbm, 1132, rfl⟩
abbrev main_v1012 : Ref sig .tc := ⟨.hbm, 1133, rfl⟩
abbrev main_v1013 : Ref sig .tc := ⟨.hbm, 1134, rfl⟩
abbrev main_v1014 : Ref sig .tc := ⟨.hbm, 1135, rfl⟩
abbrev main_v1015 : Ref sig .tc := ⟨.hbm, 1136, rfl⟩
abbrev main_v1016 : Ref sig .tc := ⟨.hbm, 1137, rfl⟩
abbrev main_v1017 : Ref sig .tc := ⟨.hbm, 1138, rfl⟩
abbrev main_v1018 : Ref sig .tc := ⟨.hbm, 1139, rfl⟩
abbrev main_v1019 : Ref sig .tc := ⟨.hbm, 1140, rfl⟩
abbrev main_v1020 : Ref sig .tc := ⟨.hbm, 1141, rfl⟩
abbrev main_v1021 : Ref sig .tc := ⟨.hbm, 1142, rfl⟩
abbrev main_v1022 : Ref sig .tc := ⟨.hbm, 1143, rfl⟩
abbrev main_v1023 : Ref sig .tc := ⟨.hbm, 1144, rfl⟩
abbrev main_v1024 : Ref sig .tc := ⟨.hbm, 1145, rfl⟩
abbrev main_v1025 : Ref sig .tc := ⟨.hbm, 1146, rfl⟩
abbrev main_v1026 : Ref sig .tc := ⟨.hbm, 1147, rfl⟩
abbrev main_v1027 : Ref sig .tc := ⟨.hbm, 1148, rfl⟩
abbrev main_v1028 : Ref sig .tc := ⟨.hbm, 1149, rfl⟩
abbrev main_v1029 : Ref sig .tc := ⟨.hbm, 1150, rfl⟩
abbrev main_v1030 : Ref sig .tc := ⟨.hbm, 1151, rfl⟩
abbrev main_v1031 : Ref sig .tc := ⟨.hbm, 1152, rfl⟩
abbrev main_v1032 : Ref sig .tc := ⟨.hbm, 1153, rfl⟩
abbrev main_v1033 : Ref sig .tc := ⟨.hbm, 1154, rfl⟩
abbrev main_v1034 : Ref sig .tc := ⟨.hbm, 1155, rfl⟩
abbrev main_cst_114 : Ref sig .tc := ⟨.hbm, 1156, rfl⟩
abbrev main_v1035 : Ref sig .tc := ⟨.hbm, 1157, rfl⟩
abbrev main_v1036 : Ref sig .tc := ⟨.hbm, 1158, rfl⟩
abbrev main_cst_115 : Ref sig .tc := ⟨.hbm, 1159, rfl⟩
abbrev main_v1037 : Ref sig .tc := ⟨.hbm, 1160, rfl⟩
abbrev main_v1038 : Ref sig .tc := ⟨.hbm, 1161, rfl⟩
abbrev main_v1039 : Ref sig .tc := ⟨.hbm, 1162, rfl⟩
abbrev main_v1040 : Ref sig .tc := ⟨.hbm, 1163, rfl⟩
abbrev main_v1041 : Ref sig .tc := ⟨.hbm, 1164, rfl⟩
abbrev main_cst_116 : Ref sig .tc := ⟨.hbm, 1165, rfl⟩
abbrev main_v1042 : Ref sig .tc := ⟨.hbm, 1166, rfl⟩
abbrev main_v1043 : Ref sig .tc := ⟨.hbm, 1167, rfl⟩
abbrev main_cst_117 : Ref sig .tc := ⟨.hbm, 1168, rfl⟩
abbrev main_v1044 : Ref sig .tc := ⟨.hbm, 1169, rfl⟩
abbrev main_v1045 : Ref sig .tc := ⟨.hbm, 1170, rfl⟩
abbrev main_v1046 : Ref sig .tc := ⟨.hbm, 1171, rfl⟩
abbrev main_v1047 : Ref sig .tc := ⟨.hbm, 1172, rfl⟩
abbrev main_v1048 : Ref sig .tc := ⟨.hbm, 1173, rfl⟩
abbrev main_v1049 : Ref sig .tc := ⟨.hbm, 1174, rfl⟩
abbrev main_v1050 : Ref sig .tc := ⟨.hbm, 1175, rfl⟩
abbrev main_cst_118 : Ref sig .tc := ⟨.hbm, 1176, rfl⟩
abbrev main_v1051 : Ref sig .tc := ⟨.hbm, 1177, rfl⟩
abbrev main_v1052 : Ref sig .tc := ⟨.hbm, 1178, rfl⟩
abbrev main_cst_119 : Ref sig .tc := ⟨.hbm, 1179, rfl⟩
abbrev main_v1053 : Ref sig .tc := ⟨.hbm, 1180, rfl⟩
abbrev main_v1054 : Ref sig .tc := ⟨.hbm, 1181, rfl⟩
abbrev main_v1055 : Ref sig .tc := ⟨.hbm, 1182, rfl⟩
abbrev main_v1056 : Ref sig .tc := ⟨.hbm, 1183, rfl⟩
abbrev main_v1057 : Ref sig .tc := ⟨.hbm, 1184, rfl⟩
abbrev main_v1058 : Ref sig .tc := ⟨.hbm, 1185, rfl⟩
abbrev main_v1059 : Ref sig .tc := ⟨.hbm, 1186, rfl⟩
abbrev main_v1060 : Ref sig .tc := ⟨.hbm, 1187, rfl⟩
abbrev main_v1061 : Ref sig .tc := ⟨.hbm, 1188, rfl⟩
abbrev main_v1062 : Ref sig .tc := ⟨.hbm, 1189, rfl⟩
abbrev main_v1063 : Ref sig .tc := ⟨.hbm, 1190, rfl⟩
abbrev main_v1064 : Ref sig .tc := ⟨.hbm, 1191, rfl⟩
abbrev main_v1065 : Ref sig .tc := ⟨.hbm, 1192, rfl⟩
abbrev main_v1066 : Ref sig .tc := ⟨.hbm, 1193, rfl⟩
abbrev main_v1067 : Ref sig .tc := ⟨.hbm, 1194, rfl⟩
abbrev main_v1068 : Ref sig .tc := ⟨.hbm, 1195, rfl⟩
abbrev main_v1069 : Ref sig .tc := ⟨.hbm, 1196, rfl⟩
abbrev main_v1070 : Ref sig .tc := ⟨.hbm, 1197, rfl⟩
abbrev main_v1071 : Ref sig .tc := ⟨.hbm, 1198, rfl⟩
abbrev main_v1072 : Ref sig .tc := ⟨.hbm, 1199, rfl⟩
abbrev main_v1073 : Ref sig .tc := ⟨.hbm, 1200, rfl⟩
abbrev main_v1074 : Ref sig .tc := ⟨.hbm, 1201, rfl⟩
abbrev main_v1075 : Ref sig .tc := ⟨.hbm, 1202, rfl⟩
abbrev main_v1076 : Ref sig .tc := ⟨.hbm, 1203, rfl⟩
abbrev main_v1077 : Ref sig .tc := ⟨.hbm, 1204, rfl⟩
abbrev main_v1078 : Ref sig .tc := ⟨.hbm, 1205, rfl⟩
abbrev main_v1079 : Ref sig .tc := ⟨.hbm, 1206, rfl⟩
abbrev main_v1080 : Ref sig .tc := ⟨.hbm, 1207, rfl⟩
abbrev main_v1081 : Ref sig .tc := ⟨.hbm, 1208, rfl⟩
abbrev main_v1082 : Ref sig .tc := ⟨.hbm, 1209, rfl⟩
abbrev main_v1083 : Ref sig .tc := ⟨.hbm, 1210, rfl⟩
abbrev main_v1084 : Ref sig .tc := ⟨.hbm, 1211, rfl⟩
abbrev main_v1085 : Ref sig .tc := ⟨.hbm, 1212, rfl⟩
abbrev main_v1086 : Ref sig .tc := ⟨.hbm, 1213, rfl⟩
abbrev main_v1087 : Ref sig .tc := ⟨.hbm, 1214, rfl⟩
abbrev main_v1088 : Ref sig .tc := ⟨.hbm, 1215, rfl⟩
abbrev main_v1089 : Ref sig .tc := ⟨.hbm, 1216, rfl⟩
abbrev main_v1090 : Ref sig .tc := ⟨.hbm, 1217, rfl⟩
abbrev main_v1091 : Ref sig .tc := ⟨.hbm, 1218, rfl⟩
abbrev main_cst_120 : Ref sig .tc := ⟨.hbm, 1219, rfl⟩
abbrev main_v1092 : Ref sig .tc := ⟨.hbm, 1220, rfl⟩
abbrev main_v1093 : Ref sig .tc := ⟨.hbm, 1221, rfl⟩
abbrev main_cst_121 : Ref sig .tc := ⟨.hbm, 1222, rfl⟩
abbrev main_v1094 : Ref sig .tc := ⟨.hbm, 1223, rfl⟩
abbrev main_v1095 : Ref sig .tc := ⟨.hbm, 1224, rfl⟩
abbrev main_v1096 : Ref sig .tc := ⟨.hbm, 1225, rfl⟩
abbrev main_v1097 : Ref sig .tc := ⟨.hbm, 1226, rfl⟩
abbrev main_v1098 : Ref sig .tc := ⟨.hbm, 1227, rfl⟩
abbrev main_cst_122 : Ref sig .tc := ⟨.hbm, 1228, rfl⟩
abbrev main_v1099 : Ref sig .tc := ⟨.hbm, 1229, rfl⟩
abbrev main_v1100 : Ref sig .tc := ⟨.hbm, 1230, rfl⟩
abbrev main_cst_123 : Ref sig .tc := ⟨.hbm, 1231, rfl⟩
abbrev main_v1101 : Ref sig .tc := ⟨.hbm, 1232, rfl⟩
abbrev main_v1102 : Ref sig .tc := ⟨.hbm, 1233, rfl⟩
abbrev main_v1103 : Ref sig .tc := ⟨.hbm, 1234, rfl⟩
abbrev main_v1104 : Ref sig .tc := ⟨.hbm, 1235, rfl⟩
abbrev main_v1105 : Ref sig .tc := ⟨.hbm, 1236, rfl⟩
abbrev main_v1106 : Ref sig .tc := ⟨.hbm, 1237, rfl⟩
abbrev main_v1107 : Ref sig .tc := ⟨.hbm, 1238, rfl⟩
abbrev main_cst_124 : Ref sig .tc := ⟨.hbm, 1239, rfl⟩
abbrev main_v1108 : Ref sig .tc := ⟨.hbm, 1240, rfl⟩
abbrev main_v1109 : Ref sig .tc := ⟨.hbm, 1241, rfl⟩
abbrev main_cst_125 : Ref sig .tc := ⟨.hbm, 1242, rfl⟩
abbrev main_v1110 : Ref sig .tc := ⟨.hbm, 1243, rfl⟩
abbrev main_v1111 : Ref sig .tc := ⟨.hbm, 1244, rfl⟩
abbrev main_v1112 : Ref sig .tc := ⟨.hbm, 1245, rfl⟩
abbrev main_v1113 : Ref sig .tc := ⟨.hbm, 1246, rfl⟩
abbrev main_v1114 : Ref sig .tc := ⟨.hbm, 1247, rfl⟩
abbrev main_v1115 : Ref sig .tc := ⟨.hbm, 1248, rfl⟩
abbrev main_v1116 : Ref sig .tc := ⟨.hbm, 1249, rfl⟩
abbrev main_v1117 : Ref sig .tc := ⟨.hbm, 1250, rfl⟩
abbrev main_v1118 : Ref sig .tc := ⟨.hbm, 1251, rfl⟩
abbrev main_v1119 : Ref sig .tc := ⟨.hbm, 1252, rfl⟩
abbrev main_v1120 : Ref sig .tc := ⟨.hbm, 1253, rfl⟩
abbrev main_v1121 : Ref sig .tc := ⟨.hbm, 1254, rfl⟩
abbrev main_v1122 : Ref sig .tc := ⟨.hbm, 1255, rfl⟩
abbrev main_v1123 : Ref sig .tc := ⟨.hbm, 1256, rfl⟩
abbrev main_v1124 : Ref sig .tc := ⟨.hbm, 1257, rfl⟩
abbrev main_v1125 : Ref sig .tc := ⟨.hbm, 1258, rfl⟩
abbrev main_v1126 : Ref sig .tc := ⟨.hbm, 1259, rfl⟩
abbrev main_v1127 : Ref sig .tc := ⟨.hbm, 1260, rfl⟩
abbrev main_v1128 : Ref sig .tc := ⟨.hbm, 1261, rfl⟩
abbrev main_v1129 : Ref sig .tc := ⟨.hbm, 1262, rfl⟩
abbrev main_v1130 : Ref sig .tc := ⟨.hbm, 1263, rfl⟩
abbrev main_v1131 : Ref sig .tc := ⟨.hbm, 1264, rfl⟩
abbrev main_v1132 : Ref sig .tc := ⟨.hbm, 1265, rfl⟩
abbrev main_v1133 : Ref sig .tc := ⟨.hbm, 1266, rfl⟩
abbrev main_v1134 : Ref sig .tc := ⟨.hbm, 1267, rfl⟩
abbrev main_v1135 : Ref sig .tc := ⟨.hbm, 1268, rfl⟩
abbrev main_v1136 : Ref sig .tc := ⟨.hbm, 1269, rfl⟩
abbrev main_v1137 : Ref sig .tc := ⟨.hbm, 1270, rfl⟩
abbrev main_v1138 : Ref sig .tc := ⟨.hbm, 1271, rfl⟩
abbrev main_v1139 : Ref sig .tc := ⟨.hbm, 1272, rfl⟩
abbrev main_v1140 : Ref sig .tc := ⟨.hbm, 1273, rfl⟩
abbrev main_cst_126 : Ref sig .tc := ⟨.hbm, 1274, rfl⟩
abbrev main_v1141 : Ref sig .tc := ⟨.hbm, 1275, rfl⟩
abbrev main_v1142 : Ref sig .tc := ⟨.hbm, 1276, rfl⟩
abbrev main_cst_127 : Ref sig .tc := ⟨.hbm, 1277, rfl⟩
abbrev main_v1143 : Ref sig .tc := ⟨.hbm, 1278, rfl⟩
abbrev main_v1144 : Ref sig .tc := ⟨.hbm, 1279, rfl⟩
abbrev main_v1145 : Ref sig .tc := ⟨.hbm, 1280, rfl⟩
abbrev main_v1146 : Ref sig .tc := ⟨.hbm, 1281, rfl⟩
abbrev main_v1147 : Ref sig .tc := ⟨.hbm, 1282, rfl⟩
abbrev main_cst_128 : Ref sig .tc := ⟨.hbm, 1283, rfl⟩
abbrev main_v1148 : Ref sig .tc := ⟨.hbm, 1284, rfl⟩
abbrev main_v1149 : Ref sig .tc := ⟨.hbm, 1285, rfl⟩
abbrev main_cst_129 : Ref sig .tc := ⟨.hbm, 1286, rfl⟩
abbrev main_v1150 : Ref sig .tc := ⟨.hbm, 1287, rfl⟩
abbrev main_v1151 : Ref sig .tc := ⟨.hbm, 1288, rfl⟩
abbrev main_v1152 : Ref sig .tc := ⟨.hbm, 1289, rfl⟩
abbrev main_v1153 : Ref sig .tc := ⟨.hbm, 1290, rfl⟩
abbrev main_v1154 : Ref sig .tc := ⟨.hbm, 1291, rfl⟩
abbrev main_v1155 : Ref sig .tc := ⟨.hbm, 1292, rfl⟩
abbrev main_v1156 : Ref sig .tc := ⟨.hbm, 1293, rfl⟩
abbrev main_cst_130 : Ref sig .tc := ⟨.hbm, 1294, rfl⟩
abbrev main_v1157 : Ref sig .tc := ⟨.hbm, 1295, rfl⟩
abbrev main_v1158 : Ref sig .tc := ⟨.hbm, 1296, rfl⟩
abbrev main_cst_131 : Ref sig .tc := ⟨.hbm, 1297, rfl⟩
abbrev main_v1159 : Ref sig .tc := ⟨.hbm, 1298, rfl⟩
abbrev main_v1160 : Ref sig .tc := ⟨.hbm, 1299, rfl⟩
abbrev main_v1161 : Ref sig .tc := ⟨.hbm, 1300, rfl⟩
abbrev main_v1162 : Ref sig .tc := ⟨.hbm, 1301, rfl⟩
abbrev main_v1163 : Ref sig .tc := ⟨.hbm, 1302, rfl⟩
abbrev main_v1164 : Ref sig .tc := ⟨.hbm, 1303, rfl⟩
abbrev main_v1165 : Ref sig .tc := ⟨.hbm, 1304, rfl⟩
abbrev main_v1166 : Ref sig .tc := ⟨.hbm, 1305, rfl⟩
abbrev main_v1167 : Ref sig .tc := ⟨.hbm, 1306, rfl⟩
abbrev main_v1168 : Ref sig .tc := ⟨.hbm, 1307, rfl⟩
abbrev main_v1169 : Ref sig .tc := ⟨.hbm, 1308, rfl⟩
abbrev main_v1170 : Ref sig .tc := ⟨.hbm, 1309, rfl⟩
abbrev main_v1171 : Ref sig .tc := ⟨.hbm, 1310, rfl⟩
abbrev main_v1172 : Ref sig .tc := ⟨.hbm, 1311, rfl⟩
abbrev main_v1173 : Ref sig .tc := ⟨.hbm, 1312, rfl⟩
abbrev main_v1174 : Ref sig .tc := ⟨.hbm, 1313, rfl⟩
abbrev main_v1175 : Ref sig .tc := ⟨.hbm, 1314, rfl⟩
abbrev main_v1176 : Ref sig .tc := ⟨.hbm, 1315, rfl⟩
abbrev main_v1177 : Ref sig .tc := ⟨.hbm, 1316, rfl⟩
abbrev main_v1178 : Ref sig .tc := ⟨.hbm, 1317, rfl⟩
abbrev main_v1179 : Ref sig .tc := ⟨.hbm, 1318, rfl⟩
abbrev main_v1180 : Ref sig .tc := ⟨.hbm, 1319, rfl⟩
abbrev main_v1181 : Ref sig .tc := ⟨.hbm, 1320, rfl⟩
abbrev main_v1182 : Ref sig .tc := ⟨.hbm, 1321, rfl⟩
abbrev main_v1183 : Ref sig .tc := ⟨.hbm, 1322, rfl⟩
abbrev main_v1184 : Ref sig .tc := ⟨.hbm, 1323, rfl⟩
abbrev main_v1185 : Ref sig .tc := ⟨.hbm, 1324, rfl⟩
abbrev main_v1186 : Ref sig .tc := ⟨.hbm, 1325, rfl⟩
abbrev main_v1187 : Ref sig .tc := ⟨.hbm, 1326, rfl⟩
abbrev main_v1188 : Ref sig .tc := ⟨.hbm, 1327, rfl⟩
abbrev main_v1189 : Ref sig .tc := ⟨.hbm, 1328, rfl⟩
abbrev main_v1190 : Ref sig .tc := ⟨.hbm, 1329, rfl⟩
abbrev main_v1191 : Ref sig .tc := ⟨.hbm, 1330, rfl⟩
abbrev main_v1192 : Ref sig .tc := ⟨.hbm, 1331, rfl⟩
abbrev main_v1193 : Ref sig .tc := ⟨.hbm, 1332, rfl⟩
abbrev main_v1194 : Ref sig .tc := ⟨.hbm, 1333, rfl⟩
abbrev main_v1195 : Ref sig .tc := ⟨.hbm, 1334, rfl⟩
abbrev main_v1196 : Ref sig .tc := ⟨.hbm, 1335, rfl⟩
abbrev main_v1197 : Ref sig .tc := ⟨.hbm, 1336, rfl⟩
abbrev main_cst_132 : Ref sig .tc := ⟨.hbm, 1337, rfl⟩
abbrev main_v1198 : Ref sig .tc := ⟨.hbm, 1338, rfl⟩
abbrev main_v1199 : Ref sig .tc := ⟨.hbm, 1339, rfl⟩
abbrev main_cst_133 : Ref sig .tc := ⟨.hbm, 1340, rfl⟩
abbrev main_v1200 : Ref sig .tc := ⟨.hbm, 1341, rfl⟩
abbrev main_v1201 : Ref sig .tc := ⟨.hbm, 1342, rfl⟩
abbrev main_v1202 : Ref sig .tc := ⟨.hbm, 1343, rfl⟩
abbrev main_v1203 : Ref sig .tc := ⟨.hbm, 1344, rfl⟩
abbrev main_v1204 : Ref sig .tc := ⟨.hbm, 1345, rfl⟩
abbrev main_cst_134 : Ref sig .tc := ⟨.hbm, 1346, rfl⟩
abbrev main_v1205 : Ref sig .tc := ⟨.hbm, 1347, rfl⟩
abbrev main_v1206 : Ref sig .tc := ⟨.hbm, 1348, rfl⟩
abbrev main_cst_135 : Ref sig .tc := ⟨.hbm, 1349, rfl⟩
abbrev main_v1207 : Ref sig .tc := ⟨.hbm, 1350, rfl⟩
abbrev main_v1208 : Ref sig .tc := ⟨.hbm, 1351, rfl⟩
abbrev main_v1209 : Ref sig .tc := ⟨.hbm, 1352, rfl⟩
abbrev main_v1210 : Ref sig .tc := ⟨.hbm, 1353, rfl⟩
abbrev main_v1211 : Ref sig .tc := ⟨.hbm, 1354, rfl⟩
abbrev main_v1212 : Ref sig .tc := ⟨.hbm, 1355, rfl⟩
abbrev main_v1213 : Ref sig .tc := ⟨.hbm, 1356, rfl⟩
abbrev main_cst_136 : Ref sig .tc := ⟨.hbm, 1357, rfl⟩
abbrev main_v1214 : Ref sig .tc := ⟨.hbm, 1358, rfl⟩
abbrev main_v1215 : Ref sig .tc := ⟨.hbm, 1359, rfl⟩
abbrev main_cst_137 : Ref sig .tc := ⟨.hbm, 1360, rfl⟩
abbrev main_v1216 : Ref sig .tc := ⟨.hbm, 1361, rfl⟩
abbrev main_v1217 : Ref sig .tc := ⟨.hbm, 1362, rfl⟩
abbrev main_v1218 : Ref sig .tc := ⟨.hbm, 1363, rfl⟩
abbrev main_v1219 : Ref sig .tc := ⟨.hbm, 1364, rfl⟩
abbrev main_v1220 : Ref sig .tc := ⟨.hbm, 1365, rfl⟩
abbrev main_v1221 : Ref sig .tc := ⟨.hbm, 1366, rfl⟩
abbrev main_v1222 : Ref sig .tc := ⟨.hbm, 1367, rfl⟩
abbrev main_v1223 : Ref sig .tc := ⟨.hbm, 1368, rfl⟩
abbrev main_v1224 : Ref sig .tc := ⟨.hbm, 1369, rfl⟩
abbrev main_v1225 : Ref sig .tc := ⟨.hbm, 1370, rfl⟩
abbrev main_v1226 : Ref sig .tc := ⟨.hbm, 1371, rfl⟩
abbrev main_v1227 : Ref sig .tc := ⟨.hbm, 1372, rfl⟩
abbrev main_v1228 : Ref sig .tc := ⟨.hbm, 1373, rfl⟩
abbrev main_v1229 : Ref sig .tc := ⟨.hbm, 1374, rfl⟩
abbrev main_v1230 : Ref sig .tc := ⟨.hbm, 1375, rfl⟩
abbrev main_v1231 : Ref sig .tc := ⟨.hbm, 1376, rfl⟩
abbrev main_v1232 : Ref sig .tc := ⟨.hbm, 1377, rfl⟩
abbrev main_v1233 : Ref sig .tc := ⟨.hbm, 1378, rfl⟩
abbrev main_v1234 : Ref sig .tc := ⟨.hbm, 1379, rfl⟩
abbrev main_v1235 : Ref sig .tc := ⟨.hbm, 1380, rfl⟩
abbrev main_v1236 : Ref sig .tc := ⟨.hbm, 1381, rfl⟩
abbrev main_v1237 : Ref sig .tc := ⟨.hbm, 1382, rfl⟩
abbrev main_v1238 : Ref sig .tc := ⟨.hbm, 1383, rfl⟩
abbrev main_v1239 : Ref sig .tc := ⟨.hbm, 1384, rfl⟩
abbrev main_v1240 : Ref sig .tc := ⟨.hbm, 1385, rfl⟩
abbrev main_v1241 : Ref sig .tc := ⟨.hbm, 1386, rfl⟩
abbrev main_v1242 : Ref sig .tc := ⟨.hbm, 1387, rfl⟩
abbrev main_v1243 : Ref sig .tc := ⟨.hbm, 1388, rfl⟩
abbrev main_v1244 : Ref sig .tc := ⟨.hbm, 1389, rfl⟩
abbrev main_v1245 : Ref sig .tc := ⟨.hbm, 1390, rfl⟩
abbrev main_v1246 : Ref sig .tc := ⟨.hbm, 1391, rfl⟩
abbrev main_cst_138 : Ref sig .tc := ⟨.hbm, 1392, rfl⟩
abbrev main_v1247 : Ref sig .tc := ⟨.hbm, 1393, rfl⟩
abbrev main_v1248 : Ref sig .tc := ⟨.hbm, 1394, rfl⟩
abbrev main_cst_139 : Ref sig .tc := ⟨.hbm, 1395, rfl⟩
abbrev main_v1249 : Ref sig .tc := ⟨.hbm, 1396, rfl⟩
abbrev main_v1250 : Ref sig .tc := ⟨.hbm, 1397, rfl⟩
abbrev main_v1251 : Ref sig .tc := ⟨.hbm, 1398, rfl⟩
abbrev main_v1252 : Ref sig .tc := ⟨.hbm, 1399, rfl⟩
abbrev main_v1253 : Ref sig .tc := ⟨.hbm, 1400, rfl⟩
abbrev main_cst_140 : Ref sig .tc := ⟨.hbm, 1401, rfl⟩
abbrev main_v1254 : Ref sig .tc := ⟨.hbm, 1402, rfl⟩
abbrev main_v1255 : Ref sig .tc := ⟨.hbm, 1403, rfl⟩
abbrev main_cst_141 : Ref sig .tc := ⟨.hbm, 1404, rfl⟩
abbrev main_v1256 : Ref sig .tc := ⟨.hbm, 1405, rfl⟩
abbrev main_v1257 : Ref sig .tc := ⟨.hbm, 1406, rfl⟩
abbrev main_v1258 : Ref sig .tc := ⟨.hbm, 1407, rfl⟩
abbrev main_v1259 : Ref sig .tc := ⟨.hbm, 1408, rfl⟩
abbrev main_v1260 : Ref sig .tc := ⟨.hbm, 1409, rfl⟩
abbrev main_v1261 : Ref sig .tc := ⟨.hbm, 1410, rfl⟩
abbrev main_v1262 : Ref sig .tc := ⟨.hbm, 1411, rfl⟩
abbrev main_cst_142 : Ref sig .tc := ⟨.hbm, 1412, rfl⟩
abbrev main_v1263 : Ref sig .tc := ⟨.hbm, 1413, rfl⟩
abbrev main_v1264 : Ref sig .tc := ⟨.hbm, 1414, rfl⟩
abbrev main_cst_143 : Ref sig .tc := ⟨.hbm, 1415, rfl⟩
abbrev main_v1265 : Ref sig .tc := ⟨.hbm, 1416, rfl⟩
abbrev main_v1266 : Ref sig .tc := ⟨.hbm, 1417, rfl⟩
abbrev main_v1267 : Ref sig .tc := ⟨.hbm, 1418, rfl⟩
abbrev main_v1268 : Ref sig .tc := ⟨.hbm, 1419, rfl⟩
abbrev main_v1269 : Ref sig .tc := ⟨.hbm, 1420, rfl⟩
abbrev main_v1270 : Ref sig .tc := ⟨.hbm, 1421, rfl⟩
abbrev main_v1271 : Ref sig .tc := ⟨.hbm, 1422, rfl⟩
abbrev main_v1272 : Ref sig .tc := ⟨.hbm, 1423, rfl⟩
abbrev main_v1273 : Ref sig .tc := ⟨.hbm, 1424, rfl⟩
abbrev main_v1274 : Ref sig .tc := ⟨.hbm, 1425, rfl⟩
abbrev main_v1275 : Ref sig .tc := ⟨.hbm, 1426, rfl⟩
abbrev main_v1276 : Ref sig .tc := ⟨.hbm, 1427, rfl⟩
abbrev main_v1277 : Ref sig .tc := ⟨.hbm, 1428, rfl⟩
abbrev main_v1278 : Ref sig .tc := ⟨.hbm, 1429, rfl⟩
abbrev main_v1279 : Ref sig .tc := ⟨.hbm, 1430, rfl⟩
abbrev main_v1280 : Ref sig .tc := ⟨.hbm, 1431, rfl⟩
abbrev main_v1281 : Ref sig .tc := ⟨.hbm, 1432, rfl⟩
abbrev main_v1282 : Ref sig .tc := ⟨.hbm, 1433, rfl⟩
abbrev main_v1283 : Ref sig .tc := ⟨.hbm, 1434, rfl⟩
abbrev main_v1284 : Ref sig .tc := ⟨.hbm, 1435, rfl⟩
abbrev main_v1285 : Ref sig .tc := ⟨.hbm, 1436, rfl⟩
abbrev main_v1286 : Ref sig .tc := ⟨.hbm, 1437, rfl⟩
abbrev main_v1287 : Ref sig .tc := ⟨.hbm, 1438, rfl⟩
abbrev main_v1288 : Ref sig .tc := ⟨.hbm, 1439, rfl⟩
abbrev main_v1289 : Ref sig .tc := ⟨.hbm, 1440, rfl⟩
abbrev main_v1290 : Ref sig .tc := ⟨.hbm, 1441, rfl⟩
abbrev main_v1291 : Ref sig .tc := ⟨.hbm, 1442, rfl⟩
abbrev main_v1292 : Ref sig .tc := ⟨.hbm, 1443, rfl⟩
abbrev main_v1293 : Ref sig .tc := ⟨.hbm, 1444, rfl⟩
abbrev main_v1294 : Ref sig .tc := ⟨.hbm, 1445, rfl⟩
abbrev main_v1295 : Ref sig .tc := ⟨.hbm, 1446, rfl⟩
abbrev main_v1296 : Ref sig .tc := ⟨.hbm, 1447, rfl⟩
abbrev main_v1297 : Ref sig .tc := ⟨.hbm, 1448, rfl⟩
abbrev main_v1298 : Ref sig .tc := ⟨.hbm, 1449, rfl⟩
abbrev main_v1299 : Ref sig .tc := ⟨.hbm, 1450, rfl⟩
abbrev main_v1300 : Ref sig .tc := ⟨.hbm, 1451, rfl⟩
abbrev main_v1301 : Ref sig .tc := ⟨.hbm, 1452, rfl⟩
abbrev main_v1302 : Ref sig .tc := ⟨.hbm, 1453, rfl⟩
abbrev main_v1303 : Ref sig .tc := ⟨.hbm, 1454, rfl⟩
abbrev main_cst_144 : Ref sig .tc := ⟨.hbm, 1455, rfl⟩
abbrev main_v1304 : Ref sig .tc := ⟨.hbm, 1456, rfl⟩
abbrev main_v1305 : Ref sig .tc := ⟨.hbm, 1457, rfl⟩
abbrev main_cst_145 : Ref sig .tc := ⟨.hbm, 1458, rfl⟩
abbrev main_v1306 : Ref sig .tc := ⟨.hbm, 1459, rfl⟩
abbrev main_v1307 : Ref sig .tc := ⟨.hbm, 1460, rfl⟩
abbrev main_v1308 : Ref sig .tc := ⟨.hbm, 1461, rfl⟩
abbrev main_v1309 : Ref sig .tc := ⟨.hbm, 1462, rfl⟩
abbrev main_v1310 : Ref sig .tc := ⟨.hbm, 1463, rfl⟩
abbrev main_cst_146 : Ref sig .tc := ⟨.hbm, 1464, rfl⟩
abbrev main_v1311 : Ref sig .tc := ⟨.hbm, 1465, rfl⟩
abbrev main_v1312 : Ref sig .tc := ⟨.hbm, 1466, rfl⟩
abbrev main_cst_147 : Ref sig .tc := ⟨.hbm, 1467, rfl⟩
abbrev main_v1313 : Ref sig .tc := ⟨.hbm, 1468, rfl⟩
abbrev main_v1314 : Ref sig .tc := ⟨.hbm, 1469, rfl⟩
abbrev main_v1315 : Ref sig .tc := ⟨.hbm, 1470, rfl⟩
abbrev main_v1316 : Ref sig .tc := ⟨.hbm, 1471, rfl⟩
abbrev main_v1317 : Ref sig .tc := ⟨.hbm, 1472, rfl⟩
abbrev main_v1318 : Ref sig .tc := ⟨.hbm, 1473, rfl⟩
abbrev main_v1319 : Ref sig .tc := ⟨.hbm, 1474, rfl⟩
abbrev main_cst_148 : Ref sig .tc := ⟨.hbm, 1475, rfl⟩
abbrev main_v1320 : Ref sig .tc := ⟨.hbm, 1476, rfl⟩
abbrev main_v1321 : Ref sig .tc := ⟨.hbm, 1477, rfl⟩
abbrev main_cst_149 : Ref sig .tc := ⟨.hbm, 1478, rfl⟩
abbrev main_v1322 : Ref sig .tc := ⟨.hbm, 1479, rfl⟩
abbrev main_v1323 : Ref sig .tc := ⟨.hbm, 1480, rfl⟩
abbrev main_v1324 : Ref sig .tc := ⟨.hbm, 1481, rfl⟩
abbrev main_v1325 : Ref sig .tc := ⟨.hbm, 1482, rfl⟩
abbrev main_v1326 : Ref sig .tc := ⟨.hbm, 1483, rfl⟩
abbrev main_v1327 : Ref sig .tc := ⟨.hbm, 1484, rfl⟩
abbrev main_v1328 : Ref sig .tc := ⟨.hbm, 1485, rfl⟩
abbrev main_v1329 : Ref sig .tc := ⟨.hbm, 1486, rfl⟩
abbrev main_v1330 : Ref sig .tc := ⟨.hbm, 1487, rfl⟩
abbrev main_v1331 : Ref sig .tc := ⟨.hbm, 1488, rfl⟩
abbrev main_v1332 : Ref sig .tc := ⟨.hbm, 1489, rfl⟩
abbrev main_v1333 : Ref sig .tc := ⟨.hbm, 1490, rfl⟩
abbrev main_v1334 : Ref sig .tc := ⟨.hbm, 1491, rfl⟩
abbrev main_v1335 : Ref sig .tc := ⟨.hbm, 1492, rfl⟩
abbrev main_v1336 : Ref sig .tc := ⟨.hbm, 1493, rfl⟩
abbrev main_v1337 : Ref sig .tc := ⟨.hbm, 1494, rfl⟩
abbrev main_v1338 : Ref sig .tc := ⟨.hbm, 1495, rfl⟩
abbrev main_v1339 : Ref sig .tc := ⟨.hbm, 1496, rfl⟩
abbrev main_v1340 : Ref sig .tc := ⟨.hbm, 1497, rfl⟩
abbrev main_v1341 : Ref sig .tc := ⟨.hbm, 1498, rfl⟩
abbrev main_v1342 : Ref sig .tc := ⟨.hbm, 1499, rfl⟩
abbrev main_v1343 : Ref sig .tc := ⟨.hbm, 1500, rfl⟩
abbrev main_v1344 : Ref sig .tc := ⟨.hbm, 1501, rfl⟩
abbrev main_v1345 : Ref sig .tc := ⟨.hbm, 1502, rfl⟩
abbrev main_v1346 : Ref sig .tc := ⟨.hbm, 1503, rfl⟩
abbrev main_v1347 : Ref sig .tc := ⟨.hbm, 1504, rfl⟩
abbrev main_v1348 : Ref sig .tc := ⟨.hbm, 1505, rfl⟩
abbrev main_v1349 : Ref sig .tc := ⟨.hbm, 1506, rfl⟩
abbrev main_v1350 : Ref sig .tc := ⟨.hbm, 1507, rfl⟩
abbrev main_v1351 : Ref sig .tc := ⟨.hbm, 1508, rfl⟩
abbrev main_v1352 : Ref sig .tc := ⟨.hbm, 1509, rfl⟩
abbrev main_cst_150 : Ref sig .tc := ⟨.hbm, 1510, rfl⟩
abbrev main_v1353 : Ref sig .tc := ⟨.hbm, 1511, rfl⟩
abbrev main_v1354 : Ref sig .tc := ⟨.hbm, 1512, rfl⟩
abbrev main_cst_151 : Ref sig .tc := ⟨.hbm, 1513, rfl⟩
abbrev main_v1355 : Ref sig .tc := ⟨.hbm, 1514, rfl⟩
abbrev main_v1356 : Ref sig .tc := ⟨.hbm, 1515, rfl⟩
abbrev main_v1357 : Ref sig .tc := ⟨.hbm, 1516, rfl⟩
abbrev main_v1358 : Ref sig .tc := ⟨.hbm, 1517, rfl⟩
abbrev main_v1359 : Ref sig .tc := ⟨.hbm, 1518, rfl⟩
abbrev main_cst_152 : Ref sig .tc := ⟨.hbm, 1519, rfl⟩
abbrev main_v1360 : Ref sig .tc := ⟨.hbm, 1520, rfl⟩
abbrev main_v1361 : Ref sig .tc := ⟨.hbm, 1521, rfl⟩
abbrev main_cst_153 : Ref sig .tc := ⟨.hbm, 1522, rfl⟩
abbrev main_v1362 : Ref sig .tc := ⟨.hbm, 1523, rfl⟩
abbrev main_v1363 : Ref sig .tc := ⟨.hbm, 1524, rfl⟩
abbrev main_v1364 : Ref sig .tc := ⟨.hbm, 1525, rfl⟩
abbrev main_v1365 : Ref sig .tc := ⟨.hbm, 1526, rfl⟩
abbrev main_v1366 : Ref sig .tc := ⟨.hbm, 1527, rfl⟩
abbrev main_v1367 : Ref sig .tc := ⟨.hbm, 1528, rfl⟩
abbrev main_v1368 : Ref sig .tc := ⟨.hbm, 1529, rfl⟩
abbrev main_cst_154 : Ref sig .tc := ⟨.hbm, 1530, rfl⟩
abbrev main_v1369 : Ref sig .tc := ⟨.hbm, 1531, rfl⟩
abbrev main_v1370 : Ref sig .tc := ⟨.hbm, 1532, rfl⟩
abbrev main_cst_155 : Ref sig .tc := ⟨.hbm, 1533, rfl⟩
abbrev main_v1371 : Ref sig .tc := ⟨.hbm, 1534, rfl⟩
abbrev main_v1372 : Ref sig .tc := ⟨.hbm, 1535, rfl⟩
abbrev main_v1373 : Ref sig .tc := ⟨.hbm, 1536, rfl⟩
abbrev main_v1374 : Ref sig .tc := ⟨.hbm, 1537, rfl⟩
abbrev main_v1375 : Ref sig .tc := ⟨.hbm, 1538, rfl⟩
abbrev main_v1376 : Ref sig .tc := ⟨.hbm, 1539, rfl⟩
abbrev main_v1377 : Ref sig .tc := ⟨.hbm, 1540, rfl⟩
abbrev main_v1378 : Ref sig .tc := ⟨.hbm, 1541, rfl⟩
abbrev main_v1379 : Ref sig .tc := ⟨.hbm, 1542, rfl⟩
abbrev main_v1380 : Ref sig .tc := ⟨.hbm, 1543, rfl⟩
abbrev main_v1381 : Ref sig .tc := ⟨.hbm, 1544, rfl⟩
abbrev main_v1382 : Ref sig .tc := ⟨.hbm, 1545, rfl⟩
abbrev main_v1383 : Ref sig .tc := ⟨.hbm, 1546, rfl⟩
abbrev main_v1384 : Ref sig .tc := ⟨.hbm, 1547, rfl⟩
abbrev main_v1385 : Ref sig .tc := ⟨.hbm, 1548, rfl⟩
abbrev main_v1386 : Ref sig .tc := ⟨.hbm, 1549, rfl⟩
abbrev main_v1387 : Ref sig .tc := ⟨.hbm, 1550, rfl⟩
abbrev main_v1388 : Ref sig .tc := ⟨.hbm, 1551, rfl⟩
abbrev main_v1389 : Ref sig .tc := ⟨.hbm, 1552, rfl⟩
abbrev main_v1390 : Ref sig .tc := ⟨.hbm, 1553, rfl⟩
abbrev main_v1391 : Ref sig .tc := ⟨.hbm, 1554, rfl⟩
abbrev main_v1392 : Ref sig .tc := ⟨.hbm, 1555, rfl⟩
abbrev main_v1393 : Ref sig .tc := ⟨.hbm, 1556, rfl⟩
abbrev main_v1394 : Ref sig .tc := ⟨.hbm, 1557, rfl⟩
abbrev main_v1395 : Ref sig .tc := ⟨.hbm, 1558, rfl⟩
abbrev main_v1396 : Ref sig .tc := ⟨.hbm, 1559, rfl⟩
abbrev main_v1397 : Ref sig .tc := ⟨.hbm, 1560, rfl⟩
abbrev main_v1398 : Ref sig .tc := ⟨.hbm, 1561, rfl⟩
abbrev main_v1399 : Ref sig .tc := ⟨.hbm, 1562, rfl⟩
abbrev main_v1400 : Ref sig .tc := ⟨.hbm, 1563, rfl⟩
abbrev main_v1401 : Ref sig .tc := ⟨.hbm, 1564, rfl⟩
abbrev main_v1402 : Ref sig .tc := ⟨.hbm, 1565, rfl⟩
abbrev main_v1403 : Ref sig .tc := ⟨.hbm, 1566, rfl⟩
abbrev main_v1404 : Ref sig .tc := ⟨.hbm, 1567, rfl⟩
abbrev main_v1405 : Ref sig .tc := ⟨.hbm, 1568, rfl⟩
abbrev main_v1406 : Ref sig .tc := ⟨.hbm, 1569, rfl⟩
abbrev main_v1407 : Ref sig .tc := ⟨.hbm, 1570, rfl⟩
abbrev main_v1408 : Ref sig .tc := ⟨.hbm, 1571, rfl⟩
abbrev main_v1409 : Ref sig .tc := ⟨.hbm, 1572, rfl⟩
abbrev main_cst_156 : Ref sig .tc := ⟨.hbm, 1573, rfl⟩
abbrev main_v1410 : Ref sig .tc := ⟨.hbm, 1574, rfl⟩
abbrev main_v1411 : Ref sig .tc := ⟨.hbm, 1575, rfl⟩
abbrev main_cst_157 : Ref sig .tc := ⟨.hbm, 1576, rfl⟩
abbrev main_v1412 : Ref sig .tc := ⟨.hbm, 1577, rfl⟩
abbrev main_v1413 : Ref sig .tc := ⟨.hbm, 1578, rfl⟩
abbrev main_v1414 : Ref sig .tc := ⟨.hbm, 1579, rfl⟩
abbrev main_v1415 : Ref sig .tc := ⟨.hbm, 1580, rfl⟩
abbrev main_v1416 : Ref sig .tc := ⟨.hbm, 1581, rfl⟩
abbrev main_cst_158 : Ref sig .tc := ⟨.hbm, 1582, rfl⟩
abbrev main_v1417 : Ref sig .tc := ⟨.hbm, 1583, rfl⟩
abbrev main_v1418 : Ref sig .tc := ⟨.hbm, 1584, rfl⟩
abbrev main_cst_159 : Ref sig .tc := ⟨.hbm, 1585, rfl⟩
abbrev main_v1419 : Ref sig .tc := ⟨.hbm, 1586, rfl⟩
abbrev main_v1420 : Ref sig .tc := ⟨.hbm, 1587, rfl⟩
abbrev main_v1421 : Ref sig .tc := ⟨.hbm, 1588, rfl⟩
abbrev main_v1422 : Ref sig .tc := ⟨.hbm, 1589, rfl⟩
abbrev main_v1423 : Ref sig .tc := ⟨.hbm, 1590, rfl⟩
abbrev main_v1424 : Ref sig .tc := ⟨.hbm, 1591, rfl⟩
abbrev main_v1425 : Ref sig .tc := ⟨.hbm, 1592, rfl⟩
abbrev main_cst_160 : Ref sig .tc := ⟨.hbm, 1593, rfl⟩
abbrev main_v1426 : Ref sig .tc := ⟨.hbm, 1594, rfl⟩
abbrev main_v1427 : Ref sig .tc := ⟨.hbm, 1595, rfl⟩
abbrev main_cst_161 : Ref sig .tc := ⟨.hbm, 1596, rfl⟩
abbrev main_v1428 : Ref sig .tc := ⟨.hbm, 1597, rfl⟩
abbrev main_v1429 : Ref sig .tc := ⟨.hbm, 1598, rfl⟩
abbrev main_v1430 : Ref sig .tc := ⟨.hbm, 1599, rfl⟩
abbrev main_v1431 : Ref sig .tc := ⟨.hbm, 1600, rfl⟩
abbrev main_v1432 : Ref sig .tc := ⟨.hbm, 1601, rfl⟩
abbrev main_v1433 : Ref sig .tc := ⟨.hbm, 1602, rfl⟩
abbrev main_v1434 : Ref sig .tc := ⟨.hbm, 1603, rfl⟩
abbrev main_v1435 : Ref sig .tc := ⟨.hbm, 1604, rfl⟩
abbrev main_v1436 : Ref sig .tc := ⟨.hbm, 1605, rfl⟩
abbrev main_v1437 : Ref sig .tc := ⟨.hbm, 1606, rfl⟩
abbrev main_v1438 : Ref sig .tc := ⟨.hbm, 1607, rfl⟩
abbrev main_v1439 : Ref sig .tc := ⟨.hbm, 1608, rfl⟩
abbrev main_v1440 : Ref sig .tc := ⟨.hbm, 1609, rfl⟩
abbrev main_v1441 : Ref sig .tc := ⟨.hbm, 1610, rfl⟩
abbrev main_v1442 : Ref sig .tc := ⟨.hbm, 1611, rfl⟩
abbrev main_v1443 : Ref sig .tc := ⟨.hbm, 1612, rfl⟩
abbrev main_v1444 : Ref sig .tc := ⟨.hbm, 1613, rfl⟩
abbrev main_v1445 : Ref sig .tc := ⟨.hbm, 1614, rfl⟩
abbrev main_v1446 : Ref sig .tc := ⟨.hbm, 1615, rfl⟩
abbrev main_v1447 : Ref sig .tc := ⟨.hbm, 1616, rfl⟩
abbrev main_v1448 : Ref sig .tc := ⟨.hbm, 1617, rfl⟩
abbrev main_v1449 : Ref sig .tc := ⟨.hbm, 1618, rfl⟩
abbrev main_v1450 : Ref sig .tc := ⟨.hbm, 1619, rfl⟩
abbrev main_v1451 : Ref sig .tc := ⟨.hbm, 1620, rfl⟩
abbrev main_v1452 : Ref sig .tc := ⟨.hbm, 1621, rfl⟩
abbrev main_v1453 : Ref sig .tc := ⟨.hbm, 1622, rfl⟩
abbrev main_v1454 : Ref sig .tc := ⟨.hbm, 1623, rfl⟩
abbrev main_v1455 : Ref sig .tc := ⟨.hbm, 1624, rfl⟩
abbrev main_v1456 : Ref sig .tc := ⟨.hbm, 1625, rfl⟩
abbrev main_v1457 : Ref sig .tc := ⟨.hbm, 1626, rfl⟩
abbrev main_v1458 : Ref sig .tc := ⟨.hbm, 1627, rfl⟩
abbrev main_cst_162 : Ref sig .tc := ⟨.hbm, 1628, rfl⟩
abbrev main_v1459 : Ref sig .tc := ⟨.hbm, 1629, rfl⟩
abbrev main_v1460 : Ref sig .tc := ⟨.hbm, 1630, rfl⟩
abbrev main_cst_163 : Ref sig .tc := ⟨.hbm, 1631, rfl⟩
abbrev main_v1461 : Ref sig .tc := ⟨.hbm, 1632, rfl⟩
abbrev main_v1462 : Ref sig .tc := ⟨.hbm, 1633, rfl⟩
abbrev main_v1463 : Ref sig .tc := ⟨.hbm, 1634, rfl⟩
abbrev main_v1464 : Ref sig .tc := ⟨.hbm, 1635, rfl⟩
abbrev main_v1465 : Ref sig .tc := ⟨.hbm, 1636, rfl⟩
abbrev main_cst_164 : Ref sig .tc := ⟨.hbm, 1637, rfl⟩
abbrev main_v1466 : Ref sig .tc := ⟨.hbm, 1638, rfl⟩
abbrev main_v1467 : Ref sig .tc := ⟨.hbm, 1639, rfl⟩
abbrev main_cst_165 : Ref sig .tc := ⟨.hbm, 1640, rfl⟩
abbrev main_v1468 : Ref sig .tc := ⟨.hbm, 1641, rfl⟩
abbrev main_v1469 : Ref sig .tc := ⟨.hbm, 1642, rfl⟩
abbrev main_v1470 : Ref sig .tc := ⟨.hbm, 1643, rfl⟩
abbrev main_v1471 : Ref sig .tc := ⟨.hbm, 1644, rfl⟩
abbrev main_v1472 : Ref sig .tc := ⟨.hbm, 1645, rfl⟩
abbrev main_v1473 : Ref sig .tc := ⟨.hbm, 1646, rfl⟩
abbrev main_v1474 : Ref sig .tc := ⟨.hbm, 1647, rfl⟩
abbrev main_cst_166 : Ref sig .tc := ⟨.hbm, 1648, rfl⟩
abbrev main_v1475 : Ref sig .tc := ⟨.hbm, 1649, rfl⟩
abbrev main_v1476 : Ref sig .tc := ⟨.hbm, 1650, rfl⟩
abbrev main_cst_167 : Ref sig .tc := ⟨.hbm, 1651, rfl⟩
abbrev main_v1477 : Ref sig .tc := ⟨.hbm, 1652, rfl⟩
abbrev main_v1478 : Ref sig .tc := ⟨.hbm, 1653, rfl⟩
abbrev main_v1479 : Ref sig .tc := ⟨.hbm, 1654, rfl⟩
abbrev main_v1480 : Ref sig .tc := ⟨.hbm, 1655, rfl⟩
abbrev main_v1481 : Ref sig .tc := ⟨.hbm, 1656, rfl⟩
abbrev main_v1482 : Ref sig .tc := ⟨.hbm, 1657, rfl⟩
abbrev main_v1483 : Ref sig .tc := ⟨.hbm, 1658, rfl⟩
abbrev main_v1484 : Ref sig .tc := ⟨.hbm, 1659, rfl⟩
abbrev main_v1485 : Ref sig .tc := ⟨.hbm, 1660, rfl⟩
abbrev main_v1486 : Ref sig .tc := ⟨.hbm, 1661, rfl⟩
abbrev main_v1487 : Ref sig .tc := ⟨.hbm, 1662, rfl⟩
abbrev main_v1488 : Ref sig .tc := ⟨.hbm, 1663, rfl⟩
abbrev main_v1489 : Ref sig .tc := ⟨.hbm, 1664, rfl⟩
abbrev main_v1490 : Ref sig .tc := ⟨.hbm, 1665, rfl⟩
abbrev main_v1491 : Ref sig .tc := ⟨.hbm, 1666, rfl⟩
abbrev main_v1492 : Ref sig .tc := ⟨.hbm, 1667, rfl⟩
abbrev main_v1493 : Ref sig .tc := ⟨.hbm, 1668, rfl⟩
abbrev main_v1494 : Ref sig .tc := ⟨.hbm, 1669, rfl⟩
abbrev main_v1495 : Ref sig .tc := ⟨.hbm, 1670, rfl⟩
abbrev main_v1496 : Ref sig .tc := ⟨.hbm, 1671, rfl⟩
abbrev main_v1497 : Ref sig .tc := ⟨.hbm, 1672, rfl⟩
abbrev main_v1498 : Ref sig .tc := ⟨.hbm, 1673, rfl⟩
abbrev main_v1499 : Ref sig .tc := ⟨.hbm, 1674, rfl⟩
abbrev main_v1500 : Ref sig .tc := ⟨.hbm, 1675, rfl⟩
abbrev main_v1501 : Ref sig .tc := ⟨.hbm, 1676, rfl⟩
abbrev main_v1502 : Ref sig .tc := ⟨.hbm, 1677, rfl⟩
abbrev main_v1503 : Ref sig .tc := ⟨.hbm, 1678, rfl⟩
abbrev main_v1504 : Ref sig .tc := ⟨.hbm, 1679, rfl⟩
abbrev main_v1505 : Ref sig .tc := ⟨.hbm, 1680, rfl⟩
abbrev main_v1506 : Ref sig .tc := ⟨.hbm, 1681, rfl⟩
abbrev main_v1507 : Ref sig .tc := ⟨.hbm, 1682, rfl⟩
abbrev main_v1508 : Ref sig .tc := ⟨.hbm, 1683, rfl⟩
abbrev main_v1509 : Ref sig .tc := ⟨.hbm, 1684, rfl⟩
abbrev main_v1510 : Ref sig .tc := ⟨.hbm, 1685, rfl⟩
abbrev main_v1511 : Ref sig .tc := ⟨.hbm, 1686, rfl⟩
abbrev main_v1512 : Ref sig .tc := ⟨.hbm, 1687, rfl⟩
abbrev main_v1513 : Ref sig .tc := ⟨.hbm, 1688, rfl⟩
abbrev main_v1514 : Ref sig .tc := ⟨.hbm, 1689, rfl⟩
abbrev main_v1515 : Ref sig .tc := ⟨.hbm, 1690, rfl⟩
abbrev main_cst_168 : Ref sig .tc := ⟨.hbm, 1691, rfl⟩
abbrev main_v1516 : Ref sig .tc := ⟨.hbm, 1692, rfl⟩
abbrev main_v1517 : Ref sig .tc := ⟨.hbm, 1693, rfl⟩
abbrev main_cst_169 : Ref sig .tc := ⟨.hbm, 1694, rfl⟩
abbrev main_v1518 : Ref sig .tc := ⟨.hbm, 1695, rfl⟩
abbrev main_v1519 : Ref sig .tc := ⟨.hbm, 1696, rfl⟩
abbrev main_v1520 : Ref sig .tc := ⟨.hbm, 1697, rfl⟩
abbrev main_v1521 : Ref sig .tc := ⟨.hbm, 1698, rfl⟩
abbrev main_v1522 : Ref sig .tc := ⟨.hbm, 1699, rfl⟩
abbrev main_cst_170 : Ref sig .tc := ⟨.hbm, 1700, rfl⟩
abbrev main_v1523 : Ref sig .tc := ⟨.hbm, 1701, rfl⟩
abbrev main_v1524 : Ref sig .tc := ⟨.hbm, 1702, rfl⟩
abbrev main_cst_171 : Ref sig .tc := ⟨.hbm, 1703, rfl⟩
abbrev main_v1525 : Ref sig .tc := ⟨.hbm, 1704, rfl⟩
abbrev main_v1526 : Ref sig .tc := ⟨.hbm, 1705, rfl⟩
abbrev main_v1527 : Ref sig .tc := ⟨.hbm, 1706, rfl⟩
abbrev main_v1528 : Ref sig .tc := ⟨.hbm, 1707, rfl⟩
abbrev main_v1529 : Ref sig .tc := ⟨.hbm, 1708, rfl⟩
abbrev main_v1530 : Ref sig .tc := ⟨.hbm, 1709, rfl⟩
abbrev main_v1531 : Ref sig .tc := ⟨.hbm, 1710, rfl⟩
abbrev main_cst_172 : Ref sig .tc := ⟨.hbm, 1711, rfl⟩
abbrev main_v1532 : Ref sig .tc := ⟨.hbm, 1712, rfl⟩
abbrev main_v1533 : Ref sig .tc := ⟨.hbm, 1713, rfl⟩
abbrev main_cst_173 : Ref sig .tc := ⟨.hbm, 1714, rfl⟩
abbrev main_v1534 : Ref sig .tc := ⟨.hbm, 1715, rfl⟩
abbrev main_v1535 : Ref sig .tc := ⟨.hbm, 1716, rfl⟩
abbrev main_v1536 : Ref sig .tc := ⟨.hbm, 1717, rfl⟩
abbrev main_v1537 : Ref sig .tc := ⟨.hbm, 1718, rfl⟩
abbrev main_v1538 : Ref sig .tc := ⟨.hbm, 1719, rfl⟩
abbrev main_v1539 : Ref sig .tc := ⟨.hbm, 1720, rfl⟩
abbrev main_v1540 : Ref sig .tc := ⟨.hbm, 1721, rfl⟩
abbrev main_v1541 : Ref sig .tc := ⟨.hbm, 1722, rfl⟩
abbrev main_v1542 : Ref sig .tc := ⟨.hbm, 1723, rfl⟩
abbrev main_v1543 : Ref sig .tc := ⟨.hbm, 1724, rfl⟩
abbrev main_v1544 : Ref sig .tc := ⟨.hbm, 1725, rfl⟩
abbrev main_v1545 : Ref sig .tc := ⟨.hbm, 1726, rfl⟩
abbrev main_v1546 : Ref sig .tc := ⟨.hbm, 1727, rfl⟩
abbrev main_v1547 : Ref sig .tc := ⟨.hbm, 1728, rfl⟩
abbrev main_v1548 : Ref sig .tc := ⟨.hbm, 1729, rfl⟩
abbrev main_v1549 : Ref sig .tc := ⟨.hbm, 1730, rfl⟩
abbrev main_v1550 : Ref sig .tc := ⟨.hbm, 1731, rfl⟩
abbrev main_v1551 : Ref sig .tc := ⟨.hbm, 1732, rfl⟩
abbrev main_v1552 : Ref sig .tc := ⟨.hbm, 1733, rfl⟩
abbrev main_v1553 : Ref sig .tc := ⟨.hbm, 1734, rfl⟩
abbrev main_v1554 : Ref sig .tc := ⟨.hbm, 1735, rfl⟩
abbrev main_v1555 : Ref sig .tc := ⟨.hbm, 1736, rfl⟩
abbrev main_v1556 : Ref sig .tc := ⟨.hbm, 1737, rfl⟩
abbrev main_v1557 : Ref sig .tc := ⟨.hbm, 1738, rfl⟩
abbrev main_v1558 : Ref sig .tc := ⟨.hbm, 1739, rfl⟩
abbrev main_v1559 : Ref sig .tc := ⟨.hbm, 1740, rfl⟩
abbrev main_v1560 : Ref sig .tc := ⟨.hbm, 1741, rfl⟩
abbrev main_v1561 : Ref sig .tc := ⟨.hbm, 1742, rfl⟩
abbrev main_v1562 : Ref sig .tc := ⟨.hbm, 1743, rfl⟩
abbrev main_v1563 : Ref sig .tc := ⟨.hbm, 1744, rfl⟩
abbrev main_v1564 : Ref sig .tc := ⟨.hbm, 1745, rfl⟩
abbrev main_cst_174 : Ref sig .tc := ⟨.hbm, 1746, rfl⟩
abbrev main_v1565 : Ref sig .tc := ⟨.hbm, 1747, rfl⟩
abbrev main_v1566 : Ref sig .tc := ⟨.hbm, 1748, rfl⟩
abbrev main_cst_175 : Ref sig .tc := ⟨.hbm, 1749, rfl⟩
abbrev main_v1567 : Ref sig .tc := ⟨.hbm, 1750, rfl⟩
abbrev main_v1568 : Ref sig .tc := ⟨.hbm, 1751, rfl⟩
abbrev main_v1569 : Ref sig .tc := ⟨.hbm, 1752, rfl⟩
abbrev main_v1570 : Ref sig .tc := ⟨.hbm, 1753, rfl⟩
abbrev main_v1571 : Ref sig .tc := ⟨.hbm, 1754, rfl⟩
abbrev main_cst_176 : Ref sig .tc := ⟨.hbm, 1755, rfl⟩
abbrev main_v1572 : Ref sig .tc := ⟨.hbm, 1756, rfl⟩
abbrev main_v1573 : Ref sig .tc := ⟨.hbm, 1757, rfl⟩
abbrev main_cst_177 : Ref sig .tc := ⟨.hbm, 1758, rfl⟩
abbrev main_v1574 : Ref sig .tc := ⟨.hbm, 1759, rfl⟩
abbrev main_v1575 : Ref sig .tc := ⟨.hbm, 1760, rfl⟩
abbrev main_v1576 : Ref sig .tc := ⟨.hbm, 1761, rfl⟩
abbrev main_v1577 : Ref sig .tc := ⟨.hbm, 1762, rfl⟩
abbrev main_v1578 : Ref sig .tc := ⟨.hbm, 1763, rfl⟩
abbrev main_v1579 : Ref sig .tc := ⟨.hbm, 1764, rfl⟩
abbrev main_v1580 : Ref sig .tc := ⟨.hbm, 1765, rfl⟩
abbrev main_cst_178 : Ref sig .tc := ⟨.hbm, 1766, rfl⟩
abbrev main_v1581 : Ref sig .tc := ⟨.hbm, 1767, rfl⟩
abbrev main_v1582 : Ref sig .tc := ⟨.hbm, 1768, rfl⟩
abbrev main_cst_179 : Ref sig .tc := ⟨.hbm, 1769, rfl⟩
abbrev main_v1583 : Ref sig .tc := ⟨.hbm, 1770, rfl⟩
abbrev main_v1584 : Ref sig .tc := ⟨.hbm, 1771, rfl⟩
abbrev main_v1585 : Ref sig .tc := ⟨.hbm, 1772, rfl⟩
abbrev main_v1586 : Ref sig .tc := ⟨.hbm, 1773, rfl⟩
abbrev main_v1587 : Ref sig .tc := ⟨.hbm, 1774, rfl⟩
abbrev main_v1588 : Ref sig .tc := ⟨.hbm, 1775, rfl⟩
abbrev main_v1589 : Ref sig .tc := ⟨.hbm, 1776, rfl⟩
abbrev main_v1590 : Ref sig .tc := ⟨.hbm, 1777, rfl⟩
abbrev main_v1591 : Ref sig .tc := ⟨.hbm, 1778, rfl⟩
abbrev main_v1592 : Ref sig .tc := ⟨.hbm, 1779, rfl⟩
abbrev main_v1593 : Ref sig .tc := ⟨.hbm, 1780, rfl⟩
abbrev main_v1594 : Ref sig .tc := ⟨.hbm, 1781, rfl⟩
abbrev main_v1595 : Ref sig .tc := ⟨.hbm, 1782, rfl⟩
abbrev main_v1596 : Ref sig .tc := ⟨.hbm, 1783, rfl⟩
abbrev main_v1597 : Ref sig .tc := ⟨.hbm, 1784, rfl⟩
abbrev main_v1598 : Ref sig .tc := ⟨.hbm, 1785, rfl⟩
abbrev main_v1599 : Ref sig .tc := ⟨.hbm, 1786, rfl⟩
abbrev main_v1600 : Ref sig .tc := ⟨.hbm, 1787, rfl⟩
abbrev main_v1601 : Ref sig .tc := ⟨.hbm, 1788, rfl⟩
abbrev main_v1602 : Ref sig .tc := ⟨.hbm, 1789, rfl⟩
abbrev main_v1603 : Ref sig .tc := ⟨.hbm, 1790, rfl⟩
abbrev main_v1604 : Ref sig .tc := ⟨.hbm, 1791, rfl⟩
abbrev main_v1605 : Ref sig .tc := ⟨.hbm, 1792, rfl⟩
abbrev main_v1606 : Ref sig .tc := ⟨.hbm, 1793, rfl⟩
abbrev main_v1607 : Ref sig .tc := ⟨.hbm, 1794, rfl⟩
abbrev main_v1608 : Ref sig .tc := ⟨.hbm, 1795, rfl⟩
abbrev main_v1609 : Ref sig .tc := ⟨.hbm, 1796, rfl⟩

abbrev nD : Nat := 1
abbrev τ : Topo := Topo.v7x

variable {F : FTy → Type} [FloatOps F]

class Facts₀ : Prop where
  concatenates_S15x256x512_S15x256x512_S15x256x1024_d2 : Shape.Concatenates [S15x256x512, S15x256x512] S15x256x1024 2
  transposes_S15x256x1024_S256x15x1024_1_0_2 : S15x256x1024.Transposes [1, 0, 2] S256x15x1024
  bcast_S_S2x256x1024 : S_.BroadcastsInDim S2x256x1024 (![] : Fin 0 → Fin S2x256x1024.rank)
  slices_S256x15x1024_S256x1x1024_0_0_0 : S256x15x1024.Slices ![0, 0, 0] S256x1x1024
  shapeCasts_S256x1x1024_S256x1024 : S256x1x1024.ShapeCasts S256x1024
  slices_S2x256x1024_S1x256x1024_0_0_0 : S2x256x1024.Slices ![0, 0, 0] S1x256x1024
  shapeCasts_S1x256x1024_S256x1024 : S1x256x1024.ShapeCasts S256x1024
  slices_S2x4096x1024_S1x4096x1024_0_0_0 : S2x4096x1024.Slices ![0, 0, 0] S1x4096x1024
  shapeCasts_S1x4096x1024_S4096x1024 : S1x4096x1024.ShapeCasts S4096x1024
  slices_S2x4096_S1x4096_0_0 : S2x4096.Slices ![0, 0] S1x4096
  shapeCasts_S1x4096_S4096 : S1x4096.ShapeCasts S4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  slices_S256x4096_S256x1024_0_0 : S256x4096.Slices ![0, 0] S256x1024
  slices_S256x4096_S256x1024_0_1024 : S256x4096.Slices ![0, 1024] S256x1024
  slices_S256x4096_S256x1024_0_2048 : S256x4096.Slices ![0, 2048] S256x1024
  slices_S256x4096_S256x1024_0_3072 : S256x4096.Slices ![0, 3072] S256x1024
  bcast_S_S256x1024 : S_.BroadcastsInDim S256x1024 (![] : Fin 0 → Fin S256x1024.rank)
  slices_S2x256x1024_S1x256x1024_1_0_0 : S2x256x1024.Slices ![1, 0, 0] S1x256x1024
  slices_S2x4096x1024_S1x4096x1024_1_0_0 : S2x4096x1024.Slices ![1, 0, 0] S1x4096x1024
  slices_S2x4096_S1x4096_1_0 : S2x4096.Slices ![1, 0] S1x4096
  bcast_S256x1024_S1x256x1024_1_2 : S256x1024.BroadcastsInDim S1x256x1024 (![1, 2] : Fin 2 → Fin S1x256x1024.rank)
  concatenates_S1x256x1024_S1x256x1024_S2x256x1024_d0 : Shape.Concatenates [S1x256x1024, S1x256x1024] S2x256x1024 0
  slices_S256x15x1024_S256x1x1024_0_1_0 : S256x15x1024.Slices ![0, 1, 0] S256x1x1024
  slices_S256x15x1024_S256x1x1024_0_2_0 : S256x15x1024.Slices ![0, 2, 0] S256x1x1024
  slices_S256x15x1024_S256x1x1024_0_3_0 : S256x15x1024.Slices ![0, 3, 0] S256x1x1024
  slices_S256x15x1024_S256x1x1024_0_4_0 : S256x15x1024.Slices ![0, 4, 0] S256x1x1024
  slices_S256x15x1024_S256x1x1024_0_5_0 : S256x15x1024.Slices ![0, 5, 0] S256x1x1024
  slices_S256x15x1024_S256x1x1024_0_6_0 : S256x15x1024.Slices ![0, 6, 0] S256x1x1024
  slices_S256x15x1024_S256x1x1024_0_7_0 : S256x15x1024.Slices ![0, 7, 0] S256x1x1024
  slices_S256x15x1024_S256x1x1024_0_8_0 : S256x15x1024.Slices ![0, 8, 0] S256x1x1024
  slices_S256x15x1024_S256x1x1024_0_9_0 : S256x15x1024.Slices ![0, 9, 0] S256x1x1024
  slices_S256x15x1024_S256x1x1024_0_10_0 : S256x15x1024.Slices ![0, 10, 0] S256x1x1024
  slices_S256x15x1024_S256x1x1024_0_11_0 : S256x15x1024.Slices ![0, 11, 0] S256x1x1024
  slices_S256x15x1024_S256x1x1024_0_12_0 : S256x15x1024.Slices ![0, 12, 0] S256x1x1024
  slices_S256x15x1024_S256x1x1024_0_13_0 : S256x15x1024.Slices ![0, 13, 0] S256x1x1024
  slices_S256x15x1024_S256x1x1024_0_14_0 : S256x15x1024.Slices ![0, 14, 0] S256x1x1024
  bcast_S256x1024_S256x1x1024_0_2 : S256x1024.BroadcastsInDim S256x1x1024 (![0, 2] : Fin 2 → Fin S256x1x1024.rank)
  concatenates_S256x1x1024_S256x1x1024_S256x1x1024_S256x1x1024_S256x1x1024_S256x1x1024_S256x1x1024_S256x1x1024_S256x1x1024_S256x1x1024_S256x1x1024_S256x1x1024_S256x1x1024_S256x1x1024_S256x1x1024_S256x15x1024_d1 : Shape.Concatenates [S256x1x1024, S256x1x1024, S256x1x1024, S256x1x1024, S256x1x1024, S256x1x1024, S256x1x1024, S256x1x1024, S256x1x1024, S256x1x1024, S256x1x1024, S256x1x1024, S256x1x1024, S256x1x1024, S256x1x1024] S256x15x1024 1
  transposes_S256x15x1024_S15x256x1024_1_0_2 : S256x15x1024.Transposes [1, 0, 2] S15x256x1024
  dot_S256x1024_S1024x4096_S256x4096_1_0_0_1_n_n_wf : DotDims.WF S256x1024 S1024x4096 S256x4096 [1] [0] [0] [1] [] []

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

class Facts : Prop extends Facts₀ where

variable [Facts]
-- ==== Proof.K.Gates.lean ====
import proofs.«408307_j89713276879117_3_alg».proof.Proof.Gen.Kernel.Launch
import proofs.«408307_j89713276879117_3_alg».proof.Proof.Gen.Kernel.Skeleton
import proofs.«408307_j89713276879117_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The bodies of the two batched input projections (regions 0 and 2 of @main): each loads its input windows
    whole, multiplies into a zero accumulator, adds the broadcast bias, rounds to bf16 and stores the output
    window whole. Per region, at a parameter `V` (the core's buffer contents when the region is entered):
    each window's block at a point, what the body leaves in the output window's buffer, the body's triple, the
    pipeline's proof data and the body obligation. -/

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when a region is entered: the parameter each region's half is stated at
variable (V : (c : Dev nD) → (b : Ref sig .tc) → Buf (Elt F) ((c : Thread nD τ).loc b))

/-! # REGION 0 of @main: `cc0__gatesx_concat_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block access rectangles of the body. -/
abbrev rA0 : Rect S192x512 := Rect.unit (s := S192x512) ![0, 0] S192x512.size inb_S192x512_S192x512_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0
abbrev rO : Rect S192x4096 := Rect.unit (s := S192x4096) ![0, 0] S192x4096.size inb_S192x4096_S192x4096_0_0

/-- Window 4's staging buffer after the body, from the input windows' blocks: its one store, of the whole block. -/
def out0_4 (x0 x1 : Vec F S192x512 .f32) (x2 : Vec F S4096x1024 .bf16) (x3 : Vec F S1x4096 .f32) : Vec F S192x4096 .bf16 :=
  View.canon [⟨rO, k0_pay1 (View.ld x0 rA0) (View.ld x1 rA0) (View.ld x2 rW) (View.ld x3 rB)⟩]

/-- The proof data of pipeline 0 on core `c`: the arrays as the region finds them; after the body at point `t`
    each input's buffer at its block and the output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_4 (p0 : Vec F S192x4096 .bf16) (y : S192x4096.Idx) :
    ∃ pc ∈ ([⟨rO, p0⟩] : List (View.Piece (Elt F) S192x4096 .bf16)), y ∈ pc.1.set :=
  View.cover_of_tiled [⟨rO, p0⟩] S192x4096.size (by rfl) y

set_option maxHeartbeats 1000000 in
/-- The kernel body on whole staging memrefs, the inputs' at read contents and the output's at anything, runs to the
    continuation holding the inputs' as they were and the output's at `out0_4` of the inputs'. -/
theorem sound_kernel0 (c : Dev nD) (E : Set ℕ) (i : grid0.Coords)
    (arg1 : Memref sig .tc .vmem S192x512 .f32) (harg1 : arg1.IsWhole) (arg2 : Memref sig .tc .vmem S192x512 .f32) (harg2 : arg2.IsWhole)
    (arg3 : Memref sig .tc .vmem S4096x1024 .bf16) (harg3 : arg3.IsWhole) (arg4 : Memref sig .tc .vmem S1x4096 .f32) (harg4 : arg4.IsWhole)
    (arg5 : Memref sig .tc .vmem S192x4096 .bf16) (harg5 : arg5.IsWhole)
    (x0 x1 : Vec F S192x512 .f32) (x2 : Vec F S4096x1024 .bf16) (x3 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gatesx_concat_kernel i arg1 harg1 arg2 harg2 arg3 harg3 arg4 harg4 arg5 harg5) K := by
  simp only [cc0__gatesx_concat_kernel_eq_skeleton]; unfold cc0__gatesx_concat_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 2 of @main: `cc2__gatesx_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S192x1024 := Rect.unit (s := S192x1024) ![0, 0] S192x1024.size inb_S192x1024_S192x1024_0_0

/-- Window 3's staging buffer after the body, from the input windows' blocks: its one store, of the whole block. -/
def out2_3 (x0 : Vec F S192x1024 .bf16) (x1 : Vec F S4096x1024 .bf16) (x2 : Vec F S1x4096 .f32) : Vec F S192x4096 .bf16 :=
  View.canon [⟨rO, k2_pay1 (View.ld x0 rA2) (View.ld x1 rW) (View.ld x2 rB)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one store tiles the output buffer, so it covers it. -/
theorem cover2_3 (p0 : Vec F S192x4096 .bf16) (y : S192x4096.Idx) :
    ∃ pc ∈ ([⟨rO, p0⟩] : List (View.Piece (Elt F) S192x4096 .bf16)), y ∈ pc.1.set :=
  View.cover_of_tiled [⟨rO, p0⟩] S192x4096.size (by rfl) y

set_option maxHeartbeats 1000000 in
/-- The kernel body on whole staging memrefs, the inputs' at read contents and the output's at anything, runs to the
    continuation holding the inputs' as they were and the output's at `out2_3` of the inputs'. -/
theorem sound_kernel2 (c : Dev nD) (E : Set ℕ) (i : grid2.Coords)
    (arg1 : Memref sig .tc .vmem S192x1024 .bf16) (harg1 : arg1.IsWhole)
    (arg2 : Memref sig .tc .vmem S4096x1024 .bf16) (harg2 : arg2.IsWhole) (arg3 : Memref sig .tc .vmem S1x4096 .f32) (harg3 : arg3.IsWhole)
    (arg4 : Memref sig .tc .vmem S192x4096 .bf16) (harg4 : arg4.IsWhole)
    (x0 : Vec F S192x1024 .bf16) (x1 : Vec F S4096x1024 .bf16) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__gatesx_kernel i arg1 harg1 arg2 harg2 arg3 harg3 arg4 harg4) K := by
  simp only [cc2__gatesx_kernel_eq_skeleton]; unfold cc2__gatesx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.K.Cell1.lean ====
import proofs.«408307_j89713276879117_3_alg».proof.Proof.Gen.Kernel.Launch
import proofs.«408307_j89713276879117_3_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The cell kernel of the first layer: proof data and body obligation -/

/-- The prefetched table's contents: the parent of each joint. -/
def tbl1 : pre1.Contents (Elt F) := fun
  | 0 => fun i => lit0 (S15.rowMajor i)
  | ⟨_ + 1, h⟩ => absurd h (Nat.not_lt.2 (Nat.le_add_left _ _))

/-- The table's contents are admissible (the side condition is trivial). -/
def adm1 : (pcfg1 (F := F)).Adm := ⟨tbl1, trivial⟩

/-- The grid has thirty points. -/
theorem N1_eq : (cfg1 (F := F) adm1).N = 30 := N_1

/-- The grid's points in order: the batch half is the slow coordinate, the joint the fast one. -/
theorem coords1_eq : ∀ t : Fin grid1.N, (grid1.coords t 0).val = t.val / 15 ∧ (grid1.coords t 1).val = t.val % 15 := by decide +kernel

/-- The point of linear position `n` (the first point beyond the grid). -/
def ptOf1 (n : ℕ) : Fin (cfg1 (F := F) adm1).N :=
  if h : n < (cfg1 (F := F) adm1).N then ⟨n, h⟩ else ⟨0, by rw [N1_eq]; omega⟩

variable (V : (c : Dev nD) → (b : Ref sig .tc) → Buf (Elt F) ((c : Thread nD τ).loc b))

/-- Window `w`'s block at point `t`, read off its array as the region finds it. -/
def iblk1 (c : Dev nD) (w : Fin 3) (t : Fin (cfg1 (F := F) adm1).N) :
    (((cfg1 (F := F) adm1).win w).xblock ((cfg1 (F := F) adm1).grid.coords t)).Idx → Elt F ((cfg1 (F := F) adm1).win w).elt :=
  (((cfg1 (F := F) adm1).win w).blk t).view.read (Elt F) (V c (Pipeline.arrRef spec1 w))

/-- The gate block at a point, at its literal vector type. -/
abbrev xblk1 (c : Dev nD) (t : Fin (cfg1 (F := F) adm1).N) : Vec F S1x128x4096 .bf16 := iblk1 V c 0 t
/-- The recurrent weights at a point, at their literal vector type. -/
abbrev wblk1 (c : Dev nD) (t : Fin (cfg1 (F := F) adm1).N) : Vec F S4096x1024 .bf16 := iblk1 V c 1 t

/-- A joint's state: its hidden row (bf16) and its cell row (f32). -/
abbrev Row1 (F : FTy → Type) [FloatOps F] : Type := Vec F S1x128x1024 .bf16 × Vec F S1x128x1024 .f32

/-- The zero state (row 0 of both scratch buffers after the reset). -/
def zrow1 : Row1 F := (k1_pay3, k1_pay4)

/-- One joint: from its parent's state, its gate block and the weights, its own state. -/
def cell1 (par : Row1 F) (x : Vec F S1x128x4096 .bf16) (w : Vec F S4096x1024 .bf16) : Row1 F :=
  (k1_pay8 par.1 par.2 x w, k1_pay1 (k1_pay6 par.1 par.2 x w))

/-- What one joint writes to the output window. -/
def out1 (par : Row1 F) (x : Vec F S1x128x4096 .bf16) (w : Vec F S4096x1024 .bf16) : Vec F S1x128x1024 .bf16 :=
  k1_pay2 (k1_pay7 par.1 par.2 x w)

/-- The table of joint states after the point of linear position `n`, over a parent map `p`: a walk starts
    from the zero table; the point of joint `i = n % 15` fills row `i + 1` from row `p i`. -/
def tabG (p : ℕ → ℕ) (c : Dev nD) : ℕ → ℕ → Row1 F
  | 0 => Function.update (fun _ => zrow1) 1 (cell1 zrow1 (xblk1 V c (ptOf1 0)) (wblk1 V c (ptOf1 0)))
  | n + 1 =>
    let base : ℕ → Row1 F := if (n + 1) % 15 = 0 then fun _ => zrow1 else tabG p c n
    Function.update base ((n + 1) % 15 + 1) (cell1 (base (p ((n + 1) % 15))) (xblk1 V c (ptOf1 (n + 1))) (wblk1 V c (ptOf1 (n + 1))))

/-- The table a point starts from: zero at a walk's first point, else what the point before left. -/
def baseG (p : ℕ → ℕ) (c : Dev nD) (n : ℕ) : ℕ → Row1 F :=
  if n % 15 = 0 then fun _ => zrow1 else tabG V p c (n - 1)

/-- The parent of joint `i`, read off the table. -/
def par1 (i : ℕ) : ℕ := if h : i < 15 then (lit0 ⟨i, h⟩).toNat else 0

/-- What point `t` leaves in the output window's staging buffer. -/
def hrow1 (c : Dev nD) (t : Fin (cfg1 (F := F) adm1).N) : Vec F S1x128x1024 .bf16 :=
  out1 (baseG V par1 c t.val (par1 (t.val % 15))) (xblk1 V c t) (wblk1 V c t)

/-- Row `r` of a sixteen-row buffer, as a rectangle. -/
abbrev rowR1 (r : ℕ) (h : r + 1 ≤ 16) : Rect S16x128x1024 :=
  Rect.unit (s := S16x128x1024) ![r, 0, 0] S1x128x1024.size (by
    intro a; fin_cases a
    · show r + 1 ≤ 16; exact h
    · show 0 + 128 ≤ 128; omega
    · show 0 + 1024 ≤ 1024; omega)

/-- THE INVARIANT before the point of linear position `t`: inside a walk (joint `i = t % 15 ≥ 1`) rows
    `0 … i` of the two scratch buffers are the states the walk has computed; at a walk's first point nothing
    is known. -/
def Inv1 (c : Dev nD) (t : Fin ((cfg1 (F := F) adm1).N + 1))
    (f0 : Buf (Elt F) ((c : Thread nD τ).loc cc1_scratch0)) (f1 : Buf (Elt F) ((c : Thread nD τ).loc cc1_scratch1)) : Prop :=
  t.val % 15 ≠ 0 → ∀ (r : ℕ) (hr : r ≤ t.val % 15),
    View.ld (Val := Elt F) (S := S16x128x1024) (e' := .bf16) f0 (rowR1 r (by omega)) = (tabG V par1 c (t.val - 1) r).1
      ∧ View.ld (Val := Elt F) (S := S16x128x1024) (e' := .f32) f1 (rowR1 r (by omega)) = (tabG V par1 c (t.val - 1) r).2

/-- The proof data of the pipeline on core `c`. -/
def dat1 (c : Dev nD) : Dat τ (Elt F) Unit ℕ (UR sig nD τ) ℕ (cfg1 (F := F) adm1) c where
  A w := V c (Pipeline.arrRef spec1 w)
  after w t := match w with
    | ⟨0, _⟩ => iblk1 V c 0 t
    | ⟨1, _⟩ => iblk1 V c 1 t
    | ⟨2, _⟩ => hrow1 V c t
  Φ t := iprop((∃ r, prngReg c r) ∗ Pipeline.prefHeld pre1 c (fun _ => fullShare) (adm1 (F := F)).1
      ∗ Pipeline.scopedRestBut spec1 c [cc1_scratch0, cc1_scratch1]
      ∗ ∃ f0 f1, ⌜Inv1 V c t f0 f1⌝ ∗ (((c : Thread nD τ).loc cc1_scratch0) ↦{fullShare} f0) ∗ (((c : Thread nD τ).loc cc1_scratch1) ↦{fullShare} f1))
  q _ := fullShare
  owed _ := 0

theorem A_eq1 (c : Dev nD) (w : Fin 3) : (dat1 V c).A w = V c (Pipeline.arrRef spec1 w) := by
  dsimp only [dat1]

theorem after1_0 (c : Dev nD) (t : Fin (cfg1 (F := F) adm1).N) : (dat1 V c).after 0 t = iblk1 V c 0 t := rfl
theorem after1_1 (c : Dev nD) (t : Fin (cfg1 (F := F) adm1).N) : (dat1 V c).after 1 t = iblk1 V c 1 t := rfl
theorem after1_2 (c : Dev nD) (t : Fin (cfg1 (F := F) adm1).N) : (dat1 V c).after 2 t = hrow1 V c t := rfl

/-- Each input's current staging buffer holds its block at every point, fetched there or not. -/
theorem before1_0 (c : Dev nD) (t : Fin (cfg1 (F := F) adm1).N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin (cfg1 (F := F) adm1).N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The scoped rest of the cell kernel's call split at the call's own two scratch buffers, each whole at some
    contents; every other scoped buffer stays unopened. -/
theorem scopedRest_splitC1 (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

theorem phi1_in (c : Dev nD) :
    iprop((∃ r, prngReg c r) ∗ Pipeline.prefHeld pre1 c (fun _ => fullShare) (adm1 (F := F)).1 ∗ Pipeline.scopedRest spec1 c)
      ⊢ ((dat1 V c).Φ 0 : sProp 𝕄) := by
  rw [scopedRest_splitC1 (F := F) c]
  dsimp only [dat1]
  iintro ⟨HR, HP, ⟨⟨%f0, H0⟩, ⟨%f1, H1⟩⟩, HB⟩
  isplitl [HR]
  · iexact HR
  isplitl [HP]
  · iexact HP
  isplitl [HB]
  · iexact HB
  iexists f0, f1
  isplitr
  · ipureintro
    intro h
    exact absurd (by simp) h
  isplitl [H0]
  · iexact H0
  · iexact H1

theorem phi1_out (c : Dev nD) :
    ((dat1 V c).Φ (Fin.last _) : sProp 𝕄)
      ⊢ iprop((∃ r, prngReg c r) ∗ Pipeline.prefHeld pre1 c (fun _ => fullShare) (adm1 (F := F)).1 ∗ Pipeline.scopedRest spec1 c) := by
  rw [scopedRest_splitC1 (F := F) c]
  dsimp only [dat1]
  iintro ⟨HR, HP, HB, %f0, %f1, -, H0, H1⟩
  isplitl [HR]
  · iexact HR
  isplitl [HP]
  · iexact HP
  isplitr [HB]
  · isplitl [H0]
    · iexists f0
      iexact H0
    · iexists f1
      iexact H1
  · iexact HB

/-! ## Reading rows of a sixteen-row buffer through a whole memref -/

section RowsC1

variable {κ : Kind} {sp : Space}

/-- A load of the whole shape at zero offsets through a whole memref held at the contents that read `X` reads `X`. -/
theorem readAt_wholeC1 {s : Shape} {e : EltTy} (m : Memref sig κ sp s e) (hm : m.IsWhole) (X : s.Idx → Elt F e)
    (off : Fin s.rank → ℕ) (inb : ∀ a, off a + s.size a ≤ s.size a) :
    View.readAt (Elt F) m.view (Rect.unit (s := s) off s.size inb).toLoadRect (hm.unread X) = X := by
  funext j
  rw [Memref.IsWhole.readAt_unread hm]
  congr 1
  funext a
  apply Fin.ext
  show off a + 1 * (j a).val = (j a).val
  have := inb a
  omega

/-- A load of one row through a whole memref held at the contents that read `g` reads that row of `g`. -/
theorem readAt_rowC1 {e : EltTy} (m : Memref sig κ sp S16x128x1024 e) (hm : m.IsWhole) (g : S16x128x1024.Idx → Elt F e)
    (off : Fin 3 → ℕ) (inb : ∀ a, off a + S1x128x1024.size a ≤ S16x128x1024.size a) (p : ℕ) (hp : p + 1 ≤ 16)
    (hoff : off = ![p, 0, 0]) :
    View.readAt (Elt F) m.view (Rect.unit (s := S16x128x1024) off S1x128x1024.size inb).toLoadRect (hm.unread g)
      = View.ld (Val := Elt F) g (rowR1 p hp) := by
  subst hoff
  funext j
  rw [Memref.IsWhole.readAt_unread hm]

/-- Rows after a store of one row: the stored row reads the payload, every other row what the earlier stores left. -/
theorem rows_consC1 {e : EltTy} (m : Memref sig κ sp S16x128x1024 e) (f : m.view.ty.Contents (Elt F))
    (off : Fin 3 → ℕ) (inb : ∀ a, off a + S1x128x1024.size a ≤ S16x128x1024.size a) (j : ℕ) (hoff : off = ![j, 0, 0])
    (P : (Rect.unit (s := S16x128x1024) off S1x128x1024.size inb).shape.Idx → Elt F e) (L : List (View.Piece (Elt F) S16x128x1024 e))
    (r : ℕ) (h : r + 1 ≤ 16) :
    View.ld (Val := Elt F) (m.view.read (Elt F) (m.view.writes (Elt F) f ((⟨Rect.unit (s := S16x128x1024) off S1x128x1024.size inb, P⟩ : View.Piece (Elt F) S16x128x1024 e) :: L))) (rowR1 r h)
      = if r = j then P else View.ld (Val := Elt F) (m.view.read (Elt F) (m.view.writes (Elt F) f L)) (rowR1 r h) := by
  funext y
  by_cases hr : r = j
  · subst hr
    rw [if_pos rfl]
    exact View.read_writes_cons_unit_of_mem m.view f inb P L ((rowR1 r h).idx y) y hoff (fun a => by
      fin_cases a
      · show r + 1 * (y 0).val = r + (y 0).val; omega
      · show 0 + 1 * (y 1).val = 0 + (y 1).val; omega
      · show 0 + 1 * (y 2).val = 0 + (y 2).val; omega)
  · rw [if_neg hr]
    exact View.read_writes_cons_unit_of_not_mem m.view f inb P L ((rowR1 r h).idx y) hoff 0 (by
      have hy : (y 0).val < 1 := (y 0).isLt
      show r + 1 * (y 0).val < j ∨ j + 1 ≤ r + 1 * (y 0).val
      omega)

/-- A load of row `p` after a store of that row reads the payload. -/
theorem readAt_row_consC1 {e : EltTy} (m : Memref sig κ sp S16x128x1024 e) (f : m.view.ty.Contents (Elt F))
    (off off2 : Fin 3 → ℕ) (inb : ∀ a, off a + S1x128x1024.size a ≤ S16x128x1024.size a) (inb2 : ∀ a, off2 a + S1x128x1024.size a ≤ S16x128x1024.size a)
    (p : ℕ) (hoff : off = ![p, 0, 0]) (hoff2 : off2 = ![p, 0, 0])
    (P : (Rect.unit (s := S16x128x1024) off2 S1x128x1024.size inb2).shape.Idx → Elt F e) (L : List (View.Piece (Elt F) S16x128x1024 e)) :
    View.readAt (Elt F) m.view (Rect.unit (s := S16x128x1024) off S1x128x1024.size inb).toLoadRect
        (m.view.writes (Elt F) f ((⟨Rect.unit (s := S16x128x1024) off2 S1x128x1024.size inb2, P⟩ : View.Piece (Elt F) S16x128x1024 e) :: L))
      = P := by
  subst hoff
  funext y
  rw [View.readAt_apply]
  exact View.read_writes_cons_unit_of_mem m.view f inb2 P L _ y hoff2 (fun a => by
    fin_cases a
    · show p + 1 * (y 0).val = p + (y 0).val; omega
    · show 0 + 1 * (y 1).val = 0 + (y 1).val; omega
    · show 0 + 1 * (y 2).val = 0 + (y 2).val; omega)

/-- What a view reads after a store of the whole shape at zero offsets, whatever came before: the payload. -/
theorem read_whole_consC1 {s : Shape} {e : EltTy} (m : Memref sig κ sp s e) (f : m.view.ty.Contents (Elt F))
    (off : Fin s.rank → ℕ) (inb : ∀ a, off a + s.size a ≤ s.size a)
    (P : (Rect.unit (s := s) off s.size inb).shape.Idx → Elt F e) (L : List (View.Piece (Elt F) s e)) :
    m.view.read (Elt F) (m.view.writes (Elt F) f ((⟨Rect.unit (s := s) off s.size inb, P⟩ : View.Piece (Elt F) s e) :: L)) = P := by
  funext y
  exact View.read_writes_cons_unit_of_mem m.view f inb P L y y rfl (fun a => by have := inb a; omega)

end RowsC1

/-! ## The body's run, per control case -/

/-- The condition of the body's reset branch, from the grid coordinates. -/
abbrev condC1 (i : grid1.Coords) : Prop := (Scalar.cmpi .ne (Scalar.extui (Scalar.cmpi .eq (BitVec.ofNat 32 (i 1).val) 0#32)) 0#32) = 1#1

/-- It holds at a walk's first joint only. -/
theorem hcondC1 : ∀ i : grid1.Coords, condC1 i ↔ (i 1).val = 0 := by decide +kernel

/-- The word the body loads from the table at its point, in the form the run reads it. -/
abbrev wordC1 (i : grid1.Coords) (arg2 : Memref sig .tc .smem S15 .i32) (harg2 : arg2.IsWhole) (tb : Vec F S15 .i32) : BitVec 32 :=
  arg2.view.readAt (Elt F) (Rect.unit (s := S15) (k1_off1 i) S1.size (k1_off1_inb i)).toLoadRect (harg2.unread tb) (Shape.Idx.first (numel1_S1.symm ▸ Nat.one_pos))

/-- The assumed side condition, from the parent row's number. -/
theorem chk_of_offC1 (v4 : BitVec 32) (p : ℕ) (hp : p + 1 ≤ 16) (hoff : k1_off2 v4 = ![p, 0, 0]) : k1_chk1 v4 := by
  unfold k1_chk1; rw [hoff]; intro a; fin_cases a
  · show p + 1 ≤ 16; exact hp
  · show 0 + 128 ≤ 128; omega
  · show 0 + 1024 ≤ 1024; omega

/-- Rows of a buffer after one joint's store: row `j` is the payload, every other row as before. -/
def RowsUpdC1 {e : EltTy} (g G : Vec F S16x128x1024 e) (j : ℕ) (P : Vec F S1x128x1024 e) : Prop :=
  ∀ (r : ℕ) (h : r + 1 ≤ 16), View.ld (Val := Elt F) G (rowR1 r h) = if r = j then P else View.ld (Val := Elt F) g (rowR1 r h)

set_option maxHeartbeats 800000 in
/-- The body inside a walk (the reset branch not taken), on whole memrefs: the table, the gate block and the weights
    come back as they were, the output window holds the joint's output, and the scratch buffers hold the joint's
    state in row `i + 1`, every other row as before. -/
theorem runC1_B (c : Dev nD) (i : grid1.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .bf16) (harg5 : arg5.IsWhole) (arg6 : Memref sig .tc .vmem S16x128x1024 .bf16) (harg6 : arg6.IsWhole) (arg7 : Memref sig .tc .vmem S16x128x1024 .f32) (harg7 : arg7.IsWhole)
    (hc0 : ¬condC1 i)
    (tb : Vec F S15 .i32) (p : ℕ) (hp : p + 1 ≤ 16) (hoff : k1_off2 (wordC1 i arg2 harg2 tb) = ![p, 0, 0])
    (x : Vec F S1x128x4096 .bf16) (w : Vec F S4096x1024 .bf16) (g0 : Vec F S16x128x1024 .bf16) (g1 : Vec F S16x128x1024 .f32)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ owns (c : Thread nD τ) arg6 fullShare g0 ∗ owns (c : Thread nD τ) arg7 fullShare g1
        ∗ (iprop(owns (c : Thread nD τ) arg2 fullShare tb ∗ owns (c : Thread nD τ) arg3 fullShare x ∗ owns (c : Thread nD τ) arg4 fullShare w
            ∗ owns (c : Thread nD τ) arg5 fullShare (out1 (View.ld (Val := Elt F) g0 (rowR1 p hp), View.ld (Val := Elt F) g1 (rowR1 p hp)) x w)
            ∗ (∃ G0 G1, ⌜RowsUpdC1 g0 G0 ((i 1).val + 1) (cell1 (View.ld (Val := Elt F) g0 (rowR1 p hp), View.ld (Val := Elt F) g1 (rowR1 p hp)) x w).1
                  ∧ RowsUpdC1 g1 G1 ((i 1).val + 1) (cell1 (View.ld (Val := Elt F) g0 (rowR1 p hp), View.ld (Val := Elt F) g1 (rowR1 p hp)) x w).2⌝
                ∗ owns (c : Thread nD τ) arg6 fullShare G0 ∗ owns (c : Thread nD τ) arg7 fullShare G1)) -∗ K ⟨⟩))
      ⊢ wp frame (wpE (defs₀ (F := F)) Variants.none c none) E (cc1__cell_kernel i arg2 harg2 arg3 harg3 arg4 harg4 arg5 harg5 arg6 harg6 arg7 harg7) K := by
  have hchk : k1_chk1 (wordC1 i arg2 harg2 tb) := chk_of_offC1 _ p hp hoff
  simp only [cc1__cell_kernel_eq_skeleton]; unfold cc1__cell_kernel_skel
  simp only [k1_part1_eq_skeleton]; unfold k1_part1_skel
  unfold owns
  iintro ⟨⟨%f2, %hf2, H2⟩, ⟨%f3, %hf3, H3⟩, ⟨%f4, %hf4, H4⟩, ⟨%d5, %f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k1_off2 (runC1_B.sl.r c i arg2 harg2 tb) = ![p, 0, 0] := hoff
    rw [read_whole_consC1, readAt_rowC1 arg6 harg6 g0 _ _ p hp hoff', readAt_rowC1 arg7 harg7 g1 _ _ p hp hoff',
      readAt_wholeC1 arg3 harg3 x, readAt_wholeC1 arg4 harg4 w]
    rfl
  iexists _, _
  isplitr
  swap
  · isplitl [H6]
    · iexists _; isplitr
      swap; · iexact H6
      ipureintro; rfl
    · iexists _; isplitr
      swap; · iexact H7
      ipureintro; rfl
  ipureintro
  have hoff' : k1_off2 (runC1_B.sl.r c i arg2 harg2 tb) = ![p, 0, 0] := hoff
  refine ⟨fun r h => ?_, fun r h => ?_⟩
  · rw [rows_consC1 arg6 _ _ _ ((i 1).val + 1) (k1_off3_eq i), View.writes_nil, harg6.read_unread,
      readAt_rowC1 arg6 harg6 g0 _ _ p hp hoff', readAt_rowC1 arg7 harg7 g1 _ _ p hp hoff',
      readAt_wholeC1 arg3 harg3 x, readAt_wholeC1 arg4 harg4 w]
    rfl
  · rw [rows_consC1 arg7 _ _ _ ((i 1).val + 1) (k1_off3_eq i), View.writes_nil, harg7.read_unread,
      readAt_rowC1 arg6 harg6 g0 _ _ p hp hoff', readAt_rowC1 arg7 harg7 g1 _ _ p hp hoff',
      readAt_wholeC1 arg3 harg3 x, readAt_wholeC1 arg4 harg4 w]
    rfl

/-- Rows of a buffer after a walk's first joint: row 0 zeroed, row `j` the payload, every other row as before. -/
def RowsUpd0C1 {e : EltTy} (g G : Vec F S16x128x1024 e) (j : ℕ) (Z P : Vec F S1x128x1024 e) : Prop :=
  ∀ (r : ℕ) (h : r + 1 ≤ 16), View.ld (Val := Elt F) G (rowR1 r h)
    = if r = j then P else if r = 0 then Z else View.ld (Val := Elt F) g (rowR1 r h)

set_option maxHeartbeats 800000 in
/-- The body at a walk's first joint (the reset branch taken; the parent row is row 0), on whole memrefs. -/
theorem runC1_A (c : Dev nD) (i : grid1.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .bf16) (harg5 : arg5.IsWhole) (arg6 : Memref sig .tc .vmem S16x128x1024 .bf16) (harg6 : arg6.IsWhole) (arg7 : Memref sig .tc .vmem S16x128x1024 .f32) (harg7 : arg7.IsWhole)
    (hc0 : condC1 i)
    (tb : Vec F S15 .i32) (hoff : k1_off2 (wordC1 i arg2 harg2 tb) = ![0, 0, 0])
    (x : Vec F S1x128x4096 .bf16) (w : Vec F S4096x1024 .bf16)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ (∃ g0, owns (c : Thread nD τ) arg6 fullShare g0) ∗ (∃ g1, owns (c : Thread nD τ) arg7 fullShare g1)
        ∗ (iprop(owns (c : Thread nD τ) arg2 fullShare tb ∗ owns (c : Thread nD τ) arg3 fullShare x ∗ owns (c : Thread nD τ) arg4 fullShare w
            ∗ owns (c : Thread nD τ) arg5 fullShare (out1 zrow1 x w)
            ∗ (∃ g0 g1 G0 G1, ⌜RowsUpd0C1 g0 G0 ((i 1).val + 1) (zrow1 (F := F)).1 (cell1 zrow1 x w).1
                  ∧ RowsUpd0C1 g1 G1 ((i 1).val + 1) (zrow1 (F := F)).2 (cell1 zrow1 x w).2⌝
                ∗ owns (c : Thread nD τ) arg6 fullShare G0 ∗ owns (c : Thread nD τ) arg7 fullShare G1)) -∗ K ⟨⟩))
      ⊢ wp frame (wpE (defs₀ (F := F)) Variants.none c none) E (cc1__cell_kernel i arg2 harg2 arg3 harg3 arg4 harg4 arg5 harg5 arg6 harg6 arg7 harg7) K := by
  have hchk : k1_chk1 (wordC1 i arg2 harg2 tb) := chk_of_offC1 _ 0 (by omega) hoff
  simp only [cc1__cell_kernel_eq_skeleton]; unfold cc1__cell_kernel_skel
  simp only [k1_part1_eq_skeleton]; unfold k1_part1_skel
  unfold owns
  iintro ⟨⟨%f2, %hf2, H2⟩, ⟨%f3, %hf3, H3⟩, ⟨%f4, %hf4, H4⟩, ⟨%d5, %f5, %hf5, H5⟩, ⟨%g0, %f6, %hf6, H6⟩, ⟨%g1, %f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k1_off2 (runC1_A.sl.r c i arg2 harg2 tb) = ![0, 0, 0] := hoff
    unfold runC1_A.sl.H6_1 runC1_A.sl.H7_1
    rw [read_whole_consC1, readAt_row_consC1 arg6 _ _ _ _ _ 0 hoff' rfl, readAt_row_consC1 arg7 _ _ _ _ _ 0 hoff' rfl,
      readAt_wholeC1 arg3 harg3 x, readAt_wholeC1 arg4 harg4 w]
    rfl
  iexists g0, g1, _, _
  isplitr
  swap
  · isplitl [H6]
    · iexists _; isplitr
      swap; · iexact H6
      ipureintro; rfl
    · iexists _; isplitr
      swap; · iexact H7
      ipureintro; rfl
  ipureintro
  have hoff' : k1_off2 (runC1_A.sl.r c i arg2 harg2 tb) = ![0, 0, 0] := hoff
  refine ⟨fun r h => ?_, fun r h => ?_⟩
  · rw [rows_consC1 arg6 _ _ _ ((i 1).val + 1) (k1_off3_eq i)]
    unfold runC1_A.sl.H6_1 runC1_A.sl.H7_1
    rw [rows_consC1 arg6 _ _ _ 0 rfl, View.writes_nil, harg6.read_unread,
      readAt_row_consC1 arg6 _ _ _ _ _ 0 hoff' rfl, readAt_row_consC1 arg7 _ _ _ _ _ 0 hoff' rfl,
      readAt_wholeC1 arg3 harg3 x, readAt_wholeC1 arg4 harg4 w]
    rfl
  · rw [rows_consC1 arg7 _ _ _ ((i 1).val + 1) (k1_off3_eq i)]
    unfold runC1_A.sl.H6_1 runC1_A.sl.H7_1
    rw [rows_consC1 arg7 _ _ _ 0 rfl, View.writes_nil, harg7.read_unread,
      readAt_row_consC1 arg6 _ _ _ _ _ 0 hoff' rfl, readAt_row_consC1 arg7 _ _ _ _ _ 0 hoff' rfl,
      readAt_wholeC1 arg3 harg3 x, readAt_wholeC1 arg4 harg4 w]
    rfl

/-! ## The table of states, unfolded one point at a time -/

theorem ptOf1_valC1 (t : Fin (cfg1 (F := F) adm1).N) : ptOf1 (F := F) t.val = t := by
  unfold ptOf1; rw [dif_pos t.isLt]

theorem tabG_eqC1 (p : ℕ → ℕ) (c : Dev nD) (n : ℕ) :
    tabG V p c n = Function.update (baseG V p c n) (n % 15 + 1)
      (cell1 (baseG V p c n (p (n % 15))) (xblk1 V c (ptOf1 n)) (wblk1 V c (ptOf1 n))) := by
  cases n <;> rfl

/-- The first joint is its own parent's row: row 0. -/
theorem par1_zeroC1 : par1 0 = 0 := by decide

/-- What the table says of each joint's parent: the offsets it yields, and that it precedes the joint. -/
theorem lit0_factsC1 : ∀ j : Fin 15, k1_off2 (lit0 j) = ![(lit0 j).toNat, 0, 0] ∧ (lit0 j).toNat ≤ j.val := by decide +kernel

/-- The table's cell a point reads is its joint's. -/
theorem word_idxC1 : ∀ i : grid1.Coords, S15.rowMajor ((Rect.unit (s := S15) (k1_off1 i) S1.size (k1_off1_inb i)).idx (Shape.Idx.first (numel1_S1.symm ▸ Nat.one_pos))) = ⟨(i 1).val, (i 1).isLt⟩ := by decide +kernel

theorem par1_leC1 (i : ℕ) (hi : i < 15) : par1 i ≤ i := by
  unfold par1; rw [dif_pos hi]; exact (lit0_factsC1 ⟨i, hi⟩).2

/-- The table's contents at their literal vector type. -/
abbrev tblVC1 : Vec F S15 .i32 := fun j => lit0 (S15.rowMajor j)

/-- The word a point loads through a whole memref held at contents that read `tb` is `tb`'s at the loaded cell. -/
theorem word_readC1 (i : grid1.Coords) (m : Memref sig .tc .smem S15 .i32) (hm : m.IsWhole) (tb : Vec F S15 .i32) :
    wordC1 i m hm tb = tb ((Rect.unit (s := S15) (k1_off1 i) S1.size (k1_off1_inb i)).idx (Shape.Idx.first (numel1_S1.symm ▸ Nat.one_pos))) :=
  Memref.IsWhole.readAt_unread hm tb _ _

/-- At the table's contents it is the parent of the point's joint. -/
theorem word_eqC1 (i : grid1.Coords) (m : Memref sig .tc .smem S15 .i32) (hm : m.IsWhole) :
    wordC1 (F := F) i m hm tblVC1 = lit0 ⟨(i 1).val, (i 1).isLt⟩ :=
  (word_readC1 i m hm tblVC1).trans (congrArg lit0 (word_idxC1 i))

theorem off_eqC1 (i : grid1.Coords) (m : Memref sig .tc .smem S15 .i32) (hm : m.IsWhole) :
    k1_off2 (wordC1 (F := F) i m hm tblVC1) = ![par1 (i 1).val, 0, 0] := by
  rw [word_eqC1, (lit0_factsC1 _).1]
  unfold par1; rw [dif_pos (show (i 1).val < 15 from (i 1).isLt)]

/-! ## The invariant, one point at a time -/

theorem baseG_posC1 (p : ℕ → ℕ) (c : Dev nD) (n : ℕ) (h : n % 15 ≠ 0) : baseG V p c n = tabG V p c (n - 1) := by
  unfold baseG; rw [if_neg h]

theorem baseG_zeroC1 (p : ℕ → ℕ) (c : Dev nD) (n : ℕ) (h : n % 15 = 0) : baseG V p c n = fun _ => zrow1 := by
  unfold baseG; rw [if_pos h]

/-- The invariant at a position whose value is `n`, read. -/
theorem inv1_atC1 (c : Dev nD) (s : Fin ((cfg1 (F := F) adm1).N + 1)) (n : ℕ) (hs : s.val = n)
    (g0 : Vec F S16x128x1024 .bf16) (g1 : Vec F S16x128x1024 .f32) (hinv : Inv1 V c s g0 g1)
    (hi : n % 15 ≠ 0) (r : ℕ) (hr : r ≤ n % 15) (h16 : r + 1 ≤ 16) :
    View.ld (Val := Elt F) g0 (rowR1 r h16) = (tabG V par1 c (n - 1) r).1
      ∧ View.ld (Val := Elt F) g1 (rowR1 r h16) = (tabG V par1 c (n - 1) r).2 := by
  subst hs
  exact hinv hi r hr

/-- The invariant at a position whose value is `n`, stated. -/
theorem inv1_introC1 (c : Dev nD) (s : Fin ((cfg1 (F := F) adm1).N + 1)) (n : ℕ) (hs : s.val = n)
    (G0 : Vec F S16x128x1024 .bf16) (G1 : Vec F S16x128x1024 .f32)
    (h : n % 15 ≠ 0 → ∀ (r : ℕ) (hr : r ≤ n % 15) (h16 : r + 1 ≤ 16),
      View.ld (Val := Elt F) G0 (rowR1 r h16) = (tabG V par1 c (n - 1) r).1
        ∧ View.ld (Val := Elt F) G1 (rowR1 r h16) = (tabG V par1 c (n - 1) r).2) :
    Inv1 V c s G0 G1 := by
  subst hs
  intro hne r hr
  exact h hne r hr _

/-- Inside a walk the parent's state is in the scratch buffers. -/
theorem par_rowC1 (c : Dev nD) (t : Fin (cfg1 (F := F) adm1).N) (hi : t.val % 15 ≠ 0)
    (g0 : Vec F S16x128x1024 .bf16) (g1 : Vec F S16x128x1024 .f32) (hinv : Inv1 V c t.castSucc g0 g1)
    (hp : par1 (t.val % 15) + 1 ≤ 16) :
    ((View.ld (Val := Elt F) g0 (rowR1 (par1 (t.val % 15)) hp), View.ld (Val := Elt F) g1 (rowR1 (par1 (t.val % 15)) hp)) : Row1 F)
      = baseG V par1 c t.val (par1 (t.val % 15)) := by
  have hle : par1 (t.val % 15) ≤ t.val % 15 := par1_leC1 _ (Nat.mod_lt _ (by omega))
  have h := inv1_atC1 V c t.castSucc t.val (Fin.coe_castSucc t) g0 g1 hinv hi (par1 (t.val % 15)) hle hp
  rw [baseG_posC1 V par1 c t.val hi]
  exact Prod.ext h.1 h.2

theorem hrow1_AC1 (c : Dev nD) (t : Fin (cfg1 (F := F) adm1).N) (hi : t.val % 15 = 0) :
    hrow1 V c t = out1 zrow1 (xblk1 V c t) (wblk1 V c t) := by
  unfold hrow1; rw [baseG_zeroC1 V par1 c t.val hi]

theorem hrow1_BC1 (c : Dev nD) (t : Fin (cfg1 (F := F) adm1).N) (hi : t.val % 15 ≠ 0)
    (g0 : Vec F S16x128x1024 .bf16) (g1 : Vec F S16x128x1024 .f32) (hinv : Inv1 V c t.castSucc g0 g1)
    (hp : par1 (t.val % 15) + 1 ≤ 16) :
    hrow1 V c t = out1 (View.ld (Val := Elt F) g0 (rowR1 (par1 (t.val % 15)) hp), View.ld (Val := Elt F) g1 (rowR1 (par1 (t.val % 15)) hp)) (xblk1 V c t) (wblk1 V c t) := by
  unfold hrow1; rw [par_rowC1 V c t hi g0 g1 hinv hp]

theorem inv_stepBC1 (c : Dev nD) (t : Fin (cfg1 (F := F) adm1).N) (hi : t.val % 15 ≠ 0)
    (g0 G0 : Vec F S16x128x1024 .bf16) (g1 G1 : Vec F S16x128x1024 .f32) (hinv : Inv1 V c t.castSucc g0 g1)
    (hp : par1 (t.val % 15) + 1 ≤ 16)
    (h0 : RowsUpdC1 g0 G0 (t.val % 15 + 1) (cell1 (View.ld (Val := Elt F) g0 (rowR1 (par1 (t.val % 15)) hp), View.ld (Val := Elt F) g1 (rowR1 (par1 (t.val % 15)) hp)) (xblk1 V c t) (wblk1 V c t)).1)
    (h1 : RowsUpdC1 g1 G1 (t.val % 15 + 1) (cell1 (View.ld (Val := Elt F) g0 (rowR1 (par1 (t.val % 15)) hp), View.ld (Val := Elt F) g1 (rowR1 (par1 (t.val % 15)) hp)) (xblk1 V c t) (wblk1 V c t)).2) :
    Inv1 V c t.succ G0 G1 := by
  refine inv1_introC1 V c t.succ (t.val + 1) (Fin.val_succ t) G0 G1 ?_
  intro hne r hr h16
  have hmod : (t.val + 1) % 15 = t.val % 15 + 1 := by omega
  rw [Nat.add_sub_cancel, tabG_eqC1, ptOf1_valC1, ← par_rowC1 V c t hi g0 g1 hinv hp, h0 r h16, h1 r h16]
  by_cases hr1 : r = t.val % 15 + 1
  · subst hr1
    rw [if_pos rfl, if_pos rfl, Function.update_self]
    exact ⟨rfl, rfl⟩
  · rw [if_neg hr1, if_neg hr1, Function.update_of_ne hr1, baseG_posC1 V par1 c t.val hi]
    have hr' : r ≤ t.val % 15 := by rw [hmod] at hr; omega
    exact inv1_atC1 V c t.castSucc t.val (Fin.coe_castSucc t) g0 g1 hinv hi r hr' h16

theorem inv_stepAC1 (c : Dev nD) (t : Fin (cfg1 (F := F) adm1).N) (hi : t.val % 15 = 0)
    (g0 G0 : Vec F S16x128x1024 .bf16) (g1 G1 : Vec F S16x128x1024 .f32)
    (h0 : RowsUpd0C1 g0 G0 (t.val % 15 + 1) (zrow1 (F := F)).1 (cell1 zrow1 (xblk1 V c t) (wblk1 V c t)).1)
    (h1 : RowsUpd0C1 g1 G1 (t.val % 15 + 1) (zrow1 (F := F)).2 (cell1 zrow1 (xblk1 V c t) (wblk1 V c t)).2) :
    Inv1 V c t.succ G0 G1 := by
  refine inv1_introC1 V c t.succ (t.val + 1) (Fin.val_succ t) G0 G1 ?_
  intro hne r hr h16
  have hmod : (t.val + 1) % 15 = 1 := by omega
  rw [Nat.add_sub_cancel, tabG_eqC1, ptOf1_valC1, baseG_zeroC1 V par1 c t.val hi, h0 r h16, h1 r h16, hi]
  have hr' : r ≤ 1 := by rw [hmod] at hr; exact hr
  by_cases hr1 : r = 0 + 1
  · subst hr1
    rw [if_pos rfl, if_pos rfl, Function.update_self]
    exact ⟨rfl, rfl⟩
  · have hr0 : r = 0 := by omega
    subst hr0
    rw [if_neg hr1, if_neg hr1, if_pos rfl, if_pos rfl, Function.update_of_ne hr1]
    exact ⟨rfl, rfl⟩

/-! ## The body obligation -/

abbrev tbMC1 : Memref sig .tc .smem S15 .i32 := Memref.whole main_c
abbrev scMC1_0 : Memref sig .tc .vmem S16x128x1024 .bf16 := Memref.whole cc1_scratch0
abbrev scMC1_1 : Memref sig .tc .vmem S16x128x1024 .f32 := Memref.whole cc1_scratch1
abbrev stC1_0 (t : Fin (cfg1 (F := F) adm1).N) : Memref sig .tc .vmem S1x128x4096 .bf16 := spec1_0.stage ((cfg1 (F := F) adm1).slots t 0)
abbrev hstC1_0 (t : Fin (cfg1 (F := F) adm1).N) : (stC1_0 (F := F) t).IsWhole := hstage1_0 (((cfg1 (F := F) adm1).slots t 0).cast nbuf1_0)
abbrev stC1_1 (t : Fin (cfg1 (F := F) adm1).N) : Memref sig .tc .vmem S4096x1024 .bf16 := spec1_1.stage ((cfg1 (F := F) adm1).slots t 1)
abbrev hstC1_1 (t : Fin (cfg1 (F := F) adm1).N) : (stC1_1 (F := F) t).IsWhole := hstage1_1 (((cfg1 (F := F) adm1).slots t 1).cast nbuf1_1)
abbrev stC1_2 (t : Fin (cfg1 (F := F) adm1).N) : Memref sig .tc .vmem S1x128x1024 .bf16 := spec1_2.stage ((cfg1 (F := F) adm1).slots t 2)
abbrev hstC1_2 (t : Fin (cfg1 (F := F) adm1).N) : (stC1_2 (F := F) t).IsWhole := hstage1_2 (((cfg1 (F := F) adm1).slots t 2).cast nbuf1_2)

abbrev bodyAtC1 (t : Fin (cfg1 (F := F) adm1).N) : Prog (TpuEff nD τ sig (Elt F) Λ₀ .tc) PUnit :=
  cc1__cell_kernel (grid1.coords t) tbMC1 (Memref.isWhole_whole _) (stC1_0 t) (hstC1_0 t) (stC1_1 t) (hstC1_1 t) (stC1_2 t) (hstC1_2 t) scMC1_0 (Memref.isWhole_whole _) scMC1_1 (Memref.isWhole_whole _)

/-- The invariant with the table and the scratch buffers as memrefs. -/
theorem phiC1_eq (c : Dev nD) (t : Fin ((cfg1 (F := F) adm1).N + 1)) :
    ((dat1 V c).Φ t : sProp 𝕄) = iprop((∃ r, prngReg c r) ∗ owns (c : Thread nD τ) tbMC1 fullShare (tblVC1 (F := F))
      ∗ Pipeline.scopedRestBut spec1 c [cc1_scratch0, cc1_scratch1]
      ∗ ∃ g0 g1, ⌜Inv1 V c t g0 g1⌝ ∗ owns (c : Thread nD τ) scMC1_0 fullShare g0 ∗ owns (c : Thread nD τ) scMC1_1 fullShare g1) := by
  dsimp only [dat1]
  unfold Pipeline.prefHeld
  rw [bigSep_univ_eq_bigSepL [(0 : Fin 1)] (by decide) (by decide)]
  simp only [tbMC1, scMC1_0, scMC1_1, owns_whole]
  rfl

def bodyPreC1 (c : Dev nD) (t : Fin (cfg1 (F := F) adm1).N) : sProp 𝕄 :=
  iprop((dat1 V c).Φ t.castSucc ∗ (dat1 V c).owesAt () t.castSucc
    ∗ (∃ d, owns (c : Thread nD τ) (stC1_0 t) fullShare ((dat1 V c).before 0 t d))
    ∗ (∃ d, owns (c : Thread nD τ) (stC1_1 t) fullShare ((dat1 V c).before 1 t d))
    ∗ (∃ d, owns (c : Thread nD τ) (stC1_2 t) fullShare ((dat1 V c).before 2 t d)))

def bodyPostC1 (c : Dev nD) (t : Fin (cfg1 (F := F) adm1).N) : sProp 𝕄 :=
  iprop((dat1 V c).Φ t.succ ∗ (dat1 V c).owesAt () t.succ
    ∗ owns (c : Thread nD τ) (stC1_0 t) fullShare ((dat1 V c).after 0 t)
    ∗ owns (c : Thread nD τ) (stC1_1 t) fullShare ((dat1 V c).after 1 t)
    ∗ owns (c : Thread nD τ) (stC1_2 t) fullShare ((dat1 V c).after 2 t))

set_option maxHeartbeats 800000 in
/-- The body at any point: at a walk's first joint the reset case, else the case inside a walk with the parent's row
    read off the invariant. -/
theorem sound_bodyC1 (c : Dev nD) (t : Fin (cfg1 (F := F) adm1).N) :
    bodyPreC1 V c t ⊢ wp frame (wpE (defs₀ (F := F)) Variants.none c none) Set.univ (bodyAtC1 t) (fun _ => bodyPostC1 V c t) := by
  unfold bodyPreC1 bodyPostC1 bodyAtC1
  simp only [before1_0, before1_1]
  rw [show (dat1 V c).owesAt () t.succ = (dat1 V c).owesAt () t.castSucc from rfl, after1_0, after1_1, after1_2, phiC1_eq, phiC1_eq]
  have hco : (grid1.coords t 1).val = t.val % 15 := (coords1_eq t).2
  iintro ⟨⟨Hg, Htb, Hrest, ⟨%g0, %g1, %hinv, HS0, HS1⟩⟩, Ho, ⟨%d0, H0⟩, ⟨%d1, H1⟩, ⟨%d2, H2⟩⟩
  by_cases hi : t.val % 15 = 0
  · have hc0 : condC1 (grid1.coords t) := (hcondC1 _).mpr (by rw [hco]; exact hi)
    have hoff : k1_off2 (wordC1 (F := F) (grid1.coords t) tbMC1 (Memref.isWhole_whole _) tblVC1) = ![0, 0, 0] := by
      rw [off_eqC1, hco, hi, par1_zeroC1]
    iapply (runC1_A c (grid1.coords t) tbMC1 (Memref.isWhole_whole _) (stC1_0 t) (hstC1_0 t) (stC1_1 t) (hstC1_1 t) (stC1_2 t) (hstC1_2 t)
      scMC1_0 (Memref.isWhole_whole _) scMC1_1 (Memref.isWhole_whole _) hc0 tblVC1 hoff (xblk1 V c t) (wblk1 V c t) Set.univ _)
    isplitl [Htb]; · iexact Htb
    isplitl [H0]; · iexact H0
    isplitl [H1]; · iexact H1
    isplitl [H2]; · iexists _; iexact H2
    isplitl [HS0]; · iexists _; iexact HS0
    isplitl [HS1]; · iexists _; iexact HS1
    iintro ⟨Htb, H0, H1, H2, ⟨%g0', %g1', %G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepAC1 V c t hi g0' G0 g1' G1 hG.1 hG.2
      isplitl [HS0]; · iexact HS0
      iexact HS1
    isplitl [Ho]; · iexact Ho
    isplitl [H0]; · iexact H0
    isplitl [H1]; · iexact H1
    rw [hrow1_AC1 V c t hi]; iexact H2
  · have hc0 : ¬condC1 (grid1.coords t) := fun h => hi (by rw [← hco]; exact (hcondC1 _).mp h)
    have hlt : t.val % 15 < 15 := Nat.mod_lt _ (by omega)
    have hp : par1 (t.val % 15) + 1 ≤ 16 := by have := par1_leC1 (t.val % 15) hlt; omega
    have hoff : k1_off2 (wordC1 (F := F) (grid1.coords t) tbMC1 (Memref.isWhole_whole _) tblVC1) = ![par1 (t.val % 15), 0, 0] := by
      rw [off_eqC1, hco]
    iapply (runC1_B c (grid1.coords t) tbMC1 (Memref.isWhole_whole _) (stC1_0 t) (hstC1_0 t) (stC1_1 t) (hstC1_1 t) (stC1_2 t) (hstC1_2 t)
      scMC1_0 (Memref.isWhole_whole _) scMC1_1 (Memref.isWhole_whole _) hc0 tblVC1 (par1 (t.val % 15)) hp hoff (xblk1 V c t) (wblk1 V c t) g0 g1 Set.univ _)
    isplitl [Htb]; · iexact Htb
    isplitl [H0]; · iexact H0
    isplitl [H1]; · iexact H1
    isplitl [H2]; · iexists _; iexact H2
    isplitl [HS0]; · iexact HS0
    isplitl [HS1]; · iexact HS1
    iintro ⟨Htb, H0, H1, H2, ⟨%G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepBC1 V c t hi g0 G0 g1 G1 hinv hp hG.1 hG.2
      isplitl [HS0]; · iexact HS0
      iexact HS1
    isplitl [Ho]; · iexact Ho
    isplitl [H0]; · iexact H0
    isplitl [H1]; · iexact H1
    rw [hrow1_BC1 V c t hi g0 g1 hinv hp]; iexact H2

/-- The library's body obligation, at every point. -/
theorem body_obligation1 (c : Dev nD) : Pipeline.BodyObligation (dat1 (F := F) V c) (defs₀ (F := F)) Variants.none () Set.univ := fun t => by
  rw [bigSep_W1, bigSep_W1]
  exact sound_bodyC1 V c t

end Cert.Kernel.Hand

end
-- ==== Proof.K.Cell3.lean ====
import proofs.«408307_j89713276879117_3_alg».proof.Proof.Gen.Kernel.Launch
import proofs.«408307_j89713276879117_3_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The cell kernel of the second layer: proof data and body obligation -/

/-- The prefetched table's contents: the parent of each joint. -/
def tbl3 : pre3.Contents (Elt F) := fun
  | 0 => fun i => lit0 (S15.rowMajor i)
  | ⟨_ + 1, h⟩ => absurd h (Nat.not_lt.2 (Nat.le_add_left _ _))

/-- The table's contents are admissible (the side condition is trivial). -/
def adm3 : (pcfg3 (F := F)).Adm := ⟨tbl3, trivial⟩

/-- The grid has thirty points. -/
theorem N3_eq : (cfg3 (F := F) adm3).N = 30 := N_3

/-- The grid's points in order: the batch half is the slow coordinate, the joint the fast one. -/
theorem coords3_eq : ∀ t : Fin grid3.N, (grid3.coords t 0).val = t.val / 15 ∧ (grid3.coords t 1).val = t.val % 15 := by decide +kernel

/-- The point of linear position `n` (the first point beyond the grid). -/
def ptOf3 (n : ℕ) : Fin (cfg3 (F := F) adm3).N :=
  if h : n < (cfg3 (F := F) adm3).N then ⟨n, h⟩ else ⟨0, by rw [N3_eq]; omega⟩

variable (V : (c : Dev nD) → (b : Ref sig .tc) → Buf (Elt F) ((c : Thread nD τ).loc b))

/-- Window `w`'s block at point `t`, read off its array as the region finds it. -/
def iblk3 (c : Dev nD) (w : Fin 3) (t : Fin (cfg3 (F := F) adm3).N) :
    (((cfg3 (F := F) adm3).win w).xblock ((cfg3 (F := F) adm3).grid.coords t)).Idx → Elt F ((cfg3 (F := F) adm3).win w).elt :=
  (((cfg3 (F := F) adm3).win w).blk t).view.read (Elt F) (V c (Pipeline.arrRef spec3 w))

/-- The gate block at a point, at its literal vector type. -/
abbrev xblk3 (c : Dev nD) (t : Fin (cfg3 (F := F) adm3).N) : Vec F S1x128x4096 .bf16 := iblk3 V c 0 t
/-- The recurrent weights at a point, at their literal vector type. -/
abbrev wblk3 (c : Dev nD) (t : Fin (cfg3 (F := F) adm3).N) : Vec F S4096x1024 .bf16 := iblk3 V c 1 t

/-- A joint's state: its hidden row (bf16) and its cell row (f32). -/
abbrev Row3 (F : FTy → Type) [FloatOps F] : Type := Vec F S1x128x1024 .bf16 × Vec F S1x128x1024 .f32

/-- The zero state (row 0 of both scratch buffers after the reset). -/
def zrow3 : Row3 F := (k3_pay3, k3_pay4)

/-- One joint: from its parent's state, its gate block and the weights, its own state. -/
def cell3 (par : Row3 F) (x : Vec F S1x128x4096 .bf16) (w : Vec F S4096x1024 .bf16) : Row3 F :=
  (k3_pay8 par.1 par.2 x w, k3_pay1 (k3_pay6 par.1 par.2 x w))

/-- What one joint writes to the output window. -/
def out3 (par : Row3 F) (x : Vec F S1x128x4096 .bf16) (w : Vec F S4096x1024 .bf16) : Vec F S1x128x1024 .f32 :=
  k3_pay2 (k3_pay7 par.1 par.2 x w)

/-- The table of joint states after the point of linear position `n`, over a parent map `p`: a walk starts
    from the zero table; the point of joint `i = n % 15` fills row `i + 1` from row `p i`. -/
def tabG3 (p : ℕ → ℕ) (c : Dev nD) : ℕ → ℕ → Row3 F
  | 0 => Function.update (fun _ => zrow3) 1 (cell3 zrow3 (xblk3 V c (ptOf3 0)) (wblk3 V c (ptOf3 0)))
  | n + 1 =>
    let base : ℕ → Row3 F := if (n + 1) % 15 = 0 then fun _ => zrow3 else tabG3 p c n
    Function.update base ((n + 1) % 15 + 1) (cell3 (base (p ((n + 1) % 15))) (xblk3 V c (ptOf3 (n + 1))) (wblk3 V c (ptOf3 (n + 1))))

/-- The table a point starts from: zero at a walk's first point, else what the point before left. -/
def baseG3 (p : ℕ → ℕ) (c : Dev nD) (n : ℕ) : ℕ → Row3 F :=
  if n % 15 = 0 then fun _ => zrow3 else tabG3 V p c (n - 1)

/-- The parent of joint `i`, read off the table. -/
def par3 (i : ℕ) : ℕ := if h : i < 15 then (lit0 ⟨i, h⟩).toNat else 0

/-- What point `t` leaves in the output window's staging buffer. -/
def hrow3 (c : Dev nD) (t : Fin (cfg3 (F := F) adm3).N) : Vec F S1x128x1024 .f32 :=
  out3 (baseG3 V par3 c t.val (par3 (t.val % 15))) (xblk3 V c t) (wblk3 V c t)

/-- Row `r` of a sixteen-row buffer, as a rectangle. -/
abbrev rowR3 (r : ℕ) (h : r + 1 ≤ 16) : Rect S16x128x1024 :=
  Rect.unit (s := S16x128x1024) ![r, 0, 0] S1x128x1024.size (by
    intro a; fin_cases a
    · show r + 1 ≤ 16; exact h
    · show 0 + 128 ≤ 128; omega
    · show 0 + 1024 ≤ 1024; omega)

/-- THE INVARIANT before the point of linear position `t`: inside a walk (joint `i = t % 15 ≥ 1`) rows
    `0 … i` of the two scratch buffers are the states the walk has computed; at a walk's first point nothing
    is known. -/
def Inv3 (c : Dev nD) (t : Fin ((cfg3 (F := F) adm3).N + 1))
    (f0 : Buf (Elt F) ((c : Thread nD τ).loc cc3_scratch0)) (f1 : Buf (Elt F) ((c : Thread nD τ).loc cc3_scratch1)) : Prop :=
  t.val % 15 ≠ 0 → ∀ (r : ℕ) (hr : r ≤ t.val % 15),
    View.ld (Val := Elt F) (S := S16x128x1024) (e' := .bf16) f0 (rowR3 r (by omega)) = (tabG3 V par3 c (t.val - 1) r).1
      ∧ View.ld (Val := Elt F) (S := S16x128x1024) (e' := .f32) f1 (rowR3 r (by omega)) = (tabG3 V par3 c (t.val - 1) r).2

/-- The proof data of the pipeline on core `c`. -/
def dat3 (c : Dev nD) : Dat τ (Elt F) Unit ℕ (UR sig nD τ) ℕ (cfg3 (F := F) adm3) c where
  A w := V c (Pipeline.arrRef spec3 w)
  after w t := match w with
    | ⟨0, _⟩ => iblk3 V c 0 t
    | ⟨1, _⟩ => iblk3 V c 1 t
    | ⟨2, _⟩ => hrow3 V c t
  Φ t := iprop((∃ r, prngReg c r) ∗ Pipeline.prefHeld pre3 c (fun _ => fullShare) (adm3 (F := F)).1
      ∗ Pipeline.scopedRestBut spec3 c [cc3_scratch0, cc3_scratch1]
      ∗ ∃ f0 f1, ⌜Inv3 V c t f0 f1⌝ ∗ (((c : Thread nD τ).loc cc3_scratch0) ↦{fullShare} f0) ∗ (((c : Thread nD τ).loc cc3_scratch1) ↦{fullShare} f1))
  q _ := fullShare
  owed _ := 0

theorem A_eq3 (c : Dev nD) (w : Fin 3) : (dat3 V c).A w = V c (Pipeline.arrRef spec3 w) := by
  dsimp only [dat3]

theorem after3_0 (c : Dev nD) (t : Fin (cfg3 (F := F) adm3).N) : (dat3 V c).after 0 t = iblk3 V c 0 t := rfl
theorem after3_1 (c : Dev nD) (t : Fin (cfg3 (F := F) adm3).N) : (dat3 V c).after 1 t = iblk3 V c 1 t := rfl
theorem after3_2 (c : Dev nD) (t : Fin (cfg3 (F := F) adm3).N) : (dat3 V c).after 2 t = hrow3 V c t := rfl

/-- Each input's current staging buffer holds its block at every point, fetched there or not. -/
theorem before3_0 (c : Dev nD) (t : Fin (cfg3 (F := F) adm3).N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin (cfg3 (F := F) adm3).N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The scoped rest of the cell kernel's call split at the call's own two scratch buffers, each whole at some
    contents; every other scoped buffer stays unopened. -/
theorem scopedRest_splitC3 (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)
            ∗ (∃ f : Buf (Elt F) ((c : Thread nD τ).loc cc3_scratch1), ((c : Thread nD τ).loc cc3_scratch1) ↦{fullShare} f))
          ∗ Pipeline.scopedRestBut (Ix := Unit) (Name := ℕ) (U := UR sig nD τ) (Lvl := ℕ) (Val := Elt F) spec3 c [cc3_scratch0, cc3_scratch1]) :=
  Pipeline.scopedRest_split_of_list spec3 c [cc3_scratch0, cc3_scratch1] (by decide) (by decide)

theorem phi3_in (c : Dev nD) :
    iprop((∃ r, prngReg c r) ∗ Pipeline.prefHeld pre3 c (fun _ => fullShare) (adm3 (F := F)).1 ∗ Pipeline.scopedRest spec3 c)
      ⊢ ((dat3 V c).Φ 0 : sProp 𝕄) := by
  rw [scopedRest_splitC3 (F := F) c]
  dsimp only [dat3]
  iintro ⟨HR, HP, ⟨⟨%f0, H0⟩, ⟨%f1, H1⟩⟩, HB⟩
  isplitl [HR]
  · iexact HR
  isplitl [HP]
  · iexact HP
  isplitl [HB]
  · iexact HB
  iexists f0, f1
  isplitr
  · ipureintro
    intro h
    exact absurd (by simp) h
  isplitl [H0]
  · iexact H0
  · iexact H1

theorem phi3_out (c : Dev nD) :
    ((dat3 V c).Φ (Fin.last _) : sProp 𝕄)
      ⊢ iprop((∃ r, prngReg c r) ∗ Pipeline.prefHeld pre3 c (fun _ => fullShare) (adm3 (F := F)).1 ∗ Pipeline.scopedRest spec3 c) := by
  rw [scopedRest_splitC3 (F := F) c]
  dsimp only [dat3]
  iintro ⟨HR, HP, HB, %f0, %f1, -, H0, H1⟩
  isplitl [HR]
  · iexact HR
  isplitl [HP]
  · iexact HP
  isplitr [HB]
  · isplitl [H0]
    · iexists f0
      iexact H0
    · iexists f1
      iexact H1
  · iexact HB

/-! ## Reading rows of a sixteen-row buffer through a whole memref -/

section RowsC3

variable {κ : Kind} {sp : Space}

/-- A load of the whole shape at zero offsets through a whole memref held at the contents that read `X` reads `X`. -/
theorem readAt_wholeC3 {s : Shape} {e : EltTy} (m : Memref sig κ sp s e) (hm : m.IsWhole) (X : s.Idx → Elt F e)
    (off : Fin s.rank → ℕ) (inb : ∀ a, off a + s.size a ≤ s.size a) :
    View.readAt (Elt F) m.view (Rect.unit (s := s) off s.size inb).toLoadRect (hm.unread X) = X := by
  funext j
  rw [Memref.IsWhole.readAt_unread hm]
  congr 1
  funext a
  apply Fin.ext
  show off a + 1 * (j a).val = (j a).val
  have := inb a
  omega

/-- A load of one row through a whole memref held at the contents that read `g` reads that row of `g`. -/
theorem readAt_rowC3 {e : EltTy} (m : Memref sig κ sp S16x128x1024 e) (hm : m.IsWhole) (g : S16x128x1024.Idx → Elt F e)
    (off : Fin 3 → ℕ) (inb : ∀ a, off a + S1x128x1024.size a ≤ S16x128x1024.size a) (p : ℕ) (hp : p + 1 ≤ 16)
    (hoff : off = ![p, 0, 0]) :
    View.readAt (Elt F) m.view (Rect.unit (s := S16x128x1024) off S1x128x1024.size inb).toLoadRect (hm.unread g)
      = View.ld (Val := Elt F) g (rowR3 p hp) := by
  subst hoff
  funext j
  rw [Memref.IsWhole.readAt_unread hm]

/-- Rows after a store of one row: the stored row reads the payload, every other row what the earlier stores left. -/
theorem rows_consC3 {e : EltTy} (m : Memref sig κ sp S16x128x1024 e) (f : m.view.ty.Contents (Elt F))
    (off : Fin 3 → ℕ) (inb : ∀ a, off a + S1x128x1024.size a ≤ S16x128x1024.size a) (j : ℕ) (hoff : off = ![j, 0, 0])
    (P : (Rect.unit (s := S16x128x1024) off S1x128x1024.size inb).shape.Idx → Elt F e) (L : List (View.Piece (Elt F) S16x128x1024 e))
    (r : ℕ) (h : r + 1 ≤ 16) :
    View.ld (Val := Elt F) (m.view.read (Elt F) (m.view.writes (Elt F) f ((⟨Rect.unit (s := S16x128x1024) off S1x128x1024.size inb, P⟩ : View.Piece (Elt F) S16x128x1024 e) :: L))) (rowR3 r h)
      = if r = j then P else View.ld (Val := Elt F) (m.view.read (Elt F) (m.view.writes (Elt F) f L)) (rowR3 r h) := by
  funext y
  by_cases hr : r = j
  · subst hr
    rw [if_pos rfl]
    exact View.read_writes_cons_unit_of_mem m.view f inb P L ((rowR3 r h).idx y) y hoff (fun a => by
      fin_cases a
      · show r + 1 * (y 0).val = r + (y 0).val; omega
      · show 0 + 1 * (y 1).val = 0 + (y 1).val; omega
      · show 0 + 1 * (y 2).val = 0 + (y 2).val; omega)
  · rw [if_neg hr]
    exact View.read_writes_cons_unit_of_not_mem m.view f inb P L ((rowR3 r h).idx y) hoff 0 (by
      have hy : (y 0).val < 1 := (y 0).isLt
      show r + 1 * (y 0).val < j ∨ j + 1 ≤ r + 1 * (y 0).val
      omega)

/-- A load of row `p` after a store of that row reads the payload. -/
theorem readAt_row_consC3 {e : EltTy} (m : Memref sig κ sp S16x128x1024 e) (f : m.view.ty.Contents (Elt F))
    (off off2 : Fin 3 → ℕ) (inb : ∀ a, off a + S1x128x1024.size a ≤ S16x128x1024.size a) (inb2 : ∀ a, off2 a + S1x128x1024.size a ≤ S16x128x1024.size a)
    (p : ℕ) (hoff : off = ![p, 0, 0]) (hoff2 : off2 = ![p, 0, 0])
    (P : (Rect.unit (s := S16x128x1024) off2 S1x128x1024.size inb2).shape.Idx → Elt F e) (L : List (View.Piece (Elt F) S16x128x1024 e)) :
    View.readAt (Elt F) m.view (Rect.unit (s := S16x128x1024) off S1x128x1024.size inb).toLoadRect
        (m.view.writes (Elt F) f ((⟨Rect.unit (s := S16x128x1024) off2 S1x128x1024.size inb2, P⟩ : View.Piece (Elt F) S16x128x1024 e) :: L))
      = P := by
  subst hoff
  funext y
  rw [View.readAt_apply]
  exact View.read_writes_cons_unit_of_mem m.view f inb2 P L _ y hoff2 (fun a => by
    fin_cases a
    · show p + 1 * (y 0).val = p + (y 0).val; omega
    · show 0 + 1 * (y 1).val = 0 + (y 1).val; omega
    · show 0 + 1 * (y 2).val = 0 + (y 2).val; omega)

/-- What a view reads after a store of the whole shape at zero offsets, whatever came before: the payload. -/
theorem read_whole_consC3 {s : Shape} {e : EltTy} (m : Memref sig κ sp s e) (f : m.view.ty.Contents (Elt F))
    (off : Fin s.rank → ℕ) (inb : ∀ a, off a + s.size a ≤ s.size a)
    (P : (Rect.unit (s := s) off s.size inb).shape.Idx → Elt F e) (L : List (View.Piece (Elt F) s e)) :
    m.view.read (Elt F) (m.view.writes (Elt F) f ((⟨Rect.unit (s := s) off s.size inb, P⟩ : View.Piece (Elt F) s e) :: L)) = P := by
  funext y
  exact View.read_writes_cons_unit_of_mem m.view f inb P L y y rfl (fun a => by have := inb a; omega)

end RowsC3

/-! ## The body's run, per control case -/

/-- The condition of the body's reset branch, from the grid coordinates. -/
abbrev condC3 (i : grid3.Coords) : Prop := (Scalar.cmpi .ne (Scalar.extui (Scalar.cmpi .eq (BitVec.ofNat 32 (i 1).val) 0#32)) 0#32) = 1#1

/-- It holds at a walk's first joint only. -/
theorem hcondC3 : ∀ i : grid3.Coords, condC3 i ↔ (i 1).val = 0 := by decide +kernel

/-- The word the body loads from the table at its point, in the form the run reads it. -/
abbrev wordC3 (i : grid3.Coords) (arg2 : Memref sig .tc .smem S15 .i32) (harg2 : arg2.IsWhole) (tb : Vec F S15 .i32) : BitVec 32 :=
  arg2.view.readAt (Elt F) (Rect.unit (s := S15) (k3_off1 i) S1.size (k3_off1_inb i)).toLoadRect (harg2.unread tb) (Shape.Idx.first (numel1_S1.symm ▸ Nat.one_pos))

/-- The assumed side condition, from the parent row's number. -/
theorem chk_of_offC3 (v4 : BitVec 32) (p : ℕ) (hp : p + 1 ≤ 16) (hoff : k3_off2 v4 = ![p, 0, 0]) : k3_chk1 v4 := by
  unfold k3_chk1; rw [hoff]; intro a; fin_cases a
  · show p + 1 ≤ 16; exact hp
  · show 0 + 128 ≤ 128; omega
  · show 0 + 1024 ≤ 1024; omega

/-- Rows of a buffer after one joint's store: row `j` is the payload, every other row as before. -/
def RowsUpdC3 {e : EltTy} (g G : Vec F S16x128x1024 e) (j : ℕ) (P : Vec F S1x128x1024 e) : Prop :=
  ∀ (r : ℕ) (h : r + 1 ≤ 16), View.ld (Val := Elt F) G (rowR3 r h) = if r = j then P else View.ld (Val := Elt F) g (rowR3 r h)

set_option maxHeartbeats 800000 in
/-- The body inside a walk (the reset branch not taken), on whole memrefs: the table, the gate block and the weights
    come back as they were, the output window holds the joint's output, and the scratch buffers hold the joint's
    state in row `i + 1`, every other row as before. -/
theorem runC3_B (c : Dev nD) (i : grid3.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .f32) (harg5 : arg5.IsWhole) (arg6 : Memref sig .tc .vmem S16x128x1024 .bf16) (harg6 : arg6.IsWhole) (arg7 : Memref sig .tc .vmem S16x128x1024 .f32) (harg7 : arg7.IsWhole)
    (hc0 : ¬condC3 i)
    (tb : Vec F S15 .i32) (p : ℕ) (hp : p + 1 ≤ 16) (hoff : k3_off2 (wordC3 i arg2 harg2 tb) = ![p, 0, 0])
    (x : Vec F S1x128x4096 .bf16) (w : Vec F S4096x1024 .bf16) (g0 : Vec F S16x128x1024 .bf16) (g1 : Vec F S16x128x1024 .f32)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ owns (c : Thread nD τ) arg6 fullShare g0 ∗ owns (c : Thread nD τ) arg7 fullShare g1
        ∗ (iprop(owns (c : Thread nD τ) arg2 fullShare tb ∗ owns (c : Thread nD τ) arg3 fullShare x ∗ owns (c : Thread nD τ) arg4 fullShare w
            ∗ owns (c : Thread nD τ) arg5 fullShare (out3 (View.ld (Val := Elt F) g0 (rowR3 p hp), View.ld (Val := Elt F) g1 (rowR3 p hp)) x w)
            ∗ (∃ G0 G1, ⌜RowsUpdC3 g0 G0 ((i 1).val + 1) (cell3 (View.ld (Val := Elt F) g0 (rowR3 p hp), View.ld (Val := Elt F) g1 (rowR3 p hp)) x w).1
                  ∧ RowsUpdC3 g1 G1 ((i 1).val + 1) (cell3 (View.ld (Val := Elt F) g0 (rowR3 p hp), View.ld (Val := Elt F) g1 (rowR3 p hp)) x w).2⌝
                ∗ owns (c : Thread nD τ) arg6 fullShare G0 ∗ owns (c : Thread nD τ) arg7 fullShare G1)) -∗ K ⟨⟩))
      ⊢ wp frame (wpE (defs₀ (F := F)) Variants.none c none) E (cc3__cell_kernel i arg2 harg2 arg3 harg3 arg4 harg4 arg5 harg5 arg6 harg6 arg7 harg7) K := by
  have hchk : k3_chk1 (wordC3 i arg2 harg2 tb) := chk_of_offC3 _ p hp hoff
  simp only [cc3__cell_kernel_eq_skeleton]; unfold cc3__cell_kernel_skel
  simp only [k3_part1_eq_skeleton]; unfold k3_part1_skel
  unfold owns
  iintro ⟨⟨%f2, %hf2, H2⟩, ⟨%f3, %hf3, H3⟩, ⟨%f4, %hf4, H4⟩, ⟨%d5, %f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k3_off2 (runC3_B.sl.r c i arg2 harg2 tb) = ![p, 0, 0] := hoff
    rw [read_whole_consC3, readAt_rowC3 arg6 harg6 g0 _ _ p hp hoff', readAt_rowC3 arg7 harg7 g1 _ _ p hp hoff',
      readAt_wholeC3 arg3 harg3 x, readAt_wholeC3 arg4 harg4 w]
    rfl
  iexists _, _
  isplitr
  swap
  · isplitl [H6]
    · iexists _; isplitr
      swap; · iexact H6
      ipureintro; rfl
    · iexists _; isplitr
      swap; · iexact H7
      ipureintro; rfl
  ipureintro
  have hoff' : k3_off2 (runC3_B.sl.r c i arg2 harg2 tb) = ![p, 0, 0] := hoff
  refine ⟨fun r h => ?_, fun r h => ?_⟩
  · rw [rows_consC3 arg6 _ _ _ ((i 1).val + 1) (k3_off3_eq i), View.writes_nil, harg6.read_unread,
      readAt_rowC3 arg6 harg6 g0 _ _ p hp hoff', readAt_rowC3 arg7 harg7 g1 _ _ p hp hoff',
      readAt_wholeC3 arg3 harg3 x, readAt_wholeC3 arg4 harg4 w]
    rfl
  · rw [rows_consC3 arg7 _ _ _ ((i 1).val + 1) (k3_off3_eq i), View.writes_nil, harg7.read_unread,
      readAt_rowC3 arg6 harg6 g0 _ _ p hp hoff', readAt_rowC3 arg7 harg7 g1 _ _ p hp hoff',
      readAt_wholeC3 arg3 harg3 x, readAt_wholeC3 arg4 harg4 w]
    rfl

/-- Rows of a buffer after a walk's first joint: row 0 zeroed, row `j` the payload, every other row as before. -/
def RowsUpd0C3 {e : EltTy} (g G : Vec F S16x128x1024 e) (j : ℕ) (Z P : Vec F S1x128x1024 e) : Prop :=
  ∀ (r : ℕ) (h : r + 1 ≤ 16), View.ld (Val := Elt F) G (rowR3 r h)
    = if r = j then P else if r = 0 then Z else View.ld (Val := Elt F) g (rowR3 r h)

set_option maxHeartbeats 800000 in
/-- The body at a walk's first joint (the reset branch taken; the parent row is row 0), on whole memrefs. -/
theorem runC3_A (c : Dev nD) (i : grid3.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .f32) (harg5 : arg5.IsWhole) (arg6 : Memref sig .tc .vmem S16x128x1024 .bf16) (harg6 : arg6.IsWhole) (arg7 : Memref sig .tc .vmem S16x128x1024 .f32) (harg7 : arg7.IsWhole)
    (hc0 : condC3 i)
    (tb : Vec F S15 .i32) (hoff : k3_off2 (wordC3 i arg2 harg2 tb) = ![0, 0, 0])
    (x : Vec F S1x128x4096 .bf16) (w : Vec F S4096x1024 .bf16)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ (∃ g0, owns (c : Thread nD τ) arg6 fullShare g0) ∗ (∃ g1, owns (c : Thread nD τ) arg7 fullShare g1)
        ∗ (iprop(owns (c : Thread nD τ) arg2 fullShare tb ∗ owns (c : Thread nD τ) arg3 fullShare x ∗ owns (c : Thread nD τ) arg4 fullShare w
            ∗ owns (c : Thread nD τ) arg5 fullShare (out3 zrow3 x w)
            ∗ (∃ g0 g1 G0 G1, ⌜RowsUpd0C3 g0 G0 ((i 1).val + 1) (zrow3 (F := F)).1 (cell3 zrow3 x w).1
                  ∧ RowsUpd0C3 g1 G1 ((i 1).val + 1) (zrow3 (F := F)).2 (cell3 zrow3 x w).2⌝
                ∗ owns (c : Thread nD τ) arg6 fullShare G0 ∗ owns (c : Thread nD τ) arg7 fullShare G1)) -∗ K ⟨⟩))
      ⊢ wp frame (wpE (defs₀ (F := F)) Variants.none c none) E (cc3__cell_kernel i arg2 harg2 arg3 harg3 arg4 harg4 arg5 harg5 arg6 harg6 arg7 harg7) K := by
  have hchk : k3_chk1 (wordC3 i arg2 harg2 tb) := chk_of_offC3 _ 0 (by omega) hoff
  simp only [cc3__cell_kernel_eq_skeleton]; unfold cc3__cell_kernel_skel
  simp only [k3_part1_eq_skeleton]; unfold k3_part1_skel
  unfold owns
  iintro ⟨⟨%f2, %hf2, H2⟩, ⟨%f3, %hf3, H3⟩, ⟨%f4, %hf4, H4⟩, ⟨%d5, %f5, %hf5, H5⟩, ⟨%g0, %f6, %hf6, H6⟩, ⟨%g1, %f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k3_off2 (runC3_A.sl.r c i arg2 harg2 tb) = ![0, 0, 0] := hoff
    unfold runC3_A.sl.H6_1 runC3_A.sl.H7_1
    rw [read_whole_consC3, readAt_row_consC3 arg6 _ _ _ _ _ 0 hoff' rfl, readAt_row_consC3 arg7 _ _ _ _ _ 0 hoff' rfl,
      readAt_wholeC3 arg3 harg3 x, readAt_wholeC3 arg4 harg4 w]
    rfl
  iexists g0, g1, _, _
  isplitr
  swap
  · isplitl [H6]
    · iexists _; isplitr
      swap; · iexact H6
      ipureintro; rfl
    · iexists _; isplitr
      swap; · iexact H7
      ipureintro; rfl
  ipureintro
  have hoff' : k3_off2 (runC3_A.sl.r c i arg2 harg2 tb) = ![0, 0, 0] := hoff
  refine ⟨fun r h => ?_, fun r h => ?_⟩
  · rw [rows_consC3 arg6 _ _ _ ((i 1).val + 1) (k3_off3_eq i)]
    unfold runC3_A.sl.H6_1 runC3_A.sl.H7_1
    rw [rows_consC3 arg6 _ _ _ 0 rfl, View.writes_nil, harg6.read_unread,
      readAt_row_consC3 arg6 _ _ _ _ _ 0 hoff' rfl, readAt_row_consC3 arg7 _ _ _ _ _ 0 hoff' rfl,
      readAt_wholeC3 arg3 harg3 x, readAt_wholeC3 arg4 harg4 w]
    rfl
  · rw [rows_consC3 arg7 _ _ _ ((i 1).val + 1) (k3_off3_eq i)]
    unfold runC3_A.sl.H6_1 runC3_A.sl.H7_1
    rw [rows_consC3 arg7 _ _ _ 0 rfl, View.writes_nil, harg7.read_unread,
      readAt_row_consC3 arg6 _ _ _ _ _ 0 hoff' rfl, readAt_row_consC3 arg7 _ _ _ _ _ 0 hoff' rfl,
      readAt_wholeC3 arg3 harg3 x, readAt_wholeC3 arg4 harg4 w]
    rfl

/-! ## The table of states, unfolded one point at a time -/

theorem ptOf3_valC3 (t : Fin (cfg3 (F := F) adm3).N) : ptOf3 (F := F) t.val = t := by
  unfold ptOf3; rw [dif_pos t.isLt]

theorem tabG3_eqC3 (p : ℕ → ℕ) (c : Dev nD) (n : ℕ) :
    tabG3 V p c n = Function.update (baseG3 V p c n) (n % 15 + 1)
      (cell3 (baseG3 V p c n (p (n % 15))) (xblk3 V c (ptOf3 n)) (wblk3 V c (ptOf3 n))) := by
  cases n <;> rfl

/-- The first joint is its own parent's row: row 0. -/
theorem par3_zeroC3 : par3 0 = 0 := by decide

/-- What the table says of each joint's parent: the offsets it yields, and that it precedes the joint. -/
theorem lit0_factsC3 : ∀ j : Fin 15, k3_off2 (lit0 j) = ![(lit0 j).toNat, 0, 0] ∧ (lit0 j).toNat ≤ j.val := by decide +kernel

/-- The table's cell a point reads is its joint's. -/
theorem word_idxC3 : ∀ i : grid3.Coords, S15.rowMajor ((Rect.unit (s := S15) (k3_off1 i) S1.size (k3_off1_inb i)).idx (Shape.Idx.first (numel1_S1.symm ▸ Nat.one_pos))) = ⟨(i 1).val, (i 1).isLt⟩ := by decide +kernel

theorem par3_leC3 (i : ℕ) (hi : i < 15) : par3 i ≤ i := by
  unfold par3; rw [dif_pos hi]; exact (lit0_factsC3 ⟨i, hi⟩).2

/-- The table's contents at their literal vector type. -/
abbrev tblVC3 : Vec F S15 .i32 := fun j => lit0 (S15.rowMajor j)

/-- The word a point loads through a whole memref held at contents that read `tb` is `tb`'s at the loaded cell. -/
theorem word_readC3 (i : grid3.Coords) (m : Memref sig .tc .smem S15 .i32) (hm : m.IsWhole) (tb : Vec F S15 .i32) :
    wordC3 i m hm tb = tb ((Rect.unit (s := S15) (k3_off1 i) S1.size (k3_off1_inb i)).idx (Shape.Idx.first (numel1_S1.symm ▸ Nat.one_pos))) :=
  Memref.IsWhole.readAt_unread hm tb _ _

/-- At the table's contents it is the parent of the point's joint. -/
theorem word_eqC3 (i : grid3.Coords) (m : Memref sig .tc .smem S15 .i32) (hm : m.IsWhole) :
    wordC3 (F := F) i m hm tblVC3 = lit0 ⟨(i 1).val, (i 1).isLt⟩ :=
  (word_readC3 i m hm tblVC3).trans (congrArg lit0 (word_idxC3 i))

theorem off_eqC3 (i : grid3.Coords) (m : Memref sig .tc .smem S15 .i32) (hm : m.IsWhole) :
    k3_off2 (wordC3 (F := F) i m hm tblVC3) = ![par3 (i 1).val, 0, 0] := by
  rw [word_eqC3, (lit0_factsC3 _).1]
  unfold par3; rw [dif_pos (show (i 1).val < 15 from (i 1).isLt)]

/-! ## The invariant, one point at a time -/

theorem baseG3_posC3 (p : ℕ → ℕ) (c : Dev nD) (n : ℕ) (h : n % 15 ≠ 0) : baseG3 V p c n = tabG3 V p c (n - 1) := by
  unfold baseG3; rw [if_neg h]

theorem baseG3_zeroC3 (p : ℕ → ℕ) (c : Dev nD) (n : ℕ) (h : n % 15 = 0) : baseG3 V p c n = fun _ => zrow3 := by
  unfold baseG3; rw [if_pos h]

/-- The invariant at a position whose value is `n`, read. -/
theorem inv1_atC3 (c : Dev nD) (s : Fin ((cfg3 (F := F) adm3).N + 1)) (n : ℕ) (hs : s.val = n)
    (g0 : Vec F S16x128x1024 .bf16) (g1 : Vec F S16x128x1024 .f32) (hinv : Inv3 V c s g0 g1)
    (hi : n % 15 ≠ 0) (r : ℕ) (hr : r ≤ n % 15) (h16 : r + 1 ≤ 16) :
    View.ld (Val := Elt F) g0 (rowR3 r h16) = (tabG3 V par3 c (n - 1) r).1
      ∧ View.ld (Val := Elt F) g1 (rowR3 r h16) = (tabG3 V par3 c (n - 1) r).2 := by
  subst hs
  exact hinv hi r hr

/-- The invariant at a position whose value is `n`, stated. -/
theorem inv1_introC3 (c : Dev nD) (s : Fin ((cfg3 (F := F) adm3).N + 1)) (n : ℕ) (hs : s.val = n)
    (G0 : Vec F S16x128x1024 .bf16) (G1 : Vec F S16x128x1024 .f32)
    (h : n % 15 ≠ 0 → ∀ (r : ℕ) (hr : r ≤ n % 15) (h16 : r + 1 ≤ 16),
      View.ld (Val := Elt F) G0 (rowR3 r h16) = (tabG3 V par3 c (n - 1) r).1
        ∧ View.ld (Val := Elt F) G1 (rowR3 r h16) = (tabG3 V par3 c (n - 1) r).2) :
    Inv3 V c s G0 G1 := by
  subst hs
  intro hne r hr
  exact h hne r hr _

/-- Inside a walk the parent's state is in the scratch buffers. -/
theorem par_rowC3 (c : Dev nD) (t : Fin (cfg3 (F := F) adm3).N) (hi : t.val % 15 ≠ 0)
    (g0 : Vec F S16x128x1024 .bf16) (g1 : Vec F S16x128x1024 .f32) (hinv : Inv3 V c t.castSucc g0 g1)
    (hp : par3 (t.val % 15) + 1 ≤ 16) :
    ((View.ld (Val := Elt F) g0 (rowR3 (par3 (t.val % 15)) hp), View.ld (Val := Elt F) g1 (rowR3 (par3 (t.val % 15)) hp)) : Row3 F)
      = baseG3 V par3 c t.val (par3 (t.val % 15)) := by
  have hle : par3 (t.val % 15) ≤ t.val % 15 := par3_leC3 _ (Nat.mod_lt _ (by omega))
  have h := inv1_atC3 V c t.castSucc t.val (Fin.coe_castSucc t) g0 g1 hinv hi (par3 (t.val % 15)) hle hp
  rw [baseG3_posC3 V par3 c t.val hi]
  exact Prod.ext h.1 h.2

theorem hrow3_AC3 (c : Dev nD) (t : Fin (cfg3 (F := F) adm3).N) (hi : t.val % 15 = 0) :
    hrow3 V c t = out3 zrow3 (xblk3 V c t) (wblk3 V c t) := by
  unfold hrow3; rw [baseG3_zeroC3 V par3 c t.val hi]

theorem hrow3_BC3 (c : Dev nD) (t : Fin (cfg3 (F := F) adm3).N) (hi : t.val % 15 ≠ 0)
    (g0 : Vec F S16x128x1024 .bf16) (g1 : Vec F S16x128x1024 .f32) (hinv : Inv3 V c t.castSucc g0 g1)
    (hp : par3 (t.val % 15) + 1 ≤ 16) :
    hrow3 V c t = out3 (View.ld (Val := Elt F) g0 (rowR3 (par3 (t.val % 15)) hp), View.ld (Val := Elt F) g1 (rowR3 (par3 (t.val % 15)) hp)) (xblk3 V c t) (wblk3 V c t) := by
  unfold hrow3; rw [par_rowC3 V c t hi g0 g1 hinv hp]

theorem inv_stepBC3 (c : Dev nD) (t : Fin (cfg3 (F := F) adm3).N) (hi : t.val % 15 ≠ 0)
    (g0 G0 : Vec F S16x128x1024 .bf16) (g1 G1 : Vec F S16x128x1024 .f32) (hinv : Inv3 V c t.castSucc g0 g1)
    (hp : par3 (t.val % 15) + 1 ≤ 16)
    (h0 : RowsUpdC3 g0 G0 (t.val % 15 + 1) (cell3 (View.ld (Val := Elt F) g0 (rowR3 (par3 (t.val % 15)) hp), View.ld (Val := Elt F) g1 (rowR3 (par3 (t.val % 15)) hp)) (xblk3 V c t) (wblk3 V c t)).1)
    (h1 : RowsUpdC3 g1 G1 (t.val % 15 + 1) (cell3 (View.ld (Val := Elt F) g0 (rowR3 (par3 (t.val % 15)) hp), View.ld (Val := Elt F) g1 (rowR3 (par3 (t.val % 15)) hp)) (xblk3 V c t) (wblk3 V c t)).2) :
    Inv3 V c t.succ G0 G1 := by
  refine inv1_introC3 V c t.succ (t.val + 1) (Fin.val_succ t) G0 G1 ?_
  intro hne r hr h16
  have hmod : (t.val + 1) % 15 = t.val % 15 + 1 := by omega
  rw [Nat.add_sub_cancel, tabG3_eqC3, ptOf3_valC3, ← par_rowC3 V c t hi g0 g1 hinv hp, h0 r h16, h1 r h16]
  by_cases hr1 : r = t.val % 15 + 1
  · subst hr1
    rw [if_pos rfl, if_pos rfl, Function.update_self]
    exact ⟨rfl, rfl⟩
  · rw [if_neg hr1, if_neg hr1, Function.update_of_ne hr1, baseG3_posC3 V par3 c t.val hi]
    have hr' : r ≤ t.val % 15 := by rw [hmod] at hr; omega
    exact inv1_atC3 V c t.castSucc t.val (Fin.coe_castSucc t) g0 g1 hinv hi r hr' h16

theorem inv_stepAC3 (c : Dev nD) (t : Fin (cfg3 (F := F) adm3).N) (hi : t.val % 15 = 0)
    (g0 G0 : Vec F S16x128x1024 .bf16) (g1 G1 : Vec F S16x128x1024 .f32)
    (h0 : RowsUpd0C3 g0 G0 (t.val % 15 + 1) (zrow3 (F := F)).1 (cell3 zrow3 (xblk3 V c t) (wblk3 V c t)).1)
    (h1 : RowsUpd0C3 g1 G1 (t.val % 15 + 1) (zrow3 (F := F)).2 (cell3 zrow3 (xblk3 V c t) (wblk3 V c t)).2) :
    Inv3 V c t.succ G0 G1 := by
  refine inv1_introC3 V c t.succ (t.val + 1) (Fin.val_succ t) G0 G1 ?_
  intro hne r hr h16
  have hmod : (t.val + 1) % 15 = 1 := by omega
  rw [Nat.add_sub_cancel, tabG3_eqC3, ptOf3_valC3, baseG3_zeroC3 V par3 c t.val hi, h0 r h16, h1 r h16, hi]
  have hr' : r ≤ 1 := by rw [hmod] at hr; exact hr
  by_cases hr1 : r = 0 + 1
  · subst hr1
    rw [if_pos rfl, if_pos rfl, Function.update_self]
    exact ⟨rfl, rfl⟩
  · have hr0 : r = 0 := by omega
    subst hr0
    rw [if_neg hr1, if_neg hr1, if_pos rfl, if_pos rfl, Function.update_of_ne hr1]
    exact ⟨rfl, rfl⟩

/-! ## The body obligation -/

abbrev tbMC3 : Memref sig .tc .smem S15 .i32 := Memref.whole main_c
abbrev scMC3_0 : Memref sig .tc .vmem S16x128x1024 .bf16 := Memref.whole cc3_scratch0
abbrev scMC3_1 : Memref sig .tc .vmem S16x128x1024 .f32 := Memref.whole cc3_scratch1
abbrev stC3_0 (t : Fin (cfg3 (F := F) adm3).N) : Memref sig .tc .vmem S1x128x4096 .bf16 := spec3_0.stage ((cfg3 (F := F) adm3).slots t 0)
abbrev hstC3_0 (t : Fin (cfg3 (F := F) adm3).N) : (stC3_0 (F := F) t).IsWhole := hstage3_0 (((cfg3 (F := F) adm3).slots t 0).cast nbuf3_0)
abbrev stC3_1 (t : Fin (cfg3 (F := F) adm3).N) : Memref sig .tc .vmem S4096x1024 .bf16 := spec3_1.stage ((cfg3 (F := F) adm3).slots t 1)
abbrev hstC3_1 (t : Fin (cfg3 (F := F) adm3).N) : (stC3_1 (F := F) t).IsWhole := hstage3_1 (((cfg3 (F := F) adm3).slots t 1).cast nbuf3_1)
abbrev stC3_2 (t : Fin (cfg3 (F := F) adm3).N) : Memref sig .tc .vmem S1x128x1024 .f32 := spec3_2.stage ((cfg3 (F := F) adm3).slots t 2)
abbrev hstC3_2 (t : Fin (cfg3 (F := F) adm3).N) : (stC3_2 (F := F) t).IsWhole := hstage3_2 (((cfg3 (F := F) adm3).slots t 2).cast nbuf3_2)

abbrev bodyAtC3 (t : Fin (cfg3 (F := F) adm3).N) : Prog (TpuEff nD τ sig (Elt F) Λ₀ .tc) PUnit :=
  cc3__cell_kernel (grid3.coords t) tbMC3 (Memref.isWhole_whole _) (stC3_0 t) (hstC3_0 t) (stC3_1 t) (hstC3_1 t) (stC3_2 t) (hstC3_2 t) scMC3_0 (Memref.isWhole_whole _) scMC3_1 (Memref.isWhole_whole _)

/-- The invariant with the table and the scratch buffers as memrefs. -/
theorem phiC3_eq (c : Dev nD) (t : Fin ((cfg3 (F := F) adm3).N + 1)) :
    ((dat3 V c).Φ t : sProp 𝕄) = iprop((∃ r, prngReg c r) ∗ owns (c : Thread nD τ) tbMC3 fullShare (tblVC3 (F := F))
      ∗ Pipeline.scopedRestBut spec3 c [cc3_scratch0, cc3_scratch1]
      ∗ ∃ g0 g1, ⌜Inv3 V c t g0 g1⌝ ∗ owns (c : Thread nD τ) scMC3_0 fullShare g0 ∗ owns (c : Thread nD τ) scMC3_1 fullShare g1) := by
  dsimp only [dat3]
  unfold Pipeline.prefHeld
  rw [bigSep_univ_eq_bigSepL [(0 : Fin 1)] (by decide) (by decide)]
  simp only [tbMC3, scMC3_0, scMC3_1, owns_whole]
  rfl

def bodyPreC3 (c : Dev nD) (t : Fin (cfg3 (F := F) adm3).N) : sProp 𝕄 :=
  iprop((dat3 V c).Φ t.castSucc ∗ (dat3 V c).owesAt () t.castSucc
    ∗ (∃ d, owns (c : Thread nD τ) (stC3_0 t) fullShare ((dat3 V c).before 0 t d))
    ∗ (∃ d, owns (c : Thread nD τ) (stC3_1 t) fullShare ((dat3 V c).before 1 t d))
    ∗ (∃ d, owns (c : Thread nD τ) (stC3_2 t) fullShare ((dat3 V c).before 2 t d)))

def bodyPostC3 (c : Dev nD) (t : Fin (cfg3 (F := F) adm3).N) : sProp 𝕄 :=
  iprop((dat3 V c).Φ t.succ ∗ (dat3 V c).owesAt () t.succ
    ∗ owns (c : Thread nD τ) (stC3_0 t) fullShare ((dat3 V c).after 0 t)
    ∗ owns (c : Thread nD τ) (stC3_1 t) fullShare ((dat3 V c).after 1 t)
    ∗ owns (c : Thread nD τ) (stC3_2 t) fullShare ((dat3 V c).after 2 t))

set_option maxHeartbeats 800000 in
/-- The body at any point: at a walk's first joint the reset case, else the case inside a walk with the parent's row
    read off the invariant. -/
theorem sound_bodyC3 (c : Dev nD) (t : Fin (cfg3 (F := F) adm3).N) :
    bodyPreC3 V c t ⊢ wp frame (wpE (defs₀ (F := F)) Variants.none c none) Set.univ (bodyAtC3 t) (fun _ => bodyPostC3 V c t) := by
  unfold bodyPreC3 bodyPostC3 bodyAtC3
  simp only [before3_0, before3_1]
  rw [show (dat3 V c).owesAt () t.succ = (dat3 V c).owesAt () t.castSucc from rfl, after3_0, after3_1, after3_2, phiC3_eq, phiC3_eq]
  have hco : (grid3.coords t 1).val = t.val % 15 := (coords3_eq t).2
  iintro ⟨⟨Hg, Htb, Hrest, ⟨%g0, %g1, %hinv, HS0, HS1⟩⟩, Ho, ⟨%d0, H0⟩, ⟨%d1, H1⟩, ⟨%d2, H2⟩⟩
  by_cases hi : t.val % 15 = 0
  · have hc0 : condC3 (grid3.coords t) := (hcondC3 _).mpr (by rw [hco]; exact hi)
    have hoff : k3_off2 (wordC3 (F := F) (grid3.coords t) tbMC3 (Memref.isWhole_whole _) tblVC3) = ![0, 0, 0] := by
      rw [off_eqC3, hco, hi, par3_zeroC3]
    iapply (runC3_A c (grid3.coords t) tbMC3 (Memref.isWhole_whole _) (stC3_0 t) (hstC3_0 t) (stC3_1 t) (hstC3_1 t) (stC3_2 t) (hstC3_2 t)
      scMC3_0 (Memref.isWhole_whole _) scMC3_1 (Memref.isWhole_whole _) hc0 tblVC3 hoff (xblk3 V c t) (wblk3 V c t) Set.univ _)
    isplitl [Htb]; · iexact Htb
    isplitl [H0]; · iexact H0
    isplitl [H1]; · iexact H1
    isplitl [H2]; · iexists _; iexact H2
    isplitl [HS0]; · iexists _; iexact HS0
    isplitl [HS1]; · iexists _; iexact HS1
    iintro ⟨Htb, H0, H1, H2, ⟨%g0', %g1', %G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepAC3 V c t hi g0' G0 g1' G1 hG.1 hG.2
      isplitl [HS0]; · iexact HS0
      iexact HS1
    isplitl [Ho]; · iexact Ho
    isplitl [H0]; · iexact H0
    isplitl [H1]; · iexact H1
    rw [hrow3_AC3 V c t hi]; iexact H2
  · have hc0 : ¬condC3 (grid3.coords t) := fun h => hi (by rw [← hco]; exact (hcondC3 _).mp h)
    have hlt : t.val % 15 < 15 := Nat.mod_lt _ (by omega)
    have hp : par3 (t.val % 15) + 1 ≤ 16 := by have := par3_leC3 (t.val % 15) hlt; omega
    have hoff : k3_off2 (wordC3 (F := F) (grid3.coords t) tbMC3 (Memref.isWhole_whole _) tblVC3) = ![par3 (t.val % 15), 0, 0] := by
      rw [off_eqC3, hco]
    iapply (runC3_B c (grid3.coords t) tbMC3 (Memref.isWhole_whole _) (stC3_0 t) (hstC3_0 t) (stC3_1 t) (hstC3_1 t) (stC3_2 t) (hstC3_2 t)
      scMC3_0 (Memref.isWhole_whole _) scMC3_1 (Memref.isWhole_whole _) hc0 tblVC3 (par3 (t.val % 15)) hp hoff (xblk3 V c t) (wblk3 V c t) g0 g1 Set.univ _)
    isplitl [Htb]; · iexact Htb
    isplitl [H0]; · iexact H0
    isplitl [H1]; · iexact H1
    isplitl [H2]; · iexists _; iexact H2
    isplitl [HS0]; · iexact HS0
    isplitl [HS1]; · iexact HS1
    iintro ⟨Htb, H0, H1, H2, ⟨%G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepBC3 V c t hi g0 G0 g1 G1 hinv hp hG.1 hG.2
      isplitl [HS0]; · iexact HS0
      iexact HS1
    isplitl [Ho]; · iexact Ho
    isplitl [H0]; · iexact H0
    isplitl [H1]; · iexact H1
    rw [hrow3_BC3 V c t hi g0 g1 hinv hp]; iexact H2

/-- The library's body obligation, at every point. -/
theorem body_obligation3 (c : Dev nD) : Pipeline.BodyObligation (dat3 (F := F) V c) (defs₀ (F := F)) Variants.none () Set.univ := fun t => by
  rw [bigSep_W3, bigSep_W3]
  exact sound_bodyC3 V c t

end Cert.Kernel.Hand

end
-- ==== Proof.K.Run.lean ====
/-
  The run of the whole program, at any float instance: @main is four stretches of host operations and four kernel
  regions in turn.  Between two items the core holds every unscoped buffer at contents named here (`W0` … `W8`: the
  launch memory, then each host stretch's operations applied, then each region's output array replaced by what its
  write-backs leave); each region is entered from the contents before it and left at the contents after it.  Every
  weakly fair execution terminates with every unscoped buffer at `W8`; the six argument arrays are among the buffers
  nothing writes, and the result array is region 3's output.
-/
import proofs.«408307_j89713276879117_3_alg».proof.Proof.Gen.Kernel.Launch
import proofs.«408307_j89713276879117_3_alg».proof.Proof.Gen.Kernel.Skeleton
import proofs.«408307_j89713276879117_3_alg».proof.Proof.Gen.Kernel.Points
import proofs.«408307_j89713276879117_3_alg».proof.Proof.Gen.Kernel.Regions
import proofs.«408307_j89713276879117_3_alg».proof.Proof.K.Gates
import proofs.«408307_j89713276879117_3_alg».proof.Proof.K.Cell1
import proofs.«408307_j89713276879117_3_alg».proof.Proof.K.Cell3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After region 0: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin 5) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin 5) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After region 1: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w (cfg1 (F := F) adm1).N
theorem W4_arr (c : Dev nD) (w : Fin 3) :
    W4 m ρ c (Proc.devRef .tc (Pipeline.arrRef spec1 w)) = (dat1 (V3 m ρ) c).arrAt w (cfg1 (F := F) adm1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin 3) : (dat1 (V3 m ρ) c).arrAt w (cfg1 (F := F) adm1).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After region 2: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin 4) :
    W6 m ρ c (Proc.devRef .tc (Pipeline.arrRef spec2 w)) = (dat2 (V5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin 4) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After region 3: its arrays at what the pipeline leaves (the inputs as entered, the output's write-backs folded),
    every other buffer as entered. -/
def W8 (c : Dev nD) : Valuation τ sig (Elt F) :=
  Pipeline.withArrays spec3 c (W7 m ρ c) fun w => (dat3 (V7 m ρ) c).arrAt w (cfg3 (F := F) adm3).N
theorem W8_arr (c : Dev nD) (w : Fin 3) :
    W8 m ρ c (Proc.devRef .tc (Pipeline.arrRef spec3 w)) = (dat3 (V7 m ρ) c).arrAt w (cfg3 (F := F) adm3).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin 3) : (dat3 (V7 m ρ) c).arrAt w (cfg3 (F := F) adm3).N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched -/

/-- `main_arg0` reaches the end as launched: no host stretch writes it and it is no region's array. -/
theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <| (W6_of_ne m ρ c main_arg0 (by decide)).trans <|
  (W5_of m ρ c main_arg0 (by decide)).trans <| (W4_of_ne m ρ c main_arg0 (by decide)).trans <| (W3_of m ρ c main_arg0 (by decide)).trans <|
  (W2_of_ne m ρ c main_arg0 (by decide)).trans <| (W1_of m ρ c main_arg0 (by decide)).trans rfl

/-- `main_arg1` reaches the end as launched: no host stretch writes it and it is no region's array. -/
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <| (W6_of_ne m ρ c main_arg1 (by decide)).trans <|
  (W5_of m ρ c main_arg1 (by decide)).trans <| (W4_of_ne m ρ c main_arg1 (by decide)).trans <| (W3_of m ρ c main_arg1 (by decide)).trans <|
  (W2_of_ne m ρ c main_arg1 (by decide)).trans <| (W1_of m ρ c main_arg1 (by decide)).trans rfl

/-- `main_arg2` reaches the end as launched: no host stretch writes it and it is no region's array. -/
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <| (W6_of_ne m ρ c main_arg2 (by decide)).trans <|
  (W5_of m ρ c main_arg2 (by decide)).trans <| (W4_of_ne m ρ c main_arg2 (by decide)).trans <| (W3_of m ρ c main_arg2 (by decide)).trans <|
  (W2_of_ne m ρ c main_arg2 (by decide)).trans <| (W1_of m ρ c main_arg2 (by decide)).trans rfl

/-- `main_arg3` reaches the end as launched: no host stretch writes it and it is no region's array. -/
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <| (W6_of_ne m ρ c main_arg3 (by decide)).trans <|
  (W5_of m ρ c main_arg3 (by decide)).trans <| (W4_of_ne m ρ c main_arg3 (by decide)).trans <| (W3_of m ρ c main_arg3 (by decide)).trans <|
  (W2_of_ne m ρ c main_arg3 (by decide)).trans <| (W1_of m ρ c main_arg3 (by decide)).trans rfl

/-- `main_arg4` reaches the end as launched: no host stretch writes it and it is no region's array. -/
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <| (W6_of_ne m ρ c main_arg4 (by decide)).trans <|
  (W5_of m ρ c main_arg4 (by decide)).trans <| (W4_of_ne m ρ c main_arg4 (by decide)).trans <| (W3_of m ρ c main_arg4 (by decide)).trans <|
  (W2_of_ne m ρ c main_arg4 (by decide)).trans <| (W1_of m ρ c main_arg4 (by decide)).trans rfl

/-- `main_arg5` reaches the end as launched: no host stretch writes it and it is no region's array. -/
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <| (W6_of_ne m ρ c main_arg5 (by decide)).trans <|
  (W5_of m ρ c main_arg5 (by decide)).trans <| (W4_of_ne m ρ c main_arg5 (by decide)).trans <| (W3_of m ρ c main_arg5 (by decide)).trans <|
  (W2_of_ne m ρ c main_arg5 (by decide)).trans <| (W1_of m ρ c main_arg5 (by decide)).trans rfl

/-! ## The parents' table holds the literal constant whenever a region reads it -/

/-- The first host stretch writes the table and nothing later touches it. -/
theorem W1_main_c (c : Dev nD) : W1 m ρ c (Proc.devRef .tc main_c) = (fun i => lit0 (S15.rowMajor i) : (⟨S15, .i32⟩ : BufTy).Contents (Elt F)) := by
  show StableHlo.after hostOps0 (W0 m ρ c) (Proc.devRef .tc main_c) = _
  after_results
  rfl
theorem W3_main_c (c : Dev nD) : W3 m ρ c (Proc.devRef .tc main_c) = (fun i => lit0 (S15.rowMajor i) : (⟨S15, .i32⟩ : BufTy).Contents (Elt F)) :=
  (W3_of m ρ c main_c (by decide)).trans <| (W2_of_ne m ρ c main_c (by decide)).trans (W1_main_c m ρ c)
theorem W7_main_c (c : Dev nD) : W7 m ρ c (Proc.devRef .tc main_c) = (fun i => lit0 (S15.rowMajor i) : (⟨S15, .i32⟩ : BufTy).Contents (Elt F)) :=
  (W7_of m ρ c main_c (by decide)).trans <| (W6_of_ne m ρ c main_c (by decide)).trans <| (W5_of m ρ c main_c (by decide)).trans <|
  (W4_of_ne m ρ c main_c (by decide)).trans (W3_main_c m ρ c)
/-- Read as region 1's tables: the contents the region is pinned at. -/
theorem tbl_at1 (c : Dev nD) : (fun k => V3 m ρ c (pre1.ref k)) = (adm1 (F := F)).1 := by
  funext k
  match k with
  | ⟨0, _⟩ => exact W3_main_c m ρ c
theorem tbl_at3 (c : Dev nD) : (fun k => V7 m ρ c (pre3.ref k)) = (adm3 (F := F)).1 := by
  funext k
  match k with
  | ⟨0, _⟩ => exact W7_main_c m ρ c

/-! ## The proof data family and the thread state -/

/-- The tables' admissible contents: none for the projections, the literal parents' table for the two cell regions. -/
def adm : (p : Fin 4) → (pcfgs (F := F) p).Adm
  | ⟨0, _⟩ => cfg0.toPCfg_adm
  | ⟨1, _⟩ => adm1
  | ⟨2, _⟩ => cfg2.toPCfg_adm
  | ⟨3, _⟩ => adm3
  | ⟨_ + 4, h⟩ => absurd h (Nat.not_lt.2 (Nat.le_add_left _ _))

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨_ + 4, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0: entered with every unscoped buffer at the contents before it, left with its output array at what its
    write-backs leave and every other buffer as entered. Its windows' arrays are split out of the unscoped buffers at
    entry and put back at exit; the generator register goes into the region's invariant and comes back. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped rest of region 1 is the parents' table at the literal contents and the rest without it. -/
theorem rest1_split (c : Dev nD) :
    (Pipeline.unscopedRest (Ix := Unit) (Name := ℕ) (U := UR sig nD τ) (Lvl := ℕ) spec1 c (V3 m ρ c) : sProp 𝕄)
      = iprop(Pipeline.prefHeld pre1 c (fun _ => fullShare) (adm1 (F := F)).1
          ∗ Pipeline.unscopedRestP (Ix := Unit) (Name := ℕ) (U := UR sig nD τ) (Lvl := ℕ) pre1 spec1 c (V3 m ρ c)) := by
  rw [Pipeline.unscopedRest_split preFacts1 c (V3 m ρ c), tbl_at1 m ρ c]

set_option backward.isDefEq.respectTransparency.types false in
/-- Region 1: as the table-free regions, and the parents' table is taken out of the unscoped buffers at entry, goes
    into the region's invariant, and is put back among them at exit. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld pre1 c (fun _ => fullShare) (adm1 (F := F)).1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun w => A_eq1 (V3 m ρ) c w
    rw [Pipeline.unscopedBufs_held] at hsplit
    replace hsplit : (StableHlo.held (c : Thread nD τ) (Pipeline.ucRefs τ sig) (W3 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V3 m ρ c)) := hsplit
    rw [rest1_split m ρ c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi1_in (V3 m ρ) c
  hout c := by
    rw [Pipeline.ownSems0_none]
    refine (phi1_out (V3 m ρ) c).trans ?_
    iintro ⟨Hp, Hpf, Hr⟩
    isplitl [Hp Hpf]; · isplitl [Hp]; · iexact Hp
                        iexact Hpf
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (F := F) adm1).N) (hF1 m ρ c) (hrest1 m ρ c)
    rw [Pipeline.unscopedBufs_held] at hjoin
    replace hjoin : (iprop((pdats m ρ 1 c).arrays ((pdats m ρ 1 c).arrAt · (cfg1 (F := F) adm1).N)
            ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ c) := hjoin
    rw [rest1_split m ρ c] at hjoin
    iintro ⟨Ha, HO, ⟨Hp, Hpf⟩, Hrest⟩
    imodintro
    isplitl [Ha Hrest Hpf]
    · iapply hjoin; isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

set_option backward.isDefEq.respectTransparency.types false in
/-- Region 2: entered with every unscoped buffer at the contents before it, left with its output array at what its
    write-backs leave and every other buffer as entered. Its windows' arrays are split out of the unscoped buffers at
    entry and put back at exit; the generator register goes into the region's invariant and comes back. -/
def reg2 : Pipeline.RegionSeg (pcfgs (F := F)) adm (pdats m ρ) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) (launch2 (F := F)).win (launch2 (F := F)).arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped rest of region 3 is the parents' table at the literal contents and the rest without it. -/
theorem rest3_split (c : Dev nD) :
    (Pipeline.unscopedRest (Ix := Unit) (Name := ℕ) (U := UR sig nD τ) (Lvl := ℕ) spec3 c (V7 m ρ c) : sProp 𝕄)
      = iprop(Pipeline.prefHeld pre3 c (fun _ => fullShare) (adm3 (F := F)).1
          ∗ Pipeline.unscopedRestP (Ix := Unit) (Name := ℕ) (U := UR sig nD τ) (Lvl := ℕ) pre3 spec3 c (V7 m ρ c)) := by
  rw [Pipeline.unscopedRest_split preFacts3 c (V7 m ρ c), tbl_at3 m ρ c]

set_option backward.isDefEq.respectTransparency.types false in
/-- Region 3: as the table-free regions, and the parents' table is taken out of the unscoped buffers at entry, goes
    into the region's invariant, and is put back among them at exit. -/
def reg3 : Pipeline.RegionSeg (pcfgs (F := F)) adm (pdats m ρ) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld pre3 c (fun _ => fullShare) (adm3 (F := F)).1)
  Z c := Pipeline.unscopedRestP (Ix := Unit) (Name := ℕ) (U := UR sig nD τ) (Lvl := ℕ) pre3 spec3 c (V7 m ρ c)
  hentry c := by
    rw [Pipeline.ownSems0_none]
    have hsplit := Pipeline.arrays_of_unscopedBufs (p := 3) (pcfgs (F := F)) adm (pdats m ρ) (launch3 (F := F)).win (launch3 (F := F)).arr_whole c
      ((pdats m ρ 3 c).share_full fun _ => rfl) (V7 m ρ c) fun w => A_eq3 (V7 m ρ) c w
    rw [Pipeline.unscopedBufs_held] at hsplit
    replace hsplit : (StableHlo.held (c : Thread nD τ) (Pipeline.ucRefs τ sig) (W7 m ρ c) : sProp 𝕄)
        ⊢ iprop((pdats m ρ 3 c).arrays ((pdats m ρ 3 c).arrAt · 0)
            ∗ Pipeline.unscopedRest (Ix := Unit) (Name := ℕ) (U := UR sig nD τ) (Lvl := ℕ) spec3 c (V7 m ρ c)) := hsplit
    rw [rest3_split m ρ c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi3_in (V7 m ρ) c
  hout c := by
    rw [Pipeline.ownSems0_none]
    refine (phi3_out (V7 m ρ) c).trans ?_
    iintro ⟨Hp, Hpf, Hr⟩
    isplitl [Hp Hpf]; · isplitl [Hp]; · iexact Hp
                        iexact Hpf
    isplitr; · iempintro
    iexact Hr
  hexit c := by
    have hjoin := Pipeline.unscopedBufs_of_arrays (p := 3) (pcfgs (F := F)) adm (Ix := Unit) (Name := ℕ) (U := UR sig nD τ) (Lvl := ℕ)
      (launch3 (F := F)).win (launch3 (F := F)).arr_whole c (pdats m ρ) ((pdats m ρ 3 c).share_full fun _ => rfl)
      (V7 m ρ c) (V8 m ρ c) ((pdats m ρ 3 c).arrAt · (cfg3 (F := F) adm3).N) (hF3 m ρ c) (hrest3 m ρ c)
    rw [Pipeline.unscopedBufs_held] at hjoin
    replace hjoin : (iprop((pdats m ρ 3 c).arrays ((pdats m ρ 3 c).arrAt · (cfg3 (F := F) adm3).N)
            ∗ Pipeline.unscopedRest (Ix := Unit) (Name := ℕ) (U := UR sig nD τ) (Lvl := ℕ) spec3 c (V7 m ρ c)) : sProp 𝕄)
        ⊢ StableHlo.held (c : Thread nD τ) (Pipeline.ucRefs τ sig) (W8 m ρ c) := hjoin
    rw [rest3_split m ρ c] at hjoin
    iintro ⟨Ha, HO, ⟨Hp, Hpf⟩, Hrest⟩
    imodintro
    isplitl [Ha Hrest Hpf Hp]
    · isplitl [Ha Hrest Hpf]
      · iapply hjoin; isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, and every final memory holds
    every unscoped buffer of every core at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c),
     (h c _ (mem_uc main_arg4 (by decide))).trans (W8_main_arg4 m ρ c), (h c _ (mem_uc main_arg5 (by decide))).trans (W8_main_arg5 m ρ c)⟩)
    (run_all m ρ)

/-- The run with the result array named: it ends at what region 3's write-backs leave in its output array. -/
theorem run_result : θ_run defs (onTc (τ := τ) (main (F := F))) ⟨m, fun _ => 0, ρ⟩ (fun r => ∀ c : Dev nD,
      r.2.mem ((c.tc : Thread nD τ).loc main_v32) = (dat3 (V7 m ρ) c).arrAt 2 (cfg3 (F := F) adm3).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v32 (by decide))).trans (W8_arr m ρ c 2),
     (h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c),
     (h c _ (mem_uc main_arg4 (by decide))).trans (W8_main_arg4 m ρ c), (h c _ (mem_uc main_arg5 (by decide))).trans (W8_main_arg5 m ρ c)⟩)
    (run_all m ρ)

end Cert.Kernel.Hand

end
-- ==== Proof.KI.Gates.lean ====
import proofs.«408307_j89713276879117_3_alg».proof.Proof.Gen.KernelIdeal.Launch
import proofs.«408307_j89713276879117_3_alg».proof.Proof.Gen.KernelIdeal.Skeleton
import proofs.«408307_j89713276879117_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The bodies of the two batched input projections (regions 0 and 2 of @main): each loads its input windows
    whole, multiplies into a zero accumulator, adds the broadcast bias, rounds to bf16 and stores the output
    window whole. Per region, at a parameter `V` (the core's buffer contents when the region is entered):
    each window's block at a point, what the body leaves in the output window's buffer, the body's triple, the
    pipeline's proof data and the body obligation. -/

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when a region is entered: the parameter each region's half is stated at
variable (V : (c : Dev nD) → (b : Ref sig .tc) → Buf (Elt F) ((c : Thread nD τ).loc b))

/-! # REGION 0 of @main: `cc0__gatesx_concat_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block access rectangles of the body. -/
abbrev rA0 : Rect S192x512 := Rect.unit (s := S192x512) ![0, 0] S192x512.size inb_S192x512_S192x512_0_0
abbrev rW : Rect S4096x1024 := Rect.unit (s := S4096x1024) ![0, 0] S4096x1024.size inb_S4096x1024_S4096x1024_0_0
abbrev rB : Rect S1x4096 := Rect.unit (s := S1x4096) ![0, 0] S1x4096.size inb_S1x4096_S1x4096_0_0
abbrev rO : Rect S192x4096 := Rect.unit (s := S192x4096) ![0, 0] S192x4096.size inb_S192x4096_S192x4096_0_0

/-- Window 4's staging buffer after the body, from the input windows' blocks: its one store, of the whole block. -/
def out0_4 (x0 x1 : Vec F S192x512 .f32) (x2 : Vec F S4096x1024 .bf16) (x3 : Vec F S1x4096 .f32) : Vec F S192x4096 .bf16 :=
  View.canon [⟨rO, k0_pay1 (View.ld x0 rA0) (View.ld x1 rA0) (View.ld x2 rW) (View.ld x3 rB)⟩]

/-- The proof data of pipeline 0 on core `c`: the arrays as the region finds them; after the body at point `t`
    each input's buffer at its block and the output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_4 (p0 : Vec F S192x4096 .bf16) (y : S192x4096.Idx) :
    ∃ pc ∈ ([⟨rO, p0⟩] : List (View.Piece (Elt F) S192x4096 .bf16)), y ∈ pc.1.set :=
  View.cover_of_tiled [⟨rO, p0⟩] S192x4096.size (by rfl) y

set_option maxHeartbeats 1000000 in
/-- The kernel body on whole staging memrefs, the inputs' at read contents and the output's at anything, runs to the
    continuation holding the inputs' as they were and the output's at `out0_4` of the inputs'. -/
theorem sound_kernel0 (c : Dev nD) (E : Set ℕ) (i : grid0.Coords)
    (arg1 : Memref sig .tc .vmem S192x512 .f32) (harg1 : arg1.IsWhole) (arg2 : Memref sig .tc .vmem S192x512 .f32) (harg2 : arg2.IsWhole)
    (arg3 : Memref sig .tc .vmem S4096x1024 .bf16) (harg3 : arg3.IsWhole) (arg4 : Memref sig .tc .vmem S1x4096 .f32) (harg4 : arg4.IsWhole)
    (arg5 : Memref sig .tc .vmem S192x4096 .bf16) (harg5 : arg5.IsWhole)
    (x0 x1 : Vec F S192x512 .f32) (x2 : Vec F S4096x1024 .bf16) (x3 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__gatesx_concat_kernel i arg1 harg1 arg2 harg2 arg3 harg3 arg4 harg4 arg5 harg5) K := by
  simp only [cc0__gatesx_concat_kernel_eq_skeleton]; unfold cc0__gatesx_concat_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 2 of @main: `cc2__gatesx_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S192x1024 := Rect.unit (s := S192x1024) ![0, 0] S192x1024.size inb_S192x1024_S192x1024_0_0

/-- Window 3's staging buffer after the body, from the input windows' blocks: its one store, of the whole block. -/
def out2_3 (x0 : Vec F S192x1024 .bf16) (x1 : Vec F S4096x1024 .bf16) (x2 : Vec F S1x4096 .f32) : Vec F S192x4096 .bf16 :=
  View.canon [⟨rO, k2_pay1 (View.ld x0 rA2) (View.ld x1 rW) (View.ld x2 rB)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one store tiles the output buffer, so it covers it. -/
theorem cover2_3 (p0 : Vec F S192x4096 .bf16) (y : S192x4096.Idx) :
    ∃ pc ∈ ([⟨rO, p0⟩] : List (View.Piece (Elt F) S192x4096 .bf16)), y ∈ pc.1.set :=
  View.cover_of_tiled [⟨rO, p0⟩] S192x4096.size (by rfl) y

set_option maxHeartbeats 1000000 in
/-- The kernel body on whole staging memrefs, the inputs' at read contents and the output's at anything, runs to the
    continuation holding the inputs' as they were and the output's at `out2_3` of the inputs'. -/
theorem sound_kernel2 (c : Dev nD) (E : Set ℕ) (i : grid2.Coords)
    (arg1 : Memref sig .tc .vmem S192x1024 .bf16) (harg1 : arg1.IsWhole)
    (arg2 : Memref sig .tc .vmem S4096x1024 .bf16) (harg2 : arg2.IsWhole) (arg3 : Memref sig .tc .vmem S1x4096 .f32) (harg3 : arg3.IsWhole)
    (arg4 : Memref sig .tc .vmem S192x4096 .bf16) (harg4 : arg4.IsWhole)
    (x0 : Vec F S192x1024 .bf16) (x1 : Vec F S4096x1024 .bf16) (x2 : Vec F S1x4096 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out2_3 x0 x1 x2)) -∗ K ⟨⟩))
      ⊢ wp frame (wpE (defs₀ (F := F)) Variants.none c none) E (cc2__gatesx_kernel i arg1 harg1 arg2 harg2 arg3 harg3 arg4 harg4) K := by
  simp only [cc2__gatesx_kernel_eq_skeleton]; unfold cc2__gatesx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Cell1.lean ====
import proofs.«408307_j89713276879117_3_alg».proof.Proof.Gen.KernelIdeal.Launch
import proofs.«408307_j89713276879117_3_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The cell kernel of the first layer: proof data and body obligation -/

/-- The prefetched table's contents: the parent of each joint. -/
def tbl1 : pre1.Contents (Elt F) := fun
  | 0 => fun i => lit0 (S15.rowMajor i)
  | ⟨_ + 1, h⟩ => absurd h (Nat.not_lt.2 (Nat.le_add_left _ _))

/-- The table's contents are admissible (the side condition is trivial). -/
def adm1 : (pcfg1 (F := F)).Adm := ⟨tbl1, trivial⟩

/-- The grid has thirty points. -/
theorem N1_eq : (cfg1 (F := F) adm1).N = 30 := N_1

/-- The grid's points in order: the batch half is the slow coordinate, the joint the fast one. -/
theorem coords1_eq : ∀ t : Fin grid1.N, (grid1.coords t 0).val = t.val / 15 ∧ (grid1.coords t 1).val = t.val % 15 := by decide +kernel

/-- The point of linear position `n` (the first point beyond the grid). -/
def ptOf1 (n : ℕ) : Fin (cfg1 (F := F) adm1).N :=
  if h : n < (cfg1 (F := F) adm1).N then ⟨n, h⟩ else ⟨0, by rw [N1_eq]; omega⟩

variable (V : (c : Dev nD) → (b : Ref sig .tc) → Buf (Elt F) ((c : Thread nD τ).loc b))

/-- Window `w`'s block at point `t`, read off its array as the region finds it. -/
def iblk1 (c : Dev nD) (w : Fin 3) (t : Fin (cfg1 (F := F) adm1).N) :
    (((cfg1 (F := F) adm1).win w).xblock ((cfg1 (F := F) adm1).grid.coords t)).Idx → Elt F ((cfg1 (F := F) adm1).win w).elt :=
  (((cfg1 (F := F) adm1).win w).blk t).view.read (Elt F) (V c (Pipeline.arrRef spec1 w))

/-- The gate block at a point, at its literal vector type. -/
abbrev xblk1 (c : Dev nD) (t : Fin (cfg1 (F := F) adm1).N) : Vec F S1x128x4096 .bf16 := iblk1 V c 0 t
/-- The recurrent weights at a point, at their literal vector type. -/
abbrev wblk1 (c : Dev nD) (t : Fin (cfg1 (F := F) adm1).N) : Vec F S4096x1024 .bf16 := iblk1 V c 1 t

/-- A joint's state: its hidden row (bf16) and its cell row (f32). -/
abbrev Row1 (F : FTy → Type) [FloatOps F] : Type := Vec F S1x128x1024 .bf16 × Vec F S1x128x1024 .f32

/-- The zero state (row 0 of both scratch buffers after the reset). -/
def zrow1 : Row1 F := (k1_pay3, k1_pay4)

/-- One joint: from its parent's state, its gate block and the weights, its own state. -/
def cell1 (par : Row1 F) (x : Vec F S1x128x4096 .bf16) (w : Vec F S4096x1024 .bf16) : Row1 F :=
  (k1_pay8 par.1 par.2 x w, k1_pay1 (k1_pay6 par.1 par.2 x w))

/-- What one joint writes to the output window. -/
def out1 (par : Row1 F) (x : Vec F S1x128x4096 .bf16) (w : Vec F S4096x1024 .bf16) : Vec F S1x128x1024 .bf16 :=
  k1_pay2 (k1_pay7 par.1 par.2 x w)

/-- The table of joint states after the point of linear position `n`, over a parent map `p`: a walk starts
    from the zero table; the point of joint `i = n % 15` fills row `i + 1` from row `p i`. -/
def tabG (p : ℕ → ℕ) (c : Dev nD) : ℕ → ℕ → Row1 F
  | 0 => Function.update (fun _ => zrow1) 1 (cell1 zrow1 (xblk1 V c (ptOf1 0)) (wblk1 V c (ptOf1 0)))
  | n + 1 =>
    let base : ℕ → Row1 F := if (n + 1) % 15 = 0 then fun _ => zrow1 else tabG p c n
    Function.update base ((n + 1) % 15 + 1) (cell1 (base (p ((n + 1) % 15))) (xblk1 V c (ptOf1 (n + 1))) (wblk1 V c (ptOf1 (n + 1))))

/-- The table a point starts from: zero at a walk's first point, else what the point before left. -/
def baseG (p : ℕ → ℕ) (c : Dev nD) (n : ℕ) : ℕ → Row1 F :=
  if n % 15 = 0 then fun _ => zrow1 else tabG V p c (n - 1)

/-- The parent of joint `i`, read off the table. -/
def par1 (i : ℕ) : ℕ := if h : i < 15 then (lit0 ⟨i, h⟩).toNat else 0

/-- What point `t` leaves in the output window's staging buffer. -/
def hrow1 (c : Dev nD) (t : Fin (cfg1 (F := F) adm1).N) : Vec F S1x128x1024 .bf16 :=
  out1 (baseG V par1 c t.val (par1 (t.val % 15))) (xblk1 V c t) (wblk1 V c t)

/-- Row `r` of a sixteen-row buffer, as a rectangle. -/
abbrev rowR1 (r : ℕ) (h : r + 1 ≤ 16) : Rect S16x128x1024 :=
  Rect.unit (s := S16x128x1024) ![r, 0, 0] S1x128x1024.size (by
    intro a; fin_cases a
    · show r + 1 ≤ 16; exact h
    · show 0 + 128 ≤ 128; omega
    · show 0 + 1024 ≤ 1024; omega)

/-- THE INVARIANT before the point of linear position `t`: inside a walk (joint `i = t % 15 ≥ 1`) rows
    `0 … i` of the two scratch buffers are the states the walk has computed; at a walk's first point nothing
    is known. -/
def Inv1 (c : Dev nD) (t : Fin ((cfg1 (F := F) adm1).N + 1))
    (f0 : Buf (Elt F) ((c : Thread nD τ).loc cc1_scratch0)) (f1 : Buf (Elt F) ((c : Thread nD τ).loc cc1_scratch1)) : Prop :=
  t.val % 15 ≠ 0 → ∀ (r : ℕ) (hr : r ≤ t.val % 15),
    View.ld (Val := Elt F) (S := S16x128x1024) (e' := .bf16) f0 (rowR1 r (by omega)) = (tabG V par1 c (t.val - 1) r).1
      ∧ View.ld (Val := Elt F) (S := S16x128x1024) (e' := .f32) f1 (rowR1 r (by omega)) = (tabG V par1 c (t.val - 1) r).2

/-- The proof data of the pipeline on core `c`. -/
def dat1 (c : Dev nD) : Dat τ (Elt F) Unit ℕ (UR sig nD τ) ℕ (cfg1 (F := F) adm1) c where
  A w := V c (Pipeline.arrRef spec1 w)
  after w t := match w with
    | ⟨0, _⟩ => iblk1 V c 0 t
    | ⟨1, _⟩ => iblk1 V c 1 t
    | ⟨2, _⟩ => hrow1 V c t
  Φ t := iprop((∃ r, prngReg c r) ∗ Pipeline.prefHeld pre1 c (fun _ => fullShare) (adm1 (F := F)).1
      ∗ Pipeline.scopedRestBut spec1 c [cc1_scratch0, cc1_scratch1]
      ∗ ∃ f0 f1, ⌜Inv1 V c t f0 f1⌝ ∗ (((c : Thread nD τ).loc cc1_scratch0) ↦{fullShare} f0) ∗ (((c : Thread nD τ).loc cc1_scratch1) ↦{fullShare} f1))
  q _ := fullShare
  owed _ := 0

theorem A_eq1 (c : Dev nD) (w : Fin 3) : (dat1 V c).A w = V c (Pipeline.arrRef spec1 w) := by
  dsimp only [dat1]

theorem after1_0 (c : Dev nD) (t : Fin (cfg1 (F := F) adm1).N) : (dat1 V c).after 0 t = iblk1 V c 0 t := rfl
theorem after1_1 (c : Dev nD) (t : Fin (cfg1 (F := F) adm1).N) : (dat1 V c).after 1 t = iblk1 V c 1 t := rfl
theorem after1_2 (c : Dev nD) (t : Fin (cfg1 (F := F) adm1).N) : (dat1 V c).after 2 t = hrow1 V c t := rfl

/-- Each input's current staging buffer holds its block at every point, fetched there or not. -/
theorem before1_0 (c : Dev nD) (t : Fin (cfg1 (F := F) adm1).N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin (cfg1 (F := F) adm1).N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The scoped rest of the cell kernel's call split at the call's own two scratch buffers, each whole at some
    contents; every other scoped buffer stays unopened. -/
theorem scopedRest_splitC1 (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

theorem phi1_in (c : Dev nD) :
    iprop((∃ r, prngReg c r) ∗ Pipeline.prefHeld pre1 c (fun _ => fullShare) (adm1 (F := F)).1 ∗ Pipeline.scopedRest spec1 c)
      ⊢ ((dat1 V c).Φ 0 : sProp 𝕄) := by
  rw [scopedRest_splitC1 (F := F) c]
  dsimp only [dat1]
  iintro ⟨HR, HP, ⟨⟨%f0, H0⟩, ⟨%f1, H1⟩⟩, HB⟩
  isplitl [HR]
  · iexact HR
  isplitl [HP]
  · iexact HP
  isplitl [HB]
  · iexact HB
  iexists f0, f1
  isplitr
  · ipureintro
    intro h
    exact absurd (by simp) h
  isplitl [H0]
  · iexact H0
  · iexact H1

theorem phi1_out (c : Dev nD) :
    ((dat1 V c).Φ (Fin.last _) : sProp 𝕄)
      ⊢ iprop((∃ r, prngReg c r) ∗ Pipeline.prefHeld pre1 c (fun _ => fullShare) (adm1 (F := F)).1 ∗ Pipeline.scopedRest spec1 c) := by
  rw [scopedRest_splitC1 (F := F) c]
  dsimp only [dat1]
  iintro ⟨HR, HP, HB, %f0, %f1, -, H0, H1⟩
  isplitl [HR]
  · iexact HR
  isplitl [HP]
  · iexact HP
  isplitr [HB]
  · isplitl [H0]
    · iexists f0
      iexact H0
    · iexists f1
      iexact H1
  · iexact HB

/-! ## Reading rows of a sixteen-row buffer through a whole memref -/

section RowsC1

variable {κ : Kind} {sp : Space}

/-- A load of the whole shape at zero offsets through a whole memref held at the contents that read `X` reads `X`. -/
theorem readAt_wholeC1 {s : Shape} {e : EltTy} (m : Memref sig κ sp s e) (hm : m.IsWhole) (X : s.Idx → Elt F e)
    (off : Fin s.rank → ℕ) (inb : ∀ a, off a + s.size a ≤ s.size a) :
    View.readAt (Elt F) m.view (Rect.unit (s := s) off s.size inb).toLoadRect (hm.unread X) = X := by
  funext j
  rw [Memref.IsWhole.readAt_unread hm]
  congr 1
  funext a
  apply Fin.ext
  show off a + 1 * (j a).val = (j a).val
  have := inb a
  omega

/-- A load of one row through a whole memref held at the contents that read `g` reads that row of `g`. -/
theorem readAt_rowC1 {e : EltTy} (m : Memref sig κ sp S16x128x1024 e) (hm : m.IsWhole) (g : S16x128x1024.Idx → Elt F e)
    (off : Fin 3 → ℕ) (inb : ∀ a, off a + S1x128x1024.size a ≤ S16x128x1024.size a) (p : ℕ) (hp : p + 1 ≤ 16)
    (hoff : off = ![p, 0, 0]) :
    View.readAt (Elt F) m.view (Rect.unit (s := S16x128x1024) off S1x128x1024.size inb).toLoadRect (hm.unread g)
      = View.ld (Val := Elt F) g (rowR1 p hp) := by
  subst hoff
  funext j
  rw [Memref.IsWhole.readAt_unread hm]

/-- Rows after a store of one row: the stored row reads the payload, every other row what the earlier stores left. -/
theorem rows_consC1 {e : EltTy} (m : Memref sig κ sp S16x128x1024 e) (f : m.view.ty.Contents (Elt F))
    (off : Fin 3 → ℕ) (inb : ∀ a, off a + S1x128x1024.size a ≤ S16x128x1024.size a) (j : ℕ) (hoff : off = ![j, 0, 0])
    (P : (Rect.unit (s := S16x128x1024) off S1x128x1024.size inb).shape.Idx → Elt F e) (L : List (View.Piece (Elt F) S16x128x1024 e))
    (r : ℕ) (h : r + 1 ≤ 16) :
    View.ld (Val := Elt F) (m.view.read (Elt F) (m.view.writes (Elt F) f ((⟨Rect.unit (s := S16x128x1024) off S1x128x1024.size inb, P⟩ : View.Piece (Elt F) S16x128x1024 e) :: L))) (rowR1 r h)
      = if r = j then P else View.ld (Val := Elt F) (m.view.read (Elt F) (m.view.writes (Elt F) f L)) (rowR1 r h) := by
  funext y
  by_cases hr : r = j
  · subst hr
    rw [if_pos rfl]
    exact View.read_writes_cons_unit_of_mem m.view f inb P L ((rowR1 r h).idx y) y hoff (fun a => by
      fin_cases a
      · show r + 1 * (y 0).val = r + (y 0).val; omega
      · show 0 + 1 * (y 1).val = 0 + (y 1).val; omega
      · show 0 + 1 * (y 2).val = 0 + (y 2).val; omega)
  · rw [if_neg hr]
    exact View.read_writes_cons_unit_of_not_mem m.view f inb P L ((rowR1 r h).idx y) hoff 0 (by
      have hy : (y 0).val < 1 := (y 0).isLt
      show r + 1 * (y 0).val < j ∨ j + 1 ≤ r + 1 * (y 0).val
      omega)

/-- A load of row `p` after a store of that row reads the payload. -/
theorem readAt_row_consC1 {e : EltTy} (m : Memref sig κ sp S16x128x1024 e) (f : m.view.ty.Contents (Elt F))
    (off off2 : Fin 3 → ℕ) (inb : ∀ a, off a + S1x128x1024.size a ≤ S16x128x1024.size a) (inb2 : ∀ a, off2 a + S1x128x1024.size a ≤ S16x128x1024.size a)
    (p : ℕ) (hoff : off = ![p, 0, 0]) (hoff2 : off2 = ![p, 0, 0])
    (P : (Rect.unit (s := S16x128x1024) off2 S1x128x1024.size inb2).shape.Idx → Elt F e) (L : List (View.Piece (Elt F) S16x128x1024 e)) :
    View.readAt (Elt F) m.view (Rect.unit (s := S16x128x1024) off S1x128x1024.size inb).toLoadRect
        (m.view.writes (Elt F) f ((⟨Rect.unit (s := S16x128x1024) off2 S1x128x1024.size inb2, P⟩ : View.Piece (Elt F) S16x128x1024 e) :: L))
      = P := by
  subst hoff
  funext y
  rw [View.readAt_apply]
  exact View.read_writes_cons_unit_of_mem m.view f inb2 P L _ y hoff2 (fun a => by
    fin_cases a
    · show p + 1 * (y 0).val = p + (y 0).val; omega
    · show 0 + 1 * (y 1).val = 0 + (y 1).val; omega
    · show 0 + 1 * (y 2).val = 0 + (y 2).val; omega)

/-- What a view reads after a store of the whole shape at zero offsets, whatever came before: the payload. -/
theorem read_whole_consC1 {s : Shape} {e : EltTy} (m : Memref sig κ sp s e) (f : m.view.ty.Contents (Elt F))
    (off : Fin s.rank → ℕ) (inb : ∀ a, off a + s.size a ≤ s.size a)
    (P : (Rect.unit (s := s) off s.size inb).shape.Idx → Elt F e) (L : List (View.Piece (Elt F) s e)) :
    m.view.read (Elt F) (m.view.writes (Elt F) f ((⟨Rect.unit (s := s) off s.size inb, P⟩ : View.Piece (Elt F) s e) :: L)) = P := by
  funext y
  exact View.read_writes_cons_unit_of_mem m.view f inb P L y y rfl (fun a => by have := inb a; omega)

end RowsC1

/-! ## The body's run, per control case -/

/-- The condition of the body's reset branch, from the grid coordinates. -/
abbrev condC1 (i : grid1.Coords) : Prop := (Scalar.cmpi .ne (Scalar.extui (Scalar.cmpi .eq (BitVec.ofNat 32 (i 1).val) 0#32)) 0#32) = 1#1

/-- It holds at a walk's first joint only. -/
theorem hcondC1 : ∀ i : grid1.Coords, condC1 i ↔ (i 1).val = 0 := by decide +kernel

/-- The word the body loads from the table at its point, in the form the run reads it. -/
abbrev wordC1 (i : grid1.Coords) (arg2 : Memref sig .tc .smem S15 .i32) (harg2 : arg2.IsWhole) (tb : Vec F S15 .i32) : BitVec 32 :=
  arg2.view.readAt (Elt F) (Rect.unit (s := S15) (k1_off1 i) S1.size (k1_off1_inb i)).toLoadRect (harg2.unread tb) (Shape.Idx.first (numel1_S1.symm ▸ Nat.one_pos))

/-- The assumed side condition, from the parent row's number. -/
theorem chk_of_offC1 (v4 : BitVec 32) (p : ℕ) (hp : p + 1 ≤ 16) (hoff : k1_off2 v4 = ![p, 0, 0]) : k1_chk1 v4 := by
  unfold k1_chk1; rw [hoff]; intro a; fin_cases a
  · show p + 1 ≤ 16; exact hp
  · show 0 + 128 ≤ 128; omega
  · show 0 + 1024 ≤ 1024; omega

/-- Rows of a buffer after one joint's store: row `j` is the payload, every other row as before. -/
def RowsUpdC1 {e : EltTy} (g G : Vec F S16x128x1024 e) (j : ℕ) (P : Vec F S1x128x1024 e) : Prop :=
  ∀ (r : ℕ) (h : r + 1 ≤ 16), View.ld (Val := Elt F) G (rowR1 r h) = if r = j then P else View.ld (Val := Elt F) g (rowR1 r h)

set_option maxHeartbeats 800000 in
/-- The body inside a walk (the reset branch not taken), on whole memrefs: the table, the gate block and the weights
    come back as they were, the output window holds the joint's output, and the scratch buffers hold the joint's
    state in row `i + 1`, every other row as before. -/
theorem runC1_B (c : Dev nD) (i : grid1.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .bf16) (harg5 : arg5.IsWhole) (arg6 : Memref sig .tc .vmem S16x128x1024 .bf16) (harg6 : arg6.IsWhole) (arg7 : Memref sig .tc .vmem S16x128x1024 .f32) (harg7 : arg7.IsWhole)
    (hc0 : ¬condC1 i)
    (tb : Vec F S15 .i32) (p : ℕ) (hp : p + 1 ≤ 16) (hoff : k1_off2 (wordC1 i arg2 harg2 tb) = ![p, 0, 0])
    (x : Vec F S1x128x4096 .bf16) (w : Vec F S4096x1024 .bf16) (g0 : Vec F S16x128x1024 .bf16) (g1 : Vec F S16x128x1024 .f32)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ owns (c : Thread nD τ) arg6 fullShare g0 ∗ owns (c : Thread nD τ) arg7 fullShare g1
        ∗ (iprop(owns (c : Thread nD τ) arg2 fullShare tb ∗ owns (c : Thread nD τ) arg3 fullShare x ∗ owns (c : Thread nD τ) arg4 fullShare w
            ∗ owns (c : Thread nD τ) arg5 fullShare (out1 (View.ld (Val := Elt F) g0 (rowR1 p hp), View.ld (Val := Elt F) g1 (rowR1 p hp)) x w)
            ∗ (∃ G0 G1, ⌜RowsUpdC1 g0 G0 ((i 1).val + 1) (cell1 (View.ld (Val := Elt F) g0 (rowR1 p hp), View.ld (Val := Elt F) g1 (rowR1 p hp)) x w).1
                  ∧ RowsUpdC1 g1 G1 ((i 1).val + 1) (cell1 (View.ld (Val := Elt F) g0 (rowR1 p hp), View.ld (Val := Elt F) g1 (rowR1 p hp)) x w).2⌝
                ∗ owns (c : Thread nD τ) arg6 fullShare G0 ∗ owns (c : Thread nD τ) arg7 fullShare G1)) -∗ K ⟨⟩))
      ⊢ wp frame (wpE (defs₀ (F := F)) Variants.none c none) E (cc1__cell_kernel i arg2 harg2 arg3 harg3 arg4 harg4 arg5 harg5 arg6 harg6 arg7 harg7) K := by
  have hchk : k1_chk1 (wordC1 i arg2 harg2 tb) := chk_of_offC1 _ p hp hoff
  simp only [cc1__cell_kernel_eq_skeleton]; unfold cc1__cell_kernel_skel
  simp only [k1_part1_eq_skeleton]; unfold k1_part1_skel
  unfold owns
  iintro ⟨⟨%f2, %hf2, H2⟩, ⟨%f3, %hf3, H3⟩, ⟨%f4, %hf4, H4⟩, ⟨%d5, %f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k1_off2 (runC1_B.sl.r c i arg2 harg2 tb) = ![p, 0, 0] := hoff
    rw [read_whole_consC1, readAt_rowC1 arg6 harg6 g0 _ _ p hp hoff', readAt_rowC1 arg7 harg7 g1 _ _ p hp hoff',
      readAt_wholeC1 arg3 harg3 x, readAt_wholeC1 arg4 harg4 w]
    rfl
  iexists _, _
  isplitr
  swap
  · isplitl [H6]
    · iexists _; isplitr
      swap; · iexact H6
      ipureintro; rfl
    · iexists _; isplitr
      swap; · iexact H7
      ipureintro; rfl
  ipureintro
  have hoff' : k1_off2 (runC1_B.sl.r c i arg2 harg2 tb) = ![p, 0, 0] := hoff
  refine ⟨fun r h => ?_, fun r h => ?_⟩
  · rw [rows_consC1 arg6 _ _ _ ((i 1).val + 1) (k1_off3_eq i), View.writes_nil, harg6.read_unread,
      readAt_rowC1 arg6 harg6 g0 _ _ p hp hoff', readAt_rowC1 arg7 harg7 g1 _ _ p hp hoff',
      readAt_wholeC1 arg3 harg3 x, readAt_wholeC1 arg4 harg4 w]
    rfl
  · rw [rows_consC1 arg7 _ _ _ ((i 1).val + 1) (k1_off3_eq i), View.writes_nil, harg7.read_unread,
      readAt_rowC1 arg6 harg6 g0 _ _ p hp hoff', readAt_rowC1 arg7 harg7 g1 _ _ p hp hoff',
      readAt_wholeC1 arg3 harg3 x, readAt_wholeC1 arg4 harg4 w]
    rfl

/-- Rows of a buffer after a walk's first joint: row 0 zeroed, row `j` the payload, every other row as before. -/
def RowsUpd0C1 {e : EltTy} (g G : Vec F S16x128x1024 e) (j : ℕ) (Z P : Vec F S1x128x1024 e) : Prop :=
  ∀ (r : ℕ) (h : r + 1 ≤ 16), View.ld (Val := Elt F) G (rowR1 r h)
    = if r = j then P else if r = 0 then Z else View.ld (Val := Elt F) g (rowR1 r h)

set_option maxHeartbeats 800000 in
/-- The body at a walk's first joint (the reset branch taken; the parent row is row 0), on whole memrefs. -/
theorem runC1_A (c : Dev nD) (i : grid1.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .bf16) (harg5 : arg5.IsWhole) (arg6 : Memref sig .tc .vmem S16x128x1024 .bf16) (harg6 : arg6.IsWhole) (arg7 : Memref sig .tc .vmem S16x128x1024 .f32) (harg7 : arg7.IsWhole)
    (hc0 : condC1 i)
    (tb : Vec F S15 .i32) (hoff : k1_off2 (wordC1 i arg2 harg2 tb) = ![0, 0, 0])
    (x : Vec F S1x128x4096 .bf16) (w : Vec F S4096x1024 .bf16)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ (∃ g0, owns (c : Thread nD τ) arg6 fullShare g0) ∗ (∃ g1, owns (c : Thread nD τ) arg7 fullShare g1)
        ∗ (iprop(owns (c : Thread nD τ) arg2 fullShare tb ∗ owns (c : Thread nD τ) arg3 fullShare x ∗ owns (c : Thread nD τ) arg4 fullShare w
            ∗ owns (c : Thread nD τ) arg5 fullShare (out1 zrow1 x w)
            ∗ (∃ g0 g1 G0 G1, ⌜RowsUpd0C1 g0 G0 ((i 1).val + 1) (zrow1 (F := F)).1 (cell1 zrow1 x w).1
                  ∧ RowsUpd0C1 g1 G1 ((i 1).val + 1) (zrow1 (F := F)).2 (cell1 zrow1 x w).2⌝
                ∗ owns (c : Thread nD τ) arg6 fullShare G0 ∗ owns (c : Thread nD τ) arg7 fullShare G1)) -∗ K ⟨⟩))
      ⊢ wp frame (wpE (defs₀ (F := F)) Variants.none c none) E (cc1__cell_kernel i arg2 harg2 arg3 harg3 arg4 harg4 arg5 harg5 arg6 harg6 arg7 harg7) K := by
  have hchk : k1_chk1 (wordC1 i arg2 harg2 tb) := chk_of_offC1 _ 0 (by omega) hoff
  simp only [cc1__cell_kernel_eq_skeleton]; unfold cc1__cell_kernel_skel
  simp only [k1_part1_eq_skeleton]; unfold k1_part1_skel
  unfold owns
  iintro ⟨⟨%f2, %hf2, H2⟩, ⟨%f3, %hf3, H3⟩, ⟨%f4, %hf4, H4⟩, ⟨%d5, %f5, %hf5, H5⟩, ⟨%g0, %f6, %hf6, H6⟩, ⟨%g1, %f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k1_off2 (runC1_A.sl.r c i arg2 harg2 tb) = ![0, 0, 0] := hoff
    unfold runC1_A.sl.H6_1 runC1_A.sl.H7_1
    rw [read_whole_consC1, readAt_row_consC1 arg6 _ _ _ _ _ 0 hoff' rfl, readAt_row_consC1 arg7 _ _ _ _ _ 0 hoff' rfl,
      readAt_wholeC1 arg3 harg3 x, readAt_wholeC1 arg4 harg4 w]
    rfl
  iexists g0, g1, _, _
  isplitr
  swap
  · isplitl [H6]
    · iexists _; isplitr
      swap; · iexact H6
      ipureintro; rfl
    · iexists _; isplitr
      swap; · iexact H7
      ipureintro; rfl
  ipureintro
  have hoff' : k1_off2 (runC1_A.sl.r c i arg2 harg2 tb) = ![0, 0, 0] := hoff
  refine ⟨fun r h => ?_, fun r h => ?_⟩
  · rw [rows_consC1 arg6 _ _ _ ((i 1).val + 1) (k1_off3_eq i)]
    unfold runC1_A.sl.H6_1 runC1_A.sl.H7_1
    rw [rows_consC1 arg6 _ _ _ 0 rfl, View.writes_nil, harg6.read_unread,
      readAt_row_consC1 arg6 _ _ _ _ _ 0 hoff' rfl, readAt_row_consC1 arg7 _ _ _ _ _ 0 hoff' rfl,
      readAt_wholeC1 arg3 harg3 x, readAt_wholeC1 arg4 harg4 w]
    rfl
  · rw [rows_consC1 arg7 _ _ _ ((i 1).val + 1) (k1_off3_eq i)]
    unfold runC1_A.sl.H6_1 runC1_A.sl.H7_1
    rw [rows_consC1 arg7 _ _ _ 0 rfl, View.writes_nil, harg7.read_unread,
      readAt_row_consC1 arg6 _ _ _ _ _ 0 hoff' rfl, readAt_row_consC1 arg7 _ _ _ _ _ 0 hoff' rfl,
      readAt_wholeC1 arg3 harg3 x, readAt_wholeC1 arg4 harg4 w]
    rfl

/-! ## The table of states, unfolded one point at a time -/

theorem ptOf1_valC1 (t : Fin (cfg1 (F := F) adm1).N) : ptOf1 (F := F) t.val = t := by
  unfold ptOf1; rw [dif_pos t.isLt]

theorem tabG_eqC1 (p : ℕ → ℕ) (c : Dev nD) (n : ℕ) :
    tabG V p c n = Function.update (baseG V p c n) (n % 15 + 1)
      (cell1 (baseG V p c n (p (n % 15))) (xblk1 V c (ptOf1 n)) (wblk1 V c (ptOf1 n))) := by
  cases n <;> rfl

/-- The first joint is its own parent's row: row 0. -/
theorem par1_zeroC1 : par1 0 = 0 := by decide

/-- What the table says of each joint's parent: the offsets it yields, and that it precedes the joint. -/
theorem lit0_factsC1 : ∀ j : Fin 15, k1_off2 (lit0 j) = ![(lit0 j).toNat, 0, 0] ∧ (lit0 j).toNat ≤ j.val := by decide +kernel

/-- The table's cell a point reads is its joint's. -/
theorem word_idxC1 : ∀ i : grid1.Coords, S15.rowMajor ((Rect.unit (s := S15) (k1_off1 i) S1.size (k1_off1_inb i)).idx (Shape.Idx.first (numel1_S1.symm ▸ Nat.one_pos))) = ⟨(i 1).val, (i 1).isLt⟩ := by decide +kernel

theorem par1_leC1 (i : ℕ) (hi : i < 15) : par1 i ≤ i := by
  unfold par1; rw [dif_pos hi]; exact (lit0_factsC1 ⟨i, hi⟩).2

/-- The table's contents at their literal vector type. -/
abbrev tblVC1 : Vec F S15 .i32 := fun j => lit0 (S15.rowMajor j)

/-- The word a point loads through a whole memref held at contents that read `tb` is `tb`'s at the loaded cell. -/
theorem word_readC1 (i : grid1.Coords) (m : Memref sig .tc .smem S15 .i32) (hm : m.IsWhole) (tb : Vec F S15 .i32) :
    wordC1 i m hm tb = tb ((Rect.unit (s := S15) (k1_off1 i) S1.size (k1_off1_inb i)).idx (Shape.Idx.first (numel1_S1.symm ▸ Nat.one_pos))) :=
  Memref.IsWhole.readAt_unread hm tb _ _

/-- At the table's contents it is the parent of the point's joint. -/
theorem word_eqC1 (i : grid1.Coords) (m : Memref sig .tc .smem S15 .i32) (hm : m.IsWhole) :
    wordC1 (F := F) i m hm tblVC1 = lit0 ⟨(i 1).val, (i 1).isLt⟩ :=
  (word_readC1 i m hm tblVC1).trans (congrArg lit0 (word_idxC1 i))

theorem off_eqC1 (i : grid1.Coords) (m : Memref sig .tc .smem S15 .i32) (hm : m.IsWhole) :
    k1_off2 (wordC1 (F := F) i m hm tblVC1) = ![par1 (i 1).val, 0, 0] := by
  rw [word_eqC1, (lit0_factsC1 _).1]
  unfold par1; rw [dif_pos (show (i 1).val < 15 from (i 1).isLt)]

/-! ## The invariant, one point at a time -/

theorem baseG_posC1 (p : ℕ → ℕ) (c : Dev nD) (n : ℕ) (h : n % 15 ≠ 0) : baseG V p c n = tabG V p c (n - 1) := by
  unfold baseG; rw [if_neg h]

theorem baseG_zeroC1 (p : ℕ → ℕ) (c : Dev nD) (n : ℕ) (h : n % 15 = 0) : baseG V p c n = fun _ => zrow1 := by
  unfold baseG; rw [if_pos h]

/-- The invariant at a position whose value is `n`, read. -/
theorem inv1_atC1 (c : Dev nD) (s : Fin ((cfg1 (F := F) adm1).N + 1)) (n : ℕ) (hs : s.val = n)
    (g0 : Vec F S16x128x1024 .bf16) (g1 : Vec F S16x128x1024 .f32) (hinv : Inv1 V c s g0 g1)
    (hi : n % 15 ≠ 0) (r : ℕ) (hr : r ≤ n % 15) (h16 : r + 1 ≤ 16) :
    View.ld (Val := Elt F) g0 (rowR1 r h16) = (tabG V par1 c (n - 1) r).1
      ∧ View.ld (Val := Elt F) g1 (rowR1 r h16) = (tabG V par1 c (n - 1) r).2 := by
  subst hs
  exact hinv hi r hr

/-- The invariant at a position whose value is `n`, stated. -/
theorem inv1_introC1 (c : Dev nD) (s : Fin ((cfg1 (F := F) adm1).N + 1)) (n : ℕ) (hs : s.val = n)
    (G0 : Vec F S16x128x1024 .bf16) (G1 : Vec F S16x128x1024 .f32)
    (h : n % 15 ≠ 0 → ∀ (r : ℕ) (hr : r ≤ n % 15) (h16 : r + 1 ≤ 16),
      View.ld (Val := Elt F) G0 (rowR1 r h16) = (tabG V par1 c (n - 1) r).1
        ∧ View.ld (Val := Elt F) G1 (rowR1 r h16) = (tabG V par1 c (n - 1) r).2) :
    Inv1 V c s G0 G1 := by
  subst hs
  intro hne r hr
  exact h hne r hr _

/-- Inside a walk the parent's state is in the scratch buffers. -/
theorem par_rowC1 (c : Dev nD) (t : Fin (cfg1 (F := F) adm1).N) (hi : t.val % 15 ≠ 0)
    (g0 : Vec F S16x128x1024 .bf16) (g1 : Vec F S16x128x1024 .f32) (hinv : Inv1 V c t.castSucc g0 g1)
    (hp : par1 (t.val % 15) + 1 ≤ 16) :
    ((View.ld (Val := Elt F) g0 (rowR1 (par1 (t.val % 15)) hp), View.ld (Val := Elt F) g1 (rowR1 (par1 (t.val % 15)) hp)) : Row1 F)
      = baseG V par1 c t.val (par1 (t.val % 15)) := by
  have hle : par1 (t.val % 15) ≤ t.val % 15 := par1_leC1 _ (Nat.mod_lt _ (by omega))
  have h := inv1_atC1 V c t.castSucc t.val (Fin.coe_castSucc t) g0 g1 hinv hi (par1 (t.val % 15)) hle hp
  rw [baseG_posC1 V par1 c t.val hi]
  exact Prod.ext h.1 h.2

theorem hrow1_AC1 (c : Dev nD) (t : Fin (cfg1 (F := F) adm1).N) (hi : t.val % 15 = 0) :
    hrow1 V c t = out1 zrow1 (xblk1 V c t) (wblk1 V c t) := by
  unfold hrow1; rw [baseG_zeroC1 V par1 c t.val hi]

theorem hrow1_BC1 (c : Dev nD) (t : Fin (cfg1 (F := F) adm1).N) (hi : t.val % 15 ≠ 0)
    (g0 : Vec F S16x128x1024 .bf16) (g1 : Vec F S16x128x1024 .f32) (hinv : Inv1 V c t.castSucc g0 g1)
    (hp : par1 (t.val % 15) + 1 ≤ 16) :
    hrow1 V c t = out1 (View.ld (Val := Elt F) g0 (rowR1 (par1 (t.val % 15)) hp), View.ld (Val := Elt F) g1 (rowR1 (par1 (t.val % 15)) hp)) (xblk1 V c t) (wblk1 V c t) := by
  unfold hrow1; rw [par_rowC1 V c t hi g0 g1 hinv hp]

theorem inv_stepBC1 (c : Dev nD) (t : Fin (cfg1 (F := F) adm1).N) (hi : t.val % 15 ≠ 0)
    (g0 G0 : Vec F S16x128x1024 .bf16) (g1 G1 : Vec F S16x128x1024 .f32) (hinv : Inv1 V c t.castSucc g0 g1)
    (hp : par1 (t.val % 15) + 1 ≤ 16)
    (h0 : RowsUpdC1 g0 G0 (t.val % 15 + 1) (cell1 (View.ld (Val := Elt F) g0 (rowR1 (par1 (t.val % 15)) hp), View.ld (Val := Elt F) g1 (rowR1 (par1 (t.val % 15)) hp)) (xblk1 V c t) (wblk1 V c t)).1)
    (h1 : RowsUpdC1 g1 G1 (t.val % 15 + 1) (cell1 (View.ld (Val := Elt F) g0 (rowR1 (par1 (t.val % 15)) hp), View.ld (Val := Elt F) g1 (rowR1 (par1 (t.val % 15)) hp)) (xblk1 V c t) (wblk1 V c t)).2) :
    Inv1 V c t.succ G0 G1 := by
  refine inv1_introC1 V c t.succ (t.val + 1) (Fin.val_succ t) G0 G1 ?_
  intro hne r hr h16
  have hmod : (t.val + 1) % 15 = t.val % 15 + 1 := by omega
  rw [Nat.add_sub_cancel, tabG_eqC1, ptOf1_valC1, ← par_rowC1 V c t hi g0 g1 hinv hp, h0 r h16, h1 r h16]
  by_cases hr1 : r = t.val % 15 + 1
  · subst hr1
    rw [if_pos rfl, if_pos rfl, Function.update_self]
    exact ⟨rfl, rfl⟩
  · rw [if_neg hr1, if_neg hr1, Function.update_of_ne hr1, baseG_posC1 V par1 c t.val hi]
    have hr' : r ≤ t.val % 15 := by rw [hmod] at hr; omega
    exact inv1_atC1 V c t.castSucc t.val (Fin.coe_castSucc t) g0 g1 hinv hi r hr' h16

theorem inv_stepAC1 (c : Dev nD) (t : Fin (cfg1 (F := F) adm1).N) (hi : t.val % 15 = 0)
    (g0 G0 : Vec F S16x128x1024 .bf16) (g1 G1 : Vec F S16x128x1024 .f32)
    (h0 : RowsUpd0C1 g0 G0 (t.val % 15 + 1) (zrow1 (F := F)).1 (cell1 zrow1 (xblk1 V c t) (wblk1 V c t)).1)
    (h1 : RowsUpd0C1 g1 G1 (t.val % 15 + 1) (zrow1 (F := F)).2 (cell1 zrow1 (xblk1 V c t) (wblk1 V c t)).2) :
    Inv1 V c t.succ G0 G1 := by
  refine inv1_introC1 V c t.succ (t.val + 1) (Fin.val_succ t) G0 G1 ?_
  intro hne r hr h16
  have hmod : (t.val + 1) % 15 = 1 := by omega
  rw [Nat.add_sub_cancel, tabG_eqC1, ptOf1_valC1, baseG_zeroC1 V par1 c t.val hi, h0 r h16, h1 r h16, hi]
  have hr' : r ≤ 1 := by rw [hmod] at hr; exact hr
  by_cases hr1 : r = 0 + 1
  · subst hr1
    rw [if_pos rfl, if_pos rfl, Function.update_self]
    exact ⟨rfl, rfl⟩
  · have hr0 : r = 0 := by omega
    subst hr0
    rw [if_neg hr1, if_neg hr1, if_pos rfl, if_pos rfl, Function.update_of_ne hr1]
    exact ⟨rfl, rfl⟩

/-! ## The body obligation -/

abbrev tbMC1 : Memref sig .tc .smem S15 .i32 := Memref.whole main_c
abbrev scMC1_0 : Memref sig .tc .vmem S16x128x1024 .bf16 := Memref.whole cc1_scratch0
abbrev scMC1_1 : Memref sig .tc .vmem S16x128x1024 .f32 := Memref.whole cc1_scratch1
abbrev stC1_0 (t : Fin (cfg1 (F := F) adm1).N) : Memref sig .tc .vmem S1x128x4096 .bf16 := spec1_0.stage ((cfg1 (F := F) adm1).slots t 0)
abbrev hstC1_0 (t : Fin (cfg1 (F := F) adm1).N) : (stC1_0 (F := F) t).IsWhole := hstage1_0 (((cfg1 (F := F) adm1).slots t 0).cast nbuf1_0)
abbrev stC1_1 (t : Fin (cfg1 (F := F) adm1).N) : Memref sig .tc .vmem S4096x1024 .bf16 := spec1_1.stage ((cfg1 (F := F) adm1).slots t 1)
abbrev hstC1_1 (t : Fin (cfg1 (F := F) adm1).N) : (stC1_1 (F := F) t).IsWhole := hstage1_1 (((cfg1 (F := F) adm1).slots t 1).cast nbuf1_1)
abbrev stC1_2 (t : Fin (cfg1 (F := F) adm1).N) : Memref sig .tc .vmem S1x128x1024 .bf16 := spec1_2.stage ((cfg1 (F := F) adm1).slots t 2)
abbrev hstC1_2 (t : Fin (cfg1 (F := F) adm1).N) : (stC1_2 (F := F) t).IsWhole := hstage1_2 (((cfg1 (F := F) adm1).slots t 2).cast nbuf1_2)

abbrev bodyAtC1 (t : Fin (cfg1 (F := F) adm1).N) : Prog (TpuEff nD τ sig (Elt F) Λ₀ .tc) PUnit :=
  cc1__cell_kernel (grid1.coords t) tbMC1 (Memref.isWhole_whole _) (stC1_0 t) (hstC1_0 t) (stC1_1 t) (hstC1_1 t) (stC1_2 t) (hstC1_2 t) scMC1_0 (Memref.isWhole_whole _) scMC1_1 (Memref.isWhole_whole _)

/-- The invariant with the table and the scratch buffers as memrefs. -/
theorem phiC1_eq (c : Dev nD) (t : Fin ((cfg1 (F := F) adm1).N + 1)) :
    ((dat1 V c).Φ t : sProp 𝕄) = iprop((∃ r, prngReg c r) ∗ owns (c : Thread nD τ) tbMC1 fullShare (tblVC1 (F := F))
      ∗ Pipeline.scopedRestBut spec1 c [cc1_scratch0, cc1_scratch1]
      ∗ ∃ g0 g1, ⌜Inv1 V c t g0 g1⌝ ∗ owns (c : Thread nD τ) scMC1_0 fullShare g0 ∗ owns (c : Thread nD τ) scMC1_1 fullShare g1) := by
  dsimp only [dat1]
  unfold Pipeline.prefHeld
  rw [bigSep_univ_eq_bigSepL [(0 : Fin 1)] (by decide) (by decide)]
  simp only [tbMC1, scMC1_0, scMC1_1, owns_whole]
  rfl

def bodyPreC1 (c : Dev nD) (t : Fin (cfg1 (F := F) adm1).N) : sProp 𝕄 :=
  iprop((dat1 V c).Φ t.castSucc ∗ (dat1 V c).owesAt () t.castSucc
    ∗ (∃ d, owns (c : Thread nD τ) (stC1_0 t) fullShare ((dat1 V c).before 0 t d))
    ∗ (∃ d, owns (c : Thread nD τ) (stC1_1 t) fullShare ((dat1 V c).before 1 t d))
    ∗ (∃ d, owns (c : Thread nD τ) (stC1_2 t) fullShare ((dat1 V c).before 2 t d)))

def bodyPostC1 (c : Dev nD) (t : Fin (cfg1 (F := F) adm1).N) : sProp 𝕄 :=
  iprop((dat1 V c).Φ t.succ ∗ (dat1 V c).owesAt () t.succ
    ∗ owns (c : Thread nD τ) (stC1_0 t) fullShare ((dat1 V c).after 0 t)
    ∗ owns (c : Thread nD τ) (stC1_1 t) fullShare ((dat1 V c).after 1 t)
    ∗ owns (c : Thread nD τ) (stC1_2 t) fullShare ((dat1 V c).after 2 t))

set_option maxHeartbeats 800000 in
/-- The body at any point: at a walk's first joint the reset case, else the case inside a walk with the parent's row
    read off the invariant. -/
theorem sound_bodyC1 (c : Dev nD) (t : Fin (cfg1 (F := F) adm1).N) :
    bodyPreC1 V c t ⊢ wp frame (wpE (defs₀ (F := F)) Variants.none c none) Set.univ (bodyAtC1 t) (fun _ => bodyPostC1 V c t) := by
  unfold bodyPreC1 bodyPostC1 bodyAtC1
  simp only [before1_0, before1_1]
  rw [show (dat1 V c).owesAt () t.succ = (dat1 V c).owesAt () t.castSucc from rfl, after1_0, after1_1, after1_2, phiC1_eq, phiC1_eq]
  have hco : (grid1.coords t 1).val = t.val % 15 := (coords1_eq t).2
  iintro ⟨⟨Hg, Htb, Hrest, ⟨%g0, %g1, %hinv, HS0, HS1⟩⟩, Ho, ⟨%d0, H0⟩, ⟨%d1, H1⟩, ⟨%d2, H2⟩⟩
  by_cases hi : t.val % 15 = 0
  · have hc0 : condC1 (grid1.coords t) := (hcondC1 _).mpr (by rw [hco]; exact hi)
    have hoff : k1_off2 (wordC1 (F := F) (grid1.coords t) tbMC1 (Memref.isWhole_whole _) tblVC1) = ![0, 0, 0] := by
      rw [off_eqC1, hco, hi, par1_zeroC1]
    iapply (runC1_A c (grid1.coords t) tbMC1 (Memref.isWhole_whole _) (stC1_0 t) (hstC1_0 t) (stC1_1 t) (hstC1_1 t) (stC1_2 t) (hstC1_2 t)
      scMC1_0 (Memref.isWhole_whole _) scMC1_1 (Memref.isWhole_whole _) hc0 tblVC1 hoff (xblk1 V c t) (wblk1 V c t) Set.univ _)
    isplitl [Htb]; · iexact Htb
    isplitl [H0]; · iexact H0
    isplitl [H1]; · iexact H1
    isplitl [H2]; · iexists _; iexact H2
    isplitl [HS0]; · iexists _; iexact HS0
    isplitl [HS1]; · iexists _; iexact HS1
    iintro ⟨Htb, H0, H1, H2, ⟨%g0', %g1', %G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepAC1 V c t hi g0' G0 g1' G1 hG.1 hG.2
      isplitl [HS0]; · iexact HS0
      iexact HS1
    isplitl [Ho]; · iexact Ho
    isplitl [H0]; · iexact H0
    isplitl [H1]; · iexact H1
    rw [hrow1_AC1 V c t hi]; iexact H2
  · have hc0 : ¬condC1 (grid1.coords t) := fun h => hi (by rw [← hco]; exact (hcondC1 _).mp h)
    have hlt : t.val % 15 < 15 := Nat.mod_lt _ (by omega)
    have hp : par1 (t.val % 15) + 1 ≤ 16 := by have := par1_leC1 (t.val % 15) hlt; omega
    have hoff : k1_off2 (wordC1 (F := F) (grid1.coords t) tbMC1 (Memref.isWhole_whole _) tblVC1) = ![par1 (t.val % 15), 0, 0] := by
      rw [off_eqC1, hco]
    iapply (runC1_B c (grid1.coords t) tbMC1 (Memref.isWhole_whole _) (stC1_0 t) (hstC1_0 t) (stC1_1 t) (hstC1_1 t) (stC1_2 t) (hstC1_2 t)
      scMC1_0 (Memref.isWhole_whole _) scMC1_1 (Memref.isWhole_whole _) hc0 tblVC1 (par1 (t.val % 15)) hp hoff (xblk1 V c t) (wblk1 V c t) g0 g1 Set.univ _)
    isplitl [Htb]; · iexact Htb
    isplitl [H0]; · iexact H0
    isplitl [H1]; · iexact H1
    isplitl [H2]; · iexists _; iexact H2
    isplitl [HS0]; · iexact HS0
    isplitl [HS1]; · iexact HS1
    iintro ⟨Htb, H0, H1, H2, ⟨%G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepBC1 V c t hi g0 G0 g1 G1 hinv hp hG.1 hG.2
      isplitl [HS0]; · iexact HS0
      iexact HS1
    isplitl [Ho]; · iexact Ho
    isplitl [H0]; · iexact H0
    isplitl [H1]; · iexact H1
    rw [hrow1_BC1 V c t hi g0 g1 hinv hp]; iexact H2

/-- The library's body obligation, at every point. -/
theorem body_obligation1 (c : Dev nD) : Pipeline.BodyObligation (dat1 (F := F) V c) (defs₀ (F := F)) Variants.none () Set.univ := fun t => by
  rw [bigSep_W1, bigSep_W1]
  exact sound_bodyC1 V c t

end Cert.KernelIdeal.Hand

end
-- ==== Proof.KI.Cell3.lean ====
import proofs.«408307_j89713276879117_3_alg».proof.Proof.Gen.KernelIdeal.Launch
import proofs.«408307_j89713276879117_3_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The cell kernel of the second layer: proof data and body obligation -/

/-- The prefetched table's contents: the parent of each joint. -/
def tbl3 : pre3.Contents (Elt F) := fun
  | 0 => fun i => lit0 (S15.rowMajor i)
  | ⟨_ + 1, h⟩ => absurd h (Nat.not_lt.2 (Nat.le_add_left _ _))

/-- The table's contents are admissible (the side condition is trivial). -/
def adm3 : (pcfg3 (F := F)).Adm := ⟨tbl3, trivial⟩

/-- The grid has thirty points. -/
theorem N3_eq : (cfg3 (F := F) adm3).N = 30 := N_3

/-- The grid's points in order: the batch half is the slow coordinate, the joint the fast one. -/
theorem coords3_eq : ∀ t : Fin grid3.N, (grid3.coords t 0).val = t.val / 15 ∧ (grid3.coords t 1).val = t.val % 15 := by decide +kernel

/-- The point of linear position `n` (the first point beyond the grid). -/
def ptOf3 (n : ℕ) : Fin (cfg3 (F := F) adm3).N :=
  if h : n < (cfg3 (F := F) adm3).N then ⟨n, h⟩ else ⟨0, by rw [N3_eq]; omega⟩

variable (V : (c : Dev nD) → (b : Ref sig .tc) → Buf (Elt F) ((c : Thread nD τ).loc b))

/-- Window `w`'s block at point `t`, read off its array as the region finds it. -/
def iblk3 (c : Dev nD) (w : Fin 3) (t : Fin (cfg3 (F := F) adm3).N) :
    (((cfg3 (F := F) adm3).win w).xblock ((cfg3 (F := F) adm3).grid.coords t)).Idx → Elt F ((cfg3 (F := F) adm3).win w).elt :=
  (((cfg3 (F := F) adm3).win w).blk t).view.read (Elt F) (V c (Pipeline.arrRef spec3 w))

/-- The gate block at a point, at its literal vector type. -/
abbrev xblk3 (c : Dev nD) (t : Fin (cfg3 (F := F) adm3).N) : Vec F S1x128x4096 .bf16 := iblk3 V c 0 t
/-- The recurrent weights at a point, at their literal vector type. -/
abbrev wblk3 (c : Dev nD) (t : Fin (cfg3 (F := F) adm3).N) : Vec F S4096x1024 .bf16 := iblk3 V c 1 t

/-- A joint's state: its hidden row (bf16) and its cell row (f32). -/
abbrev Row3 (F : FTy → Type) [FloatOps F] : Type := Vec F S1x128x1024 .bf16 × Vec F S1x128x1024 .f32

/-- The zero state (row 0 of both scratch buffers after the reset). -/
def zrow3 : Row3 F := (k3_pay3, k3_pay4)

/-- One joint: from its parent's state, its gate block and the weights, its own state. -/
def cell3 (par : Row3 F) (x : Vec F S1x128x4096 .bf16) (w : Vec F S4096x1024 .bf16) : Row3 F :=
  (k3_pay8 par.1 par.2 x w, k3_pay1 (k3_pay6 par.1 par.2 x w))

/-- What one joint writes to the output window. -/
def out3 (par : Row3 F) (x : Vec F S1x128x4096 .bf16) (w : Vec F S4096x1024 .bf16) : Vec F S1x128x1024 .f32 :=
  k3_pay2 (k3_pay7 par.1 par.2 x w)

/-- The table of joint states after the point of linear position `n`, over a parent map `p`: a walk starts
    from the zero table; the point of joint `i = n % 15` fills row `i + 1` from row `p i`. -/
def tabG3 (p : ℕ → ℕ) (c : Dev nD) : ℕ → ℕ → Row3 F
  | 0 => Function.update (fun _ => zrow3) 1 (cell3 zrow3 (xblk3 V c (ptOf3 0)) (wblk3 V c (ptOf3 0)))
  | n + 1 =>
    let base : ℕ → Row3 F := if (n + 1) % 15 = 0 then fun _ => zrow3 else tabG3 p c n
    Function.update base ((n + 1) % 15 + 1) (cell3 (base (p ((n + 1) % 15))) (xblk3 V c (ptOf3 (n + 1))) (wblk3 V c (ptOf3 (n + 1))))

/-- The table a point starts from: zero at a walk's first point, else what the point before left. -/
def baseG3 (p : ℕ → ℕ) (c : Dev nD) (n : ℕ) : ℕ → Row3 F :=
  if n % 15 = 0 then fun _ => zrow3 else tabG3 V p c (n - 1)

/-- The parent of joint `i`, read off the table. -/
def par3 (i : ℕ) : ℕ := if h : i < 15 then (lit0 ⟨i, h⟩).toNat else 0

/-- What point `t` leaves in the output window's staging buffer. -/
def hrow3 (c : Dev nD) (t : Fin (cfg3 (F := F) adm3).N) : Vec F S1x128x1024 .f32 :=
  out3 (baseG3 V par3 c t.val (par3 (t.val % 15))) (xblk3 V c t) (wblk3 V c t)

/-- Row `r` of a sixteen-row buffer, as a rectangle. -/
abbrev rowR3 (r : ℕ) (h : r + 1 ≤ 16) : Rect S16x128x1024 :=
  Rect.unit (s := S16x128x1024) ![r, 0, 0] S1x128x1024.size (by
    intro a; fin_cases a
    · show r + 1 ≤ 16; exact h
    · show 0 + 128 ≤ 128; omega
    · show 0 + 1024 ≤ 1024; omega)

/-- THE INVARIANT before the point of linear position `t`: inside a walk (joint `i = t % 15 ≥ 1`) rows
    `0 … i` of the two scratch buffers are the states the walk has computed; at a walk's first point nothing
    is known. -/
def Inv3 (c : Dev nD) (t : Fin ((cfg3 (F := F) adm3).N + 1))
    (f0 : Buf (Elt F) ((c : Thread nD τ).loc cc3_scratch0)) (f1 : Buf (Elt F) ((c : Thread nD τ).loc cc3_scratch1)) : Prop :=
  t.val % 15 ≠ 0 → ∀ (r : ℕ) (hr : r ≤ t.val % 15),
    View.ld (Val := Elt F) (S := S16x128x1024) (e' := .bf16) f0 (rowR3 r (by omega)) = (tabG3 V par3 c (t.val - 1) r).1
      ∧ View.ld (Val := Elt F) (S := S16x128x1024) (e' := .f32) f1 (rowR3 r (by omega)) = (tabG3 V par3 c (t.val - 1) r).2

/-- The proof data of the pipeline on core `c`. -/
def dat3 (c : Dev nD) : Dat τ (Elt F) Unit ℕ (UR sig nD τ) ℕ (cfg3 (F := F) adm3) c where
  A w := V c (Pipeline.arrRef spec3 w)
  after w t := match w with
    | ⟨0, _⟩ => iblk3 V c 0 t
    | ⟨1, _⟩ => iblk3 V c 1 t
    | ⟨2, _⟩ => hrow3 V c t
  Φ t := iprop((∃ r, prngReg c r) ∗ Pipeline.prefHeld pre3 c (fun _ => fullShare) (adm3 (F := F)).1
      ∗ Pipeline.scopedRestBut spec3 c [cc3_scratch0, cc3_scratch1]
      ∗ ∃ f0 f1, ⌜Inv3 V c t f0 f1⌝ ∗ (((c : Thread nD τ).loc cc3_scratch0) ↦{fullShare} f0) ∗ (((c : Thread nD τ).loc cc3_scratch1) ↦{fullShare} f1))
  q _ := fullShare
  owed _ := 0

theorem A_eq3 (c : Dev nD) (w : Fin 3) : (dat3 V c).A w = V c (Pipeline.arrRef spec3 w) := by
  dsimp only [dat3]

theorem after3_0 (c : Dev nD) (t : Fin (cfg3 (F := F) adm3).N) : (dat3 V c).after 0 t = iblk3 V c 0 t := rfl
theorem after3_1 (c : Dev nD) (t : Fin (cfg3 (F := F) adm3).N) : (dat3 V c).after 1 t = iblk3 V c 1 t := rfl
theorem after3_2 (c : Dev nD) (t : Fin (cfg3 (F := F) adm3).N) : (dat3 V c).after 2 t = hrow3 V c t := rfl

/-- Each input's current staging buffer holds its block at every point, fetched there or not. -/
theorem before3_0 (c : Dev nD) (t : Fin (cfg3 (F := F) adm3).N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin (cfg3 (F := F) adm3).N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The scoped rest of the cell kernel's call split at the call's own two scratch buffers, each whole at some
    contents; every other scoped buffer stays unopened. -/
theorem scopedRest_splitC3 (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)
            ∗ (∃ f : Buf (Elt F) ((c : Thread nD τ).loc cc3_scratch1), ((c : Thread nD τ).loc cc3_scratch1) ↦{fullShare} f))
          ∗ Pipeline.scopedRestBut (Ix := Unit) (Name := ℕ) (U := UR sig nD τ) (Lvl := ℕ) (Val := Elt F) spec3 c [cc3_scratch0, cc3_scratch1]) :=
  Pipeline.scopedRest_split_of_list spec3 c [cc3_scratch0, cc3_scratch1] (by decide) (by decide)

theorem phi3_in (c : Dev nD) :
    iprop((∃ r, prngReg c r) ∗ Pipeline.prefHeld pre3 c (fun _ => fullShare) (adm3 (F := F)).1 ∗ Pipeline.scopedRest spec3 c)
      ⊢ ((dat3 V c).Φ 0 : sProp 𝕄) := by
  rw [scopedRest_splitC3 (F := F) c]
  dsimp only [dat3]
  iintro ⟨HR, HP, ⟨⟨%f0, H0⟩, ⟨%f1, H1⟩⟩, HB⟩
  isplitl [HR]
  · iexact HR
  isplitl [HP]
  · iexact HP
  isplitl [HB]
  · iexact HB
  iexists f0, f1
  isplitr
  · ipureintro
    intro h
    exact absurd (by simp) h
  isplitl [H0]
  · iexact H0
  · iexact H1

theorem phi3_out (c : Dev nD) :
    ((dat3 V c).Φ (Fin.last _) : sProp 𝕄)
      ⊢ iprop((∃ r, prngReg c r) ∗ Pipeline.prefHeld pre3 c (fun _ => fullShare) (adm3 (F := F)).1 ∗ Pipeline.scopedRest spec3 c) := by
  rw [scopedRest_splitC3 (F := F) c]
  dsimp only [dat3]
  iintro ⟨HR, HP, HB, %f0, %f1, -, H0, H1⟩
  isplitl [HR]
  · iexact HR
  isplitl [HP]
  · iexact HP
  isplitr [HB]
  · isplitl [H0]
    · iexists f0
      iexact H0
    · iexists f1
      iexact H1
  · iexact HB

/-! ## Reading rows of a sixteen-row buffer through a whole memref -/

section RowsC3

variable {κ : Kind} {sp : Space}

/-- A load of the whole shape at zero offsets through a whole memref held at the contents that read `X` reads `X`. -/
theorem readAt_wholeC3 {s : Shape} {e : EltTy} (m : Memref sig κ sp s e) (hm : m.IsWhole) (X : s.Idx → Elt F e)
    (off : Fin s.rank → ℕ) (inb : ∀ a, off a + s.size a ≤ s.size a) :
    View.readAt (Elt F) m.view (Rect.unit (s := s) off s.size inb).toLoadRect (hm.unread X) = X := by
  funext j
  rw [Memref.IsWhole.readAt_unread hm]
  congr 1
  funext a
  apply Fin.ext
  show off a + 1 * (j a).val = (j a).val
  have := inb a
  omega

/-- A load of one row through a whole memref held at the contents that read `g` reads that row of `g`. -/
theorem readAt_rowC3 {e : EltTy} (m : Memref sig κ sp S16x128x1024 e) (hm : m.IsWhole) (g : S16x128x1024.Idx → Elt F e)
    (off : Fin 3 → ℕ) (inb : ∀ a, off a + S1x128x1024.size a ≤ S16x128x1024.size a) (p : ℕ) (hp : p + 1 ≤ 16)
    (hoff : off = ![p, 0, 0]) :
    View.readAt (Elt F) m.view (Rect.unit (s := S16x128x1024) off S1x128x1024.size inb).toLoadRect (hm.unread g)
      = View.ld (Val := Elt F) g (rowR3 p hp) := by
  subst hoff
  funext j
  rw [Memref.IsWhole.readAt_unread hm]

/-- Rows after a store of one row: the stored row reads the payload, every other row what the earlier stores left. -/
theorem rows_consC3 {e : EltTy} (m : Memref sig κ sp S16x128x1024 e) (f : m.view.ty.Contents (Elt F))
    (off : Fin 3 → ℕ) (inb : ∀ a, off a + S1x128x1024.size a ≤ S16x128x1024.size a) (j : ℕ) (hoff : off = ![j, 0, 0])
    (P : (Rect.unit (s := S16x128x1024) off S1x128x1024.size inb).shape.Idx → Elt F e) (L : List (View.Piece (Elt F) S16x128x1024 e))
    (r : ℕ) (h : r + 1 ≤ 16) :
    View.ld (Val := Elt F) (m.view.read (Elt F) (m.view.writes (Elt F) f ((⟨Rect.unit (s := S16x128x1024) off S1x128x1024.size inb, P⟩ : View.Piece (Elt F) S16x128x1024 e) :: L))) (rowR3 r h)
      = if r = j then P else View.ld (Val := Elt F) (m.view.read (Elt F) (m.view.writes (Elt F) f L)) (rowR3 r h) := by
  funext y
  by_cases hr : r = j
  · subst hr
    rw [if_pos rfl]
    exact View.read_writes_cons_unit_of_mem m.view f inb P L ((rowR3 r h).idx y) y hoff (fun a => by
      fin_cases a
      · show r + 1 * (y 0).val = r + (y 0).val; omega
      · show 0 + 1 * (y 1).val = 0 + (y 1).val; omega
      · show 0 + 1 * (y 2).val = 0 + (y 2).val; omega)
  · rw [if_neg hr]
    exact View.read_writes_cons_unit_of_not_mem m.view f inb P L ((rowR3 r h).idx y) hoff 0 (by
      have hy : (y 0).val < 1 := (y 0).isLt
      show r + 1 * (y 0).val < j ∨ j + 1 ≤ r + 1 * (y 0).val
      omega)

/-- A load of row `p` after a store of that row reads the payload. -/
theorem readAt_row_consC3 {e : EltTy} (m : Memref sig κ sp S16x128x1024 e) (f : m.view.ty.Contents (Elt F))
    (off off2 : Fin 3 → ℕ) (inb : ∀ a, off a + S1x128x1024.size a ≤ S16x128x1024.size a) (inb2 : ∀ a, off2 a + S1x128x1024.size a ≤ S16x128x1024.size a)
    (p : ℕ) (hoff : off = ![p, 0, 0]) (hoff2 : off2 = ![p, 0, 0])
    (P : (Rect.unit (s := S16x128x1024) off2 S1x128x1024.size inb2).shape.Idx → Elt F e) (L : List (View.Piece (Elt F) S16x128x1024 e)) :
    View.readAt (Elt F) m.view (Rect.unit (s := S16x128x1024) off S1x128x1024.size inb).toLoadRect
        (m.view.writes (Elt F) f ((⟨Rect.unit (s := S16x128x1024) off2 S1x128x1024.size inb2, P⟩ : View.Piece (Elt F) S16x128x1024 e) :: L))
      = P := by
  subst hoff
  funext y
  rw [View.readAt_apply]
  exact View.read_writes_cons_unit_of_mem m.view f inb2 P L _ y hoff2 (fun a => by
    fin_cases a
    · show p + 1 * (y 0).val = p + (y 0).val; omega
    · show 0 + 1 * (y 1).val = 0 + (y 1).val; omega
    · show 0 + 1 * (y 2).val = 0 + (y 2).val; omega)

/-- What a view reads after a store of the whole shape at zero offsets, whatever came before: the payload. -/
theorem read_whole_consC3 {s : Shape} {e : EltTy} (m : Memref sig κ sp s e) (f : m.view.ty.Contents (Elt F))
    (off : Fin s.rank → ℕ) (inb : ∀ a, off a + s.size a ≤ s.size a)
    (P : (Rect.unit (s := s) off s.size inb).shape.Idx → Elt F e) (L : List (View.Piece (Elt F) s e)) :
    m.view.read (Elt F) (m.view.writes (Elt F) f ((⟨Rect.unit (s := s) off s.size inb, P⟩ : View.Piece (Elt F) s e) :: L)) = P := by
  funext y
  exact View.read_writes_cons_unit_of_mem m.view f inb P L y y rfl (fun a => by have := inb a; omega)

end RowsC3

/-! ## The body's run, per control case -/

/-- The condition of the body's reset branch, from the grid coordinates. -/
abbrev condC3 (i : grid3.Coords) : Prop := (Scalar.cmpi .ne (Scalar.extui (Scalar.cmpi .eq (BitVec.ofNat 32 (i 1).val) 0#32)) 0#32) = 1#1

/-- It holds at a walk's first joint only. -/
theorem hcondC3 : ∀ i : grid3.Coords, condC3 i ↔ (i 1).val = 0 := by decide +kernel

/-- The word the body loads from the table at its point, in the form the run reads it. -/
abbrev wordC3 (i : grid3.Coords) (arg2 : Memref sig .tc .smem S15 .i32) (harg2 : arg2.IsWhole) (tb : Vec F S15 .i32) : BitVec 32 :=
  arg2.view.readAt (Elt F) (Rect.unit (s := S15) (k3_off1 i) S1.size (k3_off1_inb i)).toLoadRect (harg2.unread tb) (Shape.Idx.first (numel1_S1.symm ▸ Nat.one_pos))

/-- The assumed side condition, from the parent row's number. -/
theorem chk_of_offC3 (v4 : BitVec 32) (p : ℕ) (hp : p + 1 ≤ 16) (hoff : k3_off2 v4 = ![p, 0, 0]) : k3_chk1 v4 := by
  unfold k3_chk1; rw [hoff]; intro a; fin_cases a
  · show p + 1 ≤ 16; exact hp
  · show 0 + 128 ≤ 128; omega
  · show 0 + 1024 ≤ 1024; omega

/-- Rows of a buffer after one joint's store: row `j` is the payload, every other row as before. -/
def RowsUpdC3 {e : EltTy} (g G : Vec F S16x128x1024 e) (j : ℕ) (P : Vec F S1x128x1024 e) : Prop :=
  ∀ (r : ℕ) (h : r + 1 ≤ 16), View.ld (Val := Elt F) G (rowR3 r h) = if r = j then P else View.ld (Val := Elt F) g (rowR3 r h)

set_option maxHeartbeats 800000 in
/-- The body inside a walk (the reset branch not taken), on whole memrefs: the table, the gate block and the weights
    come back as they were, the output window holds the joint's output, and the scratch buffers hold the joint's
    state in row `i + 1`, every other row as before. -/
theorem runC3_B (c : Dev nD) (i : grid3.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .f32) (harg5 : arg5.IsWhole) (arg6 : Memref sig .tc .vmem S16x128x1024 .bf16) (harg6 : arg6.IsWhole) (arg7 : Memref sig .tc .vmem S16x128x1024 .f32) (harg7 : arg7.IsWhole)
    (hc0 : ¬condC3 i)
    (tb : Vec F S15 .i32) (p : ℕ) (hp : p + 1 ≤ 16) (hoff : k3_off2 (wordC3 i arg2 harg2 tb) = ![p, 0, 0])
    (x : Vec F S1x128x4096 .bf16) (w : Vec F S4096x1024 .bf16) (g0 : Vec F S16x128x1024 .bf16) (g1 : Vec F S16x128x1024 .f32)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ owns (c : Thread nD τ) arg6 fullShare g0 ∗ owns (c : Thread nD τ) arg7 fullShare g1
        ∗ (iprop(owns (c : Thread nD τ) arg2 fullShare tb ∗ owns (c : Thread nD τ) arg3 fullShare x ∗ owns (c : Thread nD τ) arg4 fullShare w
            ∗ owns (c : Thread nD τ) arg5 fullShare (out3 (View.ld (Val := Elt F) g0 (rowR3 p hp), View.ld (Val := Elt F) g1 (rowR3 p hp)) x w)
            ∗ (∃ G0 G1, ⌜RowsUpdC3 g0 G0 ((i 1).val + 1) (cell3 (View.ld (Val := Elt F) g0 (rowR3 p hp), View.ld (Val := Elt F) g1 (rowR3 p hp)) x w).1
                  ∧ RowsUpdC3 g1 G1 ((i 1).val + 1) (cell3 (View.ld (Val := Elt F) g0 (rowR3 p hp), View.ld (Val := Elt F) g1 (rowR3 p hp)) x w).2⌝
                ∗ owns (c : Thread nD τ) arg6 fullShare G0 ∗ owns (c : Thread nD τ) arg7 fullShare G1)) -∗ K ⟨⟩))
      ⊢ wp frame (wpE (defs₀ (F := F)) Variants.none c none) E (cc3__cell_kernel i arg2 harg2 arg3 harg3 arg4 harg4 arg5 harg5 arg6 harg6 arg7 harg7) K := by
  have hchk : k3_chk1 (wordC3 i arg2 harg2 tb) := chk_of_offC3 _ p hp hoff
  simp only [cc3__cell_kernel_eq_skeleton]; unfold cc3__cell_kernel_skel
  simp only [k3_part1_eq_skeleton]; unfold k3_part1_skel
  unfold owns
  iintro ⟨⟨%f2, %hf2, H2⟩, ⟨%f3, %hf3, H3⟩, ⟨%f4, %hf4, H4⟩, ⟨%d5, %f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k3_off2 (runC3_B.sl.r c i arg2 harg2 tb) = ![p, 0, 0] := hoff
    rw [read_whole_consC3, readAt_rowC3 arg6 harg6 g0 _ _ p hp hoff', readAt_rowC3 arg7 harg7 g1 _ _ p hp hoff',
      readAt_wholeC3 arg3 harg3 x, readAt_wholeC3 arg4 harg4 w]
    rfl
  iexists _, _
  isplitr
  swap
  · isplitl [H6]
    · iexists _; isplitr
      swap; · iexact H6
      ipureintro; rfl
    · iexists _; isplitr
      swap; · iexact H7
      ipureintro; rfl
  ipureintro
  have hoff' : k3_off2 (runC3_B.sl.r c i arg2 harg2 tb) = ![p, 0, 0] := hoff
  refine ⟨fun r h => ?_, fun r h => ?_⟩
  · rw [rows_consC3 arg6 _ _ _ ((i 1).val + 1) (k3_off3_eq i), View.writes_nil, harg6.read_unread,
      readAt_rowC3 arg6 harg6 g0 _ _ p hp hoff', readAt_rowC3 arg7 harg7 g1 _ _ p hp hoff',
      readAt_wholeC3 arg3 harg3 x, readAt_wholeC3 arg4 harg4 w]
    rfl
  · rw [rows_consC3 arg7 _ _ _ ((i 1).val + 1) (k3_off3_eq i), View.writes_nil, harg7.read_unread,
      readAt_rowC3 arg6 harg6 g0 _ _ p hp hoff', readAt_rowC3 arg7 harg7 g1 _ _ p hp hoff',
      readAt_wholeC3 arg3 harg3 x, readAt_wholeC3 arg4 harg4 w]
    rfl

/-- Rows of a buffer after a walk's first joint: row 0 zeroed, row `j` the payload, every other row as before. -/
def RowsUpd0C3 {e : EltTy} (g G : Vec F S16x128x1024 e) (j : ℕ) (Z P : Vec F S1x128x1024 e) : Prop :=
  ∀ (r : ℕ) (h : r + 1 ≤ 16), View.ld (Val := Elt F) G (rowR3 r h)
    = if r = j then P else if r = 0 then Z else View.ld (Val := Elt F) g (rowR3 r h)

set_option maxHeartbeats 800000 in
/-- The body at a walk's first joint (the reset branch taken; the parent row is row 0), on whole memrefs. -/
theorem runC3_A (c : Dev nD) (i : grid3.Coords)
    (arg2 : Memref sig .tc .smem S15 .i32) (harg2 : arg2.IsWhole) (arg3 : Memref sig .tc .vmem S1x128x4096 .bf16) (harg3 : arg3.IsWhole) (arg4 : Memref sig .tc .vmem S4096x1024 .bf16) (harg4 : arg4.IsWhole) (arg5 : Memref sig .tc .vmem S1x128x1024 .f32) (harg5 : arg5.IsWhole) (arg6 : Memref sig .tc .vmem S16x128x1024 .bf16) (harg6 : arg6.IsWhole) (arg7 : Memref sig .tc .vmem S16x128x1024 .f32) (harg7 : arg7.IsWhole)
    (hc0 : condC3 i)
    (tb : Vec F S15 .i32) (hoff : k3_off2 (wordC3 i arg2 harg2 tb) = ![0, 0, 0])
    (x : Vec F S1x128x4096 .bf16) (w : Vec F S4096x1024 .bf16)
    (E : Set ℕ) (K : PUnit → sProp 𝕄) :
    iprop(owns (c : Thread nD τ) arg2 fullShare tb ∗ owns (c : Thread nD τ) arg3 fullShare x ∗ owns (c : Thread nD τ) arg4 fullShare w
        ∗ (∃ d5, owns (c : Thread nD τ) arg5 fullShare d5) ∗ (∃ g0, owns (c : Thread nD τ) arg6 fullShare g0) ∗ (∃ g1, owns (c : Thread nD τ) arg7 fullShare g1)
        ∗ (iprop(owns (c : Thread nD τ) arg2 fullShare tb ∗ owns (c : Thread nD τ) arg3 fullShare x ∗ owns (c : Thread nD τ) arg4 fullShare w
            ∗ owns (c : Thread nD τ) arg5 fullShare (out3 zrow3 x w)
            ∗ (∃ g0 g1 G0 G1, ⌜RowsUpd0C3 g0 G0 ((i 1).val + 1) (zrow3 (F := F)).1 (cell3 zrow3 x w).1
                  ∧ RowsUpd0C3 g1 G1 ((i 1).val + 1) (zrow3 (F := F)).2 (cell3 zrow3 x w).2⌝
                ∗ owns (c : Thread nD τ) arg6 fullShare G0 ∗ owns (c : Thread nD τ) arg7 fullShare G1)) -∗ K ⟨⟩))
      ⊢ wp frame (wpE (defs₀ (F := F)) Variants.none c none) E (cc3__cell_kernel i arg2 harg2 arg3 harg3 arg4 harg4 arg5 harg5 arg6 harg6 arg7 harg7) K := by
  have hchk : k3_chk1 (wordC3 i arg2 harg2 tb) := chk_of_offC3 _ 0 (by omega) hoff
  simp only [cc3__cell_kernel_eq_skeleton]; unfold cc3__cell_kernel_skel
  simp only [k3_part1_eq_skeleton]; unfold k3_part1_skel
  unfold owns
  iintro ⟨⟨%f2, %hf2, H2⟩, ⟨%f3, %hf3, H3⟩, ⟨%f4, %hf4, H4⟩, ⟨%d5, %f5, %hf5, H5⟩, ⟨%g0, %f6, %hf6, H6⟩, ⟨%g1, %f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hchk)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    have hoff' : k3_off2 (runC3_A.sl.r c i arg2 harg2 tb) = ![0, 0, 0] := hoff
    unfold runC3_A.sl.H6_1 runC3_A.sl.H7_1
    rw [read_whole_consC3, readAt_row_consC3 arg6 _ _ _ _ _ 0 hoff' rfl, readAt_row_consC3 arg7 _ _ _ _ _ 0 hoff' rfl,
      readAt_wholeC3 arg3 harg3 x, readAt_wholeC3 arg4 harg4 w]
    rfl
  iexists g0, g1, _, _
  isplitr
  swap
  · isplitl [H6]
    · iexists _; isplitr
      swap; · iexact H6
      ipureintro; rfl
    · iexists _; isplitr
      swap; · iexact H7
      ipureintro; rfl
  ipureintro
  have hoff' : k3_off2 (runC3_A.sl.r c i arg2 harg2 tb) = ![0, 0, 0] := hoff
  refine ⟨fun r h => ?_, fun r h => ?_⟩
  · rw [rows_consC3 arg6 _ _ _ ((i 1).val + 1) (k3_off3_eq i)]
    unfold runC3_A.sl.H6_1 runC3_A.sl.H7_1
    rw [rows_consC3 arg6 _ _ _ 0 rfl, View.writes_nil, harg6.read_unread,
      readAt_row_consC3 arg6 _ _ _ _ _ 0 hoff' rfl, readAt_row_consC3 arg7 _ _ _ _ _ 0 hoff' rfl,
      readAt_wholeC3 arg3 harg3 x, readAt_wholeC3 arg4 harg4 w]
    rfl
  · rw [rows_consC3 arg7 _ _ _ ((i 1).val + 1) (k3_off3_eq i)]
    unfold runC3_A.sl.H6_1 runC3_A.sl.H7_1
    rw [rows_consC3 arg7 _ _ _ 0 rfl, View.writes_nil, harg7.read_unread,
      readAt_row_consC3 arg6 _ _ _ _ _ 0 hoff' rfl, readAt_row_consC3 arg7 _ _ _ _ _ 0 hoff' rfl,
      readAt_wholeC3 arg3 harg3 x, readAt_wholeC3 arg4 harg4 w]
    rfl

/-! ## The table of states, unfolded one point at a time -/

theorem ptOf3_valC3 (t : Fin (cfg3 (F := F) adm3).N) : ptOf3 (F := F) t.val = t := by
  unfold ptOf3; rw [dif_pos t.isLt]

theorem tabG3_eqC3 (p : ℕ → ℕ) (c : Dev nD) (n : ℕ) :
    tabG3 V p c n = Function.update (baseG3 V p c n) (n % 15 + 1)
      (cell3 (baseG3 V p c n (p (n % 15))) (xblk3 V c (ptOf3 n)) (wblk3 V c (ptOf3 n))) := by
  cases n <;> rfl

/-- The first joint is its own parent's row: row 0. -/
theorem par3_zeroC3 : par3 0 = 0 := by decide

/-- What the table says of each joint's parent: the offsets it yields, and that it precedes the joint. -/
theorem lit0_factsC3 : ∀ j : Fin 15, k3_off2 (lit0 j) = ![(lit0 j).toNat, 0, 0] ∧ (lit0 j).toNat ≤ j.val := by decide +kernel

/-- The table's cell a point reads is its joint's. -/
theorem word_idxC3 : ∀ i : grid3.Coords, S15.rowMajor ((Rect.unit (s := S15) (k3_off1 i) S1.size (k3_off1_inb i)).idx (Shape.Idx.first (numel1_S1.symm ▸ Nat.one_pos))) = ⟨(i 1).val, (i 1).isLt⟩ := by decide +kernel

theorem par3_leC3 (i : ℕ) (hi : i < 15) : par3 i ≤ i := by
  unfold par3; rw [dif_pos hi]; exact (lit0_factsC3 ⟨i, hi⟩).2

/-- The table's contents at their literal vector type. -/
abbrev tblVC3 : Vec F S15 .i32 := fun j => lit0 (S15.rowMajor j)

/-- The word a point loads through a whole memref held at contents that read `tb` is `tb`'s at the loaded cell. -/
theorem word_readC3 (i : grid3.Coords) (m : Memref sig .tc .smem S15 .i32) (hm : m.IsWhole) (tb : Vec F S15 .i32) :
    wordC3 i m hm tb = tb ((Rect.unit (s := S15) (k3_off1 i) S1.size (k3_off1_inb i)).idx (Shape.Idx.first (numel1_S1.symm ▸ Nat.one_pos))) :=
  Memref.IsWhole.readAt_unread hm tb _ _

/-- At the table's contents it is the parent of the point's joint. -/
theorem word_eqC3 (i : grid3.Coords) (m : Memref sig .tc .smem S15 .i32) (hm : m.IsWhole) :
    wordC3 (F := F) i m hm tblVC3 = lit0 ⟨(i 1).val, (i 1).isLt⟩ :=
  (word_readC3 i m hm tblVC3).trans (congrArg lit0 (word_idxC3 i))

theorem off_eqC3 (i : grid3.Coords) (m : Memref sig .tc .smem S15 .i32) (hm : m.IsWhole) :
    k3_off2 (wordC3 (F := F) i m hm tblVC3) = ![par3 (i 1).val, 0, 0] := by
  rw [word_eqC3, (lit0_factsC3 _).1]
  unfold par3; rw [dif_pos (show (i 1).val < 15 from (i 1).isLt)]

/-! ## The invariant, one point at a time -/

theorem baseG3_posC3 (p : ℕ → ℕ) (c : Dev nD) (n : ℕ) (h : n % 15 ≠ 0) : baseG3 V p c n = tabG3 V p c (n - 1) := by
  unfold baseG3; rw [if_neg h]

theorem baseG3_zeroC3 (p : ℕ → ℕ) (c : Dev nD) (n : ℕ) (h : n % 15 = 0) : baseG3 V p c n = fun _ => zrow3 := by
  unfold baseG3; rw [if_pos h]

/-- The invariant at a position whose value is `n`, read. -/
theorem inv1_atC3 (c : Dev nD) (s : Fin ((cfg3 (F := F) adm3).N + 1)) (n : ℕ) (hs : s.val = n)
    (g0 : Vec F S16x128x1024 .bf16) (g1 : Vec F S16x128x1024 .f32) (hinv : Inv3 V c s g0 g1)
    (hi : n % 15 ≠ 0) (r : ℕ) (hr : r ≤ n % 15) (h16 : r + 1 ≤ 16) :
    View.ld (Val := Elt F) g0 (rowR3 r h16) = (tabG3 V par3 c (n - 1) r).1
      ∧ View.ld (Val := Elt F) g1 (rowR3 r h16) = (tabG3 V par3 c (n - 1) r).2 := by
  subst hs
  exact hinv hi r hr

/-- The invariant at a position whose value is `n`, stated. -/
theorem inv1_introC3 (c : Dev nD) (s : Fin ((cfg3 (F := F) adm3).N + 1)) (n : ℕ) (hs : s.val = n)
    (G0 : Vec F S16x128x1024 .bf16) (G1 : Vec F S16x128x1024 .f32)
    (h : n % 15 ≠ 0 → ∀ (r : ℕ) (hr : r ≤ n % 15) (h16 : r + 1 ≤ 16),
      View.ld (Val := Elt F) G0 (rowR3 r h16) = (tabG3 V par3 c (n - 1) r).1
        ∧ View.ld (Val := Elt F) G1 (rowR3 r h16) = (tabG3 V par3 c (n - 1) r).2) :
    Inv3 V c s G0 G1 := by
  subst hs
  intro hne r hr
  exact h hne r hr _

/-- Inside a walk the parent's state is in the scratch buffers. -/
theorem par_rowC3 (c : Dev nD) (t : Fin (cfg3 (F := F) adm3).N) (hi : t.val % 15 ≠ 0)
    (g0 : Vec F S16x128x1024 .bf16) (g1 : Vec F S16x128x1024 .f32) (hinv : Inv3 V c t.castSucc g0 g1)
    (hp : par3 (t.val % 15) + 1 ≤ 16) :
    ((View.ld (Val := Elt F) g0 (rowR3 (par3 (t.val % 15)) hp), View.ld (Val := Elt F) g1 (rowR3 (par3 (t.val % 15)) hp)) : Row3 F)
      = baseG3 V par3 c t.val (par3 (t.val % 15)) := by
  have hle : par3 (t.val % 15) ≤ t.val % 15 := par3_leC3 _ (Nat.mod_lt _ (by omega))
  have h := inv1_atC3 V c t.castSucc t.val (Fin.coe_castSucc t) g0 g1 hinv hi (par3 (t.val % 15)) hle hp
  rw [baseG3_posC3 V par3 c t.val hi]
  exact Prod.ext h.1 h.2

theorem hrow3_AC3 (c : Dev nD) (t : Fin (cfg3 (F := F) adm3).N) (hi : t.val % 15 = 0) :
    hrow3 V c t = out3 zrow3 (xblk3 V c t) (wblk3 V c t) := by
  unfold hrow3; rw [baseG3_zeroC3 V par3 c t.val hi]

theorem hrow3_BC3 (c : Dev nD) (t : Fin (cfg3 (F := F) adm3).N) (hi : t.val % 15 ≠ 0)
    (g0 : Vec F S16x128x1024 .bf16) (g1 : Vec F S16x128x1024 .f32) (hinv : Inv3 V c t.castSucc g0 g1)
    (hp : par3 (t.val % 15) + 1 ≤ 16) :
    hrow3 V c t = out3 (View.ld (Val := Elt F) g0 (rowR3 (par3 (t.val % 15)) hp), View.ld (Val := Elt F) g1 (rowR3 (par3 (t.val % 15)) hp)) (xblk3 V c t) (wblk3 V c t) := by
  unfold hrow3; rw [par_rowC3 V c t hi g0 g1 hinv hp]

theorem inv_stepBC3 (c : Dev nD) (t : Fin (cfg3 (F := F) adm3).N) (hi : t.val % 15 ≠ 0)
    (g0 G0 : Vec F S16x128x1024 .bf16) (g1 G1 : Vec F S16x128x1024 .f32) (hinv : Inv3 V c t.castSucc g0 g1)
    (hp : par3 (t.val % 15) + 1 ≤ 16)
    (h0 : RowsUpdC3 g0 G0 (t.val % 15 + 1) (cell3 (View.ld (Val := Elt F) g0 (rowR3 (par3 (t.val % 15)) hp), View.ld (Val := Elt F) g1 (rowR3 (par3 (t.val % 15)) hp)) (xblk3 V c t) (wblk3 V c t)).1)
    (h1 : RowsUpdC3 g1 G1 (t.val % 15 + 1) (cell3 (View.ld (Val := Elt F) g0 (rowR3 (par3 (t.val % 15)) hp), View.ld (Val := Elt F) g1 (rowR3 (par3 (t.val % 15)) hp)) (xblk3 V c t) (wblk3 V c t)).2) :
    Inv3 V c t.succ G0 G1 := by
  refine inv1_introC3 V c t.succ (t.val + 1) (Fin.val_succ t) G0 G1 ?_
  intro hne r hr h16
  have hmod : (t.val + 1) % 15 = t.val % 15 + 1 := by omega
  rw [Nat.add_sub_cancel, tabG3_eqC3, ptOf3_valC3, ← par_rowC3 V c t hi g0 g1 hinv hp, h0 r h16, h1 r h16]
  by_cases hr1 : r = t.val % 15 + 1
  · subst hr1
    rw [if_pos rfl, if_pos rfl, Function.update_self]
    exact ⟨rfl, rfl⟩
  · rw [if_neg hr1, if_neg hr1, Function.update_of_ne hr1, baseG3_posC3 V par3 c t.val hi]
    have hr' : r ≤ t.val % 15 := by rw [hmod] at hr; omega
    exact inv1_atC3 V c t.castSucc t.val (Fin.coe_castSucc t) g0 g1 hinv hi r hr' h16

theorem inv_stepAC3 (c : Dev nD) (t : Fin (cfg3 (F := F) adm3).N) (hi : t.val % 15 = 0)
    (g0 G0 : Vec F S16x128x1024 .bf16) (g1 G1 : Vec F S16x128x1024 .f32)
    (h0 : RowsUpd0C3 g0 G0 (t.val % 15 + 1) (zrow3 (F := F)).1 (cell3 zrow3 (xblk3 V c t) (wblk3 V c t)).1)
    (h1 : RowsUpd0C3 g1 G1 (t.val % 15 + 1) (zrow3 (F := F)).2 (cell3 zrow3 (xblk3 V c t) (wblk3 V c t)).2) :
    Inv3 V c t.succ G0 G1 := by
  refine inv1_introC3 V c t.succ (t.val + 1) (Fin.val_succ t) G0 G1 ?_
  intro hne r hr h16
  have hmod : (t.val + 1) % 15 = 1 := by omega
  rw [Nat.add_sub_cancel, tabG3_eqC3, ptOf3_valC3, baseG3_zeroC3 V par3 c t.val hi, h0 r h16, h1 r h16, hi]
  have hr' : r ≤ 1 := by rw [hmod] at hr; exact hr
  by_cases hr1 : r = 0 + 1
  · subst hr1
    rw [if_pos rfl, if_pos rfl, Function.update_self]
    exact ⟨rfl, rfl⟩
  · have hr0 : r = 0 := by omega
    subst hr0
    rw [if_neg hr1, if_neg hr1, if_pos rfl, if_pos rfl, Function.update_of_ne hr1]
    exact ⟨rfl, rfl⟩

/-! ## The body obligation -/

abbrev tbMC3 : Memref sig .tc .smem S15 .i32 := Memref.whole main_c
abbrev scMC3_0 : Memref sig .tc .vmem S16x128x1024 .bf16 := Memref.whole cc3_scratch0
abbrev scMC3_1 : Memref sig .tc .vmem S16x128x1024 .f32 := Memref.whole cc3_scratch1
abbrev stC3_0 (t : Fin (cfg3 (F := F) adm3).N) : Memref sig .tc .vmem S1x128x4096 .bf16 := spec3_0.stage ((cfg3 (F := F) adm3).slots t 0)
abbrev hstC3_0 (t : Fin (cfg3 (F := F) adm3).N) : (stC3_0 (F := F) t).IsWhole := hstage3_0 (((cfg3 (F := F) adm3).slots t 0).cast nbuf3_0)
abbrev stC3_1 (t : Fin (cfg3 (F := F) adm3).N) : Memref sig .tc .vmem S4096x1024 .bf16 := spec3_1.stage ((cfg3 (F := F) adm3).slots t 1)
abbrev hstC3_1 (t : Fin (cfg3 (F := F) adm3).N) : (stC3_1 (F := F) t).IsWhole := hstage3_1 (((cfg3 (F := F) adm3).slots t 1).cast nbuf3_1)
abbrev stC3_2 (t : Fin (cfg3 (F := F) adm3).N) : Memref sig .tc .vmem S1x128x1024 .f32 := spec3_2.stage ((cfg3 (F := F) adm3).slots t 2)
abbrev hstC3_2 (t : Fin (cfg3 (F := F) adm3).N) : (stC3_2 (F := F) t).IsWhole := hstage3_2 (((cfg3 (F := F) adm3).slots t 2).cast nbuf3_2)

abbrev bodyAtC3 (t : Fin (cfg3 (F := F) adm3).N) : Prog (TpuEff nD τ sig (Elt F) Λ₀ .tc) PUnit :=
  cc3__cell_kernel (grid3.coords t) tbMC3 (Memref.isWhole_whole _) (stC3_0 t) (hstC3_0 t) (stC3_1 t) (hstC3_1 t) (stC3_2 t) (hstC3_2 t) scMC3_0 (Memref.isWhole_whole _) scMC3_1 (Memref.isWhole_whole _)

/-- The invariant with the table and the scratch buffers as memrefs. -/
theorem phiC3_eq (c : Dev nD) (t : Fin ((cfg3 (F := F) adm3).N + 1)) :
    ((dat3 V c).Φ t : sProp 𝕄) = iprop((∃ r, prngReg c r) ∗ owns (c : Thread nD τ) tbMC3 fullShare (tblVC3 (F := F))
      ∗ Pipeline.scopedRestBut spec3 c [cc3_scratch0, cc3_scratch1]
      ∗ ∃ g0 g1, ⌜Inv3 V c t g0 g1⌝ ∗ owns (c : Thread nD τ) scMC3_0 fullShare g0 ∗ owns (c : Thread nD τ) scMC3_1 fullShare g1) := by
  dsimp only [dat3]
  unfold Pipeline.prefHeld
  rw [bigSep_univ_eq_bigSepL [(0 : Fin 1)] (by decide) (by decide)]
  simp only [tbMC3, scMC3_0, scMC3_1, owns_whole]
  rfl

def bodyPreC3 (c : Dev nD) (t : Fin (cfg3 (F := F) adm3).N) : sProp 𝕄 :=
  iprop((dat3 V c).Φ t.castSucc ∗ (dat3 V c).owesAt () t.castSucc
    ∗ (∃ d, owns (c : Thread nD τ) (stC3_0 t) fullShare ((dat3 V c).before 0 t d))
    ∗ (∃ d, owns (c : Thread nD τ) (stC3_1 t) fullShare ((dat3 V c).before 1 t d))
    ∗ (∃ d, owns (c : Thread nD τ) (stC3_2 t) fullShare ((dat3 V c).before 2 t d)))

def bodyPostC3 (c : Dev nD) (t : Fin (cfg3 (F := F) adm3).N) : sProp 𝕄 :=
  iprop((dat3 V c).Φ t.succ ∗ (dat3 V c).owesAt () t.succ
    ∗ owns (c : Thread nD τ) (stC3_0 t) fullShare ((dat3 V c).after 0 t)
    ∗ owns (c : Thread nD τ) (stC3_1 t) fullShare ((dat3 V c).after 1 t)
    ∗ owns (c : Thread nD τ) (stC3_2 t) fullShare ((dat3 V c).after 2 t))

set_option maxHeartbeats 800000 in
/-- The body at any point: at a walk's first joint the reset case, else the case inside a walk with the parent's row
    read off the invariant. -/
theorem sound_bodyC3 (c : Dev nD) (t : Fin (cfg3 (F := F) adm3).N) :
    bodyPreC3 V c t ⊢ wp frame (wpE (defs₀ (F := F)) Variants.none c none) Set.univ (bodyAtC3 t) (fun _ => bodyPostC3 V c t) := by
  unfold bodyPreC3 bodyPostC3 bodyAtC3
  simp only [before3_0, before3_1]
  rw [show (dat3 V c).owesAt () t.succ = (dat3 V c).owesAt () t.castSucc from rfl, after3_0, after3_1, after3_2, phiC3_eq, phiC3_eq]
  have hco : (grid3.coords t 1).val = t.val % 15 := (coords3_eq t).2
  iintro ⟨⟨Hg, Htb, Hrest, ⟨%g0, %g1, %hinv, HS0, HS1⟩⟩, Ho, ⟨%d0, H0⟩, ⟨%d1, H1⟩, ⟨%d2, H2⟩⟩
  by_cases hi : t.val % 15 = 0
  · have hc0 : condC3 (grid3.coords t) := (hcondC3 _).mpr (by rw [hco]; exact hi)
    have hoff : k3_off2 (wordC3 (F := F) (grid3.coords t) tbMC3 (Memref.isWhole_whole _) tblVC3) = ![0, 0, 0] := by
      rw [off_eqC3, hco, hi, par3_zeroC3]
    iapply (runC3_A c (grid3.coords t) tbMC3 (Memref.isWhole_whole _) (stC3_0 t) (hstC3_0 t) (stC3_1 t) (hstC3_1 t) (stC3_2 t) (hstC3_2 t)
      scMC3_0 (Memref.isWhole_whole _) scMC3_1 (Memref.isWhole_whole _) hc0 tblVC3 hoff (xblk3 V c t) (wblk3 V c t) Set.univ _)
    isplitl [Htb]; · iexact Htb
    isplitl [H0]; · iexact H0
    isplitl [H1]; · iexact H1
    isplitl [H2]; · iexists _; iexact H2
    isplitl [HS0]; · iexists _; iexact HS0
    isplitl [HS1]; · iexists _; iexact HS1
    iintro ⟨Htb, H0, H1, H2, ⟨%g0', %g1', %G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepAC3 V c t hi g0' G0 g1' G1 hG.1 hG.2
      isplitl [HS0]; · iexact HS0
      iexact HS1
    isplitl [Ho]; · iexact Ho
    isplitl [H0]; · iexact H0
    isplitl [H1]; · iexact H1
    rw [hrow3_AC3 V c t hi]; iexact H2
  · have hc0 : ¬condC3 (grid3.coords t) := fun h => hi (by rw [← hco]; exact (hcondC3 _).mp h)
    have hlt : t.val % 15 < 15 := Nat.mod_lt _ (by omega)
    have hp : par3 (t.val % 15) + 1 ≤ 16 := by have := par3_leC3 (t.val % 15) hlt; omega
    have hoff : k3_off2 (wordC3 (F := F) (grid3.coords t) tbMC3 (Memref.isWhole_whole _) tblVC3) = ![par3 (t.val % 15), 0, 0] := by
      rw [off_eqC3, hco]
    iapply (runC3_B c (grid3.coords t) tbMC3 (Memref.isWhole_whole _) (stC3_0 t) (hstC3_0 t) (stC3_1 t) (hstC3_1 t) (stC3_2 t) (hstC3_2 t)
      scMC3_0 (Memref.isWhole_whole _) scMC3_1 (Memref.isWhole_whole _) hc0 tblVC3 (par3 (t.val % 15)) hp hoff (xblk3 V c t) (wblk3 V c t) g0 g1 Set.univ _)
    isplitl [Htb]; · iexact Htb
    isplitl [H0]; · iexact H0
    isplitl [H1]; · iexact H1
    isplitl [H2]; · iexists _; iexact H2
    isplitl [HS0]; · iexact HS0
    isplitl [HS1]; · iexact HS1
    iintro ⟨Htb, H0, H1, H2, ⟨%G0, %G1, %hG, HS0, HS1⟩⟩
    rw [hco] at hG
    isplitl [Hg Htb Hrest HS0 HS1]
    · isplitl [Hg]; · iexact Hg
      isplitl [Htb]; · iexact Htb
      isplitl [Hrest]; · iexact Hrest
      iexists G0, G1
      isplitr; · ipureintro; exact inv_stepBC3 V c t hi g0 G0 g1 G1 hinv hp hG.1 hG.2
      isplitl [HS0]; · iexact HS0
      iexact HS1
    isplitl [Ho]; · iexact Ho
    isplitl [H0]; · iexact H0
    isplitl [H1]; · iexact H1
    rw [hrow3_BC3 V c t hi g0 g1 hinv hp]; iexact H2

/-- The library's body obligation, at every point. -/
theorem body_obligation3 (c : Dev nD) : Pipeline.BodyObligation (dat3 (F := F) V c) (defs₀ (F := F)) Variants.none () Set.univ := fun t => by
  rw [bigSep_W3, bigSep_W3]
  exact sound_bodyC3 V c t

end Cert.KernelIdeal.Hand

end
-- ==== Proof.KI.Run.lean ====
/-
  The run of the whole program, at any float instance: @main is four stretches of host operations and four kernel
  regions in turn.  Between two items the core holds every unscoped buffer at contents named here (`W0` … `W8`: the
  launch memory, then each host stretch's operations applied, then each region's output array replaced by what its
  write-backs leave); each region is entered from the contents before it and left at the contents after it.  Every
  weakly fair execution terminates with every unscoped buffer at `W8`; the six argument arrays are among the buffers
  nothing writes, and the result array is region 3's output.
-/
import proofs.«408307_j89713276879117_3_alg».proof.Proof.Gen.KernelIdeal.Launch
import proofs.«408307_j89713276879117_3_alg».proof.Proof.Gen.KernelIdeal.Skeleton
import proofs.«408307_j89713276879117_3_alg».proof.Proof.Gen.KernelIdeal.Points
import proofs.«408307_j89713276879117_3_alg».proof.Proof.Gen.KernelIdeal.Regions
import proofs.«408307_j89713276879117_3_alg».proof.Proof.KI.Gates
import proofs.«408307_j89713276879117_3_alg».proof.Proof.KI.Cell1
import proofs.«408307_j89713276879117_3_alg».proof.Proof.KI.Cell3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- After region 0: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin 5) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin 5) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- After region 1: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w (cfg1 (F := F) adm1).N
theorem W4_arr (c : Dev nD) (w : Fin 3) :
    W4 m ρ c (Proc.devRef .tc (Pipeline.arrRef spec1 w)) = (dat1 (V3 m ρ) c).arrAt w (cfg1 (F := F) adm1).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin 3) : (dat1 (V3 m ρ) c).arrAt w (cfg1 (F := F) adm1).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- After region 2: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin 4) :
    W6 m ρ c (Proc.devRef .tc (Pipeline.arrRef spec2 w)) = (dat2 (V5 m ρ) c).arrAt w cfg2.N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin 4) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- After region 3: its arrays at what the pipeline leaves (the inputs as entered, the output's write-backs folded),
    every other buffer as entered. -/
def W8 (c : Dev nD) : Valuation τ sig (Elt F) :=
  Pipeline.withArrays spec3 c (W7 m ρ c) fun w => (dat3 (V7 m ρ) c).arrAt w (cfg3 (F := F) adm3).N
theorem W8_arr (c : Dev nD) (w : Fin 3) :
    W8 m ρ c (Proc.devRef .tc (Pipeline.arrRef spec3 w)) = (dat3 (V7 m ρ) c).arrAt w (cfg3 (F := F) adm3).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin 3) : (dat3 (V7 m ρ) c).arrAt w (cfg3 (F := F) adm3).N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched -/

/-- `main_arg0` reaches the end as launched: no host stretch writes it and it is no region's array. -/
theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <| (W6_of_ne m ρ c main_arg0 (by decide)).trans <|
  (W5_of m ρ c main_arg0 (by decide)).trans <| (W4_of_ne m ρ c main_arg0 (by decide)).trans <| (W3_of m ρ c main_arg0 (by decide)).trans <|
  (W2_of_ne m ρ c main_arg0 (by decide)).trans <| (W1_of m ρ c main_arg0 (by decide)).trans rfl

/-- `main_arg1` reaches the end as launched: no host stretch writes it and it is no region's array. -/
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <| (W6_of_ne m ρ c main_arg1 (by decide)).trans <|
  (W5_of m ρ c main_arg1 (by decide)).trans <| (W4_of_ne m ρ c main_arg1 (by decide)).trans <| (W3_of m ρ c main_arg1 (by decide)).trans <|
  (W2_of_ne m ρ c main_arg1 (by decide)).trans <| (W1_of m ρ c main_arg1 (by decide)).trans rfl

/-- `main_arg2` reaches the end as launched: no host stretch writes it and it is no region's array. -/
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <| (W6_of_ne m ρ c main_arg2 (by decide)).trans <|
  (W5_of m ρ c main_arg2 (by decide)).trans <| (W4_of_ne m ρ c main_arg2 (by decide)).trans <| (W3_of m ρ c main_arg2 (by decide)).trans <|
  (W2_of_ne m ρ c main_arg2 (by decide)).trans <| (W1_of m ρ c main_arg2 (by decide)).trans rfl

/-- `main_arg3` reaches the end as launched: no host stretch writes it and it is no region's array. -/
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <| (W6_of_ne m ρ c main_arg3 (by decide)).trans <|
  (W5_of m ρ c main_arg3 (by decide)).trans <| (W4_of_ne m ρ c main_arg3 (by decide)).trans <| (W3_of m ρ c main_arg3 (by decide)).trans <|
  (W2_of_ne m ρ c main_arg3 (by decide)).trans <| (W1_of m ρ c main_arg3 (by decide)).trans rfl

/-- `main_arg4` reaches the end as launched: no host stretch writes it and it is no region's array. -/
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <| (W6_of_ne m ρ c main_arg4 (by decide)).trans <|
  (W5_of m ρ c main_arg4 (by decide)).trans <| (W4_of_ne m ρ c main_arg4 (by decide)).trans <| (W3_of m ρ c main_arg4 (by decide)).trans <|
  (W2_of_ne m ρ c main_arg4 (by decide)).trans <| (W1_of m ρ c main_arg4 (by decide)).trans rfl

/-- `main_arg5` reaches the end as launched: no host stretch writes it and it is no region's array. -/
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <| (W6_of_ne m ρ c main_arg5 (by decide)).trans <|
  (W5_of m ρ c main_arg5 (by decide)).trans <| (W4_of_ne m ρ c main_arg5 (by decide)).trans <| (W3_of m ρ c main_arg5 (by decide)).trans <|
  (W2_of_ne m ρ c main_arg5 (by decide)).trans <| (W1_of m ρ c main_arg5 (by decide)).trans rfl

/-! ## The parents' table holds the literal constant whenever a region reads it -/

/-- The first host stretch writes the table and nothing later touches it. -/
theorem W1_main_c (c : Dev nD) : W1 m ρ c (Proc.devRef .tc main_c) = (fun i => lit0 (S15.rowMajor i) : (⟨S15, .i32⟩ : BufTy).Contents (Elt F)) := by
  show StableHlo.after hostOps0 (W0 m ρ c) (Proc.devRef .tc main_c) = _
  after_results
  rfl
theorem W3_main_c (c : Dev nD) : W3 m ρ c (Proc.devRef .tc main_c) = (fun i => lit0 (S15.rowMajor i) : (⟨S15, .i32⟩ : BufTy).Contents (Elt F)) :=
  (W3_of m ρ c main_c (by decide)).trans <| (W2_of_ne m ρ c main_c (by decide)).trans (W1_main_c m ρ c)
theorem W7_main_c (c : Dev nD) : W7 m ρ c (Proc.devRef .tc main_c) = (fun i => lit0 (S15.rowMajor i) : (⟨S15, .i32⟩ : BufTy).Contents (Elt F)) :=
  (W7_of m ρ c main_c (by decide)).trans <| (W6_of_ne m ρ c main_c (by decide)).trans <| (W5_of m ρ c main_c (by decide)).trans <|
  (W4_of_ne m ρ c main_c (by decide)).trans (W3_main_c m ρ c)
/-- Read as region 1's tables: the contents the region is pinned at. -/
theorem tbl_at1 (c : Dev nD) : (fun k => V3 m ρ c (pre1.ref k)) = (adm1 (F := F)).1 := by
  funext k
  match k with
  | ⟨0, _⟩ => exact W3_main_c m ρ c
theorem tbl_at3 (c : Dev nD) : (fun k => V7 m ρ c (pre3.ref k)) = (adm3 (F := F)).1 := by
  funext k
  match k with
  | ⟨0, _⟩ => exact W7_main_c m ρ c

/-! ## The proof data family and the thread state -/

/-- The tables' admissible contents: none for the projections, the literal parents' table for the two cell regions. -/
def adm : (p : Fin 4) → (pcfgs (F := F) p).Adm
  | ⟨0, _⟩ => cfg0.toPCfg_adm
  | ⟨1, _⟩ => adm1
  | ⟨2, _⟩ => cfg2.toPCfg_adm
  | ⟨3, _⟩ => adm3
  | ⟨_ + 4, h⟩ => absurd h (Nat.not_lt.2 (Nat.le_add_left _ _))

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨_ + 4, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0: entered with every unscoped buffer at the contents before it, left with its output array at what its
    write-backs leave and every other buffer as entered. Its windows' arrays are split out of the unscoped buffers at
    entry and put back at exit; the generator register goes into the region's invariant and comes back. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped rest of region 1 is the parents' table at the literal contents and the rest without it. -/
theorem rest1_split (c : Dev nD) :
    (Pipeline.unscopedRest (Ix := Unit) (Name := ℕ) (U := UR sig nD τ) (Lvl := ℕ) spec1 c (V3 m ρ c) : sProp 𝕄)
      = iprop(Pipeline.prefHeld pre1 c (fun _ => fullShare) (adm1 (F := F)).1
          ∗ Pipeline.unscopedRestP (Ix := Unit) (Name := ℕ) (U := UR sig nD τ) (Lvl := ℕ) pre1 spec1 c (V3 m ρ c)) := by
  rw [Pipeline.unscopedRest_split preFacts1 c (V3 m ρ c), tbl_at1 m ρ c]

set_option backward.isDefEq.respectTransparency.types false in
/-- Region 1: as the table-free regions, and the parents' table is taken out of the unscoped buffers at entry, goes
    into the region's invariant, and is put back among them at exit. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop((∃ r, prngReg c r) ∗ Pipeline.prefHeld pre1 c (fun _ => fullShare) (adm1 (F := F)).1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun w => A_eq1 (V3 m ρ) c w
    rw [Pipeline.unscopedBufs_held] at hsplit
    replace hsplit : (StableHlo.held (c : Thread nD τ) (Pipeline.ucRefs τ sig) (W3 m ρ c) : sProp 𝕄)
        ⊢ iprop((pdats m ρ 1 c).arrays ((pdats m ρ 1 c).arrAt · 0)
            ∗ Pipeline.unscopedRest (Ix := Unit) (Name := ℕ) (U := UR sig nD τ) (Lvl := ℕ) spec1 c (V3 m ρ c)) := hsplit
    rw [rest1_split m ρ c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi1_in (V3 m ρ) c
  hout c := by
    rw [Pipeline.ownSems0_none]
    refine (phi1_out (V3 m ρ) c).trans ?_
    iintro ⟨Hp, Hpf, Hr⟩
    isplitl [Hp Hpf]; · isplitl [Hp]; · iexact Hp
                        iexact Hpf
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (F := F) adm1).N) (hF1 m ρ c) (hrest1 m ρ c)
    rw [Pipeline.unscopedBufs_held] at hjoin
    replace hjoin : (iprop((pdats m ρ 1 c).arrays ((pdats m ρ 1 c).arrAt · (cfg1 (F := F) adm1).N)
            ∗ Pipeline.unscopedRest (Ix := Unit) (Name := ℕ) (U := UR sig nD τ) (Lvl := ℕ) spec1 c (V3 m ρ c)) : sProp 𝕄)
        ⊢ StableHlo.held (c : Thread nD τ) (Pipeline.ucRefs τ sig) (W4 m ρ c) := hjoin
    rw [rest1_split m ρ c] at hjoin
    iintro ⟨Ha, HO, ⟨Hp, Hpf⟩, Hrest⟩
    imodintro
    isplitl [Ha Hrest Hpf]
    · iapply hjoin; isplitl [Ha]; · iexact Ha
      isplitl [Hpf]; · iexact Hpf
      iexact Hrest
    isplitl [Hp]; · iexact Hp
    unfold Pipeline.Dat.owesAt Pipeline.owesWithin
    icases HO with ⟨%W, -, HO⟩; iexists W; iexact HO

set_option backward.isDefEq.respectTransparency.types false in
/-- Region 2: entered with every unscoped buffer at the contents before it, left with its output array at what its
    write-backs leave and every other buffer as entered. Its windows' arrays are split out of the unscoped buffers at
    entry and put back at exit; the generator register goes into the region's invariant and comes back. -/
def reg2 : Pipeline.RegionSeg (pcfgs (F := F)) adm (pdats m ρ) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) (launch2 (F := F)).win (launch2 (F := F)).arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped rest of region 3 is the parents' table at the literal contents and the rest without it. -/
theorem rest3_split (c : Dev nD) :
    (Pipeline.unscopedRest (Ix := Unit) (Name := ℕ) (U := UR sig nD τ) (Lvl := ℕ) spec3 c (V7 m ρ c) : sProp 𝕄)
      = iprop(Pipeline.prefHeld pre3 c (fun _ => fullShare) (adm3 (F := F)).1
          ∗ Pipeline.unscopedRestP (Ix := Unit) (Name := ℕ) (U := UR sig nD τ) (Lvl := ℕ) pre3 spec3 c (V7 m ρ c)) := by
  rw [Pipeline.unscopedRest_split preFacts3 c (V7 m ρ c), tbl_at3 m ρ c]

set_option backward.isDefEq.respectTransparency.types false in
/-- Region 3: as the table-free regions, and the parents' table is taken out of the unscoped buffers at entry, goes
    into the region's invariant, and is put back among them at exit. -/
def reg3 : Pipeline.RegionSeg (pcfgs (F := F)) adm (pdats m ρ) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld pre3 c (fun _ => fullShare) (adm3 (F := F)).1)
  Z c := Pipeline.unscopedRestP (Ix := Unit) (Name := ℕ) (U := UR sig nD τ) (Lvl := ℕ) pre3 spec3 c (V7 m ρ c)
  hentry c := by
    rw [Pipeline.ownSems0_none]
    have hsplit := Pipeline.arrays_of_unscopedBufs (p := 3) (pcfgs (F := F)) adm (pdats m ρ) (launch3 (F := F)).win (launch3 (F := F)).arr_whole c
      ((pdats m ρ 3 c).share_full fun _ => rfl) (V7 m ρ c) fun w => A_eq3 (V7 m ρ) c w
    rw [Pipeline.unscopedBufs_held] at hsplit
    replace hsplit : (StableHlo.held (c : Thread nD τ) (Pipeline.ucRefs τ sig) (W7 m ρ c) : sProp 𝕄)
        ⊢ iprop((pdats m ρ 3 c).arrays ((pdats m ρ 3 c).arrAt · 0)
            ∗ Pipeline.unscopedRest (Ix := Unit) (Name := ℕ) (U := UR sig nD τ) (Lvl := ℕ) spec3 c (V7 m ρ c)) := hsplit
    rw [rest3_split m ρ c] at hsplit
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi3_in (V7 m ρ) c
  hout c := by
    rw [Pipeline.ownSems0_none]
    refine (phi3_out (V7 m ρ) c).trans ?_
    iintro ⟨Hp, Hpf, Hr⟩
    isplitl [Hp Hpf]; · isplitl [Hp]; · iexact Hp
                        iexact Hpf
    isplitr; · iempintro
    iexact Hr
  hexit c := by
    have hjoin := Pipeline.unscopedBufs_of_arrays (p := 3) (pcfgs (F := F)) adm (Ix := Unit) (Name := ℕ) (U := UR sig nD τ) (Lvl := ℕ)
      (launch3 (F := F)).win (launch3 (F := F)).arr_whole c (pdats m ρ) ((pdats m ρ 3 c).share_full fun _ => rfl)
      (V7 m ρ c) (V8 m ρ c) ((pdats m ρ 3 c).arrAt · (cfg3 (F := F) adm3).N) (hF3 m ρ c) (hrest3 m ρ c)
    rw [Pipeline.unscopedBufs_held] at hjoin
    replace hjoin : (iprop((pdats m ρ 3 c).arrays ((pdats m ρ 3 c).arrAt · (cfg3 (F := F) adm3).N)
            ∗ Pipeline.unscopedRest (Ix := Unit) (Name := ℕ) (U := UR sig nD τ) (Lvl := ℕ) spec3 c (V7 m ρ c)) : sProp 𝕄)
        ⊢ StableHlo.held (c : Thread nD τ) (Pipeline.ucRefs τ sig) (W8 m ρ c) := hjoin
    rw [rest3_split m ρ c] at hjoin
    iintro ⟨Ha, HO, ⟨Hp, Hpf⟩, Hrest⟩
    imodintro
    isplitl [Ha Hrest Hpf Hp]
    · isplitl [Ha Hrest Hpf]
      · iapply hjoin; isplitl [Ha]; · iexact Ha
        isplitl [Hpf]; · iexact Hpf
        iexact Hrest
      iexact Hp
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, and every final memory holds
    every unscoped buffer of every core at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c),
     (h c _ (mem_uc main_arg4 (by decide))).trans (W8_main_arg4 m ρ c), (h c _ (mem_uc main_arg5 (by decide))).trans (W8_main_arg5 m ρ c)⟩)
    (run_all m ρ)

/-- The run with the result array named: it ends at what region 3's write-backs leave in its output array. -/
theorem run_result : θ_run defs (onTc (τ := τ) (main (F := F))) ⟨m, fun _ => 0, ρ⟩ (fun r => ∀ c : Dev nD,
      r.2.mem ((c.tc : Thread nD τ).loc main_v32) = (dat3 (V7 m ρ) c).arrAt 2 (cfg3 (F := F) adm3).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v32 (by decide))).trans (W8_arr m ρ c 2),
     (h c _ (mem_uc main_arg0 (by decide))).trans (W8_main_arg0 m ρ c), (h c _ (mem_uc main_arg1 (by decide))).trans (W8_main_arg1 m ρ c),
     (h c _ (mem_uc main_arg2 (by decide))).trans (W8_main_arg2 m ρ c), (h c _ (mem_uc main_arg3 (by decide))).trans (W8_main_arg3 m ρ c),
     (h c _ (mem_uc main_arg4 (by decide))).trans (W8_main_arg4 m ρ c), (h c _ (mem_uc main_arg5 (by decide))).trans (W8_main_arg5 m ρ c)⟩)
    (run_all m ρ)

end Cert.KernelIdeal.Hand

end
-- ==== Proof.Spec.lean ====
/-
  The tree-structured two-layer LSTM as one function of the six argument arrays, over the extended reals.

  Sixteen joints form a tree rooted at joint 0; joint j (1 ≤ j ≤ 15) has parent `par j < j`.  In each layer the
  root's state is zero, and joint j's state (h, c) is one LSTM cell of that layer's weights applied to the layer's
  input at j and to the PARENT's state:
      g        = x · Wihᵀ + h_par · Whhᵀ + (b_ih + b_hh)                (a 256 × 4096 matrix, four gates of width 1024)
      c_j      = σ(g_f) · c_par + σ(g_i) · tanh(g_g)
      h_j      = σ(g_o) · tanh(c_j)
  The first layer's input at joint j is the concatenation of `input[j-1]` and `bridge[j-1]` along the feature axis; the
  second layer's input at j is the first layer's h_j.  The result is the second layer's h_j, j = 1 … 15.

  The states are kept as a TABLE filled one joint at a time (`tab … n` holds joints 0 … n): both programs compute it that
  way, the kernel in a scratch buffer row by row, the reference joint by joint.
-/
import Idealize.ShloMosaic.PureOps.Ideal
import Idealize.ShloMosaic.Lib.ValueIdx

noncomputable section

open scoped BigOperators

namespace Cert.Spec

open Idealize.ShloMosaic Idealize.ShloMosaic.ValueIdx

/-- A batch of 256 rows of `n` extended reals. -/
abbrev Mat (n : Nat) := Fin 256 → Fin n → EReal

/-- The parent of joint `j` in the kinematic tree (joints 1 … 15; anything else reads the root). -/
def par : Nat → Nat
  | 1 => 0 | 2 => 1 | 3 => 2 | 4 => 3 | 5 => 1 | 6 => 5 | 7 => 6 | 8 => 1
  | 9 => 8 | 10 => 9 | 11 => 10 | 12 => 8 | 13 => 12 | 14 => 13 | 15 => 14 | _ => 0

theorem par_lt {j : Nat} (h1 : 1 ≤ j) (h15 : j ≤ 15) : par j < j := by
  interval_cases j <;> decide

/-- One layer's weights: the two 4096 × 1024 matrices and the two bias vectors. -/
structure Layer where
  Wih : Fin 4096 → Fin 1024 → EReal
  Whh : Fin 4096 → Fin 1024 → EReal
  bih : Fin 4096 → EReal
  bhh : Fin 4096 → EReal

/-- Column `k` of gate `g` (0 input, 1 forget, 2 cell, 3 output) among the 4096 pre-activations. -/
def col (g : Fin 4) (k : Fin 1024) : Fin 4096 := ⟨g.val * 1024 + k.val, by have := g.isLt; have := k.isLt; omega⟩

/-- The pre-activations: `x · Wihᵀ + h · Whhᵀ + (b_ih + b_hh)`. -/
def gate (L : Layer) (x h : Mat 1024) (b : Fin 256) (n : Fin 4096) : EReal :=
  ((∑ k : Fin 1024, x b k * L.Wih n k) + ∑ k : Fin 1024, h b k * L.Whh n k) + (L.bih n + L.bhh n)

/-- The new cell state `σ(f) · c + σ(i) · tanh(g)`. -/
def cellC (L : Layer) (x h c : Mat 1024) : Mat 1024 := fun b k =>
  Ideal.logistic (gate L x h b (col 1 k)) * c b k
    + Ideal.logistic (gate L x h b (col 0 k)) * Ideal.tanh (gate L x h b (col 2 k))

/-- The new hidden state `σ(o) · tanh(c')`. -/
def cellH (L : Layer) (x h c : Mat 1024) : Mat 1024 := fun b k =>
  Ideal.logistic (gate L x h b (col 3 k)) * Ideal.tanh (cellC L x h c b k)

/-- A joint's state: hidden and cell. -/
abbrev St := Mat 1024 × Mat 1024

/-- The root's state. -/
def zeroSt : St := (fun _ _ => 0, fun _ _ => 0)

/-- One cell on a state. -/
def cell (L : Layer) (x : Mat 1024) (s : St) : St := (cellH L x s.1 s.2, cellC L x s.1 s.2)

/-- The table of joint states with joints 0 … n filled in: joint n + 1 is a cell on its parent's entry. -/
def tab (L : Layer) (x : Nat → Mat 1024) : Nat → Nat → St
  | 0 => fun _ => zeroSt
  | n + 1 => Function.update (tab L x n) (n + 1) (cell L (x (n + 1)) (tab L x n (par (n + 1))))

theorem tab_succ_self (L : Layer) (x : Nat → Mat 1024) (n : Nat) :
    tab L x (n + 1) (n + 1) = cell L (x (n + 1)) (tab L x n (par (n + 1))) := by
  simp only [tab, Function.update_self]

theorem tab_succ_of_ne (L : Layer) (x : Nat → Mat 1024) (n j : Nat) (h : j ≠ n + 1) :
    tab L x (n + 1) j = tab L x n j := by
  simp only [tab, Function.update_of_ne h]

/-- An entry does not change once its joint has been filled in. -/
theorem tab_stable (L : Layer) (x : Nat → Mat 1024) {j n : Nat} (h : j ≤ n) : tab L x n j = tab L x j j := by
  induction n with
  | zero => obtain rfl : j = 0 := by omega
            rfl
  | succ n ih =>
    by_cases hj : j = n + 1
    · subst hj; rfl
    · rw [tab_succ_of_ne L x n j hj]; exact ih (by omega)

/-- The root's entry is zero at every stage. -/
theorem tab_zero (L : Layer) (x : Nat → Mat 1024) (n : Nat) : tab L x n 0 = zeroSt := by
  rw [tab_stable L x (Nat.zero_le n)]; rfl

/-- Joint `j`'s hidden state in a layer. -/
def hid (L : Layer) (x : Nat → Mat 1024) (j : Nat) : Mat 1024 := (tab L x 15 j).1

/-! ## The arrays -/

abbrev SIn : Shape := ⟨3, ![15, 256, 512]⟩
abbrev SW : Shape := ⟨3, ![2, 4096, 1024]⟩
abbrev SB : Shape := ⟨2, ![2, 4096]⟩
abbrev SOut : Shape := ⟨3, ![15, 256, 1024]⟩

/-- Layer `l`'s weights read off the four weight arrays. -/
def layer (Wih Whh : SW.Idx → EReal) (bih bhh : SB.Idx → EReal) (l : Fin 2) : Layer where
  Wih n k := Wih (ix3 l n k)
  Whh n k := Whh (ix3 l n k)
  bih n := bih (ix2 l n)
  bhh n := bhh (ix2 l n)

/-- The first layer's input at joint `j`: `input[j-1]` beside `bridge[j-1]` (zero for a `j` outside 1 … 15). -/
def x0 (inp bridge : SIn.Idx → EReal) (j : Nat) : Mat 1024 := fun b k =>
  if hj : j - 1 < 15 then
    (if hk : k.val < 512 then inp (ix3 (⟨j - 1, hj⟩ : Fin 15) b (⟨k.val, hk⟩ : Fin 512))
     else bridge (ix3 (⟨j - 1, hj⟩ : Fin 15) b (⟨k.val - 512, by have := k.isLt; omega⟩ : Fin 512)))
  else 0

/-- The result: the second layer's hidden state of joints 1 … 15, the second layer fed the first layer's. -/
def out (inp bridge : SIn.Idx → EReal) (Wih Whh : SW.Idx → EReal) (bih bhh : SB.Idx → EReal) : SOut.Idx → EReal :=
  fun i => hid (layer Wih Whh bih bhh 1) (hid (layer Wih Whh bih bhh 0) (x0 inp bridge)) ((i 0).val + 1)
    (⟨(i 1).val, (i 1).isLt⟩ : Fin 256) (⟨(i 2).val, (i 2).isLt⟩ : Fin 1024)

end Cert.Spec

end
-- ==== Proof.SpecG.lean ====
/-
  The same recurrence as the cell regions of the kernel see it: the input projection `x · Wihᵀ + (b_ih + b_hh)` of every
  joint has been computed beforehand (`proj`), and a joint's pre-activations are that projection plus the recurrent term
  `h_par · Whhᵀ`.  On the extended reals addition is commutative and associative, so
      (x·Wihᵀ + h·Whhᵀ) + bias = (x·Wihᵀ + bias) + h·Whhᵀ
  with no finiteness needed, and the two tables of joint states are the same table.
-/
import proofs.«408307_j89713276879117_3_alg».proof.Proof.Spec

noncomputable section

open scoped BigOperators

namespace Cert.Spec

open Idealize.ShloMosaic

/-- A batch of pre-computed input projections. -/
abbrev Proj := Fin 256 → Fin 4096 → EReal

/-- The input projection with both biases folded in. -/
def proj (L : Layer) (x : Mat 1024) : Proj := fun b n => (∑ k : Fin 1024, x b k * L.Wih n k) + (L.bih n + L.bhh n)

/-- The pre-activations from a given projection: `G + h · Whhᵀ`. -/
def gateG (Whh : Fin 4096 → Fin 1024 → EReal) (G : Proj) (h : Mat 1024) (b : Fin 256) (n : Fin 4096) : EReal :=
  G b n + ∑ k : Fin 1024, h b k * Whh n k

def cellCG (Whh : Fin 4096 → Fin 1024 → EReal) (G : Proj) (h c : Mat 1024) : Mat 1024 := fun b k =>
  Ideal.logistic (gateG Whh G h b (col 1 k)) * c b k
    + Ideal.logistic (gateG Whh G h b (col 0 k)) * Ideal.tanh (gateG Whh G h b (col 2 k))

def cellHG (Whh : Fin 4096 → Fin 1024 → EReal) (G : Proj) (h c : Mat 1024) : Mat 1024 := fun b k =>
  Ideal.logistic (gateG Whh G h b (col 3 k)) * Ideal.tanh (cellCG Whh G h c b k)

def cellG (Whh : Fin 4096 → Fin 1024 → EReal) (G : Proj) (s : St) : St := (cellHG Whh G s.1 s.2, cellCG Whh G s.1 s.2)

/-- The table of joint states from given projections `G j`, joints 0 … n filled in. -/
def tabG (Whh : Fin 4096 → Fin 1024 → EReal) (G : Nat → Proj) : Nat → Nat → St
  | 0 => fun _ => zeroSt
  | n + 1 => Function.update (tabG Whh G n) (n + 1) (cellG Whh (G (n + 1)) (tabG Whh G n (par (n + 1))))

theorem tabG_succ_self (Whh : Fin 4096 → Fin 1024 → EReal) (G : Nat → Proj) (n : Nat) :
    tabG Whh G (n + 1) (n + 1) = cellG Whh (G (n + 1)) (tabG Whh G n (par (n + 1))) := by
  simp only [tabG, Function.update_self]

theorem tabG_succ_of_ne (Whh : Fin 4096 → Fin 1024 → EReal) (G : Nat → Proj) (n j : Nat) (h : j ≠ n + 1) :
    tabG Whh G (n + 1) j = tabG Whh G n j := by
  simp only [tabG, Function.update_of_ne h]

theorem tabG_stable (Whh : Fin 4096 → Fin 1024 → EReal) (G : Nat → Proj) {j n : Nat} (h : j ≤ n) :
    tabG Whh G n j = tabG Whh G j j := by
  induction n with
  | zero => obtain rfl : j = 0 := by omega
            rfl
  | succ n ih =>
    by_cases hj : j = n + 1
    · subst hj; rfl
    · rw [tabG_succ_of_ne Whh G n j hj]; exact ih (by omega)

theorem tabG_zero (Whh : Fin 4096 → Fin 1024 → EReal) (G : Nat → Proj) (n : Nat) : tabG Whh G n 0 = zeroSt := by
  rw [tabG_stable Whh G (Nat.zero_le n)]; rfl

/-- The pre-activations either way. -/
theorem gate_eq_gateG (L : Layer) (x h : Mat 1024) (b : Fin 256) (n : Fin 4096) :
    gate L x h b n = gateG L.Whh (proj L x) h b n := by
  unfold gate gateG proj
  exact add_right_comm _ _ _

theorem cell_eq_cellG (L : Layer) (x : Mat 1024) (s : St) : cell L x s = cellG L.Whh (proj L x) s := by
  unfold cell cellG cellH cellHG cellC cellCG
  simp only [gate_eq_gateG]

/-- The two tables are one. -/
theorem tab_eq_tabG (L : Layer) (x : Nat → Mat 1024) (n : Nat) : tab L x n = tabG L.Whh (fun j => proj L (x j)) n := by
  induction n with
  | zero => rfl
  | succ n ih => simp only [tab, tabG, ih, cell_eq_cellG]

/-- The table depends on the projections of the joints filled in only. -/
theorem tabG_congr (Whh : Fin 4096 → Fin 1024 → EReal) {G G' : Nat → Proj} (n : Nat)
    (h : ∀ j, 1 ≤ j → j ≤ n → G j = G' j) : tabG Whh G n = tabG Whh G' n := by
  induction n with
  | zero => rfl
  | succ n ih =>
    have e := ih fun j h1 hn => h j h1 (Nat.le_succ_of_le hn)
    simp only [tabG, e, h (n + 1) (Nat.succ_le_succ (Nat.zero_le n)) (Nat.le_refl _)]

/-- A joint's hidden state from given projections. -/
def hidG (Whh : Fin 4096 → Fin 1024 → EReal) (G : Nat → Proj) (j : Nat) : Mat 1024 := (tabG Whh G 15 j).1

theorem hid_eq_hidG (L : Layer) (x : Nat → Mat 1024) (j : Nat) : hid L x j = hidG L.Whh (fun j => proj L (x j)) j := by
  unfold hid hidG; rw [tab_eq_tabG]

theorem hidG_congr (Whh Whh' : Fin 4096 → Fin 1024 → EReal) {G G' : Nat → Proj} (hW : Whh = Whh')
    (h : ∀ j, 1 ≤ j → j ≤ 15 → G j = G' j) (j : Nat) : hidG Whh G j = hidG Whh' G' j := by
  subst hW; unfold hidG; rw [tabG_congr Whh 15 h]

end Cert.Spec

end
-- ==== Proof.KI.GatesValue.lean ====
import proofs.«408307_j89713276879117_3_alg».proof.Proof.KI.Gates
import Idealize.ShloMosaic.Lib.Pipeline.Value
import Idealize.ShloMosaic.Lib.ValueIdx
import Idealize.ShloMosaic.Lib.ValueLayout
import Idealize.ShloMosaic.PureOps.Ideal.Laws

/-! The VALUE of the two batched input projections (regions 0 and 2 of @main) at the ideal instance, where a float is an
    extended real, every operation is exact and a change of format is the identity: after its run each region's output
    array is, index by index, the matrix product of its input rows with the weights' rows plus the bias,
    out[r, n] = Σₖ x[r, k] · w[n, k] + b[0, n] (region 0's x the two inputs joined along the features).
    In order: the contraction's dimension numbers coordinate by coordinate and the product at an index; the
    concatenation at an index; each body's stored value at an index of the block; each window's block as rows of its
    array; what a point writes back as its block of ONE function of the arrays; the blocks' cover of the output array;
    the array after the run. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

-- the extended reals' product and sum with their types named: at the ideal instance a buffer's element IS an
-- extended real, but only after its location's type is unfolded, which instance search does not do
local infixl:70 " *ₑ " => @HMul.hMul EReal EReal EReal instHMul
local infixl:65 " +ₑ " => @HAdd.hAdd EReal EReal EReal instHAdd

/-! ## The projection's dimension numbers, coordinate by coordinate: both operands contract their axis 1 -/

theorem lhs_proj_0 (i : S192x4096.Idx) (q : dot_S192x1024_S4096x1024_S192x4096_1_1_0_0_n_n.contr.Idx) :
    (dot_S192x1024_S4096x1024_S192x4096_1_1_0_0_n_n.lhsIdx i q 0).val = (i 0).val := by
  unfold DotDims.lhsIdx
  rw [dif_neg (show ¬(0 : Fin S192x1024.rank) ∈ dot_S192x1024_S4096x1024_S192x4096_1_1_0_0_n_n.lhsBatch by decide), dif_pos (show (0 : Fin S192x1024.rank) ∈ dot_S192x1024_S4096x1024_S192x4096_1_1_0_0_n_n.lhsNonContracting by decide)]
  rfl

theorem lhs_proj_1 (i : S192x4096.Idx) (q : dot_S192x1024_S4096x1024_S192x4096_1_1_0_0_n_n.contr.Idx) :
    (dot_S192x1024_S4096x1024_S192x4096_1_1_0_0_n_n.lhsIdx i q 1).val = (q ⟨0, by decide⟩).val :=
  dot_S192x1024_S4096x1024_S192x4096_1_1_0_0_n_n.lhsIdx_val_of_single rfl i q

theorem rhs_proj_0 (i : S192x4096.Idx) (q : dot_S192x1024_S4096x1024_S192x4096_1_1_0_0_n_n.contr.Idx) :
    (dot_S192x1024_S4096x1024_S192x4096_1_1_0_0_n_n.rhsIdx i q 0).val = (i 1).val := by
  unfold DotDims.rhsIdx
  rw [dif_neg (show ¬(0 : Fin S4096x1024.rank) ∈ dot_S192x1024_S4096x1024_S192x4096_1_1_0_0_n_n.rhsBatch by decide), dif_pos (show (0 : Fin S4096x1024.rank) ∈ dot_S192x1024_S4096x1024_S192x4096_1_1_0_0_n_n.rhsNonContracting by decide)]
  rfl

theorem rhs_proj_1 (i : S192x4096.Idx) (q : dot_S192x1024_S4096x1024_S192x4096_1_1_0_0_n_n.contr.Idx) :
    (dot_S192x1024_S4096x1024_S192x4096_1_1_0_0_n_n.rhsIdx i q 1).val = (q ⟨0, by decide⟩).val :=
  dot_S192x1024_S4096x1024_S192x4096_1_1_0_0_n_n.rhsIdx_val_of_single rfl i q

/-- The product into the zero accumulator at row p and column q: the sum over the 1024 features of the row of
    the left operand times the ROW q of the right operand (x · wᵀ). -/
theorem matmul_proj_apply (x : FVec Ideal S192x1024 .bf16) (w : FVec Ideal S4096x1024 .bf16) (p : Fin 192) (q : Fin 4096) :
    matmul dot_S192x1024_S4096x1024_S192x4096_1_1_0_0_n_n none x w (constant (F := Ideal) S192x4096 .f32 0x00000000#32) (ix2 p q)
      = ∑ k : Fin 1024, x (ix2 p k) * w (ix2 q k) := by
  simp only [matmul]
  rw [Ideal.matmul_constant_zero_apply, ← Equiv.sum_comp (contrEquiv1 dot_S192x1024_S4096x1024_S192x4096_1_1_0_0_n_n 1024 rfl rfl).symm]
  refine Finset.sum_congr rfl fun k _ => ?_
  have hk := contrEquiv1_symm_val dot_S192x1024_S4096x1024_S192x4096_1_1_0_0_n_n 1024 rfl rfl k
  have el : dot_S192x1024_S4096x1024_S192x4096_1_1_0_0_n_n.lhsIdx (ix2 p q) ((contrEquiv1 dot_S192x1024_S4096x1024_S192x4096_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S192x1024_S4096x1024_S192x4096_1_1_0_0_n_n.rhsIdx (ix2 p q) ((contrEquiv1 dot_S192x1024_S4096x1024_S192x4096_1_1_0_0_n_n 1024 rfl rfl).symm k) = ix2 q k := funext fun a => Fin.ext (by
    match a with
    | ⟨0, _⟩ => exact rhs_proj_0 _ _
    | ⟨1, _⟩ => exact (rhs_proj_1 _ _).trans hk)
  rw [el, er]

/-- The two halves joined along the features, read at feature k: the first operand below 512, the second from 512 on. -/
theorem concat_feat_apply {α : Type} (a b : S192x512.Idx → α) (p : Fin 192) (k : Fin 1024) :
    concatenate S192x1024 1 [⟨S192x512, a⟩, ⟨S192x512, b⟩] concatenates_S192x512_S192x512_S192x1024_d1 (ix2 p k)
      = if hk : k.val < 512 then a (ix2 p ⟨k.val, hk⟩) else b (ix2 p ⟨k.val - 512, by have := k.isLt; omega⟩) := by
  split
  · next hk =>
    exact concatenate_pair_apply_left (1 : Fin S192x1024.rank) a b concatenates_S192x512_S192x512_S192x1024_d1 (ix2 p k) rfl
      (ix2 p ⟨k.val, hk⟩) (fun bx => by match bx with | ⟨0, _⟩ => rfl | ⟨1, _⟩ => rfl)
  · next hk =>
    exact concatenate_pair_apply_right (1 : Fin S192x1024.rank) a b concatenates_S192x512_S192x512_S192x1024_d1 (ix2 p k) rfl rfl
      (ix2 p ⟨k.val - 512, by have := k.isLt; omega⟩)
      (fun bx hb => by match bx with | ⟨0, _⟩ => rfl | ⟨1, _⟩ => exact absurd rfl hb)
      (by show (k.val - 512) + 512 = k.val; omega)

/-- REGION 0's stored value at row p, column q of the block: the row of [x0 | x1] times row q of the weights, plus the bias. -/
theorem k0_pay1_apply (x0 x1 : Vec Ideal S192x512 .f32) (x2 : Vec Ideal S4096x1024 .bf16) (x3 : Vec Ideal S1x4096 .f32)
    (p : Fin 192) (q : Fin 4096) :
    k0_pay1 x0 x1 x2 x3 (ix2 p q)
      = (∑ k : Fin 1024, (if hk : k.val < 512 then x0 (ix2 p ⟨k.val, hk⟩) else x1 (ix2 p ⟨k.val - 512, by have := k.isLt; omega⟩)) * x2 (ix2 q k))
        + x3 (ix2 0 q) := by
  unfold k0_pay1
  simp only [shapeCast_self]
  rw [truncf_apply, addf_apply, matmul_proj_apply, broadcastTo_1b_ab_apply]
  simp only [concat_feat_apply, truncf_apply, shapeCast_self]

/-- REGION 2's stored value at row p, column q of the block. -/
theorem k2_pay1_apply (x0 : Vec Ideal S192x1024 .bf16) (x1 : Vec Ideal S4096x1024 .bf16) (x2 : Vec Ideal S1x4096 .f32)
    (p : Fin 192) (q : Fin 4096) :
    k2_pay1 x0 x1 x2 (ix2 p q) = (∑ k : Fin 1024, x0 (ix2 p k) * x1 (ix2 q k)) + x2 (ix2 0 q) := by
  unfold k2_pay1
  simp only [shapeCast_self]
  rw [truncf_apply, addf_apply, matmul_proj_apply, broadcastTo_1b_ab_apply]

/-! ## From blocks to the arrays -/

theorem offs_zero2 : (![0, 0] : Fin 2 → Nat) = fun _ => 0 := funext fun a => by fin_cases a <;> rfl

/-- Region 0's result as ONE function of the arrays it reads: row r of [a0 | a1] times row n of the weights, plus the bias. -/
def proj0 (a0 a1 : S3840x512.Idx → EReal) (w : S4096x1024.Idx → EReal) (b : S1x4096.Idx → EReal) : S3840x4096.Idx → EReal :=
  fun i => (∑ k : Fin 1024, (if hk : k.val < 512 then a0 (ix2 (⟨(i 0).val, idx2_lt0 i⟩ : Fin 3840) ⟨k.val, hk⟩)
      else a1 (ix2 (⟨(i 0).val, idx2_lt0 i⟩ : Fin 3840) ⟨k.val - 512, by have := k.isLt; omega⟩)) * w (ix2 (⟨(i 1).val, idx2_lt1 i⟩ : Fin 4096) k))
    + b (ix2 (0 : Fin 1) (⟨(i 1).val, idx2_lt1 i⟩ : Fin 4096))

/-- The projection at row r and column n. -/
theorem proj0_apply (a0 a1 : S3840x512.Idx → EReal) (w : S4096x1024.Idx → EReal) (b : S1x4096.Idx → EReal) (r : Fin 3840) (n : Fin 4096) :
    proj0 a0 a1 w b (ix2 r n)
      = (∑ k : Fin 1024, (if hk : k.val < 512 then a0 (ix2 r ⟨k.val, hk⟩) else a1 (ix2 r ⟨k.val - 512, by have := k.isLt; omega⟩)) * w (ix2 n k))
        + b (ix2 (0 : Fin 1) n) := rfl

/-- The printed index maps of region 0 over its 20 points: the row blocks move with the point, the weights and bias stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Region 2's result as ONE function of the arrays it reads: row r of the input times row n of the weights, plus the bias. -/
def proj2 (a : S3840x1024.Idx → EReal) (w : S4096x1024.Idx → EReal) (b : S1x4096.Idx → EReal) : S3840x4096.Idx → EReal :=
  fun i => (∑ k : Fin 1024, a (ix2 (⟨(i 0).val, idx2_lt0 i⟩ : Fin 3840) k) * w (ix2 (⟨(i 1).val, idx2_lt1 i⟩ : Fin 4096) k))
    + b (ix2 (0 : Fin 1) (⟨(i 1).val, idx2_lt1 i⟩ : Fin 4096))

/-- The projection at row r and column n. -/
theorem proj2_apply (a : S3840x1024.Idx → EReal) (w : S4096x1024.Idx → EReal) (b : S1x4096.Idx → EReal) (r : Fin 3840) (n : Fin 4096) :
    proj2 a w b (ix2 r n) = (∑ k : Fin 1024, a (ix2 r k) * w (ix2 n k)) + b (ix2 (0 : Fin 1) n) := rfl

/-- The printed index maps of region 2 over its 20 points: the row blocks move with the point, the weights and bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Regions
variable (V : (c : Dev nD) → (b : Ref sig .tc) → Buf (Elt Ideal) ((c : Thread nD τ).loc b))

/-- Point t's block of the first input is rows 192 t … 192 t + 191 of its array. -/
theorem iblk0_0_apply (c : Dev nD) (t : Fin cfg0.N) (p : Fin 192) (k : Fin 512) :
    iblk0 (F := Ideal) V c 0 t (ix2 p k)
      = (V c main_v0 : S3840x512.Idx → EReal) (ix2 (⟨t.val * 192 + p.val, by have ht : t.val < 20 := t.isLt; omega⟩ : Fin 3840) k) := by
  obtain ⟨e00, e01, -⟩ := idx_facts0 t
  show V c main_v0 (((cfg0.win 0).blk t).view.emb (ix2 p k)) = V c main_v0 _
  refine congrArg _ (funext fun a => Fin.ext ?_)
  match a with
  | ⟨0, _⟩ => show win0_0.index t (0 : Fin 2) * 192 + 1 * p.val = t.val * 192 + p.val; omega
  | ⟨1, _⟩ => show win0_0.index t (1 : Fin 2) * 512 + 1 * k.val = k.val; omega

/-- Likewise the second input's. -/
theorem iblk0_1_apply (c : Dev nD) (t : Fin cfg0.N) (p : Fin 192) (k : Fin 512) :
    iblk0 (F := Ideal) V c 1 t (ix2 p k)
      = (V c main_v1 : S3840x512.Idx → EReal) (ix2 (⟨t.val * 192 + p.val, by have ht : t.val < 20 := t.isLt; omega⟩ : Fin 3840) k) := by
  obtain ⟨-, -, e10, e11, -⟩ := idx_facts0 t
  show V c main_v1 (((cfg0.win 1).blk t).view.emb (ix2 p k)) = V c main_v1 _
  refine congrArg _ (funext fun a => Fin.ext ?_)
  match a with
  | ⟨0, _⟩ => show win0_1.index t (0 : Fin 2) * 192 + 1 * p.val = t.val * 192 + p.val; omega
  | ⟨1, _⟩ => show win0_1.index t (1 : Fin 2) * 512 + 1 * k.val = k.val; omega

/-- Every point's block of the weights is the whole array. -/
theorem iblk0_2_apply (c : Dev nD) (t : Fin cfg0.N) (q : Fin 4096) (k : Fin 1024) :
    iblk0 (F := Ideal) V c 2 t (ix2 q k) = (V c main_v4 : S4096x1024.Idx → EReal) (ix2 q k) := by
  obtain ⟨-, -, -, -, e20, e21, -⟩ := idx_facts0 t
  show V c main_v4 (((cfg0.win 2).blk t).view.emb (ix2 q k)) = V c main_v4 _
  refine congrArg _ (funext fun a => Fin.ext ?_)
  match a with
  | ⟨0, _⟩ => show win0_2.index t (0 : Fin 2) * 4096 + 1 * q.val = q.val; omega
  | ⟨1, _⟩ => show win0_2.index t (1 : Fin 2) * 1024 + 1 * k.val = k.val; omega

/-- Every point's block of the bias is the whole array. -/
theorem iblk0_3_apply (c : Dev nD) (t : Fin cfg0.N) (z : Fin 1) (q : Fin 4096) :
    iblk0 (F := Ideal) V c 3 t (ix2 z q) = (V c main_v13 : S1x4096.Idx → EReal) (ix2 z q) := by
  obtain ⟨-, -, -, -, -, -, e30, e31, -⟩ := idx_facts0 t
  show V c main_v13 (((cfg0.win 3).blk t).view.emb (ix2 z q)) = V c main_v13 _
  refine congrArg _ (funext fun a => Fin.ext ?_)
  match a with
  | ⟨0, _⟩ => show win0_3.index t (0 : Fin 2) * 1 + 1 * z.val = z.val; omega
  | ⟨1, _⟩ => show win0_3.index t (1 : Fin 2) * 4096 + 1 * q.val = q.val; omega

/-- WHAT POINT t WRITES BACK is its block of the projection of the arrays as the region finds them. -/
theorem flushed0_eq (c : Dev nD) (t : Fin cfg0.N) :
    (dat0 (F := Ideal) V c).flushed 4 t
      = ((cfg0.win 4).blk t).view.read (Elt Ideal) (proj0 (V c main_v0) (V c main_v1) (V c main_v4) (V c main_v13)) := by
  show (cfg0.win 4).cut (grid0.coords t) ((dat0 V c).after 4 t) = _
  rw [after0_4]
  unfold out0_4
  rw [View.canon_unit_zero offs_zero2]
  simp only [View.ld_unit_zero (S := S192x512) offs_zero2, View.ld_unit_zero (S := S4096x1024) offs_zero2, View.ld_unit_zero (S := S1x4096) offs_zero2]
  obtain ⟨-, -, -, -, -, -, -, -, e40, e41⟩ := idx_facts0 t
  funext j
  obtain ⟨p, q, rfl⟩ : ∃ (p : Fin 192) (q : Fin 4096), j = ix2 p q := ⟨j 0, j 1, eq_ix2 j⟩
  show k0_pay1 (iblk0 V c 0 t) (iblk0 V c 1 t) (iblk0 V c 2 t) (iblk0 V c 3 t) (ix2 p q)
    = proj0 (V c main_v0) (V c main_v1) (V c main_v4) (V c main_v13) (((cfg0.win 4).blk t).view.emb (ix2 p q))
  have hrow : ((((cfg0.win 4).blk t).view.emb (ix2 p q)) 0).val = t.val * 192 + p.val := by
    show win0_4.index t (0 : Fin 2) * 192 + 1 * p.val = _; omega
  have hcol : ((((cfg0.win 4).blk t).view.emb (ix2 p q)) 1).val = q.val := by
    show win0_4.index t (1 : Fin 2) * 4096 + 1 * q.val = _; omega
  rw [k0_pay1_apply]
  unfold proj0
  simp only [iblk0_0_apply, iblk0_1_apply, iblk0_2_apply, iblk0_3_apply, hrow, hcol]

/-- An index of the output array is in point t's block iff each coordinate is in the block's range on its axis. -/
theorem mem_blk0 (t : Fin cfg0.N) (i : S3840x4096.Idx) :
    i ∈ ((cfg0.win 4).blk t).view.set ↔ ∀ a : Fin 2, win0_4.index t a * S192x4096.size a ≤ (i a).val ∧ (i a).val < win0_4.index t a * S192x4096.size a + S192x4096.size a := by
  show i ∈ ((View.whole main_v14).slice (win0_4.rect t)).set ↔ _
  rw [View.set_slice_whole, Rect.mem_set_unit]
  exact Iff.rfl

/-- Every index of the output array is in the block of the point its row falls in: row r in point r / 192. -/
theorem cover0 (i : S3840x4096.Idx) :
    ∃ t : Fin cfg0.N, (cfg0.win 4).flush t = true ∧ i ∈ ((cfg0.win 4).blk t).view.set := by
  have hi0 : (i 0).val < 3840 := (i 0).isLt
  have hi1 : (i 1).val < 4096 := (i 1).isLt
  have ht : (i 0).val / 192 < 20 := by omega
  let t : Fin cfg0.N := ⟨(i 0).val / 192, ht⟩
  have htv : t.val = (i 0).val / 192 := rfl
  obtain ⟨-, -, -, -, -, -, -, -, e40, e41⟩ := idx_facts0 t
  refine ⟨t, flush0_4 t, ?_⟩
  rw [mem_blk0]
  intro a
  match a with
  | ⟨0, _⟩ => show win0_4.index t (0 : Fin 2) * 192 ≤ (i 0).val ∧ (i 0).val < win0_4.index t (0 : Fin 2) * 192 + 192; omega
  | ⟨1, _⟩ => show win0_4.index t (1 : Fin 2) * 4096 ≤ (i 1).val ∧ (i 1).val < win0_4.index t (1 : Fin 2) * 4096 + 4096; omega

/-- THE OUTPUT ARRAY after region 0's run is the projection of the arrays as the region finds them. -/
theorem final0 (c : Dev nD) :
    (dat0 (F := Ideal) V c).arrAt 4 cfg0.N = proj0 (V c main_v0) (V c main_v1) (V c main_v4) (V c main_v13) :=
  (dat0 (F := Ideal) V c).arrAt_eq_of_cover 4 _ (fun t _ => flushed0_eq V c t) cover0

theorem gates0_value (c : Dev nD) (r : Fin 3840) (n : Fin 4096) :
    (dat0 (F := Ideal) V c).arrAt 4 cfg0.N (ix2 r n)
      = (∑ k : Fin 1024, (if hk : k.val < 512 then V c main_v0 (ix2 r ⟨k.val, hk⟩) else V c main_v1 (ix2 r ⟨k.val - 512, by have := k.isLt; omega⟩)) *ₑ V c main_v4 (ix2 n k))
        +ₑ V c main_v13 (ix2 (0 : Fin 1) n) :=
  (congrFun (final0 V c) (ix2 r n)).trans (proj0_apply _ _ _ _ r n)

/-! ### Region 2 -/

/-- Point t's block of the input is rows 192 t … 192 t + 191 of its array. -/
theorem iblk2_0_apply (c : Dev nD) (t : Fin cfg2.N) (p : Fin 192) (k : Fin 1024) :
    iblk2 (F := Ideal) V c 0 t (ix2 p k)
      = (V c main_v17 : S3840x1024.Idx → EReal) (ix2 (⟨t.val * 192 + p.val, by have ht : t.val < 20 := t.isLt; omega⟩ : Fin 3840) k) := by
  obtain ⟨e00, e01, -⟩ := idx_facts2 t
  show V c main_v17 (((cfg2.win 0).blk t).view.emb (ix2 p k)) = V c main_v17 _
  refine congrArg _ (funext fun a => Fin.ext ?_)
  match a with
  | ⟨0, _⟩ => show win2_0.index t (0 : Fin 2) * 192 + 1 * p.val = t.val * 192 + p.val; omega
  | ⟨1, _⟩ => show win2_0.index t (1 : Fin 2) * 1024 + 1 * k.val = k.val; omega

/-- Every point's block of the weights is the whole array. -/
theorem iblk2_1_apply (c : Dev nD) (t : Fin cfg2.N) (q : Fin 4096) (k : Fin 1024) :
    iblk2 (F := Ideal) V c 1 t (ix2 q k) = (V c main_v20 : S4096x1024.Idx → EReal) (ix2 q k) := by
  obtain ⟨-, -, e10, e11, -⟩ := idx_facts2 t
  show V c main_v20 (((cfg2.win 1).blk t).view.emb (ix2 q k)) = V c main_v20 _
  refine congrArg _ (funext fun a => Fin.ext ?_)
  match a with
  | ⟨0, _⟩ => show win2_1.index t (0 : Fin 2) * 4096 + 1 * q.val = q.val; omega
  | ⟨1, _⟩ => show win2_1.index t (1 : Fin 2) * 1024 + 1 * k.val = k.val; omega

/-- Every point's block of the bias is the whole array. -/
theorem iblk2_2_apply (c : Dev nD) (t : Fin cfg2.N) (z : Fin 1) (q : Fin 4096) :
    iblk2 (F := Ideal) V c 2 t (ix2 z q) = (V c main_v29 : S1x4096.Idx → EReal) (ix2 z q) := by
  obtain ⟨-, -, -, -, e20, e21, -⟩ := idx_facts2 t
  show V c main_v29 (((cfg2.win 2).blk t).view.emb (ix2 z q)) = V c main_v29 _
  refine congrArg _ (funext fun a => Fin.ext ?_)
  match a with
  | ⟨0, _⟩ => show win2_2.index t (0 : Fin 2) * 1 + 1 * z.val = z.val; omega
  | ⟨1, _⟩ => show win2_2.index t (1 : Fin 2) * 4096 + 1 * q.val = q.val; omega

/-- WHAT POINT t WRITES BACK is its block of the projection of the arrays as the region finds them. -/
theorem flushed2_eq (c : Dev nD) (t : Fin cfg2.N) :
    (dat2 (F := Ideal) V c).flushed 3 t
      = ((cfg2.win 3).blk t).view.read (Elt Ideal) (proj2 (V c main_v17) (V c main_v20) (V c main_v29)) := by
  show (cfg2.win 3).cut (grid2.coords t) ((dat2 V c).after 3 t) = _
  rw [after2_3]
  unfold out2_3
  rw [View.canon_unit_zero offs_zero2]
  simp only [View.ld_unit_zero (S := S192x1024) offs_zero2, View.ld_unit_zero (S := S4096x1024) offs_zero2, View.ld_unit_zero (S := S1x4096) offs_zero2]
  obtain ⟨-, -, -, -, -, -, e30, e31⟩ := idx_facts2 t
  funext j
  obtain ⟨p, q, rfl⟩ : ∃ (p : Fin 192) (q : Fin 4096), j = ix2 p q := ⟨j 0, j 1, eq_ix2 j⟩
  show k2_pay1 (iblk2 V c 0 t) (iblk2 V c 1 t) (iblk2 V c 2 t) (ix2 p q)
    = proj2 (V c main_v17) (V c main_v20) (V c main_v29) (((cfg2.win 3).blk t).view.emb (ix2 p q))
  have hrow : ((((cfg2.win 3).blk t).view.emb (ix2 p q)) 0).val = t.val * 192 + p.val := by
    show win2_3.index t (0 : Fin 2) * 192 + 1 * p.val = _; omega
  have hcol : ((((cfg2.win 3).blk t).view.emb (ix2 p q)) 1).val = q.val := by
    show win2_3.index t (1 : Fin 2) * 4096 + 1 * q.val = _; omega
  rw [k2_pay1_apply]
  unfold proj2
  simp only [iblk2_0_apply, iblk2_1_apply, iblk2_2_apply, hrow, hcol]

/-- An index of the output array is in point t's block iff each coordinate is in the block's range on its axis. -/
theorem mem_blk2 (t : Fin cfg2.N) (i : S3840x4096.Idx) :
    i ∈ ((cfg2.win 3).blk t).view.set ↔ ∀ a : Fin 2, win2_3.index t a * S192x4096.size a ≤ (i a).val ∧ (i a).val < win2_3.index t a * S192x4096.size a + S192x4096.size a := by
  show i ∈ ((View.whole main_v30).slice (win2_3.rect t)).set ↔ _
  rw [View.set_slice_whole, Rect.mem_set_unit]
  exact Iff.rfl

/-- Every index of the output array is in the block of the point its row falls in: row r in point r / 192. -/
theorem cover2 (i : S3840x4096.Idx) :
    ∃ t : Fin cfg2.N, (cfg2.win 3).flush t = true ∧ i ∈ ((cfg2.win 3).blk t).view.set := by
  have hi0 : (i 0).val < 3840 := (i 0).isLt
  have hi1 : (i 1).val < 4096 := (i 1).isLt
  have ht : (i 0).val / 192 < 20 := by omega
  let t : Fin cfg2.N := ⟨(i 0).val / 192, ht⟩
  have htv : t.val = (i 0).val / 192 := rfl
  obtain ⟨-, -, -, -, -, -, e30, e31⟩ := idx_facts2 t
  refine ⟨t, flush2_3 t, ?_⟩
  rw [mem_blk2]
  intro a
  match a with
  | ⟨0, _⟩ => show win2_3.index t (0 : Fin 2) * 192 ≤ (i 0).val ∧ (i 0).val < win2_3.index t (0 : Fin 2) * 192 + 192; omega
  | ⟨1, _⟩ => show win2_3.index t (1 : Fin 2) * 4096 ≤ (i 1).val ∧ (i 1).val < win2_3.index t (1 : Fin 2) * 4096 + 4096; omega

/-- THE OUTPUT ARRAY after region 2's run is the projection of the arrays as the region finds them. -/
theorem final2 (c : Dev nD) :
    (dat2 (F := Ideal) V c).arrAt 3 cfg2.N = proj2 (V c main_v17) (V c main_v20) (V c main_v29) :=
  (dat2 (F := Ideal) V c).arrAt_eq_of_cover 3 _ (fun t _ => flushed2_eq V c t) cover2

theorem gates2_value (c : Dev nD) (r : Fin 3840) (n : Fin 4096) :
    (dat2 (F := Ideal) V c).arrAt 3 cfg2.N (ix2 r n)
      = (∑ k : Fin 1024, V c main_v17 (ix2 r k) *ₑ V c main_v20 (ix2 n k)) +ₑ V c main_v29 (ix2 (0 : Fin 1) n) :=
  (congrFun (final2 V c) (ix2 r n)).trans (proj2_apply _ _ _ r n)

end Regions

end Cert.KernelIdeal.Hand

end
-- ==== Proof.KI.CellPay.lean ====
import proofs.«408307_j89713276879117_3_alg».proof.Proof.SpecG
import proofs.«408307_j89713276879117_3_alg».proof.KernelIdeal
import proofs.«408307_j89713276879117_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! The cell kernels' payloads read at an index, at the ideal values.

    One step of the recurrence on a block of 128 batch rows: from the parent's hidden row `hp` and cell row `cp`
    (each 1 × 128 × 1024), the block's pre-computed input projection `gx` (1 × 128 × 4096) and the recurrent weights
    `w` (4096 × 1024), the pre-activations are `g p n = gx (0, p, n) + ∑ k, hp (0, p, k) · w (n, k)`, the new cell row
    is `σ(g_f) · cp + σ(g_i) · tanh(g_g)` and the new hidden row `σ(g_o) · tanh(c')`, the four gates being the four
    column ranges of width 1024. Rounding to bf16 and widening are the identity on the extended reals. -/

noncomputable section

namespace Cert.KernelIdeal.Hand

open Cert.KernelIdeal Cert.KernelIdeal.Gen
open Idealize.ShloMosaic Idealize.ShloMosaic.ValueIdx
open scoped BigOperators

/-! ## The product: both operands contracted along their second axis -/

theorem lhs_cell_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhs_cell_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhs_cell_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhs_cell_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- The block product into the zero accumulator at entry `(p, n)`: row `p` of the left operand against row `n` of the right. -/
theorem matmul_cell_apply (prec : Option ContractPrecision) (lhs : FVec Ideal S128x1024 .bf16) (rhs : FVec Ideal S4096x1024 .bf16)
    (p : Fin 128) (n : Fin 4096) :
    FloatOps.matmul dot_S128x1024_S4096x1024_S128x4096_1_1_0_0_n_n prec lhs rhs (constant (F := Ideal) S128x4096 .f32 0x00000000#32) (ix2 p n)
      = ∑ k : Fin 1024, lhs (ix2 p k) * rhs (ix2 n k) := by
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p n) ((contrEquiv1 dot_S128x1024_S4096x1024_S128x4096_1_1_0_0_n_n 1024 rfl rfl).symm k) = ix2 p k := funext fun a => Fin.ext (by
    match a with
    | ⟨0, _⟩ => exact lhs_cell_0 _ _
    | ⟨1, _⟩ => exact (lhs_cell_1 _ _).trans hk)
  have er : dot_S128x1024_S4096x1024_S128x4096_1_1_0_0_n_n.rhsIdx (ix2 p n) ((contrEquiv1 dot_S128x1024_S4096x1024_S128x4096_1_1_0_0_n_n 1024 rfl rfl).symm k) = ix2 n k := funext fun a => Fin.ext (by
    match a with
    | ⟨0, _⟩ => exact rhs_cell_0 _ _
    | ⟨1, _⟩ => exact (rhs_cell_1 _ _).trans hk)
  rw [el, er]

/-! ## The pre-activations -/

/-- Row `p`'s pre-activation `n` of a block. -/
def gpre (gx : Vec Ideal S1x128x4096 .bf16) (w : Vec Ideal S4096x1024 .bf16) (hp : Vec Ideal S1x128x1024 .bf16)
    (p : Fin 128) (n : Fin 4096) : EReal :=
  gx (ValueIdx.ix3 (0 : Fin 1) p n) + ∑ k : Fin 1024, hp (ValueIdx.ix3 (0 : Fin 1) p k) * w (ix2 n k)

/-- The bf16 zero word is zero. -/
theorem ofBits_zero_bf16 : Ideal.ofBits .bf16 0x0000#16 = 0 := by simp [Ideal.ofBits, Ideal.ieee]

theorem col_val (g : Fin 4) (q : Fin 1024) : (Cert.Spec.col g q).val = g.val * 1024 + q.val := rfl

/-- The new cell value and the new hidden value of row `p`, column `q`. -/
def cnewE (gx : Vec Ideal S1x128x4096 .bf16) (w : Vec Ideal S4096x1024 .bf16) (hp : Vec Ideal S1x128x1024 .bf16)
    (cp : Vec Ideal S1x128x1024 .f32) (p : Fin 128) (q : Fin 1024) : EReal :=
  Ideal.logistic (gpre gx w hp p (Cert.Spec.col 1 q)) * cp (ValueIdx.ix3 (0 : Fin 1) p q)
    + Ideal.logistic (gpre gx w hp p (Cert.Spec.col 0 q)) * Ideal.tanh (gpre gx w hp p (Cert.Spec.col 2 q))
def hnewE (gx : Vec Ideal S1x128x4096 .bf16) (w : Vec Ideal S4096x1024 .bf16) (hp : Vec Ideal S1x128x1024 .bf16)
    (cp : Vec Ideal S1x128x1024 .f32) (p : Fin 128) (q : Fin 1024) : EReal :=
  Ideal.logistic (gpre gx w hp p (Cert.Spec.col 3 q)) * Ideal.tanh (cnewE gx w hp cp p q)

/-! ## Against the specification's cell -/

section Spec
variable (Whh : Fin 4096 → Fin 1024 → EReal) (G : Cert.Spec.Proj) (H C : Cert.Spec.Mat 1024)
variable (gx : Vec Ideal S1x128x4096 .bf16) (w : Vec Ideal S4096x1024 .bf16) (hp : Vec Ideal S1x128x1024 .bf16)
  (cp : Vec Ideal S1x128x1024 .f32) (p : Fin 128) (r : Fin 256)
variable (hw : ∀ n k, w (ix2 n k) = Whh n k) (hg : ∀ n, gx (ValueIdx.ix3 (0 : Fin 1) p n) = G r n)
  (hh : ∀ k, hp (ValueIdx.ix3 (0 : Fin 1) p k) = H r k) (hc : ∀ q, cp (ValueIdx.ix3 (0 : Fin 1) p q) = C r q)

include hw hg hh in
/-- A block row's pre-activations are the specification's at the batch row it holds. -/
theorem gpre_eq_gateG (n : Fin 4096) : gpre gx w hp p n = Cert.Spec.gateG Whh G H r n := by
  unfold gpre Cert.Spec.gateG
  rw [hg n]
  exact congrArg (G r n + ·) (Finset.sum_congr rfl fun k _ => by rw [hh k, hw n k])

include hw hg hh hc in
theorem cnewE_eq_cellCG (q : Fin 1024) : cnewE gx w hp cp p q = Cert.Spec.cellCG Whh G H C r q := by
  unfold cnewE Cert.Spec.cellCG
  simp only [gpre_eq_gateG Whh G H gx w hp p r hw hg hh, hc q]

include hw hg hh hc in
theorem hnewE_eq_cellHG (q : Fin 1024) : hnewE gx w hp cp p q = Cert.Spec.cellHG Whh G H C r q := by
  unfold hnewE Cert.Spec.cellHG
  rw [cnewE_eq_cellCG Whh G H C gx w hp cp p r hw hg hh hc q, gpre_eq_gateG Whh G H gx w hp p r hw hg hh]

end Spec

/-! ## The first layer's payloads -/

theorem k1_pay5_apply (hp : Vec Ideal S1x128x1024 .bf16) (gx : Vec Ideal S1x128x4096 .bf16) (w : Vec Ideal S4096x1024 .bf16)
    (p : Fin 128) (n : Fin 4096) : k1_pay5 (F := Ideal) hp gx w (ix2 p n) = gpre gx w hp p n := by
  unfold k1_pay5 gpre
  simp only [matmul]
  rw [addf_apply, extf_apply, shapeCast_1ab_ab_apply, shapeCast_self, matmul_cell_apply]
  simp only [shapeCast_1ab_ab_apply]

/-- The new cell row at `(p, q)`. -/
theorem k1_pay6_apply (hp : Vec Ideal S1x128x1024 .bf16) (cp : Vec Ideal S1x128x1024 .f32) (gx : Vec Ideal S1x128x4096 .bf16)
    (w : Vec Ideal S4096x1024 .bf16) (p : Fin 128) (q : Fin 1024) :
    k1_pay6 (F := Ideal) hp cp gx w (ix2 p q) = cnewE gx w hp cp p q := by
  unfold k1_pay6 cnewE
  simp only [addf_apply, mulf_apply, logistic, tanh, Ideal.logistic_def, Ideal.tanh_def, shapeCast_1ab_ab_apply]
  rw [slice2_axis1_apply 1024 _ _ p q (Cert.Spec.col 1 q) (by rw [col_val]; rfl),
    slice2_axis1_apply 0 _ _ p q (Cert.Spec.col 0 q) (by rw [col_val]; rfl),
    slice2_axis1_apply 2048 _ _ p q (Cert.Spec.col 2 q) (by rw [col_val]; rfl)]
  simp only [k1_pay5_apply]

/-- The new hidden row at `(p, q)`. -/
theorem k1_pay7_apply (hp : Vec Ideal S1x128x1024 .bf16) (cp : Vec Ideal S1x128x1024 .f32) (gx : Vec Ideal S1x128x4096 .bf16)
    (w : Vec Ideal S4096x1024 .bf16) (p : Fin 128) (q : Fin 1024) :
    k1_pay7 (F := Ideal) hp cp gx w (ix2 p q) = hnewE gx w hp cp p q := by
  unfold k1_pay7 hnewE
  simp only [mulf_apply, logistic, tanh, Ideal.logistic_def, Ideal.tanh_def]
  rw [slice2_axis1_apply 3072 _ _ p q (Cert.Spec.col 3 q) (by rw [col_val]; rfl)]
  simp only [k1_pay5_apply, k1_pay6_apply]

/-- The hidden row as stored to the table: rounding to bf16 is the identity on the extended reals. -/
theorem k1_pay8_apply (hp : Vec Ideal S1x128x1024 .bf16) (cp : Vec Ideal S1x128x1024 .f32) (gx : Vec Ideal S1x128x4096 .bf16)
    (w : Vec Ideal S4096x1024 .bf16) (u : Fin 1) (p : Fin 128) (q : Fin 1024) :
    k1_pay8 (F := Ideal) hp cp gx w (ValueIdx.ix3 u p q) = hnewE gx w hp cp p q := by
  unfold k1_pay8
  simp only [shapeCast_ab_1ab_apply, truncf_apply, k1_pay7_apply]

/-- The cell row as stored to the table. -/
theorem k1_pay1_apply (v : FVec Ideal S128x1024 .f32) (u : Fin 1) (p : Fin 128) (q : Fin 1024) :
    k1_pay1 (F := Ideal) v (ValueIdx.ix3 u p q) = v (ix2 p q) := by
  unfold k1_pay1
  simp only [shapeCast_ab_1ab_apply]

/-- The hidden row as stored to the output block. -/
theorem k1_pay2_apply (v : FVec Ideal S128x1024 .f32) (u : Fin 1) (p : Fin 128) (q : Fin 1024) :
    k1_pay2 (F := Ideal) v (ValueIdx.ix3 u p q) = v (ix2 p q) := by
  unfold k1_pay2
  simp only [shapeCast_ab_1ab_apply, truncf_apply]

/-- The root's rows are zero. -/
theorem k1_pay3_apply (i : S1x128x1024.Idx) : k1_pay3 (F := Ideal) i = 0 := by
  obtain ⟨u, p, q, rfl⟩ : ∃ (u : Fin 1) (p : Fin 128) (q : Fin 1024), i = ValueIdx.ix3 u p q := ⟨i 0, i 1, i 2, eq_ix3 i⟩
  unfold k1_pay3
  simp only [shapeCast_ab_1ab_apply, broadcast_apply]
  exact ofBits_zero_bf16
theorem k1_pay4_apply (i : S1x128x1024.Idx) : k1_pay4 (F := Ideal) i = 0 := by
  obtain ⟨u, p, q, rfl⟩ : ∃ (u : Fin 1) (p : Fin 128) (q : Fin 1024), i = ValueIdx.ix3 u p q := ⟨i 0, i 1, i 2, eq_ix3 i⟩
  unfold k1_pay4
  simp only [shapeCast_ab_1ab_apply, broadcast_apply]
  exact Ideal.ofBits_zero_f32

/-! ## The second layer's payloads -/

theorem k3_pay5_apply (hp : Vec Ideal S1x128x1024 .bf16) (gx : Vec Ideal S1x128x4096 .bf16) (w : Vec Ideal S4096x1024 .bf16)
    (p : Fin 128) (n : Fin 4096) : k3_pay5 (F := Ideal) hp gx w (ix2 p n) = gpre gx w hp p n := by
  unfold k3_pay5 gpre
  simp only [matmul]
  rw [addf_apply, extf_apply, shapeCast_1ab_ab_apply, shapeCast_self, matmul_cell_apply]
  simp only [shapeCast_1ab_ab_apply]

/-- The new cell row at `(p, q)`. -/
theorem k3_pay6_apply (hp : Vec Ideal S1x128x1024 .bf16) (cp : Vec Ideal S1x128x1024 .f32) (gx : Vec Ideal S1x128x4096 .bf16)
    (w : Vec Ideal S4096x1024 .bf16) (p : Fin 128) (q : Fin 1024) :
    k3_pay6 (F := Ideal) hp cp gx w (ix2 p q) = cnewE gx w hp cp p q := by
  unfold k3_pay6 cnewE
  simp only [addf_apply, mulf_apply, logistic, tanh, Ideal.logistic_def, Ideal.tanh_def, shapeCast_1ab_ab_apply]
  rw [slice2_axis1_apply 1024 _ _ p q (Cert.Spec.col 1 q) (by rw [col_val]; rfl),
    slice2_axis1_apply 0 _ _ p q (Cert.Spec.col 0 q) (by rw [col_val]; rfl),
    slice2_axis1_apply 2048 _ _ p q (Cert.Spec.col 2 q) (by rw [col_val]; rfl)]
  simp only [k3_pay5_apply]

/-- The new hidden row at `(p, q)`. -/
theorem k3_pay7_apply (hp : Vec Ideal S1x128x1024 .bf16) (cp : Vec Ideal S1x128x1024 .f32) (gx : Vec Ideal S1x128x4096 .bf16)
    (w : Vec Ideal S4096x1024 .bf16) (p : Fin 128) (q : Fin 1024) :
    k3_pay7 (F := Ideal) hp cp gx w (ix2 p q) = hnewE gx w hp cp p q := by
  unfold k3_pay7 hnewE
  simp only [mulf_apply, logistic, tanh, Ideal.logistic_def, Ideal.tanh_def]
  rw [slice2_axis1_apply 3072 _ _ p q (Cert.Spec.col 3 q) (by rw [col_val]; rfl)]
  simp only [k3_pay5_apply, k3_pay6_apply]

/-- The hidden row as stored to the table: rounding to bf16 is the identity on the extended reals. -/
theorem k3_pay8_apply (hp : Vec Ideal S1x128x1024 .bf16) (cp : Vec Ideal S1x128x1024 .f32) (gx : Vec Ideal S1x128x4096 .bf16)
    (w : Vec Ideal S4096x1024 .bf16) (u : Fin 1) (p : Fin 128) (q : Fin 1024) :
    k3_pay8 (F := Ideal) hp cp gx w (ValueIdx.ix3 u p q) = hnewE gx w hp cp p q := by
  unfold k3_pay8
  simp only [shapeCast_ab_1ab_apply, truncf_apply, k3_pay7_apply]

/-- The cell row as stored to the table. -/
theorem k3_pay1_apply (v : FVec Ideal S128x1024 .f32) (u : Fin 1) (p : Fin 128) (q : Fin 1024) :
    k3_pay1 (F := Ideal) v (ValueIdx.ix3 u p q) = v (ix2 p q) := by
  unfold k3_pay1
  simp only [shapeCast_ab_1ab_apply]

/-- The hidden row as stored to the output block. -/
theorem k3_pay2_apply (v : FVec Ideal S128x1024 .f32) (u : Fin 1) (p : Fin 128) (q : Fin 1024) :
    k3_pay2 (F := Ideal) v (ValueIdx.ix3 u p q) = v (ix2 p q) := by
  unfold k3_pay2
  simp only [shapeCast_ab_1ab_apply, truncf_apply]

/-- The root's rows are zero. -/
theorem k3_pay3_apply (i : S1x128x1024.Idx) : k3_pay3 (F := Ideal) i = 0 := by
  obtain ⟨u, p, q, rfl⟩ : ∃ (u : Fin 1) (p : Fin 128) (q : Fin 1024), i = ValueIdx.ix3 u p q := ⟨i 0, i 1, i 2, eq_ix3 i⟩
  unfold k3_pay3
  simp only [shapeCast_ab_1ab_apply, broadcast_apply]
  exact ofBits_zero_bf16
theorem k3_pay4_apply (i : S1x128x1024.Idx) : k3_pay4 (F := Ideal) i = 0 := by
  obtain ⟨u, p, q, rfl⟩ : ∃ (u : Fin 1) (p : Fin 128) (q : Fin 1024), i = ValueIdx.ix3 u p q := ⟨i 0, i 1, i 2, eq_ix3 i⟩
  unfold k3_pay4
  simp only [shapeCast_ab_1ab_apply, broadcast_apply]
  exact Ideal.ofBits_zero_f32

end Cert.KernelIdeal.Hand

end
-- ==== Proof.KI.CellBlocks.lean ====
import proofs.«408307_j89713276879117_3_alg».proof.Proof.KI.Cell1
import proofs.«408307_j89713276879117_3_alg».proof.Proof.KI.Cell3
import Idealize.ShloMosaic.Lib.Pipeline.Value
import Idealize.ShloMosaic.Lib.ValueIdx

/-! The two cell regions' OUTPUT ARRAY from what each grid point writes back, at the ideal instance.

    A cell region runs over thirty points `t = b · 15 + i` (batch half `b`, joint `i`); point `t` writes back the
    `1 × 128 × 1024` block at block index `(i, b, 0)` of the `15 × 256 × 1024` output: rows `128 b … 128 b + 127` of joint
    `i`.  If what every point leaves in the staging buffer is its block of one family of rows `H`, the array ends holding
    `H`: the index map decided once over the grid, the block of a point read where its rectangle says, the blocks'
    cover of the array, and the whole-array post. -/

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

/-- The array a family of rows describes: entry `(j, b, k)` is `H j b k`. -/
def rowsArr (H : Fin 15 → Fin 256 → Fin 1024 → EReal) : S15x256x1024.Idx → EReal :=
  fun i => H ⟨(i 0).val, (i 0).isLt⟩ ⟨(i 1).val, (i 1).isLt⟩ ⟨(i 2).val, (i 2).isLt⟩

/-! ## Layer one's cell region: the output window's blocks -/

/-- The output window's index map over the thirty points: the joint, the batch half, the whole feature axis. -/
theorem out_idx1 : ∀ t : Fin (cfg1 (F := Ideal) adm1).N,
    ((cfg1 (F := Ideal) adm1).win 2).index t (0 : Fin 3) = t.val % 15
      ∧ ((cfg1 (F := Ideal) adm1).win 2).index t (1 : Fin 3) = t.val / 15
      ∧ ((cfg1 (F := Ideal) adm1).win 2).index t (2 : Fin 3) = 0 :=
  (by decide +kernel : ∀ t : Fin grid1.N, _)

/-- The output window is written back at every point. -/
theorem out_flush1 : ∀ t : Fin (cfg1 (F := Ideal) adm1).N, ((cfg1 (F := Ideal) adm1).win 2).flush t = true :=
  (by decide +kernel : ∀ t : Fin grid1.N, _)

section
variable (V : (c : Dev nD) → (b : Ref sig .tc) → Buf (Elt Ideal) ((c : Thread nD τ).loc b))

/-- What point `t` writes back is its block of the array of rows: joint `t % 15`, rows `(t / 15) · 128 …`. -/
theorem out_flushed1 (c : Dev nD) (H : Fin 15 → Fin 256 → Fin 1024 → EReal)
    (hH : ∀ (t : Fin (cfg1 (F := Ideal) adm1).N) (p : Fin 128) (q : Fin 1024),
      (hrow1 (F := Ideal) V c t : S1x128x1024.Idx → EReal) (ValueIdx.ix3 (0 : Fin 1) p q)
        = H ⟨t.val % 15, Nat.mod_lt _ (by decide)⟩
            ⟨(t.val / 15) * 128 + p.val, by have ht : t.val < 30 := N1_eq (F := Ideal) ▸ t.isLt; have := p.isLt; omega⟩ q)
    (t : Fin (cfg1 (F := Ideal) adm1).N) :
    (dat1 (F := Ideal) V c).flushed 2 t
      = (((cfg1 (F := Ideal) adm1).win 2).blk t).view.read (Elt Ideal) (rowsArr H) := by
  obtain ⟨e0, e1, e2⟩ := out_idx1 t
  funext j
  obtain ⟨z, p, q, rfl⟩ : ∃ (z : Fin 1) (p : Fin 128) (q : Fin 1024), j = ValueIdx.ix3 z p q := ⟨j 0, j 1, j 2, ValueIdx.eq_ix3 j⟩
  obtain rfl : z = 0 := Subsingleton.elim _ _
  show (hrow1 (F := Ideal) V c t : S1x128x1024.Idx → EReal) (ValueIdx.ix3 (0 : Fin 1) p q)
    = rowsArr H ((((cfg1 (F := Ideal) adm1).win 2).blk t).view.emb (ValueIdx.ix3 (0 : Fin 1) p q))
  refine (hH t p q).trans ?_
  have h0 : (((((cfg1 (F := Ideal) adm1).win 2).blk t).view.emb (ValueIdx.ix3 (0 : Fin 1) p q)) 0).val = t.val % 15 := by
    show ((cfg1 (F := Ideal) adm1).win 2).index t (0 : Fin 3) * 1 + 1 * 0 = _; omega
  have h1 : (((((cfg1 (F := Ideal) adm1).win 2).blk t).view.emb (ValueIdx.ix3 (0 : Fin 1) p q)) 1).val = (t.val / 15) * 128 + p.val := by
    show ((cfg1 (F := Ideal) adm1).win 2).index t (1 : Fin 3) * 128 + 1 * p.val = _; omega
  have h2 : (((((cfg1 (F := Ideal) adm1).win 2).blk t).view.emb (ValueIdx.ix3 (0 : Fin 1) p q)) 2).val = q.val := by
    show ((cfg1 (F := Ideal) adm1).win 2).index t (2 : Fin 3) * 1024 + 1 * q.val = _; omega
  have e : ∀ (x x' : Fin 15) (y y' : Fin 256) (z z' : Fin 1024), x = x' → y = y' → z = z' → H x y z = H x' y' z' := by
    intro x x' y y' z z' hx hy hz; rw [hx, hy, hz]
  exact e _ _ _ _ _ _ (Fin.ext h0.symm) (Fin.ext h1.symm) (Fin.ext h2.symm)

/-- An index of the output array is in point `t`'s block iff each coordinate is in the block's range on its axis. -/
theorem out_mem1 (t : Fin (cfg1 (F := Ideal) adm1).N) (i : S15x256x1024.Idx) :
    i ∈ (((cfg1 (F := Ideal) adm1).win 2).blk t).view.set
      ↔ ∀ a : Fin 3, ((cfg1 (F := Ideal) adm1).win 2).index t a * S1x128x1024.size a ≤ (i a).val
          ∧ (i a).val < ((cfg1 (F := Ideal) adm1).win 2).index t a * S1x128x1024.size a + S1x128x1024.size a := by
  show i ∈ ((View.whole main_v16).slice (((cfg1 (F := Ideal) adm1).win 2).rect t)).set ↔ _
  rw [View.set_slice_whole, Rect.mem_set_unit]
  exact Iff.rfl

/-- Every index of the output array is in the block of the point of its joint and batch half:
    entry `(j, b, ·)` in point `(b / 128) · 15 + j`. -/
theorem out_cover1 (i : S15x256x1024.Idx) :
    ∃ t : Fin (cfg1 (F := Ideal) adm1).N, ((cfg1 (F := Ideal) adm1).win 2).flush t = true
      ∧ i ∈ (((cfg1 (F := Ideal) adm1).win 2).blk t).view.set := by
  have hi0 : (i 0).val < 15 := (i 0).isLt
  have hi1 : (i 1).val < 256 := (i 1).isLt
  have hi2 : (i 2).val < 1024 := (i 2).isLt
  have ht : (i 1).val / 128 * 15 + (i 0).val < (cfg1 (F := Ideal) adm1).N := by rw [N1_eq]; omega
  let t : Fin (cfg1 (F := Ideal) adm1).N := ⟨(i 1).val / 128 * 15 + (i 0).val, ht⟩
  have htv : t.val = (i 1).val / 128 * 15 + (i 0).val := rfl
  obtain ⟨e0, e1, e2⟩ := out_idx1 t
  refine ⟨t, out_flush1 t, ?_⟩
  rw [out_mem1]
  intro a
  match a with
  | ⟨0, _⟩ =>
    show ((cfg1 (F := Ideal) adm1).win 2).index t (0 : Fin 3) * 1 ≤ (i 0).val
      ∧ (i 0).val < ((cfg1 (F := Ideal) adm1).win 2).index t (0 : Fin 3) * 1 + 1
    omega
  | ⟨1, _⟩ =>
    show ((cfg1 (F := Ideal) adm1).win 2).index t (1 : Fin 3) * 128 ≤ (i 1).val
      ∧ (i 1).val < ((cfg1 (F := Ideal) adm1).win 2).index t (1 : Fin 3) * 128 + 128
    omega
  | ⟨2, _⟩ =>
    show ((cfg1 (F := Ideal) adm1).win 2).index t (2 : Fin 3) * 1024 ≤ (i 2).val
      ∧ (i 2).val < ((cfg1 (F := Ideal) adm1).win 2).index t (2 : Fin 3) * 1024 + 1024
    omega

/-- THE OUTPUT ARRAY after the region's run: entry `(j, b, k)` is row `b`, column `k` of joint `j`'s rows. -/
theorem cell1_arrAt (c : Dev nD) (H : Fin 15 → Fin 256 → Fin 1024 → EReal)
    (hH : ∀ (t : Fin (cfg1 (F := Ideal) adm1).N) (p : Fin 128) (q : Fin 1024),
      (hrow1 (F := Ideal) V c t : S1x128x1024.Idx → EReal) (ValueIdx.ix3 (0 : Fin 1) p q)
        = H ⟨t.val % 15, Nat.mod_lt _ (by decide)⟩
            ⟨(t.val / 15) * 128 + p.val, by have ht : t.val < 30 := N1_eq (F := Ideal) ▸ t.isLt; have := p.isLt; omega⟩ q)
    (j : Fin 15) (b : Fin 256) (k : Fin 1024) :
    (dat1 (F := Ideal) V c).arrAt 2 (cfg1 (F := Ideal) adm1).N (ValueIdx.ix3 j b k) = H j b k :=
  congrFun ((dat1 (F := Ideal) V c).arrAt_eq_of_cover 2 (rowsArr H) (fun t _ => out_flushed1 V c H hH t) out_cover1)
    (ValueIdx.ix3 j b k)

end

/-! ## Layer two's cell region: the output window's blocks -/

/-- The output window's index map over the thirty points: the joint, the batch half, the whole feature axis. -/
theorem out_idx3 : ∀ t : Fin (cfg3 (F := Ideal) adm3).N,
    ((cfg3 (F := Ideal) adm3).win 2).index t (0 : Fin 3) = t.val % 15
      ∧ ((cfg3 (F := Ideal) adm3).win 2).index t (1 : Fin 3) = t.val / 15
      ∧ ((cfg3 (F := Ideal) adm3).win 2).index t (2 : Fin 3) = 0 :=
  (by decide +kernel : ∀ t : Fin grid3.N, _)

/-- The output window is written back at every point. -/
theorem out_flush3 : ∀ t : Fin (cfg3 (F := Ideal) adm3).N, ((cfg3 (F := Ideal) adm3).win 2).flush t = true :=
  (by decide +kernel : ∀ t : Fin grid3.N, _)

section
variable (V : (c : Dev nD) → (b : Ref sig .tc) → Buf (Elt Ideal) ((c : Thread nD τ).loc b))

/-- What point `t` writes back is its block of the array of rows: joint `t % 15`, rows `(t / 15) · 128 …`. -/
theorem out_flushed3 (c : Dev nD) (H : Fin 15 → Fin 256 → Fin 1024 → EReal)
    (hH : ∀ (t : Fin (cfg3 (F := Ideal) adm3).N) (p : Fin 128) (q : Fin 1024),
      (hrow3 (F := Ideal) V c t : S1x128x1024.Idx → EReal) (ValueIdx.ix3 (0 : Fin 1) p q)
        = H ⟨t.val % 15, Nat.mod_lt _ (by decide)⟩
            ⟨(t.val / 15) * 128 + p.val, by have ht : t.val < 30 := N3_eq (F := Ideal) ▸ t.isLt; have := p.isLt; omega⟩ q)
    (t : Fin (cfg3 (F := Ideal) adm3).N) :
    (dat3 (F := Ideal) V c).flushed 2 t
      = (((cfg3 (F := Ideal) adm3).win 2).blk t).view.read (Elt Ideal) (rowsArr H) := by
  obtain ⟨e0, e1, e2⟩ := out_idx3 t
  funext j
  obtain ⟨z, p, q, rfl⟩ : ∃ (z : Fin 1) (p : Fin 128) (q : Fin 1024), j = ValueIdx.ix3 z p q := ⟨j 0, j 1, j 2, ValueIdx.eq_ix3 j⟩
  obtain rfl : z = 0 := Subsingleton.elim _ _
  show (hrow3 (F := Ideal) V c t : S1x128x1024.Idx → EReal) (ValueIdx.ix3 (0 : Fin 1) p q)
    = rowsArr H ((((cfg3 (F := Ideal) adm3).win 2).blk t).view.emb (ValueIdx.ix3 (0 : Fin 1) p q))
  refine (hH t p q).trans ?_
  have h0 : (((((cfg3 (F := Ideal) adm3).win 2).blk t).view.emb (ValueIdx.ix3 (0 : Fin 1) p q)) 0).val = t.val % 15 := by
    show ((cfg3 (F := Ideal) adm3).win 2).index t (0 : Fin 3) * 1 + 1 * 0 = _; omega
  have h1 : (((((cfg3 (F := Ideal) adm3).win 2).blk t).view.emb (ValueIdx.ix3 (0 : Fin 1) p q)) 1).val = (t.val / 15) * 128 + p.val := by
    show ((cfg3 (F := Ideal) adm3).win 2).index t (1 : Fin 3) * 128 + 1 * p.val = _; omega
  have h2 : (((((cfg3 (F := Ideal) adm3).win 2).blk t).view.emb (ValueIdx.ix3 (0 : Fin 1) p q)) 2).val = q.val := by
    show ((cfg3 (F := Ideal) adm3).win 2).index t (2 : Fin 3) * 1024 + 1 * q.val = _; omega
  have e : ∀ (x x' : Fin 15) (y y' : Fin 256) (z z' : Fin 1024), x = x' → y = y' → z = z' → H x y z = H x' y' z' := by
    intro x x' y y' z z' hx hy hz; rw [hx, hy, hz]
  exact e _ _ _ _ _ _ (Fin.ext h0.symm) (Fin.ext h1.symm) (Fin.ext h2.symm)

/-- An index of the output array is in point `t`'s block iff each coordinate is in the block's range on its axis. -/
theorem out_mem3 (t : Fin (cfg3 (F := Ideal) adm3).N) (i : S15x256x1024.Idx) :
    i ∈ (((cfg3 (F := Ideal) adm3).win 2).blk t).view.set
      ↔ ∀ a : Fin 3, ((cfg3 (F := Ideal) adm3).win 2).index t a * S1x128x1024.size a ≤ (i a).val
          ∧ (i a).val < ((cfg3 (F := Ideal) adm3).win 2).index t a * S1x128x1024.size a + S1x128x1024.size a := by
  show i ∈ ((View.whole main_v32).slice (((cfg3 (F := Ideal) adm3).win 2).rect t)).set ↔ _
  rw [View.set_slice_whole, Rect.mem_set_unit]
  exact Iff.rfl

/-- Every index of the output array is in the block of the point of its joint and batch half:
    entry `(j, b, ·)` in point `(b / 128) · 15 + j`. -/
theorem out_cover3 (i : S15x256x1024.Idx) :
    ∃ t : Fin (cfg3 (F := Ideal) adm3).N, ((cfg3 (F := Ideal) adm3).win 2).flush t = true
      ∧ i ∈ (((cfg3 (F := Ideal) adm3).win 2).blk t).view.set := by
  have hi0 : (i 0).val < 15 := (i 0).isLt
  have hi1 : (i 1).val < 256 := (i 1).isLt
  have hi2 : (i 2).val < 1024 := (i 2).isLt
  have ht : (i 1).val / 128 * 15 + (i 0).val < (cfg3 (F := Ideal) adm3).N := by rw [N3_eq]; omega
  let t : Fin (cfg3 (F := Ideal) adm3).N := ⟨(i 1).val / 128 * 15 + (i 0).val, ht⟩
  have htv : t.val = (i 1).val / 128 * 15 + (i 0).val := rfl
  obtain ⟨e0, e1, e2⟩ := out_idx3 t
  refine ⟨t, out_flush3 t, ?_⟩
  rw [out_mem3]
  intro a
  match a with
  | ⟨0, _⟩ =>
    show ((cfg3 (F := Ideal) adm3).win 2).index t (0 : Fin 3) * 1 ≤ (i 0).val
      ∧ (i 0).val < ((cfg3 (F := Ideal) adm3).win 2).index t (0 : Fin 3) * 1 + 1
    omega
  | ⟨1, _⟩ =>
    show ((cfg3 (F := Ideal) adm3).win 2).index t (1 : Fin 3) * 128 ≤ (i 1).val
      ∧ (i 1).val < ((cfg3 (F := Ideal) adm3).win 2).index t (1 : Fin 3) * 128 + 128
    omega
  | ⟨2, _⟩ =>
    show ((cfg3 (F := Ideal) adm3).win 2).index t (2 : Fin 3) * 1024 ≤ (i 2).val
      ∧ (i 2).val < ((cfg3 (F := Ideal) adm3).win 2).index t (2 : Fin 3) * 1024 + 1024
    omega

/-- THE OUTPUT ARRAY after the region's run: entry `(j, b, k)` is row `b`, column `k` of joint `j`'s rows. -/
theorem cell3_arrAt (c : Dev nD) (H : Fin 15 → Fin 256 → Fin 1024 → EReal)
    (hH : ∀ (t : Fin (cfg3 (F := Ideal) adm3).N) (p : Fin 128) (q : Fin 1024),
      (hrow3 (F := Ideal) V c t : S1x128x1024.Idx → EReal) (ValueIdx.ix3 (0 : Fin 1) p q)
        = H ⟨t.val % 15, Nat.mod_lt _ (by decide)⟩
            ⟨(t.val / 15) * 128 + p.val, by have ht : t.val < 30 := N3_eq (F := Ideal) ▸ t.isLt; have := p.isLt; omega⟩ q)
    (j : Fin 15) (b : Fin 256) (k : Fin 1024) :
    (dat3 (F := Ideal) V c).arrAt 2 (cfg3 (F := Ideal) adm3).N (ValueIdx.ix3 j b k) = H j b k :=
  congrFun ((dat3 (F := Ideal) V c).arrAt_eq_of_cover 2 (rowsArr H) (fun t _ => out_flushed3 V c H hH t) out_cover3)
    (ValueIdx.ix3 j b k)

end

end Cert.KernelIdeal.Hand

end
-- ==== Proof.KI.CellValue.lean ====
import proofs.«408307_j89713276879117_3_alg».proof.Proof.SpecG
import proofs.«408307_j89713276879117_3_alg».proof.Proof.KI.Cell1
import proofs.«408307_j89713276879117_3_alg».proof.Proof.KI.Cell3
import proofs.«408307_j89713276879117_3_alg».proof.Proof.KI.CellPay
import proofs.«408307_j89713276879117_3_alg».proof.Proof.KI.CellBlocks
import Idealize.ShloMosaic.Lib.Pipeline.Value
import Idealize.ShloMosaic.Lib.ValueIdx
import Idealize.ShloMosaic.Lib.ValueLayout
import Idealize.ShloMosaic.PureOps.Ideal.Laws

/-! The value of the two cell regions at the ideal values.

    A cell region walks the fifteen joints once per half of the batch (points `t = b · 15 + i`), keeping the joints'
    states in a table of sixteen rows: the point of joint step `i` reads the row of joint `i + 1`'s parent, applies
    one cell to it with the block of pre-computed input projections of joint `i + 1` and the recurrent weights, and
    writes row `i + 1` and the output block. By induction along a walk every row of the table holds, on the walk's 128
    batch rows, the specification's table of the joints filled so far; so what point `t` leaves in the output block
    is joint `t % 15 + 1`'s hidden state on rows `(t / 15) · 128 …`, and the output array, block by block, is the
    hidden states of joints 1 … 15. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! # The first layer's cell region -/

/-- the recurrent weights and the pre-computed projections as region 1 finds them -/
def whh1 (c : Dev nD) : Fin 4096 → Fin 1024 → EReal := fun n k => (V c main_v7 : S4096x1024.Idx → EReal) (ValueIdx.ix2 n k)
def gx1 (c : Dev nD) : Nat → Cert.Spec.Proj := fun j b n =>
  if h : j - 1 < 15 then (V c main_v15 : S15x256x4096.Idx → EReal) (ValueIdx.ix3 (⟨j - 1, h⟩ : Fin 15) b n) else 0

/-- The printed index maps over the grid: the joint step is the fast coordinate, the batch half the slow one. -/
theorem idx_facts1 : ∀ t : Fin grid1.N,
    cc1_transform_0 (grid1.coords t) 0 = t.val % 15 ∧ cc1_transform_0 (grid1.coords t) 1 = t.val / 15 ∧ cc1_transform_0 (grid1.coords t) 2 = 0
    ∧ cc1_transform_1 (grid1.coords t) 0 = 0 ∧ cc1_transform_1 (grid1.coords t) 1 = 0
    ∧ cc1_transform_2 (grid1.coords t) 0 = t.val % 15 ∧ cc1_transform_2 (grid1.coords t) 1 = t.val / 15 ∧ cc1_transform_2 (grid1.coords t) 2 = 0 := by
  decide +kernel

theorem xblk1_apply (c : Dev nD) (t : Fin (cfg1 (F := Ideal) adm1).N) (u : Fin 1) (p : Fin 128) (n : Fin 4096)
    (i : Fin 15) (r : Fin 256) (hi : i.val = t.val % 15) (hr : r.val = t.val / 15 * 128 + p.val) :
    xblk1 V c t (ValueIdx.ix3 u p n) = (V c main_v15 : S15x256x4096.Idx → EReal) (ValueIdx.ix3 i r n) := by
  obtain ⟨e0, e1, e2, -⟩ := idx_facts1 t
  show (V c main_v15 : S15x256x4096.Idx → EReal) ((((cfg1 (F := Ideal) adm1).win 0).blk t).view.emb (ValueIdx.ix3 u p n)) = _
  congr 1
  funext a
  apply Fin.ext
  match a with
  | ⟨0, _⟩ => show cc1_transform_0 (grid1.coords t) 0 * 1 + 1 * u.val = i.val; have := u.isLt; omega
  | ⟨1, _⟩ => show cc1_transform_0 (grid1.coords t) 1 * 128 + 1 * p.val = r.val; omega
  | ⟨2, _⟩ => show cc1_transform_0 (grid1.coords t) 2 * 4096 + 1 * n.val = n.val; omega

theorem wblk1_apply (c : Dev nD) (t : Fin (cfg1 (F := Ideal) adm1).N) (n : Fin 4096) (k : Fin 1024) :
    wblk1 V c t (ValueIdx.ix2 n k) = whh1 V c n k := by
  obtain ⟨-, -, -, e3, e4, -⟩ := idx_facts1 t
  show (V c main_v7 : S4096x1024.Idx → EReal) ((((cfg1 (F := Ideal) adm1).win 1).blk t).view.emb (ValueIdx.ix2 n k)) = _
  unfold whh1
  congr 1
  funext a
  apply Fin.ext
  match a with
  | ⟨0, _⟩ => show cc1_transform_1 (grid1.coords t) 0 * 4096 + 1 * n.val = n.val; omega
  | ⟨1, _⟩ => show cc1_transform_1 (grid1.coords t) 1 * 1024 + 1 * k.val = k.val; omega

theorem gx1_apply (c : Dev nD) (j : ℕ) (h : j < 15) (r : Fin 256) (n : Fin 4096) :
    gx1 V c (j + 1) r n = (V c main_v15 : S15x256x4096.Idx → EReal) (ValueIdx.ix3 (⟨j, h⟩ : Fin 15) r n) := by
  unfold gx1
  rw [dif_pos (show j + 1 - 1 < 15 from h)]
  rfl

/-- The parent table is the tree's. -/
theorem par1_eq : ∀ i : Fin 15, par1 i.val = Cert.Spec.par (i.val + 1) := by decide

/-! ## A table row against a joint's state -/

/-- The row holds, on the 128 batch rows of half `b`, the state `S`. -/
def RowOK (b : ℕ) (R : Row1 Ideal) (S : Cert.Spec.St) : Prop :=
  ∀ (p : Fin 128) (r : Fin 256), r.val = b * 128 + p.val →
    (∀ q : Fin 1024, R.1 (ValueIdx.ix3 (0 : Fin 1) p q) = S.1 r q) ∧ (∀ q : Fin 1024, R.2 (ValueIdx.ix3 (0 : Fin 1) p q) = S.2 r q)

theorem rowOK_zero (b : ℕ) : RowOK b (zrow1 (F := Ideal)) Cert.Spec.zeroSt := fun p r _ =>
  ⟨fun q => k1_pay3_apply (ValueIdx.ix3 (0 : Fin 1) p q), fun q => k1_pay4_apply (ValueIdx.ix3 (0 : Fin 1) p q)⟩

theorem rowOK_cell (b : ℕ) (R : Row1 Ideal) (S : Cert.Spec.St) (h : RowOK b R S)
    (x : Vec Ideal S1x128x4096 .bf16) (w : Vec Ideal S4096x1024 .bf16) (Whh : Fin 4096 → Fin 1024 → EReal) (G : Cert.Spec.Proj)
    (hw : ∀ n k, w (ValueIdx.ix2 n k) = Whh n k)
    (hg : ∀ (p : Fin 128) (r : Fin 256), r.val = b * 128 + p.val → ∀ n, x (ValueIdx.ix3 (0 : Fin 1) p n) = G r n) :
    RowOK b (cell1 R x w) (Cert.Spec.cellG Whh G S) := by
  intro p r hr
  obtain ⟨h1, h2⟩ := h p r hr
  constructor
  · intro q
    show k1_pay8 (F := Ideal) R.1 R.2 x w (ValueIdx.ix3 (0 : Fin 1) p q) = Cert.Spec.cellHG Whh G S.1 S.2 r q
    rw [k1_pay8_apply]
    exact hnewE_eq_cellHG Whh G S.1 S.2 x w R.1 R.2 p r hw (hg p r hr) h1 h2 q
  · intro q
    show k1_pay1 (F := Ideal) (k1_pay6 (F := Ideal) R.1 R.2 x w) (ValueIdx.ix3 (0 : Fin 1) p q) = Cert.Spec.cellCG Whh G S.1 S.2 r q
    rw [k1_pay1_apply, k1_pay6_apply]
    exact cnewE_eq_cellCG Whh G S.1 S.2 x w R.1 R.2 p r hw (hg p r hr) h1 h2 q

theorem out1_apply (b : ℕ) (R : Row1 Ideal) (S : Cert.Spec.St) (h : RowOK b R S)
    (x : Vec Ideal S1x128x4096 .bf16) (w : Vec Ideal S4096x1024 .bf16) (Whh : Fin 4096 → Fin 1024 → EReal) (G : Cert.Spec.Proj)
    (hw : ∀ n k, w (ValueIdx.ix2 n k) = Whh n k)
    (hg : ∀ (p : Fin 128) (r : Fin 256), r.val = b * 128 + p.val → ∀ n, x (ValueIdx.ix3 (0 : Fin 1) p n) = G r n)
    (u : Fin 1) (p : Fin 128) (q : Fin 1024) (r : Fin 256) (hr : r.val = b * 128 + p.val) :
    out1 R x w (ValueIdx.ix3 u p q) = (Cert.Spec.cellG Whh G S).1 r q := by
  obtain ⟨h1, h2⟩ := h p r hr
  show k1_pay2 (F := Ideal) (k1_pay7 (F := Ideal) R.1 R.2 x w) (ValueIdx.ix3 u p q) = Cert.Spec.cellHG Whh G S.1 S.2 r q
  rw [k1_pay2_apply, k1_pay7_apply]
  exact hnewE_eq_cellHG Whh G S.1 S.2 x w R.1 R.2 p r hw (hg p r hr) h1 h2 q

/-! ## The kernel's table along a walk -/

theorem tabG_eq_update (p : ℕ → ℕ) (c : Dev nD) (n : ℕ) :
    tabG V p c n = Function.update (baseG V p c n) (n % 15 + 1)
      (cell1 (baseG V p c n (p (n % 15))) (xblk1 V c (ptOf1 n)) (wblk1 V c (ptOf1 n))) := by
  cases n with
  | zero => rfl
  | succ n => rfl

theorem ptOf1_val (n : ℕ) (h : n < 30) : (ptOf1 (F := Ideal) n).val = n := by
  unfold ptOf1
  rw [dif_pos (by rw [N1_eq]; exact h)]

/-- Along the walk of batch half `b`, before and after the point of joint step `i`, every row of the kernel's
    table holds the specification's table of the joints filled so far, on that half's batch rows. -/
theorem walk_ok (c : Dev nD) (b : ℕ) (hb : b < 2) : ∀ i, i < 15 →
    (∀ r, RowOK b (baseG V par1 c (b * 15 + i) r) (Cert.Spec.tabG (whh1 V c) (gx1 V c) i r))
    ∧ (∀ r, RowOK b (tabG V par1 c (b * 15 + i) r) (Cert.Spec.tabG (whh1 V c) (gx1 V c) (i + 1) r)) := by
  have step : ∀ i, i < 15 →
      (∀ r, RowOK b (baseG V par1 c (b * 15 + i) r) (Cert.Spec.tabG (whh1 V c) (gx1 V c) i r)) →
      (∀ r, RowOK b (tabG V par1 c (b * 15 + i) r) (Cert.Spec.tabG (whh1 V c) (gx1 V c) (i + 1) r)) := by
    intro i hi hbase r
    have hmod : (b * 15 + i) % 15 = i := by omega
    have hpt : (ptOf1 (F := Ideal) (b * 15 + i)).val = b * 15 + i := ptOf1_val _ (by omega)
    rw [tabG_eq_update, hmod]
    show RowOK b _ (Function.update (Cert.Spec.tabG (whh1 V c) (gx1 V c) i) (i + 1)
      (Cert.Spec.cellG (whh1 V c) (gx1 V c (i + 1)) (Cert.Spec.tabG (whh1 V c) (gx1 V c) i (Cert.Spec.par (i + 1)))) r)
    rw [Function.update_apply, Function.update_apply]
    by_cases hr : r = i + 1
    · rw [if_pos hr, if_pos hr, par1_eq ⟨i, hi⟩]
      refine rowOK_cell b _ _ (hbase _) _ _ _ _ (fun n k => wblk1_apply V c _ n k) ?_
      intro p r' hr' n
      rw [gx1_apply V c i hi]
      refine xblk1_apply V c (ptOf1 (b * 15 + i)) 0 p n ⟨i, hi⟩ r' ?_ ?_
      · rw [hpt, hmod]
      · rw [hpt, hr', show (b * 15 + i) / 15 = b by omega]
    · rw [if_neg hr, if_neg hr]
      exact hbase r
  intro i
  induction i with
  | zero =>
    intro hi
    have h0 : ∀ r, RowOK b (baseG V par1 c (b * 15 + 0) r) (Cert.Spec.tabG (whh1 V c) (gx1 V c) 0 r) := by
      intro r
      unfold baseG
      rw [if_pos (by omega)]
      exact rowOK_zero b
    exact ⟨h0, step 0 hi h0⟩
  | succ i ih =>
    intro hi
    have hb' : ∀ r, RowOK b (baseG V par1 c (b * 15 + (i + 1)) r) (Cert.Spec.tabG (whh1 V c) (gx1 V c) (i + 1) r) := by
      intro r
      unfold baseG
      rw [if_neg (by omega), show b * 15 + (i + 1) - 1 = b * 15 + i by omega]
      exact (ih (by omega)).2 r
    exact ⟨hb', step (i + 1) hi hb'⟩

/-- WHAT POINT `t` LEAVES IN THE OUTPUT BLOCK: the hidden state of joint `t % 15 + 1` on the batch rows of half `t / 15`. -/
theorem hrow1_value (c : Dev nD) (t : Fin (cfg1 (F := Ideal) adm1).N) (u : Fin 1) (p : Fin 128) (q : Fin 1024)
    (r : Fin 256) (hr : r.val = t.val / 15 * 128 + p.val) :
    hrow1 (F := Ideal) V c t (ValueIdx.ix3 u p q) = Cert.Spec.hidG (whh1 V c) (gx1 V c) (t.val % 15 + 1) r q := by
  have hN : t.val < 30 := lt_of_lt_of_eq t.isLt N1_eq
  have hb : t.val / 15 < 2 := by omega
  have hi : t.val % 15 < 15 := by omega
  have ht : t.val = t.val / 15 * 15 + t.val % 15 := by omega
  obtain ⟨hbase, -⟩ := walk_ok V c (t.val / 15) hb (t.val % 15) hi
  have hbase' := hbase (par1 (t.val % 15))
  rw [← ht] at hbase'
  unfold hrow1
  rw [out1_apply (t.val / 15) _ _ hbase' _ _ (whh1 V c) (gx1 V c (t.val % 15 + 1)) (fun n k => wblk1_apply V c t n k)
    (fun p' r' hr' n => by
      rw [gx1_apply V c (t.val % 15) hi]
      exact xblk1_apply V c t 0 p' n ⟨t.val % 15, hi⟩ r' rfl hr') u p q r hr]
  unfold Cert.Spec.hidG
  rw [Cert.Spec.tabG_stable (whh1 V c) (gx1 V c) (show t.val % 15 + 1 ≤ 15 by omega), Cert.Spec.tabG_succ_self,
    par1_eq ⟨t.val % 15, hi⟩]

/-- THE FIRST LAYER'S HIDDEN STATES after region 1: entry `(j, b, k)` of its output array is joint `j + 1`'s hidden
    state at batch row `b`, column `k`, of the recurrence over the weights and projections the region finds. -/
theorem cell1_value (c : Dev nD) (j : Fin 15) (b : Fin 256) (k : Fin 1024) :
    (dat1 (F := Ideal) V c).arrAt 2 (cfg1 (F := Ideal) adm1).N (ValueIdx.ix3 j b k)
      = Cert.Spec.hidG (whh1 V c) (gx1 V c) (j.val + 1) b k :=
  cell1_arrAt V c (fun j b k => Cert.Spec.hidG (whh1 V c) (gx1 V c) (j.val + 1) b k)
    (fun t p q => hrow1_value V c t 0 p q _ rfl) j b k

/-! # The second layer's cell region -/

/-- the recurrent weights and the pre-computed projections as region 3 finds them -/
def whh3 (c : Dev nD) : Fin 4096 → Fin 1024 → EReal := fun n k => (V c main_v23 : S4096x1024.Idx → EReal) (ValueIdx.ix2 n k)
def gx3 (c : Dev nD) : Nat → Cert.Spec.Proj := fun j b n =>
  if h : j - 1 < 15 then (V c main_v31 : S15x256x4096.Idx → EReal) (ValueIdx.ix3 (⟨j - 1, h⟩ : Fin 15) b n) else 0

/-- The printed index maps over the grid: the joint step is the fast coordinate, the batch half the slow one. -/
theorem idx_facts3 : ∀ t : Fin grid3.N,
    cc3_transform_0 (grid3.coords t) 0 = t.val % 15 ∧ cc3_transform_0 (grid3.coords t) 1 = t.val / 15 ∧ cc3_transform_0 (grid3.coords t) 2 = 0
    ∧ cc3_transform_1 (grid3.coords t) 0 = 0 ∧ cc3_transform_1 (grid3.coords t) 1 = 0
    ∧ cc3_transform_2 (grid3.coords t) 0 = t.val % 15 ∧ cc3_transform_2 (grid3.coords t) 1 = t.val / 15 ∧ cc3_transform_2 (grid3.coords t) 2 = 0 := by
  decide +kernel

theorem xblk3_apply (c : Dev nD) (t : Fin (cfg3 (F := Ideal) adm3).N) (u : Fin 1) (p : Fin 128) (n : Fin 4096)
    (i : Fin 15) (r : Fin 256) (hi : i.val = t.val % 15) (hr : r.val = t.val / 15 * 128 + p.val) :
    xblk3 V c t (ValueIdx.ix3 u p n) = (V c main_v31 : S15x256x4096.Idx → EReal) (ValueIdx.ix3 i r n) := by
  obtain ⟨e0, e1, e2, -⟩ := idx_facts3 t
  show (V c main_v31 : S15x256x4096.Idx → EReal) ((((cfg3 (F := Ideal) adm3).win 0).blk t).view.emb (ValueIdx.ix3 u p n)) = _
  congr 1
  funext a
  apply Fin.ext
  match a with
  | ⟨0, _⟩ => show cc3_transform_0 (grid3.coords t) 0 * 1 + 1 * u.val = i.val; have := u.isLt; omega
  | ⟨1, _⟩ => show cc3_transform_0 (grid3.coords t) 1 * 128 + 1 * p.val = r.val; omega
  | ⟨2, _⟩ => show cc3_transform_0 (grid3.coords t) 2 * 4096 + 1 * n.val = n.val; omega

theorem wblk3_apply (c : Dev nD) (t : Fin (cfg3 (F := Ideal) adm3).N) (n : Fin 4096) (k : Fin 1024) :
    wblk3 V c t (ValueIdx.ix2 n k) = whh3 V c n k := by
  obtain ⟨-, -, -, e3, e4, -⟩ := idx_facts3 t
  show (V c main_v23 : S4096x1024.Idx → EReal) ((((cfg3 (F := Ideal) adm3).win 1).blk t).view.emb (ValueIdx.ix2 n k)) = _
  unfold whh3
  congr 1
  funext a
  apply Fin.ext
  match a with
  | ⟨0, _⟩ => show cc3_transform_1 (grid3.coords t) 0 * 4096 + 1 * n.val = n.val; omega
  | ⟨1, _⟩ => show cc3_transform_1 (grid3.coords t) 1 * 1024 + 1 * k.val = k.val; omega

theorem gx3_apply (c : Dev nD) (j : ℕ) (h : j < 15) (r : Fin 256) (n : Fin 4096) :
    gx3 V c (j + 1) r n = (V c main_v31 : S15x256x4096.Idx → EReal) (ValueIdx.ix3 (⟨j, h⟩ : Fin 15) r n) := by
  unfold gx3
  rw [dif_pos (show j + 1 - 1 < 15 from h)]
  rfl

/-- The parent table is the tree's. -/
theorem par3_eq : ∀ i : Fin 15, par3 i.val = Cert.Spec.par (i.val + 1) := by decide

theorem rowOK_zero3 (b : ℕ) : RowOK b (zrow3 (F := Ideal)) Cert.Spec.zeroSt := fun p r _ =>
  ⟨fun q => k3_pay3_apply (ValueIdx.ix3 (0 : Fin 1) p q), fun q => k3_pay4_apply (ValueIdx.ix3 (0 : Fin 1) p q)⟩

theorem rowOK_cell3 (b : ℕ) (R : Row3 Ideal) (S : Cert.Spec.St) (h : RowOK b R S)
    (x : Vec Ideal S1x128x4096 .bf16) (w : Vec Ideal S4096x1024 .bf16) (Whh : Fin 4096 → Fin 1024 → EReal) (G : Cert.Spec.Proj)
    (hw : ∀ n k, w (ValueIdx.ix2 n k) = Whh n k)
    (hg : ∀ (p : Fin 128) (r : Fin 256), r.val = b * 128 + p.val → ∀ n, x (ValueIdx.ix3 (0 : Fin 1) p n) = G r n) :
    RowOK b (cell3 R x w) (Cert.Spec.cellG Whh G S) := by
  intro p r hr
  obtain ⟨h1, h2⟩ := h p r hr
  constructor
  · intro q
    show k3_pay8 (F := Ideal) R.1 R.2 x w (ValueIdx.ix3 (0 : Fin 1) p q) = Cert.Spec.cellHG Whh G S.1 S.2 r q
    rw [k3_pay8_apply]
    exact hnewE_eq_cellHG Whh G S.1 S.2 x w R.1 R.2 p r hw (hg p r hr) h1 h2 q
  · intro q
    show k3_pay1 (F := Ideal) (k3_pay6 (F := Ideal) R.1 R.2 x w) (ValueIdx.ix3 (0 : Fin 1) p q) = Cert.Spec.cellCG Whh G S.1 S.2 r q
    rw [k3_pay1_apply, k3_pay6_apply]
    exact cnewE_eq_cellCG Whh G S.1 S.2 x w R.1 R.2 p r hw (hg p r hr) h1 h2 q

theorem out3_apply (b : ℕ) (R : Row3 Ideal) (S : Cert.Spec.St) (h : RowOK b R S)
    (x : Vec Ideal S1x128x4096 .bf16) (w : Vec Ideal S4096x1024 .bf16) (Whh : Fin 4096 → Fin 1024 → EReal) (G : Cert.Spec.Proj)
    (hw : ∀ n k, w (ValueIdx.ix2 n k) = Whh n k)
    (hg : ∀ (p : Fin 128) (r : Fin 256), r.val = b * 128 + p.val → ∀ n, x (ValueIdx.ix3 (0 : Fin 1) p n) = G r n)
    (u : Fin 1) (p : Fin 128) (q : Fin 1024) (r : Fin 256) (hr : r.val = b * 128 + p.val) :
    out3 R x w (ValueIdx.ix3 u p q) = (Cert.Spec.cellG Whh G S).1 r q := by
  obtain ⟨h1, h2⟩ := h p r hr
  show k3_pay2 (F := Ideal) (k3_pay7 (F := Ideal) R.1 R.2 x w) (ValueIdx.ix3 u p q) = Cert.Spec.cellHG Whh G S.1 S.2 r q
  rw [k3_pay2_apply, k3_pay7_apply]
  exact hnewE_eq_cellHG Whh G S.1 S.2 x w R.1 R.2 p r hw (hg p r hr) h1 h2 q

/-! ## The kernel's table along a walk -/

theorem tabG3_eq_update (p : ℕ → ℕ) (c : Dev nD) (n : ℕ) :
    tabG3 V p c n = Function.update (baseG3 V p c n) (n % 15 + 1)
      (cell3 (baseG3 V p c n (p (n % 15))) (xblk3 V c (ptOf3 n)) (wblk3 V c (ptOf3 n))) := by
  cases n with
  | zero => rfl
  | succ n => rfl

theorem ptOf3_val (n : ℕ) (h : n < 30) : (ptOf3 (F := Ideal) n).val = n := by
  unfold ptOf3
  rw [dif_pos (by rw [N3_eq]; exact h)]

/-- Along the walk of batch half `b`, before and after the point of joint step `i`, every row of the kernel's
    table holds the specification's table of the joints filled so far, on that half's batch rows. -/
theorem walk_ok3 (c : Dev nD) (b : ℕ) (hb : b < 2) : ∀ i, i < 15 →
    (∀ r, RowOK b (baseG3 V par3 c (b * 15 + i) r) (Cert.Spec.tabG (whh3 V c) (gx3 V c) i r))
    ∧ (∀ r, RowOK b (tabG3 V par3 c (b * 15 + i) r) (Cert.Spec.tabG (whh3 V c) (gx3 V c) (i + 1) r)) := by
  have step : ∀ i, i < 15 →
      (∀ r, RowOK b (baseG3 V par3 c (b * 15 + i) r) (Cert.Spec.tabG (whh3 V c) (gx3 V c) i r)) →
      (∀ r, RowOK b (tabG3 V par3 c (b * 15 + i) r) (Cert.Spec.tabG (whh3 V c) (gx3 V c) (i + 1) r)) := by
    intro i hi hbase r
    have hmod : (b * 15 + i) % 15 = i := by omega
    have hpt : (ptOf3 (F := Ideal) (b * 15 + i)).val = b * 15 + i := ptOf3_val _ (by omega)
    rw [tabG3_eq_update, hmod]
    show RowOK b _ (Function.update (Cert.Spec.tabG (whh3 V c) (gx3 V c) i) (i + 1)
      (Cert.Spec.cellG (whh3 V c) (gx3 V c (i + 1)) (Cert.Spec.tabG (whh3 V c) (gx3 V c) i (Cert.Spec.par (i + 1)))) r)
    rw [Function.update_apply, Function.update_apply]
    by_cases hr : r = i + 1
    · rw [if_pos hr, if_pos hr, par3_eq ⟨i, hi⟩]
      refine rowOK_cell3 b _ _ (hbase _) _ _ _ _ (fun n k => wblk3_apply V c _ n k) ?_
      intro p r' hr' n
      rw [gx3_apply V c i hi]
      refine xblk3_apply V c (ptOf3 (b * 15 + i)) 0 p n ⟨i, hi⟩ r' ?_ ?_
      · rw [hpt, hmod]
      · rw [hpt, hr', show (b * 15 + i) / 15 = b by omega]
    · rw [if_neg hr, if_neg hr]
      exact hbase r
  intro i
  induction i with
  | zero =>
    intro hi
    have h0 : ∀ r, RowOK b (baseG3 V par3 c (b * 15 + 0) r) (Cert.Spec.tabG (whh3 V c) (gx3 V c) 0 r) := by
      intro r
      unfold baseG3
      rw [if_pos (by omega)]
      exact rowOK_zero3 b
    exact ⟨h0, step 0 hi h0⟩
  | succ i ih =>
    intro hi
    have hb' : ∀ r, RowOK b (baseG3 V par3 c (b * 15 + (i + 1)) r) (Cert.Spec.tabG (whh3 V c) (gx3 V c) (i + 1) r) := by
      intro r
      unfold baseG3
      rw [if_neg (by omega), show b * 15 + (i + 1) - 1 = b * 15 + i by omega]
      exact (ih (by omega)).2 r
    exact ⟨hb', step (i + 1) hi hb'⟩

/-- WHAT POINT `t` LEAVES IN THE OUTPUT BLOCK: the hidden state of joint `t % 15 + 1` on the batch rows of half `t / 15`. -/
theorem hrow3_value (c : Dev nD) (t : Fin (cfg3 (F := Ideal) adm3).N) (u : Fin 1) (p : Fin 128) (q : Fin 1024)
    (r : Fin 256) (hr : r.val = t.val / 15 * 128 + p.val) :
    hrow3 (F := Ideal) V c t (ValueIdx.ix3 u p q) = Cert.Spec.hidG (whh3 V c) (gx3 V c) (t.val % 15 + 1) r q := by
  have hN : t.val < 30 := lt_of_lt_of_eq t.isLt N3_eq
  have hb : t.val / 15 < 2 := by omega
  have hi : t.val % 15 < 15 := by omega
  have ht : t.val = t.val / 15 * 15 + t.val % 15 := by omega
  obtain ⟨hbase, -⟩ := walk_ok3 V c (t.val / 15) hb (t.val % 15) hi
  have hbase' := hbase (par3 (t.val % 15))
  rw [← ht] at hbase'
  unfold hrow3
  rw [out3_apply (t.val / 15) _ _ hbase' _ _ (whh3 V c) (gx3 V c (t.val % 15 + 1)) (fun n k => wblk3_apply V c t n k)
    (fun p' r' hr' n => by
      rw [gx3_apply V c (t.val % 15) hi]
      exact xblk3_apply V c t 0 p' n ⟨t.val % 15, hi⟩ r' rfl hr') u p q r hr]
  unfold Cert.Spec.hidG
  rw [Cert.Spec.tabG_stable (whh3 V c) (gx3 V c) (show t.val % 15 + 1 ≤ 15 by omega), Cert.Spec.tabG_succ_self,
    par3_eq ⟨t.val % 15, hi⟩]

/-- THE SECOND LAYER'S HIDDEN STATES after region 3, likewise. -/
theorem cell3_value (c : Dev nD) (j : Fin 15) (b : Fin 256) (k : Fin 1024) :
    (dat3 (F := Ideal) V c).arrAt 2 (cfg3 (F := Ideal) adm3).N (ValueIdx.ix3 j b k)
      = Cert.Spec.hidG (whh3 V c) (gx3 V c) (j.val + 1) b k :=
  cell3_arrAt V c (fun j b k => Cert.Spec.hidG (whh3 V c) (gx3 V c) (j.val + 1) b k)
    (fun t p q => hrow3_value V c t 0 p q _ rfl) j b k

end Cert.KernelIdeal.Hand

end
-- ==== Proof.KI.HostReads.lean ====
import proofs.«408307_j89713276879117_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen
open Idealize.ShloMosaic Idealize.ShloMosaic.ValueIdx

/-! The host stretches of @main read at an index, at the ideal instance: each array a region reads, after the
    stretch run from an arbitrary valuation, is a reshape, a layer's slice (rounded to bf16: the identity on
    extended reals) or the sum of two layers' bias rows of the arrays before it. First the layout terms at an
    index over variables of the literal shapes, then the stretches. -/

section Pure
variable {α : Type}

/-- A `[15, 256, c]` array cast to `[3840, c]` reads, at `(r, k)`, the operand at `(r / 256, r % 256, k)`:
    row-major, `r = (r / 256) · 256 + r % 256`. -/
theorem cast_15x256_apply {c : ℕ} (x : (⟨3, ![15, 256, c]⟩ : Shape).Idx → α)
    (h : (⟨3, ![15, 256, c]⟩ : Shape).ShapeCasts ⟨2, ![3840, c]⟩) (r : Fin 3840) (k : Fin c) :
    shapeCast ⟨2, ![3840, c]⟩ x h (ValueIdx.ix2 r k)
      = x (ValueIdx.ix3 (⟨r.val / 256, by have := r.isLt; omega⟩ : Fin 15) (⟨r.val % 256, by omega⟩ : Fin 256) k) :=
  shapeCast_apply x h _ _ (by
    rw [Shape.rowMajor_val_three, Shape.rowMajor_val_two]
    show (r.val / 256 * 256 + r.val % 256) * c + k.val = r.val * c + k.val
    have e : r.val / 256 * 256 + r.val % 256 = r.val := by omega
    rw [e])

/-- A `[3840, c]` array cast to `[15, 256, c]` reads, at `(j, b, n)`, the operand at `(j · 256 + b, n)`. -/
theorem cast_3840_apply {c : ℕ} (x : (⟨2, ![3840, c]⟩ : Shape).Idx → α)
    (h : (⟨2, ![3840, c]⟩ : Shape).ShapeCasts ⟨3, ![15, 256, c]⟩) (j : Fin 15) (b : Fin 256) (n : Fin c) :
    shapeCast ⟨3, ![15, 256, c]⟩ x h (ValueIdx.ix3 j b n)
      = x (ValueIdx.ix2 (⟨j.val * 256 + b.val, by have := j.isLt; have := b.isLt; omega⟩ : Fin 3840) n) :=
  shapeCast_apply x h _ _ (by
    rw [Shape.rowMajor_val_three, Shape.rowMajor_val_two]
    show (j.val * 256 + b.val) * c + n.val = (j.val * 256 + b.val) * c + n.val
    rfl)

/-- Layer `l` of a `[2, a, b]` array, cut out as a `[1, a, b]` array, reads at `(u, i, j)` the source at `(l, i, j)`. -/
theorem slice_layer3_apply {a b : ℕ} (l : ℕ) (hl : l < 2) (x : (⟨3, ![2, a, b]⟩ : Shape).Idx → α)
    (h : (⟨3, ![2, a, b]⟩ : Shape).Slices ![l, 0, 0] ⟨3, ![1, a, b]⟩) (u : Fin 1) (i : Fin a) (j : Fin b) :
    extractStridedSlice ⟨3, ![1, a, b]⟩ ![l, 0, 0] x h (ValueIdx.ix3 u i j) = x (ValueIdx.ix3 (⟨l, hl⟩ : Fin 2) i j) :=
  extractStridedSlice_apply _ _ _ _ _ (fun ax => by
    match ax with
    | ⟨0, _⟩ => show l = l + u.val; omega
    | ⟨1, _⟩ => exact (Nat.zero_add _).symm
    | ⟨2, _⟩ => exact (Nat.zero_add _).symm)

/-- A layer's weight matrix as the regions read it: layer `l` of a `[2, a, b]` array cut out, its unit axis dropped,
    rounded to a narrower format — at the ideal instance the source at `(l, i, j)`. -/
theorem layer_weight_apply {a b : ℕ} {φ ψ : FTy} (l : ℕ) (hl : l < 2) (x : FVec Ideal ⟨3, ![2, a, b]⟩ φ)
    (hs : (⟨3, ![2, a, b]⟩ : Shape).Slices ![l, 0, 0] ⟨3, ![1, a, b]⟩)
    (hc : (⟨3, ![1, a, b]⟩ : Shape).ShapeCasts ⟨2, ![a, b]⟩) (hb : ψ.bits < φ.bits) (i : Fin a) (j : Fin b) :
    (truncf ψ (shapeCast ⟨2, ![a, b]⟩ (extractStridedSlice ⟨3, ![1, a, b]⟩ ![l, 0, 0] x hs) hc : FVec Ideal ⟨2, ![a, b]⟩ φ) hb
        : FVec Ideal ⟨2, ![a, b]⟩ ψ) (ValueIdx.ix2 i j)
      = x (ValueIdx.ix3 (⟨l, hl⟩ : Fin 2) i j) := by
  rw [truncf_apply, shapeCast_1ab_ab_apply]
  exact slice_layer3_apply l hl x hs 0 i j

/-- A layer's bias row as the regions read it: layer `l` of each of two `[2, a]` arrays cut out and flattened, the two
    added, a unit axis put in front — at the ideal instance the sum of the sources at `(l, i)`. -/
theorem layer_bias_apply {a : ℕ} {φ : FTy} (l : ℕ) (hl : l < 2) (x y : FVec Ideal ⟨2, ![2, a]⟩ φ)
    (hs : (⟨2, ![2, a]⟩ : Shape).Slices ![l, 0] ⟨2, ![1, a]⟩)
    (hc : (⟨2, ![1, a]⟩ : Shape).ShapeCasts ⟨1, ![a]⟩) (hc' : (⟨1, ![a]⟩ : Shape).ShapeCasts ⟨2, ![1, a]⟩)
    (u : Fin 1) (i : Fin a) :
    (shapeCast ⟨2, ![1, a]⟩
        (addf (shapeCast ⟨1, ![a]⟩ (extractStridedSlice ⟨2, ![1, a]⟩ ![l, 0] x hs) hc : FVec Ideal ⟨1, ![a]⟩ φ)
              (shapeCast ⟨1, ![a]⟩ (extractStridedSlice ⟨2, ![1, a]⟩ ![l, 0] y hs) hc : FVec Ideal ⟨1, ![a]⟩ φ)) hc'
        : FVec Ideal ⟨2, ![1, a]⟩ φ) (ValueIdx.ix2 u i)
      = x (ValueIdx.ix2 (⟨l, hl⟩ : Fin 2) i) + y (ValueIdx.ix2 (⟨l, hl⟩ : Fin 2) i) := by
  rw [shapeCast_a_1a_apply, addf_apply, shapeCast_1a_a_apply, shapeCast_1a_a_apply,
    slice2_axis0_apply l x hs (0 : Fin 1) i (⟨l, hl⟩ : Fin 2) (by show l = l + 0; omega),
    slice2_axis0_apply l y hs (0 : Fin 1) i (⟨l, hl⟩ : Fin 2) (by show l = l + 0; omega)]

end Pure

/-! ## The four stretches -/

set_option maxHeartbeats 400000

/-- `main_v0` after the stretch is `main_arg0` with its two leading axes merged: row `r` is joint `r / 256`, batch row `r % 256`. -/
theorem ho0_v0 (W : Valuation τ sig (Elt Ideal)) (r : Fin 3840) (k : Fin 512) :
    (StableHlo.after (hostOps0 (F := Ideal)) W (Proc.devRef .tc main_v0) : S3840x512.Idx → EReal) (ValueIdx.ix2 r k)
      = (W (Proc.devRef .tc main_arg0) : S15x256x512.Idx → EReal)
          (ValueIdx.ix3 (⟨r.val / 256, by have := r.isLt; omega⟩ : Fin 15) (⟨r.val % 256, by omega⟩ : Fin 256) k) := by
  show StableHlo.after (hostOps0 (F := Ideal)) W (Proc.devRef .tc main_v0) (ValueIdx.ix2 r k) = _
  after_results
  exact cast_15x256_apply (W (Proc.devRef .tc main_arg0)) _ r k

/-- `main_v1` after the stretch is `main_arg1` with its two leading axes merged: row `r` is joint `r / 256`, batch row `r % 256`. -/
theorem ho0_v1 (W : Valuation τ sig (Elt Ideal)) (r : Fin 3840) (k : Fin 512) :
    (StableHlo.after (hostOps0 (F := Ideal)) W (Proc.devRef .tc main_v1) : S3840x512.Idx → EReal) (ValueIdx.ix2 r k)
      = (W (Proc.devRef .tc main_arg1) : S15x256x512.Idx → EReal)
          (ValueIdx.ix3 (⟨r.val / 256, by have := r.isLt; omega⟩ : Fin 15) (⟨r.val % 256, by omega⟩ : Fin 256) k) := by
  show StableHlo.after (hostOps0 (F := Ideal)) W (Proc.devRef .tc main_v1) (ValueIdx.ix2 r k) = _
  after_results
  exact cast_15x256_apply (W (Proc.devRef .tc main_arg1)) _ r k

/-- `main_v4` after the stretch is layer 0 of `main_arg2` (rounded to bf16: the identity on extended reals). -/
theorem ho0_v4 (W : Valuation τ sig (Elt Ideal)) (n : Fin 4096) (k : Fin 1024) :
    (StableHlo.after (hostOps0 (F := Ideal)) W (Proc.devRef .tc main_v4) : S4096x1024.Idx → EReal) (ValueIdx.ix2 n k)
      = (W (Proc.devRef .tc main_arg2) : S2x4096x1024.Idx → EReal) (ValueIdx.ix3 (0 : Fin 2) n k) := by
  show StableHlo.after (hostOps0 (F := Ideal)) W (Proc.devRef .tc main_v4) (ValueIdx.ix2 n k) = _
  after_results
  exact layer_weight_apply 0 (by omega) (W (Proc.devRef .tc main_arg2)) _ _ _ n k

/-- `main_v7` after the stretch is layer 0 of `main_arg3` (rounded to bf16: the identity on extended reals). -/
theorem ho0_v7 (W : Valuation τ sig (Elt Ideal)) (n : Fin 4096) (k : Fin 1024) :
    (StableHlo.after (hostOps0 (F := Ideal)) W (Proc.devRef .tc main_v7) : S4096x1024.Idx → EReal) (ValueIdx.ix2 n k)
      = (W (Proc.devRef .tc main_arg3) : S2x4096x1024.Idx → EReal) (ValueIdx.ix3 (0 : Fin 2) n k) := by
  show StableHlo.after (hostOps0 (F := Ideal)) W (Proc.devRef .tc main_v7) (ValueIdx.ix2 n k) = _
  after_results
  exact layer_weight_apply 0 (by omega) (W (Proc.devRef .tc main_arg3)) _ _ _ n k

/-- `main_v13` after the stretch is the sum of layer 0's rows of the two bias arrays (the sum is the extended
    reals'). -/
theorem ho0_v13 (W : Valuation τ sig (Elt Ideal)) (n : Fin 4096) :
    (StableHlo.after (hostOps0 (F := Ideal)) W (Proc.devRef .tc main_v13) : S1x4096.Idx → EReal) (ValueIdx.ix2 (0 : Fin 1) n)
      = @HAdd.hAdd EReal EReal EReal _
          ((W (Proc.devRef .tc main_arg4) : S2x4096.Idx → EReal) (ValueIdx.ix2 (0 : Fin 2) n))
          ((W (Proc.devRef .tc main_arg5) : S2x4096.Idx → EReal) (ValueIdx.ix2 (0 : Fin 2) n)) := by
  show StableHlo.after (hostOps0 (F := Ideal)) W (Proc.devRef .tc main_v13) (ValueIdx.ix2 (0 : Fin 1) n) = _
  after_results
  exact layer_bias_apply 0 (by omega) (W (Proc.devRef .tc main_arg4)) (W (Proc.devRef .tc main_arg5)) _ _ _ 0 n

/-- `main_v15` after the stretch is `main_v14` with its leading axis split: joint `j`, batch row `b` is row `j · 256 + b`. -/
theorem ho1_v15 (W : Valuation τ sig (Elt Ideal)) (j : Fin 15) (b : Fin 256) (n : Fin 4096) :
    (StableHlo.after (hostOps1 (F := Ideal)) W (Proc.devRef .tc main_v15) : S15x256x4096.Idx → EReal) (ValueIdx.ix3 j b n)
      = (W (Proc.devRef .tc main_v14) : S3840x4096.Idx → EReal)
          (ValueIdx.ix2 (⟨j.val * 256 + b.val, by have := j.isLt; have := b.isLt; omega⟩ : Fin 3840) n) := by
  show StableHlo.after (hostOps1 (F := Ideal)) W (Proc.devRef .tc main_v15) (ValueIdx.ix3 j b n) = _
  after_results
  exact cast_3840_apply (W (Proc.devRef .tc main_v14)) _ j b n

/-- `main_v17` after the stretch is `main_v16` with its two leading axes merged: row `r` is joint `r / 256`, batch row `r % 256`. -/
theorem ho2_v17 (W : Valuation τ sig (Elt Ideal)) (r : Fin 3840) (k : Fin 1024) :
    (StableHlo.after (hostOps2 (F := Ideal)) W (Proc.devRef .tc main_v17) : S3840x1024.Idx → EReal) (ValueIdx.ix2 r k)
      = (W (Proc.devRef .tc main_v16) : S15x256x1024.Idx → EReal)
          (ValueIdx.ix3 (⟨r.val / 256, by have := r.isLt; omega⟩ : Fin 15) (⟨r.val % 256, by omega⟩ : Fin 256) k) := by
  show StableHlo.after (hostOps2 (F := Ideal)) W (Proc.devRef .tc main_v17) (ValueIdx.ix2 r k) = _
  after_results
  exact cast_15x256_apply (W (Proc.devRef .tc main_v16)) _ r k

/-- `main_v20` after the stretch is layer 1 of `main_arg2` (rounded to bf16: the identity on extended reals). -/
theorem ho2_v20 (W : Valuation τ sig (Elt Ideal)) (n : Fin 4096) (k : Fin 1024) :
    (StableHlo.after (hostOps2 (F := Ideal)) W (Proc.devRef .tc main_v20) : S4096x1024.Idx → EReal) (ValueIdx.ix2 n k)
      = (W (Proc.devRef .tc main_arg2) : S2x4096x1024.Idx → EReal) (ValueIdx.ix3 (1 : Fin 2) n k) := by
  show StableHlo.after (hostOps2 (F := Ideal)) W (Proc.devRef .tc main_v20) (ValueIdx.ix2 n k) = _
  after_results
  exact layer_weight_apply 1 (by omega) (W (Proc.devRef .tc main_arg2)) _ _ _ n k

/-- `main_v23` after the stretch is layer 1 of `main_arg3` (rounded to bf16: the identity on extended reals). -/
theorem ho2_v23 (W : Valuation τ sig (Elt Ideal)) (n : Fin 4096) (k : Fin 1024) :
    (StableHlo.after (hostOps2 (F := Ideal)) W (Proc.devRef .tc main_v23) : S4096x1024.Idx → EReal) (ValueIdx.ix2 n k)
      = (W (Proc.devRef .tc main_arg3) : S2x4096x1024.Idx → EReal) (ValueIdx.ix3 (1 : Fin 2) n k) := by
  show StableHlo.after (hostOps2 (F := Ideal)) W (Proc.devRef .tc main_v23) (ValueIdx.ix2 n k) = _
  after_results
  exact layer_weight_apply 1 (by omega) (W (Proc.devRef .tc main_arg3)) _ _ _ n k

/-- `main_v29` after the stretch is the sum of layer 1's rows of the two bias arrays (the sum is the extended
    reals'). -/
theorem ho2_v29 (W : Valuation τ sig (Elt Ideal)) (n : Fin 4096) :
    (StableHlo.after (hostOps2 (F := Ideal)) W (Proc.devRef .tc main_v29) : S1x4096.Idx → EReal) (ValueIdx.ix2 (0 : Fin 1) n)
      = @HAdd.hAdd EReal EReal EReal _
          ((W (Proc.devRef .tc main_arg4) : S2x4096.Idx → EReal) (ValueIdx.ix2 (1 : Fin 2) n))
          ((W (Proc.devRef .tc main_arg5) : S2x4096.Idx → EReal) (ValueIdx.ix2 (1 : Fin 2) n)) := by
  show StableHlo.after (hostOps2 (F := Ideal)) W (Proc.devRef .tc main_v29) (ValueIdx.ix2 (0 : Fin 1) n) = _
  after_results
  exact layer_bias_apply 1 (by omega) (W (Proc.devRef .tc main_arg4)) (W (Proc.devRef .tc main_arg5)) _ _ _ 0 n

/-- `main_v31` after the stretch is `main_v30` with its leading axis split: joint `j`, batch row `b` is row `j · 256 + b`. -/
theorem ho3_v31 (W : Valuation τ sig (Elt Ideal)) (j : Fin 15) (b : Fin 256) (n : Fin 4096) :
    (StableHlo.after (hostOps3 (F := Ideal)) W (Proc.devRef .tc main_v31) : S15x256x4096.Idx → EReal) (ValueIdx.ix3 j b n)
      = (W (Proc.devRef .tc main_v30) : S3840x4096.Idx → EReal)
          (ValueIdx.ix2 (⟨j.val * 256 + b.val, by have := j.isLt; have := b.isLt; omega⟩ : Fin 3840) n) := by
  show StableHlo.after (hostOps3 (F := Ideal)) W (Proc.devRef .tc main_v31) (ValueIdx.ix3 j b n) = _
  after_results
  exact cast_3840_apply (W (Proc.devRef .tc main_v30)) _ j b n

end Cert.KernelIdeal.Hand
-- ==== Proof.KI.Value.lean ====
import proofs.«408307_j89713276879117_3_alg».proof.Proof.SpecG
import proofs.«408307_j89713276879117_3_alg».proof.Proof.KI.Run
import proofs.«408307_j89713276879117_3_alg».proof.Proof.KI.GatesValue
import proofs.«408307_j89713276879117_3_alg».proof.Proof.KI.CellValue
import proofs.«408307_j89713276879117_3_alg».proof.Proof.KI.HostReads

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! The idealized kernel program's result array as the specification's function of the six argument arrays, at
    the ideal instance. Each region's output array after its run is known index by index from the arrays it
    reads; each host stretch's arrays are reshapes, layer slices and bias sums of the arrays before it; chained
    from the launch, layer 0's hidden rows are the specification's, then layer 1's. -/

section PureSpec

variable (a0 a1 : S15x256x512.Idx → EReal) (a2 a3 : S2x4096x1024.Idx → EReal) (a4 a5 : S2x4096.Idx → EReal)

/-- Row `(j - 1) · 256 + b` of a `[3840, ·]` array is joint `j - 1`, batch row `b`: the quotient … -/
theorem row_div (j : ℕ) (hj : j - 1 < 15) (b : Fin 256) (h : ((j - 1) * 256 + b.val) / 256 < 15) :
    (⟨((j - 1) * 256 + b.val) / 256, h⟩ : Fin 15) = ⟨j - 1, hj⟩ := Fin.ext (by have := b.isLt; show ((j - 1) * 256 + b.val) / 256 = j - 1; omega)
/-- … and the remainder. -/
theorem row_mod (j : ℕ) (b : Fin 256) (h : ((j - 1) * 256 + b.val) % 256 < 256) :
    (⟨((j - 1) * 256 + b.val) % 256, h⟩ : Fin 256) = b := Fin.ext (by have := b.isLt; show ((j - 1) * 256 + b.val) % 256 = b.val; omega)

/-- Layer 0's input projection of joint `j` from the arrays region 0 reads: the two inputs with their leading axes
    merged, layer 0's input weights, layer 0's two bias rows added. -/
theorem proj_layer0 (A0 A1 : S3840x512.Idx → EReal) (Wm : S4096x1024.Idx → EReal) (Bv : S1x4096.Idx → EReal)
    (hA0 : ∀ (r : Fin 3840) (k : Fin 512), A0 (ValueIdx.ix2 r k)
      = a0 (ValueIdx.ix3 (⟨r.val / 256, by have := r.isLt; omega⟩ : Fin 15) (⟨r.val % 256, by omega⟩ : Fin 256) k))
    (hA1 : ∀ (r : Fin 3840) (k : Fin 512), A1 (ValueIdx.ix2 r k)
      = a1 (ValueIdx.ix3 (⟨r.val / 256, by have := r.isLt; omega⟩ : Fin 15) (⟨r.val % 256, by omega⟩ : Fin 256) k))
    (hW : ∀ (n : Fin 4096) (k : Fin 1024), Wm (ValueIdx.ix2 n k) = a2 (ValueIdx.ix3 (0 : Fin 2) n k))
    (hB : ∀ n : Fin 4096, Bv (ValueIdx.ix2 (0 : Fin 1) n) = a4 (ValueIdx.ix2 (0 : Fin 2) n) + a5 (ValueIdx.ix2 (0 : Fin 2) n))
    (j : ℕ) (hj : j - 1 < 15) (b : Fin 256) (n : Fin 4096) :
    (∑ k : Fin 1024,
        (if hk : k.val < 512 then A0 (ValueIdx.ix2 (⟨(j - 1) * 256 + b.val, by have := b.isLt; omega⟩ : Fin 3840) ⟨k.val, hk⟩)
          else A1 (ValueIdx.ix2 (⟨(j - 1) * 256 + b.val, by have := b.isLt; omega⟩ : Fin 3840) ⟨k.val - 512, by have := k.isLt; omega⟩))
          * Wm (ValueIdx.ix2 n k))
        + Bv (ValueIdx.ix2 (0 : Fin 1) n)
      = Cert.Spec.proj (Cert.Spec.layer a2 a3 a4 a5 0) (Cert.Spec.x0 a0 a1 j) b n := by
  show _ = (∑ k : Fin 1024, Cert.Spec.x0 a0 a1 j b k * a2 (ValueIdx.ix3 (0 : Fin 2) n k))
      + (a4 (ValueIdx.ix2 (0 : Fin 2) n) + a5 (ValueIdx.ix2 (0 : Fin 2) n))
  rw [hB]
  refine congrArg (· + _) (Finset.sum_congr rfl fun k _ => ?_)
  rw [hW]
  refine congrArg (· * _) ?_
  unfold Cert.Spec.x0
  rw [dif_pos hj]
  by_cases hk : k.val < 512
  · rw [dif_pos hk, dif_pos hk, hA0]
    show a0 (ValueIdx.ix3 (⟨((j - 1) * 256 + b.val) / 256, _⟩ : Fin 15) (⟨((j - 1) * 256 + b.val) % 256, _⟩ : Fin 256) _) = _
    rw [row_div j hj b, row_mod j b]
  · rw [dif_neg hk, dif_neg hk, hA1]
    show a1 (ValueIdx.ix3 (⟨((j - 1) * 256 + b.val) / 256, _⟩ : Fin 15) (⟨((j - 1) * 256 + b.val) % 256, _⟩ : Fin 256) _) = _
    rw [row_div j hj b, row_mod j b]

/-- Layer 1's input projection of a joint from the arrays region 2 reads: the joint's rows of layer 0's hidden
    states, layer 1's input weights, layer 1's two bias rows added. -/
theorem proj_layer1 (H : S3840x1024.Idx → EReal) (Wm : S4096x1024.Idx → EReal) (Bv : S1x4096.Idx → EReal)
    (hW : ∀ (n : Fin 4096) (k : Fin 1024), Wm (ValueIdx.ix2 n k) = a2 (ValueIdx.ix3 (1 : Fin 2) n k))
    (hB : ∀ n : Fin 4096, Bv (ValueIdx.ix2 (0 : Fin 1) n) = a4 (ValueIdx.ix2 (1 : Fin 2) n) + a5 (ValueIdx.ix2 (1 : Fin 2) n))
    (x : Cert.Spec.Mat 1024) (r : Fin 3840) (b : Fin 256) (hH : ∀ k : Fin 1024, H (ValueIdx.ix2 r k) = x b k) (n : Fin 4096) :
    (∑ k : Fin 1024, H (ValueIdx.ix2 r k) * Wm (ValueIdx.ix2 n k)) + Bv (ValueIdx.ix2 (0 : Fin 1) n)
      = Cert.Spec.proj (Cert.Spec.layer a2 a3 a4 a5 1) x b n := by
  show _ = (∑ k : Fin 1024, x b k * a2 (ValueIdx.ix3 (1 : Fin 2) n k)) + (a4 (ValueIdx.ix2 (1 : Fin 2) n) + a5 (ValueIdx.ix2 (1 : Fin 2) n))
  rw [hB]
  refine congrArg (· + _) (Finset.sum_congr rfl fun k _ => ?_)
  rw [hW, hH]

end PureSpec

section Chain

variable (m : (ℓ : Loc nD τ sig) → Buf (Elt Ideal) ℓ) (ρ : Dev nD → PrngReg)

/-- The launch's six argument arrays on core `c`, as functions on their indices. -/
abbrev ar0 (c : Dev nD) : S15x256x512.Idx → EReal := m ((c : Thread nD τ).loc main_arg0)
abbrev ar1 (c : Dev nD) : S15x256x512.Idx → EReal := m ((c : Thread nD τ).loc main_arg1)
abbrev ar2 (c : Dev nD) : S2x4096x1024.Idx → EReal := m ((c : Thread nD τ).loc main_arg2)
abbrev ar3 (c : Dev nD) : S2x4096x1024.Idx → EReal := m ((c : Thread nD τ).loc main_arg3)
abbrev ar4 (c : Dev nD) : S2x4096.Idx → EReal := m ((c : Thread nD τ).loc main_arg4)
abbrev ar5 (c : Dev nD) : S2x4096.Idx → EReal := m ((c : Thread nD τ).loc main_arg5)
/-- Layer `l`'s weights, read off them. -/
abbrev lay (c : Dev nD) (l : Fin 2) : Cert.Spec.Layer := Cert.Spec.layer (ar2 m c) (ar3 m c) (ar4 m c) (ar5 m c) l
/-- The first layer's input, read off them. -/
abbrev xin (c : Dev nD) : ℕ → Cert.Spec.Mat 1024 := Cert.Spec.x0 (ar0 m c) (ar1 m c)

/-! ## The weight and bias arguments are still the launch's when the third host stretch reads them -/

theorem W4_arg2 (c : Dev nD) : W4 m ρ c (Proc.devRef .tc main_arg2) = m ((c : Thread nD τ).loc main_arg2) :=
  (W4_of_ne m ρ c main_arg2 (by decide)).trans <| (W3_of m ρ c main_arg2 (by decide)).trans <|
  (W2_of_ne m ρ c main_arg2 (by decide)).trans <| (W1_of m ρ c main_arg2 (by decide)).trans rfl

theorem W4_arg3 (c : Dev nD) : W4 m ρ c (Proc.devRef .tc main_arg3) = m ((c : Thread nD τ).loc main_arg3) :=
  (W4_of_ne m ρ c main_arg3 (by decide)).trans <| (W3_of m ρ c main_arg3 (by decide)).trans <|
  (W2_of_ne m ρ c main_arg3 (by decide)).trans <| (W1_of m ρ c main_arg3 (by decide)).trans rfl

theorem W4_arg4 (c : Dev nD) : W4 m ρ c (Proc.devRef .tc main_arg4) = m ((c : Thread nD τ).loc main_arg4) :=
  (W4_of_ne m ρ c main_arg4 (by decide)).trans <| (W3_of m ρ c main_arg4 (by decide)).trans <|
  (W2_of_ne m ρ c main_arg4 (by decide)).trans <| (W1_of m ρ c main_arg4 (by decide)).trans rfl

theorem W4_arg5 (c : Dev nD) : W4 m ρ c (Proc.devRef .tc main_arg5) = m ((c : Thread nD τ).loc main_arg5) :=
  (W4_of_ne m ρ c main_arg5 (by decide)).trans <| (W3_of m ρ c main_arg5 (by decide)).trans <|
  (W2_of_ne m ρ c main_arg5 (by decide)).trans <| (W1_of m ρ c main_arg5 (by decide)).trans rfl

/-! ## Layer 0 -/

/-- The recurrent weights region 1 reads are layer 0's. -/
theorem whh1_eq (c : Dev nD) : whh1 (V3 m ρ) c = (lay m c 0).Whh := by
  funext n k
  have e : W3 m ρ c (Proc.devRef .tc main_v7) = W1 m ρ c (Proc.devRef .tc main_v7) :=
    (W3_of m ρ c main_v7 (by decide)).trans (W2_of_ne m ρ c main_v7 (by decide))
  show W3 m ρ c (Proc.devRef .tc main_v7) (ValueIdx.ix2 n k) = _
  rw [e]
  exact ho0_v7 (W0 m ρ c) n k

/-- The gate pre-activations region 1 reads at joint `j` are layer 0's input projection of the joint's input. -/
theorem gx1_eq (c : Dev nD) (j : ℕ) (h1 : 1 ≤ j) (h15 : j ≤ 15) :
    gx1 (V3 m ρ) c j = Cert.Spec.proj (lay m c 0) (xin m c j) := by
  have hj : j - 1 < 15 := by omega
  funext b n
  unfold gx1
  rw [dif_pos hj]
  refine (ho1_v15 (W2 m ρ c) (⟨j - 1, hj⟩ : Fin 15) b n).trans ?_
  have e14 : W2 m ρ c (Proc.devRef .tc main_v14) = (dat0 (V1 m ρ) c).arrAt 4 cfg0.N := W2_arr m ρ c 4
  rw [e14]
  refine (gates0_value (V1 m ρ) c _ n).trans ?_
  exact proj_layer0 (ar0 m c) (ar1 m c) (ar2 m c) (ar3 m c) (ar4 m c) (ar5 m c)
    (V1 m ρ c main_v0) (V1 m ρ c main_v1) (V1 m ρ c main_v4) (V1 m ρ c main_v13)
    (ho0_v0 (W0 m ρ c)) (ho0_v1 (W0 m ρ c)) (ho0_v4 (W0 m ρ c)) (ho0_v13 (W0 m ρ c)) j hj b n

/-- Region 1's output array holds layer 0's hidden states of joints 1 … 15. -/
theorem hid0_eq (c : Dev nD) (j : Fin 15) (b : Fin 256) (k : Fin 1024) :
    (W4 m ρ c (Proc.devRef .tc main_v16) : S15x256x1024.Idx → EReal) (ValueIdx.ix3 j b k)
      = Cert.Spec.hid (lay m c 0) (xin m c) (j.val + 1) b k := by
  have e16 : W4 m ρ c (Proc.devRef .tc main_v16) = (dat1 (V3 m ρ) c).arrAt 2 (cfg1 (F := Ideal) adm1).N := W4_arr m ρ c 2
  rw [e16, cell1_value (V3 m ρ) c j b k, Cert.Spec.hid_eq_hidG]
  exact congrFun (congrFun (Cert.Spec.hidG_congr _ _ (whh1_eq m ρ c) (fun j' h1 h15 => gx1_eq m ρ c j' h1 h15) (j.val + 1)) b) k

/-! ## Layer 1 -/

/-- The recurrent weights region 3 reads are layer 1's. -/
theorem whh3_eq (c : Dev nD) : whh3 (V7 m ρ) c = (lay m c 1).Whh := by
  funext n k
  have e : W7 m ρ c (Proc.devRef .tc main_v23) = W5 m ρ c (Proc.devRef .tc main_v23) :=
    (W7_of m ρ c main_v23 (by decide)).trans (W6_of_ne m ρ c main_v23 (by decide))
  show W7 m ρ c (Proc.devRef .tc main_v23) (ValueIdx.ix2 n k) = _
  rw [e]
  refine (ho2_v23 (W4 m ρ c) n k).trans ?_
  rw [W4_arg3 m ρ c]
  rfl

/-- The gate pre-activations region 3 reads at joint `j` are layer 1's input projection of layer 0's hidden state
    of the joint. -/
theorem gx3_eq (c : Dev nD) (j : ℕ) (h1 : 1 ≤ j) (h15 : j ≤ 15) :
    gx3 (V7 m ρ) c j = Cert.Spec.proj (lay m c 1) (Cert.Spec.hid (lay m c 0) (xin m c) j) := by
  have hj : j - 1 < 15 := by omega
  funext b n
  unfold gx3
  rw [dif_pos hj]
  refine (ho3_v31 (W6 m ρ c) (⟨j - 1, hj⟩ : Fin 15) b n).trans ?_
  have e30 : W6 m ρ c (Proc.devRef .tc main_v30) = (dat2 (V5 m ρ) c).arrAt 3 cfg2.N := W6_arr m ρ c 3
  rw [e30]
  refine (gates2_value (V5 m ρ) c _ n).trans ?_
  refine proj_layer1 (ar2 m c) (ar3 m c) (ar4 m c) (ar5 m c)
    (V5 m ρ c main_v17) (V5 m ρ c main_v20) (V5 m ρ c main_v29) ?_ ?_ _ _ b ?_ n
  · intro n' k
    refine (ho2_v20 (W4 m ρ c) n' k).trans ?_
    rw [W4_arg2 m ρ c]
  · intro n'
    refine (ho2_v29 (W4 m ρ c) n').trans ?_
    rw [W4_arg4 m ρ c, W4_arg5 m ρ c]
  · intro k
    refine (ho2_v17 (W4 m ρ c) _ k).trans ?_
    show (W4 m ρ c (Proc.devRef .tc main_v16) : S15x256x1024.Idx → EReal)
      (ValueIdx.ix3 (⟨((j - 1) * 256 + b.val) / 256, _⟩ : Fin 15) (⟨((j - 1) * 256 + b.val) % 256, _⟩ : Fin 256) k) = _
    rw [row_div j hj b, row_mod j b, hid0_eq m ρ c ⟨j - 1, hj⟩ b k]
    show Cert.Spec.hid (lay m c 0) (xin m c) (j - 1 + 1) b k = _
    rw [Nat.sub_add_cancel h1]

/-! ## The result -/

/-- Region 3's output array after its run, at joint `j`, batch row `b`, feature `k`. -/
theorem kernel_value_at (c : Dev nD) (j : Fin 15) (b : Fin 256) (k : Fin 1024) :
    (dat3 (F := Ideal) (V7 m ρ) c).arrAt 2 (cfg3 (F := Ideal) adm3).N (ValueIdx.ix3 j b k)
      = Cert.Spec.out (ar0 m c) (ar1 m c) (ar2 m c) (ar3 m c) (ar4 m c) (ar5 m c) (ValueIdx.ix3 j b k) := by
  rw [cell3_value (V7 m ρ) c j b k]
  show _ = Cert.Spec.hid (lay m c 1) (Cert.Spec.hid (lay m c 0) (xin m c)) (j.val + 1) b k
  rw [Cert.Spec.hid_eq_hidG]
  exact congrFun (congrFun (Cert.Spec.hidG_congr _ _ (whh3_eq m ρ c) (fun j' h1 h15 => gx3_eq m ρ c j' h1 h15) (j.val + 1)) b) k

/-- Region 3's output array after its run is the specification's function of the six arguments. -/
theorem kernel_value (c : Dev nD) :
    (dat3 (F := Ideal) (V7 m ρ) c).arrAt 2 (cfg3 (F := Ideal) adm3).N
      = (Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) : S15x256x1024.Idx → EReal) :=
  funext fun (i : S15x256x1024.Idx) =>
    (congrArg ((dat3 (F := Ideal) (V7 m ρ) c).arrAt 2 (cfg3 (F := Ideal) adm3).N : S15x256x1024.Idx → EReal) (ValueIdx.eq_ix3 i)).trans
      ((kernel_value_at m ρ c (i 0) (i 1) (i 2)).trans
        (congrArg (Cert.Spec.out (ar0 m c) (ar1 m c) (ar2 m c) (ar3 m c) (ar4 m c) (ar5 m c)) (ValueIdx.eq_ix3 i)).symm)

end Chain

end Cert.KernelIdeal.Hand
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Ref.CellLaws.lean ====
/-
  The reference's LSTM cell, read at an entry.

  Every joint of the reference is the same handful of array operations: two plain matrix products against the transposed
  weight matrices, the two biases broadcast down the rows, four column blocks of the 4096 pre-activations, the logistic
  function spelt `1 / (1 + exp (-x))`, and the two products that make the new cell and hidden state.  Here those
  operations are named once, as functions of arbitrary arrays (`refGates`, `refC`, `refH`, the slices `wSl`, `bSl`,
  `stSl`, `xSl`, the stacked pair `stack`), and read at an entry at the ideal values: they are the specification's
  `gate`, `cellC`, `cellH` of the arrays seen as matrices (`mat`).  `cell_step` is one joint of the state table.
-/
import Idealize.ShloMosaic.PureOps.Ideal.Laws
import Idealize.ShloMosaic.Lib.ValueIdx
import Idealize.ShloMosaic.Lib.ValueLayout
import proofs.«408307_j89713276879117_3_alg».proof.Proof.Gen.ReferenceIdeal
import proofs.«408307_j89713276879117_3_alg».proof.Proof.Spec
import proofs.«408307_j89713276879117_3_alg».proof.Proof.LibDot

noncomputable section

open scoped BigOperators

namespace Cert.ReferenceIdeal.RefValue

open Cert.ReferenceIdeal Cert.ReferenceIdeal.Gen Idealize.ShloMosaic Idealize.ShloMosaic.ValueIdx

/-- An array of ideal values. -/
abbrev A (s : Shape) : Type := FVec Ideal s .f32

/-- A 256-row array seen as a matrix of extended reals. -/
def mat {n : Nat} (x : A ⟨2, ![256, n]⟩) : Spec.Mat n := fun b k => x (ix2 b k)

theorem mat_apply {n : Nat} (x : A ⟨2, ![256, n]⟩) (b : Fin 256) (k : Fin n) : mat x b k = x (ix2 b k) := rfl

/-! ## The operations of one cell, named -/

/-- The constant one, broadcast. -/
def ones : A S256x1024 := broadcastInDim S256x1024 ![] bcast_S_S256x1024 (constant S_ .f32 0x3F800000#32)

/-- The logistic function as the reference spells it: `1 / (1 + exp (-x))`. -/
def sigm (x : A S256x1024) : A S256x1024 := Host.divf ones (addf ones (Host.exp (Host.negf x)))

/-- The 4096 pre-activations: `x · Wihᵀ + h · Whhᵀ + (b_ih + b_hh)`. -/
def refGates (X H : A S256x1024) (Wih Whh : A S4096x1024) (bih bhh : A S4096) : A S256x4096 :=
  addf (addf (Host.dotGeneral dot_S256x1024_S1024x4096_S256x4096_1_0_0_1_n_n none X
        (transpose S1024x4096 [1, 0] Wih transposes_S4096x1024_S1024x4096_1_0))
      (Host.dotGeneral dot_S256x1024_S1024x4096_S256x4096_1_0_0_1_n_n none H
        (transpose S1024x4096 [1, 0] Whh transposes_S4096x1024_S1024x4096_1_0)))
    (broadcastInDim S256x4096 ![0, 1] bcast_S1x4096_S256x4096_0_1
      (broadcastInDim S1x4096 ![1] bcast_S4096_S1x4096_1 (addf bih bhh)))

/-- The new cell state: `σ(f) · c + σ(i) · tanh(g)`. -/
def refC (G : A S256x4096) (Cp : A S256x1024) : A S256x1024 :=
  addf (mulf (sigm (extractStridedSlice S256x1024 ![0, 1024] G slices_S256x4096_S256x1024_0_1024)) Cp)
    (mulf (sigm (extractStridedSlice S256x1024 ![0, 0] G slices_S256x4096_S256x1024_0_0))
      (Host.tanh (extractStridedSlice S256x1024 ![0, 2048] G slices_S256x4096_S256x1024_0_2048)))

/-- The new hidden state: `σ(o) · tanh(c')`. -/
def refH (G : A S256x4096) (C : A S256x1024) : A S256x1024 :=
  mulf (sigm (extractStridedSlice S256x1024 ![0, 3072] G slices_S256x4096_S256x1024_0_3072)) (Host.tanh C)

/-- Layer `l`'s 4096 × 1024 matrix out of a weight array. -/
def wSl (l : Nat) (h : S2x4096x1024.Slices ![l, 0, 0] S1x4096x1024) (W : A S2x4096x1024) : A S4096x1024 :=
  shapeCast S4096x1024 (extractStridedSlice S1x4096x1024 ![l, 0, 0] W h) shapeCasts_S1x4096x1024_S4096x1024

/-- Layer `l`'s bias vector out of a bias array. -/
def bSl (l : Nat) (h : S2x4096.Slices ![l, 0] S1x4096) (B : A S2x4096) : A S4096 :=
  shapeCast S4096 (extractStridedSlice S1x4096 ![l, 0] B h) shapeCasts_S1x4096_S4096

/-- Layer `l`'s half of a stacked pair of states. -/
def stSl (l : Nat) (h : S2x256x1024.Slices ![l, 0, 0] S1x256x1024) (P : A S2x256x1024) : A S256x1024 :=
  shapeCast S256x1024 (extractStridedSlice S1x256x1024 ![l, 0, 0] P h) shapeCasts_S1x256x1024_S256x1024

/-- The two layers' states of one joint, stacked. -/
def stack (a b : A S256x1024) : A S2x256x1024 :=
  concatenate S2x256x1024 0 [⟨S1x256x1024, broadcastInDim S1x256x1024 ![1, 2] bcast_S256x1024_S1x256x1024_1_2 a⟩,
    ⟨S1x256x1024, broadcastInDim S1x256x1024 ![1, 2] bcast_S256x1024_S1x256x1024_1_2 b⟩]
    concatenates_S1x256x1024_S1x256x1024_S2x256x1024_d0

/-- The root's stacked pair: zeros. -/
def zeros2 : A S2x256x1024 := broadcastInDim S2x256x1024 ![] bcast_S_S2x256x1024 (constant S_ .f32 0x00000000#32)

/-- The first layer's inputs, all joints: `input` beside `bridge`, the joint axis moved to the middle. -/
def refX1 (a0 a1 : A S15x256x512) : A S256x15x1024 :=
  transpose S256x15x1024 [1, 0, 2]
    (concatenate S15x256x1024 2 [⟨S15x256x512, a0⟩, ⟨S15x256x512, a1⟩] concatenates_S15x256x512_S15x256x512_S15x256x1024_d2)
    transposes_S15x256x1024_S256x15x1024_1_0_2

/-- One joint's input out of `refX1`. -/
def xSl (o : Nat) (h : S256x15x1024.Slices ![0, o, 0] S256x1x1024) (X1 : A S256x15x1024) : A S256x1024 :=
  shapeCast S256x1024 (extractStridedSlice S256x1x1024 ![0, o, 0] X1 h) shapeCasts_S256x1x1024_S256x1024

/-- The weights as the specification's record. -/
def refLayer (Wih Whh : A S4096x1024) (bih bhh : A S4096) : Spec.Layer where
  Wih n k := Wih (ix2 n k)
  Whh n k := Whh (ix2 n k)
  bih n := bih (ix1 n)
  bhh n := bhh (ix1 n)

/-! ## Read at an entry -/

/-- The pattern of `1.0` denotes one. -/
theorem ofBits_one : Ideal.ofBits .f32 0x3F800000#32 = 1 := by
  simp [Ideal.ofBits, Ideal.ieee, -EReal.coe_mul]; norm_num

/-- `1 / (1 + exp (-x))` is the logistic function, entry by entry. -/
theorem sigm_apply (x : A S256x1024) (i : S256x1024.Idx) : sigm x i = Ideal.logistic (x i) := by
  show Ideal.div (Ideal.ofBits .f32 0x3F800000#32) (Ideal.ofBits .f32 0x3F800000#32 + Ideal.exp (-(x i))) = _
  rw [ofBits_one]; rfl

/-- A product against a transposed weight matrix: entry `(b, n)` is `∑ k, Y (b, k) · W (n, k)`. -/
theorem dotT_apply (Y : A S256x1024) (W : A S4096x1024) (b : Fin 256) (n : Fin 4096) :
    Host.dotGeneral dot_S256x1024_S1024x4096_S256x4096_1_0_0_1_n_n none Y
        (transpose S1024x4096 [1, 0] W transposes_S4096x1024_S1024x4096_1_0) (ix2 b n)
      = ∑ k : Fin 1024, Y (ix2 b k) * W (ix2 n k) := by
  refine (Cert.GNN.dotGeneral_plain_apply (M := 256) (K := 1024) (N := 4096) none .single Y _ b n).trans ?_
  refine Finset.sum_congr rfl fun k _ => ?_
  rw [transpose_ix2_apply]

/-- The two biases, added and broadcast down the rows. -/
theorem bias_apply (bih bhh : A S4096) (b : Fin 256) (n : Fin 4096) :
    broadcastInDim S256x4096 ![0, 1] bcast_S1x4096_S256x4096_0_1
        (broadcastInDim S1x4096 ![1] bcast_S4096_S1x4096_1 (addf bih bhh)) (ix2 b n)
      = bih (ix1 n) + bhh (ix1 n) := by
  refine (broadcastInDim_apply _ _ _ (ix2 b n) (ix2 (0 : Fin 1) n) ?_).trans ?_
  · intro a
    match a with
    | ⟨0, _⟩ => rfl
    | ⟨1, _⟩ => rfl
  refine (broadcastInDim_apply _ _ _ (ix2 (0 : Fin 1) n) (ix1 n) ?_).trans rfl
  intro a
  match a with
  | ⟨0, _⟩ => rfl

/-- The pre-activations are the specification's. -/
theorem refGates_apply (X H : A S256x1024) (Wih Whh : A S4096x1024) (bih bhh : A S4096) (b : Fin 256) (n : Fin 4096) :
    refGates X H Wih Whh bih bhh (ix2 b n) = Spec.gate (refLayer Wih Whh bih bhh) (mat X) (mat H) b n := by
  unfold refGates
  rw [addf_apply, addf_apply, dotT_apply, dotT_apply, bias_apply]
  rfl

/-- A column block of the pre-activations. -/
theorem gslice_apply (g : Fin 4) (o : Nat) (ho : o = g.val * 1024) (h : S256x4096.Slices ![0, o] S256x1024) (G : A S256x4096)
    (b : Fin 256) (k : Fin 1024) :
    extractStridedSlice S256x1024 ![0, o] G h (ix2 b k) = G (ix2 b (Spec.col g k)) :=
  slice2_axis1_apply o G h b k (Spec.col g k) (by show g.val * 1024 + k.val = o + k.val; rw [ho])

theorem refC_apply (G : A S256x4096) (Cp : A S256x1024) (b : Fin 256) (k : Fin 1024) :
    refC G Cp (ix2 b k) = Ideal.logistic (G (ix2 b (Spec.col 1 k))) * Cp (ix2 b k)
      + Ideal.logistic (G (ix2 b (Spec.col 0 k))) * Ideal.tanh (G (ix2 b (Spec.col 2 k))) := by
  unfold refC
  rw [addf_apply, mulf_apply, mulf_apply, sigm_apply, sigm_apply, gslice_apply 1 1024 rfl, gslice_apply 0 0 rfl]
  show _ + _ * Ideal.tanh (extractStridedSlice S256x1024 ![0, 2048] G slices_S256x4096_S256x1024_0_2048 (ix2 b k)) = _
  rw [gslice_apply 2 2048 rfl]

theorem refH_apply (G : A S256x4096) (C : A S256x1024) (b : Fin 256) (k : Fin 1024) :
    refH G C (ix2 b k) = Ideal.logistic (G (ix2 b (Spec.col 3 k))) * Ideal.tanh (C (ix2 b k)) := by
  unfold refH
  rw [mulf_apply, sigm_apply, gslice_apply 3 3072 rfl]
  rfl

/-- The reference's new cell state is the specification's. -/
theorem mat_refC (X H Cp : A S256x1024) (Wih Whh : A S4096x1024) (bih bhh : A S4096) :
    mat (refC (refGates X H Wih Whh bih bhh) Cp) = Spec.cellC (refLayer Wih Whh bih bhh) (mat X) (mat H) (mat Cp) := by
  funext b k
  rw [mat_apply, refC_apply, refGates_apply, refGates_apply, refGates_apply]
  rfl

/-- The reference's new hidden state is the specification's. -/
theorem mat_refH (X H Cp : A S256x1024) (Wih Whh : A S4096x1024) (bih bhh : A S4096) :
    mat (refH (refGates X H Wih Whh bih bhh) (refC (refGates X H Wih Whh bih bhh) Cp))
      = Spec.cellH (refLayer Wih Whh bih bhh) (mat X) (mat H) (mat Cp) := by
  funext b k
  rw [mat_apply, refH_apply, refGates_apply, ← mat_apply (refC _ _), mat_refC]
  rfl

/-! ## The slices -/

theorem wSl_apply (l : Fin 2) (h : S2x4096x1024.Slices ![l.val, 0, 0] S1x4096x1024) (W : A S2x4096x1024)
    (n : Fin 4096) (k : Fin 1024) : wSl l.val h W (ix2 n k) = W (ix3 l n k) := by
  unfold wSl
  rw [shapeCast_1ab_ab_apply]
  refine extractStridedSlice_apply _ _ _ _ _ fun a => ?_
  match a with
  | ⟨0, _⟩ => rfl
  | ⟨1, _⟩ => exact (Nat.zero_add _).symm
  | ⟨2, _⟩ => exact (Nat.zero_add _).symm

theorem bSl_apply (l : Fin 2) (h : S2x4096.Slices ![l.val, 0] S1x4096) (B : A S2x4096) (n : Fin 4096) :
    bSl l.val h B (ix1 n) = B (ix2 l n) := by
  unfold bSl
  rw [shapeCast_1a_a_apply]
  exact slice2_axis0_apply l.val B h (0 : Fin 1) n l rfl

/-- Layer `l`'s slices of the four weight arrays are the specification's layer `l`. -/
theorem refLayer_sl (l : Fin 2) (h2 h3 : S2x4096x1024.Slices ![l.val, 0, 0] S1x4096x1024) (h4 h5 : S2x4096.Slices ![l.val, 0] S1x4096)
    (Wih Whh : A S2x4096x1024) (bih bhh : A S2x4096) :
    refLayer (wSl l.val h2 Wih) (wSl l.val h3 Whh) (bSl l.val h4 bih) (bSl l.val h5 bhh) = Spec.layer Wih Whh bih bhh l := by
  unfold refLayer Spec.layer
  congr 1
  · funext n k; exact wSl_apply l h2 Wih n k
  · funext n k; exact wSl_apply l h3 Whh n k
  · funext n; exact bSl_apply l h4 bih n
  · funext n; exact bSl_apply l h5 bhh n

/-- An entry of a half of a stacked pair. -/
theorem stSl_apply (l : Fin 2) (h : S2x256x1024.Slices ![l.val, 0, 0] S1x256x1024) (P : A S2x256x1024)
    (p : Fin 256) (q : Fin 1024) : stSl l.val h P (ix2 p q) = P (ix3 l p q) := by
  unfold stSl
  rw [shapeCast_1ab_ab_apply]
  refine extractStridedSlice_apply _ _ _ _ _ fun a => ?_
  match a with
  | ⟨0, _⟩ => rfl
  | ⟨1, _⟩ => exact (Nat.zero_add _).symm
  | ⟨2, _⟩ => exact (Nat.zero_add _).symm

theorem bcast12_apply (a : A S256x1024) (u : Fin 1) (p : Fin 256) (q : Fin 1024) :
    broadcastInDim S1x256x1024 ![1, 2] bcast_S256x1024_S1x256x1024_1_2 a (ix3 u p q) = a (ix2 p q) := by
  refine broadcastInDim_apply _ _ _ _ _ fun c => ?_
  match c with
  | ⟨0, _⟩ => rfl
  | ⟨1, _⟩ => rfl

/-- The first half of a stacked pair is its first state. -/
theorem stSl0_stack (h : S2x256x1024.Slices ![0, 0, 0] S1x256x1024) (a b : A S256x1024) : stSl 0 h (stack a b) = a := by
  funext i
  obtain ⟨p, q, rfl⟩ : ∃ p q, i = ix2 p q := ⟨i 0, i 1, eq_ix2 i⟩
  refine (stSl_apply (0 : Fin 2) h _ p q).trans ?_
  unfold stack
  refine (concatenate_pair_apply_left (t := S2x256x1024) (s₁ := S1x256x1024) (s₂ := S1x256x1024) 0 _ _ _
    (ix3 (0 : Fin 2) p q) rfl (ix3 (0 : Fin 1) p q) fun c => ?_).trans
    (bcast12_apply a 0 p q)
  match c with
  | ⟨0, _⟩ => rfl
  | ⟨1, _⟩ => rfl
  | ⟨2, _⟩ => rfl

/-- The second half of a stacked pair is its second state. -/
theorem stSl1_stack (h : S2x256x1024.Slices ![1, 0, 0] S1x256x1024) (a b : A S256x1024) : stSl 1 h (stack a b) = b := by
  funext i
  obtain ⟨p, q, rfl⟩ : ∃ p q, i = ix2 p q := ⟨i 0, i 1, eq_ix2 i⟩
  refine (stSl_apply (1 : Fin 2) h _ p q).trans ?_
  unfold stack
  refine (concatenate_pair_apply_right (t := S2x256x1024) (s₁ := S1x256x1024) (s₂ := S1x256x1024) 0 _ _ _
    (ix3 (1 : Fin 2) p q) rfl rfl (ix3 (0 : Fin 1) p q) (fun c hc => ?_) rfl).trans
    (bcast12_apply b 0 p q)
  match c with
  | ⟨0, _⟩ => exact absurd rfl hc
  | ⟨1, _⟩ => rfl
  | ⟨2, _⟩ => rfl

/-- Either half of the root's pair is the zero matrix. -/
theorem mat_stSl_zeros (l : Nat) (h : S2x256x1024.Slices ![l, 0, 0] S1x256x1024) :
    mat (stSl l h zeros2) = fun _ _ => 0 := by
  funext b k
  show Ideal.ofBits .f32 0x00000000#32 = 0
  exact Ideal.ofBits_zero_f32

/-- Joint `o + 1`'s slice of the first layer's inputs is the specification's `x0`. -/
theorem mat_xSl (o : Fin 15) (h : S256x15x1024.Slices ![0, o.val, 0] S256x1x1024) (a0 a1 : A S15x256x512) :
    mat (xSl o.val h (refX1 a0 a1)) = Spec.x0 a0 a1 (o.val + 1) := by
  funext b k
  have ho : o.val + 1 - 1 < 15 := by have := o.isLt; omega
  have e : (⟨o.val + 1 - 1, ho⟩ : Fin 15) = o := Fin.ext (Nat.add_sub_cancel o.val 1)
  unfold Spec.x0
  rw [dif_pos ho, e, mat_apply]
  unfold xSl refX1
  refine (shapeCast_apply _ _ (ix2 b k) (ix3 b (0 : Fin 1) k) ?_).trans ?_
  · rw [Shape.rowMajor_val_three, Shape.rowMajor_val_two]
    show (b.val * 1 + 0) * 1024 + k.val = b.val * 1024 + k.val
    omega
  refine (slice3_axis1_apply o.val _ h b (0 : Fin 1) k o rfl).trans ?_
  refine (transpose_apply _ _ _ (ix3 b o k) (ix3 o b k) fun c => ?_).trans ?_
  · match c with
    | ⟨0, _⟩ => rfl
    | ⟨1, _⟩ => rfl
    | ⟨2, _⟩ => rfl
  by_cases hk : k.val < 512
  · rw [dif_pos hk]
    refine concatenate_pair_apply_left (t := S15x256x1024) (s₁ := S15x256x512) (s₂ := S15x256x512) 2 a0 a1 _ (ix3 o b k) rfl (ix3 o b (⟨k.val, hk⟩ : Fin 512)) fun c => ?_
    match c with
    | ⟨0, _⟩ => rfl
    | ⟨1, _⟩ => rfl
    | ⟨2, _⟩ => rfl
  · rw [dif_neg hk]
    refine concatenate_pair_apply_right (t := S15x256x1024) (s₁ := S15x256x512) (s₂ := S15x256x512) 2 a0 a1 _ (ix3 o b k) rfl rfl
      (ix3 o b (⟨k.val - 512, by have := k.isLt; omega⟩ : Fin 512)) (fun c hc => ?_) ?_
    · match c with
      | ⟨0, _⟩ => rfl
      | ⟨1, _⟩ => rfl
      | ⟨2, _⟩ => exact absurd rfl hc
    · show k.val - 512 + 512 = k.val
      omega

/-! ## The result: the second layer's hidden states, joint by joint -/

/-- Fifteen 256 × 1024 blocks laid along a middle axis, that axis then moved to the front. -/
def outBlocks (Hs : Fin 15 → A S256x1024) : A S15x256x1024 :=
  transpose S15x256x1024 [1, 0, 2]
    (concatenate S256x15x1024 1
      (List.ofFn fun n : Fin 15 => (⟨S256x1x1024, broadcastInDim S256x1x1024 ![0, 2] bcast_S256x1024_S256x1x1024_0_2 (Hs n)⟩ :
        (s : Shape) × (s.Idx → Ideal .f32)))
      concatenates_S256x1x1024_S256x1x1024_S256x1x1024_S256x1x1024_S256x1x1024_S256x1x1024_S256x1x1024_S256x1x1024_S256x1x1024_S256x1x1024_S256x1x1024_S256x1x1024_S256x1x1024_S256x1x1024_S256x1x1024_S256x15x1024_d1)
    transposes_S256x15x1024_S15x256x1024_1_0_2

/-- Entry `(j, b, k)` of the result is entry `(b, k)` of block `j`. -/
theorem outBlocks_apply (Hs : Fin 15 → A S256x1024) (j : Fin 15) (b : Fin 256) (k : Fin 1024) :
    outBlocks Hs (ix3 j b k) = Hs j (ix2 b k) := by
  unfold outBlocks
  refine (transpose_apply _ _ _ (ix3 j b k) (ix3 b j k) fun c => ?_).trans ?_
  · match c with
    | ⟨0, _⟩ => rfl
    | ⟨1, _⟩ => rfl
    | ⟨2, _⟩ => rfl
  refine (concatenate_ofFn_unit_apply (t := S256x15x1024) (s₁ := S256x1x1024) 1 _ _ rfl rfl (ix3 b j k) j rfl
    (ix3 b (0 : Fin 1) k) fun c hc => ?_).trans ?_
  · match c with
    | ⟨0, _⟩ => rfl
    | ⟨1, _⟩ => exact absurd rfl hc
    | ⟨2, _⟩ => rfl
  refine broadcastInDim_apply _ _ _ _ _ fun c => ?_
  match c with
  | ⟨0, _⟩ => rfl
  | ⟨1, _⟩ => rfl

/-! ## One joint of the state table -/

/-- One cell of the reference is one step of the specification's table: joint `j` from its parent's entry. -/
theorem cell_step (L : Spec.Layer) (x : Nat → Spec.Mat 1024) (j : Nat) (hj : 1 ≤ j)
    {G : A S256x4096} {C H X Hp Cp : A S256x1024} {Wih Whh : A S4096x1024} {bih bhh : A S4096}
    (hG : G = refGates X Hp Wih Whh bih bhh) (hC : C = refC G Cp) (hH : H = refH G C)
    (hL : refLayer Wih Whh bih bhh = L) (hX : mat X = x j)
    (hHp : mat Hp = (Spec.tab L x (j - 1) (Spec.par j)).1) (hCp : mat Cp = (Spec.tab L x (j - 1) (Spec.par j)).2) :
    mat H = (Spec.tab L x j j).1 ∧ mat C = (Spec.tab L x j j).2 := by
  obtain ⟨n, rfl⟩ : ∃ n, j = n + 1 := ⟨j - 1, by omega⟩
  rw [Nat.add_sub_cancel] at hHp hCp
  subst hG hC hH
  rw [Spec.tab_succ_self, mat_refH, mat_refC, hL, hX, hHp, hCp]
  exact ⟨rfl, rfl⟩

/-- A parent's entry, proved at the parent's own stage, read at a later stage. -/
theorem at_stage (L : Spec.Layer) (x : Nat → Spec.Mat 1024) {p n : Nat} (hpn : p ≤ n) {a c : A S256x1024}
    (ha : mat a = (Spec.tab L x p p).1) (hc : mat c = (Spec.tab L x p p).2) :
    mat a = (Spec.tab L x n p).1 ∧ mat c = (Spec.tab L x n p).2 := by
  rw [Spec.tab_stable L x hpn]; exact ⟨ha, hc⟩

/-- The root's entry at any stage. -/
theorem root_stage (L : Spec.Layer) (x : Nat → Spec.Mat 1024) (n l : Nat) (h : S2x256x1024.Slices ![l, 0, 0] S1x256x1024) :
    mat (stSl l h zeros2) = (Spec.tab L x n 0).1 ∧ mat (stSl l h zeros2) = (Spec.tab L x n 0).2 := by
  rw [Spec.tab_zero, mat_stSl_zeros]; exact ⟨rfl, rfl⟩

/-- A joint's hidden state in a layer, proved at the joint's own stage, is the layer's output there. -/
theorem hid_of_stage (L : Spec.Layer) (x : Nat → Spec.Mat 1024) {j : Nat} (hj : j ≤ 15) {a : A S256x1024}
    (ha : mat a = (Spec.tab L x j j).1) : mat a = Spec.hid L x j := by
  unfold Spec.hid; rw [Spec.tab_stable L x hj]; exact ha

end Cert.ReferenceIdeal.RefValue

end
-- ==== Proof.Ref.Setup.lean ====
/-
  The reference's named buffers over one valuation of the arguments.

  The generated run names, joint by joint, the pre-activations, the cell and hidden state of both layers and the
  stacked pairs handed to the children, each as a term of the arguments' contents `V0`.  Here the specification's
  layers and inputs are named over the same `V0` (`Lyr`, `X0`, `X1`), and what one joint's buffers hold is stated
  once (`JointAt`: entry `j` of both layers' state tables; `Holds`: the same for a stacked pair), with the step from a
  parent's pair to a joint (`joint_step`): two applications of the generic cell.
-/
import proofs.«408307_j89713276879117_3_alg».proof.Proof.RunCut.Run
import proofs.«408307_j89713276879117_3_alg».proof.Proof.Ref.CellLaws

noncomputable section

namespace Cert.ReferenceIdeal.RefValue

open Cert.ReferenceIdeal Cert.ReferenceIdeal.Gen Cert.ReferenceIdeal.Value Idealize.ShloMosaic Idealize.ShloMosaic.ValueIdx
  Idealize.ShloMosaic.StableHlo

variable (V0 : Valuation τ sig (Elt Ideal))

/-- The six arguments' contents. -/
abbrev a0 : A S15x256x512 := V0 (Proc.devRef .tc main_arg0)
abbrev a1 : A S15x256x512 := V0 (Proc.devRef .tc main_arg1)
abbrev a2 : A S2x4096x1024 := V0 (Proc.devRef .tc main_arg2)
abbrev a3 : A S2x4096x1024 := V0 (Proc.devRef .tc main_arg3)
abbrev a4 : A S2x4096 := V0 (Proc.devRef .tc main_arg4)
abbrev a5 : A S2x4096 := V0 (Proc.devRef .tc main_arg5)

/-- Layer `l`'s weights. -/
def Lyr (l : Fin 2) : Spec.Layer := Spec.layer (a2 V0) (a3 V0) (a4 V0) (a5 V0) l

/-- The first layer's inputs. -/
def X0 : Nat → Spec.Mat 1024 := Spec.x0 (a0 V0) (a1 V0)

/-- The second layer's inputs: the first layer's hidden states. -/
def X1 : Nat → Spec.Mat 1024 := Spec.hid (Lyr V0 0) (X0 V0)

/-- Four arrays are joint `j`'s hidden and cell state in the two layers. -/
structure JointAt (j : Nat) (H0 C0 H1 C1 : A S256x1024) : Prop where
  h0 : mat H0 = (Spec.tab (Lyr V0 0) (X0 V0) j j).1
  c0 : mat C0 = (Spec.tab (Lyr V0 0) (X0 V0) j j).2
  h1 : mat H1 = (Spec.tab (Lyr V0 1) (X1 V0) j j).1
  c1 : mat C1 = (Spec.tab (Lyr V0 1) (X1 V0) j j).2

/-- Two stacked pairs hold joint `p`'s hidden and cell states of the two layers. -/
structure Holds (p : Nat) (PH PC : A S2x256x1024) : Prop where
  h0 : mat (stSl 0 slices_S2x256x1024_S1x256x1024_0_0_0 PH) = (Spec.tab (Lyr V0 0) (X0 V0) p p).1
  c0 : mat (stSl 0 slices_S2x256x1024_S1x256x1024_0_0_0 PC) = (Spec.tab (Lyr V0 0) (X0 V0) p p).2
  h1 : mat (stSl 1 slices_S2x256x1024_S1x256x1024_1_0_0 PH) = (Spec.tab (Lyr V0 1) (X1 V0) p p).1
  c1 : mat (stSl 1 slices_S2x256x1024_S1x256x1024_1_0_0 PC) = (Spec.tab (Lyr V0 1) (X1 V0) p p).2

/-- The root: the zero pair. -/
theorem holds_root : Holds V0 0 zeros2 zeros2 :=
  ⟨mat_stSl_zeros 0 _, mat_stSl_zeros 0 _, mat_stSl_zeros 1 _, mat_stSl_zeros 1 _⟩

/-- A joint's states, stacked, are what its children read. -/
theorem holds_stack {j : Nat} {H0 C0 H1 C1 : A S256x1024} (h : JointAt V0 j H0 C0 H1 C1) :
    Holds V0 j (stack H0 H1) (stack C0 C1) :=
  ⟨by rw [stSl0_stack]; exact h.h0, by rw [stSl0_stack]; exact h.c0, by rw [stSl1_stack]; exact h.h1,
    by rw [stSl1_stack]; exact h.c1⟩

/-- One joint from its parent's stacked pairs: the first layer's cell on the joint's slice of the inputs, the second
    layer's on the first layer's new hidden state. -/
theorem joint_step (j : Nat) (o : Fin 15) (hjo : j = o.val + 1) (p : Nat) (hp : Spec.par j = p) (hpj : p < j)
    {PH PC : A S2x256x1024} (hP : Holds V0 p PH PC) (hsl : S256x15x1024.Slices ![0, o.val, 0] S256x1x1024)
    {G0 G1 : A S256x4096} {C0 H0 C1 H1 : A S256x1024}
    (hG0 : G0 = refGates (xSl o.val hsl (res_main_v1 V0)) (stSl 0 slices_S2x256x1024_S1x256x1024_0_0_0 PH)
      (wSl 0 slices_S2x4096x1024_S1x4096x1024_0_0_0 (a2 V0)) (wSl 0 slices_S2x4096x1024_S1x4096x1024_0_0_0 (a3 V0))
      (bSl 0 slices_S2x4096_S1x4096_0_0 (a4 V0)) (bSl 0 slices_S2x4096_S1x4096_0_0 (a5 V0)))
    (hC0 : C0 = refC G0 (stSl 0 slices_S2x256x1024_S1x256x1024_0_0_0 PC)) (hH0 : H0 = refH G0 C0)
    (hG1 : G1 = refGates H0 (stSl 1 slices_S2x256x1024_S1x256x1024_1_0_0 PH)
      (wSl 1 slices_S2x4096x1024_S1x4096x1024_1_0_0 (a2 V0)) (wSl 1 slices_S2x4096x1024_S1x4096x1024_1_0_0 (a3 V0))
      (bSl 1 slices_S2x4096_S1x4096_1_0 (a4 V0)) (bSl 1 slices_S2x4096_S1x4096_1_0 (a5 V0)))
    (hC1 : C1 = refC G1 (stSl 1 slices_S2x256x1024_S1x256x1024_1_0_0 PC)) (hH1 : H1 = refH G1 C1) :
    JointAt V0 j H0 C0 H1 C1 := by
  have hj1 : 1 ≤ j := by omega
  have hpn : p ≤ j - 1 := by omega
  have hj15 : j ≤ 15 := by have := o.isLt; omega
  have s0 := at_stage (Lyr V0 0) (X0 V0) hpn hP.h0 hP.c0
  have s1 := at_stage (Lyr V0 1) (X1 V0) hpn hP.h1 hP.c1
  rw [← hp] at s0 s1
  have hx0 : mat (xSl o.val hsl (res_main_v1 V0)) = X0 V0 j := by
    rw [hjo]; exact mat_xSl o hsl (a0 V0) (a1 V0)
  have r0 := cell_step (Lyr V0 0) (X0 V0) j hj1 hG0 hC0 hH0
    (refLayer_sl 0 slices_S2x4096x1024_S1x4096x1024_0_0_0 slices_S2x4096x1024_S1x4096x1024_0_0_0
      slices_S2x4096_S1x4096_0_0 slices_S2x4096_S1x4096_0_0 (a2 V0) (a3 V0) (a4 V0) (a5 V0)) hx0 s0.1 s0.2
  have hx1 : mat H0 = X1 V0 j := hid_of_stage _ _ hj15 r0.1
  have r1 := cell_step (Lyr V0 1) (X1 V0) j hj1 hG1 hC1 hH1
    (refLayer_sl 1 slices_S2x4096x1024_S1x4096x1024_1_0_0 slices_S2x4096x1024_S1x4096x1024_1_0_0
      slices_S2x4096_S1x4096_1_0 slices_S2x4096_S1x4096_1_0 (a2 V0) (a3 V0) (a4 V0) (a5 V0)) hx1 s1.1 s1.2
  exact ⟨r0.1, r0.2, r1.1, r1.2⟩

end Cert.ReferenceIdeal.RefValue

end
-- ==== Proof.Ref.Joints.lean ====
import proofs.«408307_j89713276879117_3_alg».proof.Proof.Ref.Setup

noncomputable section

namespace Cert.ReferenceIdeal.RefValue

open Cert.ReferenceIdeal Cert.ReferenceIdeal.Gen Cert.ReferenceIdeal.Value Idealize.ShloMosaic Idealize.ShloMosaic.StableHlo

variable (V0 : Valuation τ sig (Elt Ideal))

/-- Joint 1, from joint 0's states. -/
theorem joint1 : JointAt V0 1 (res_main_v53 V0) (res_main_v45 V0) (res_main_v102 V0) (res_main_v94 V0) :=
  joint_step V0 1 ⟨0, by decide⟩ rfl 0 rfl (by decide) (PH := res_main_v2 V0) (PC := res_main_v2 V0) (holds_root V0)
    slices_S256x15x1024_S256x1x1024_0_0_0 (G0 := res_main_v25 V0) (G1 := res_main_v74 V0) rfl rfl rfl rfl rfl rfl

/-- Joint 2, from joint 1's states. -/
theorem joint2 : JointAt V0 2 (res_main_v159 V0) (res_main_v151 V0) (res_main_v208 V0) (res_main_v200 V0) :=
  joint_step V0 2 ⟨1, by decide⟩ rfl 1 rfl (by decide) (PH := res_main_v105 V0) (PC := res_main_v108 V0) (holds_stack V0 (joint1 V0))
    slices_S256x15x1024_S256x1x1024_0_1_0 (G0 := res_main_v131 V0) (G1 := res_main_v180 V0) rfl rfl rfl rfl rfl rfl

/-- Joint 3, from joint 2's states. -/
theorem joint3 : JointAt V0 3 (res_main_v265 V0) (res_main_v257 V0) (res_main_v314 V0) (res_main_v306 V0) :=
  joint_step V0 3 ⟨2, by decide⟩ rfl 2 rfl (by decide) (PH := res_main_v211 V0) (PC := res_main_v214 V0) (holds_stack V0 (joint2 V0))
    slices_S256x15x1024_S256x1x1024_0_2_0 (G0 := res_main_v237 V0) (G1 := res_main_v286 V0) rfl rfl rfl rfl rfl rfl

/-- Joint 4, from joint 3's states. -/
theorem joint4 : JointAt V0 4 (res_main_v371 V0) (res_main_v363 V0) (res_main_v420 V0) (res_main_v412 V0) :=
  joint_step V0 4 ⟨3, by decide⟩ rfl 3 rfl (by decide) (PH := res_main_v317 V0) (PC := res_main_v320 V0) (holds_stack V0 (joint3 V0))
    slices_S256x15x1024_S256x1x1024_0_3_0 (G0 := res_main_v343 V0) (G1 := res_main_v392 V0) rfl rfl rfl rfl rfl rfl

/-- Joint 5, from joint 1's states. -/
theorem joint5 : JointAt V0 5 (res_main_v477 V0) (res_main_v469 V0) (res_main_v526 V0) (res_main_v518 V0) :=
  joint_step V0 5 ⟨4, by decide⟩ rfl 1 rfl (by decide) (PH := res_main_v105 V0) (PC := res_main_v108 V0) (holds_stack V0 (joint1 V0))
    slices_S256x15x1024_S256x1x1024_0_4_0 (G0 := res_main_v449 V0) (G1 := res_main_v498 V0) rfl rfl rfl rfl rfl rfl

/-- Joint 6, from joint 5's states. -/
theorem joint6 : JointAt V0 6 (res_main_v583 V0) (res_main_v575 V0) (res_main_v632 V0) (res_main_v624 V0) :=
  joint_step V0 6 ⟨5, by decide⟩ rfl 5 rfl (by decide) (PH := res_main_v529 V0) (PC := res_main_v532 V0) (holds_stack V0 (joint5 V0))
    slices_S256x15x1024_S256x1x1024_0_5_0 (G0 := res_main_v555 V0) (G1 := res_main_v604 V0) rfl rfl rfl rfl rfl rfl

/-- Joint 7, from joint 6's states. -/
theorem joint7 : JointAt V0 7 (res_main_v689 V0) (res_main_v681 V0) (res_main_v738 V0) (res_main_v730 V0) :=
  joint_step V0 7 ⟨6, by decide⟩ rfl 6 rfl (by decide) (PH := res_main_v635 V0) (PC := res_main_v638 V0) (holds_stack V0 (joint6 V0))
    slices_S256x15x1024_S256x1x1024_0_6_0 (G0 := res_main_v661 V0) (G1 := res_main_v710 V0) rfl rfl rfl rfl rfl rfl

/-- Joint 8, from joint 1's states. -/
theorem joint8 : JointAt V0 8 (res_main_v795 V0) (res_main_v787 V0) (res_main_v844 V0) (res_main_v836 V0) :=
  joint_step V0 8 ⟨7, by decide⟩ rfl 1 rfl (by decide) (PH := res_main_v105 V0) (PC := res_main_v108 V0) (holds_stack V0 (joint1 V0))
    slices_S256x15x1024_S256x1x1024_0_7_0 (G0 := res_main_v767 V0) (G1 := res_main_v816 V0) rfl rfl rfl rfl rfl rfl

/-- Joint 9, from joint 8's states. -/
theorem joint9 : JointAt V0 9 (res_main_v901 V0) (res_main_v893 V0) (res_main_v950 V0) (res_main_v942 V0) :=
  joint_step V0 9 ⟨8, by decide⟩ rfl 8 rfl (by decide) (PH := res_main_v847 V0) (PC := res_main_v850 V0) (holds_stack V0 (joint8 V0))
    slices_S256x15x1024_S256x1x1024_0_8_0 (G0 := res_main_v873 V0) (G1 := res_main_v922 V0) rfl rfl rfl rfl rfl rfl

/-- Joint 10, from joint 9's states. -/
theorem joint10 : JointAt V0 10 (res_main_v1007 V0) (res_main_v999 V0) (res_main_v1056 V0) (res_main_v1048 V0) :=
  joint_step V0 10 ⟨9, by decide⟩ rfl 9 rfl (by decide) (PH := res_main_v953 V0) (PC := res_main_v956 V0) (holds_stack V0 (joint9 V0))
    slices_S256x15x1024_S256x1x1024_0_9_0 (G0 := res_main_v979 V0) (G1 := res_main_v1028 V0) rfl rfl rfl rfl rfl rfl

/-- Joint 11, from joint 10's states. -/
theorem joint11 : JointAt V0 11 (res_main_v1113 V0) (res_main_v1105 V0) (res_main_v1162 V0) (res_main_v1154 V0) :=
  joint_step V0 11 ⟨10, by decide⟩ rfl 10 rfl (by decide) (PH := res_main_v1059 V0) (PC := res_main_v1062 V0) (holds_stack V0 (joint10 V0))
    slices_S256x15x1024_S256x1x1024_0_10_0 (G0 := res_main_v1085 V0) (G1 := res_main_v1134 V0) rfl rfl rfl rfl rfl rfl

/-- Joint 12, from joint 8's states. -/
theorem joint12 : JointAt V0 12 (res_main_v1219 V0) (res_main_v1211 V0) (res_main_v1268 V0) (res_main_v1260 V0) :=
  joint_step V0 12 ⟨11, by decide⟩ rfl 8 rfl (by decide) (PH := res_main_v847 V0) (PC := res_main_v850 V0) (holds_stack V0 (joint8 V0))
    slices_S256x15x1024_S256x1x1024_0_11_0 (G0 := res_main_v1191 V0) (G1 := res_main_v1240 V0) rfl rfl rfl rfl rfl rfl

/-- Joint 13, from joint 12's states. -/
theorem joint13 : JointAt V0 13 (res_main_v1325 V0) (res_main_v1317 V0) (res_main_v1374 V0) (res_main_v1366 V0) :=
  joint_step V0 13 ⟨12, by decide⟩ rfl 12 rfl (by decide) (PH := res_main_v1271 V0) (PC := res_main_v1274 V0) (holds_stack V0 (joint12 V0))
    slices_S256x15x1024_S256x1x1024_0_12_0 (G0 := res_main_v1297 V0) (G1 := res_main_v1346 V0) rfl rfl rfl rfl rfl rfl

/-- Joint 14, from joint 13's states. -/
theorem joint14 : JointAt V0 14 (res_main_v1431 V0) (res_main_v1423 V0) (res_main_v1480 V0) (res_main_v1472 V0) :=
  joint_step V0 14 ⟨13, by decide⟩ rfl 13 rfl (by decide) (PH := res_main_v1377 V0) (PC := res_main_v1380 V0) (holds_stack V0 (joint13 V0))
    slices_S256x15x1024_S256x1x1024_0_13_0 (G0 := res_main_v1403 V0) (G1 := res_main_v1452 V0) rfl rfl rfl rfl rfl rfl

/-- Joint 15, from joint 14's states. -/
theorem joint15 : JointAt V0 15 (res_main_v1537 V0) (res_main_v1529 V0) (res_main_v1586 V0) (res_main_v1578 V0) :=
  joint_step V0 15 ⟨14, by decide⟩ rfl 14 rfl (by decide) (PH := res_main_v1483 V0) (PC := res_main_v1486 V0) (holds_stack V0 (joint14 V0))
    slices_S256x15x1024_S256x1x1024_0_14_0 (G0 := res_main_v1509 V0) (G1 := res_main_v1558 V0) rfl rfl rfl rfl rfl rfl

/-- The second layer's hidden states, joints 1 to 15. -/
def Hs : Fin 15 → A S256x1024 :=
  ![res_main_v102 V0, res_main_v208 V0, res_main_v314 V0, res_main_v420 V0, res_main_v526 V0, res_main_v632 V0, res_main_v738 V0, res_main_v844 V0, res_main_v950 V0, res_main_v1056 V0, res_main_v1162 V0, res_main_v1268 V0, res_main_v1374 V0, res_main_v1480 V0, res_main_v1586 V0]

theorem mat_Hs (j : Fin 15) : mat (Hs V0 j) = Spec.hid (Lyr V0 1) (X1 V0) (j.val + 1) :=
  match j with
  | ⟨0, _⟩ => hid_of_stage _ _ (show 0 + 1 ≤ 15 by decide) (joint1 V0).h1
  | ⟨1, _⟩ => hid_of_stage _ _ (show 1 + 1 ≤ 15 by decide) (joint2 V0).h1
  | ⟨2, _⟩ => hid_of_stage _ _ (show 2 + 1 ≤ 15 by decide) (joint3 V0).h1
  | ⟨3, _⟩ => hid_of_stage _ _ (show 3 + 1 ≤ 15 by decide) (joint4 V0).h1
  | ⟨4, _⟩ => hid_of_stage _ _ (show 4 + 1 ≤ 15 by decide) (joint5 V0).h1
  | ⟨5, _⟩ => hid_of_stage _ _ (show 5 + 1 ≤ 15 by decide) (joint6 V0).h1
  | ⟨6, _⟩ => hid_of_stage _ _ (show 6 + 1 ≤ 15 by decide) (joint7 V0).h1
  | ⟨7, _⟩ => hid_of_stage _ _ (show 7 + 1 ≤ 15 by decide) (joint8 V0).h1
  | ⟨8, _⟩ => hid_of_stage _ _ (show 8 + 1 ≤ 15 by decide) (joint9 V0).h1
  | ⟨9, _⟩ => hid_of_stage _ _ (show 9 + 1 ≤ 15 by decide) (joint10 V0).h1
  | ⟨10, _⟩ => hid_of_stage _ _ (show 10 + 1 ≤ 15 by decide) (joint11 V0).h1
  | ⟨11, _⟩ => hid_of_stage _ _ (show 11 + 1 ≤ 15 by decide) (joint12 V0).h1
  | ⟨12, _⟩ => hid_of_stage _ _ (show 12 + 1 ≤ 15 by decide) (joint13 V0).h1
  | ⟨13, _⟩ => hid_of_stage _ _ (show 13 + 1 ≤ 15 by decide) (joint14 V0).h1
  | ⟨14, _⟩ => hid_of_stage _ _ (show 14 + 1 ≤ 15 by decide) (joint15 V0).h1

end Cert.ReferenceIdeal.RefValue

end
-- ==== Proof.Ref.RunSpec.lean ====
/-
  The reference's result is the specification's function of the six arguments.

  The run's result is fifteen blocks — the second layer's hidden state of joints 1 to 15, in order — laid along a middle
  axis that is then moved to the front; entry `(j, b, k)` is entry `(b, k)` of block `j`, which the table of joints
  says is the specification's second-layer hidden state of joint `j + 1`.
-/
import proofs.«408307_j89713276879117_3_alg».proof.Proof.Ref.Joints

noncomputable section

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

/-- The fifteen blocks are the specification's result. -/
theorem result_eq (V0 : Valuation τ sig (Elt Ideal)) :
    outBlocks (Hs V0) = (Spec.out (a0 V0) (a1 V0) (a2 V0) (a3 V0) (a4 V0) (a5 V0) : S15x256x1024.Idx → EReal) := by
  funext i
  obtain ⟨j, b, k, rfl⟩ : ∃ j b k, i = ix3 j b k := ⟨i 0, i 1, i 2, eq_ix3 i⟩
  exact (outBlocks_apply (Hs V0) j b k).trans (congrFun (congrFun (mat_Hs V0 j) b) k)

/-- Every weakly fair execution of the reference ends with its result buffer at the specification's function of the
    six arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1609)
          = (Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)) : S15x256x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans (result_eq (launchContents m c)), (h c).2⟩)
    (Cert.ReferenceIdeal.Value.run (F := Ideal) m ρ)

end Cert.ReferenceIdeal.RefValue

end
-- ==== Proof.lean ====
/-
  A two-layer LSTM propagated down a kinematic tree of sixteen joints: each joint's state (h, c) in a layer is one LSTM
  cell of that layer's weights on the layer's input at the joint and on the PARENT's state, the root's state being zero;
  the first layer's input is the concatenation of the two input arrays, the second layer's input is the first layer's
  hidden state, and the result is the second layer's hidden state of joints 1 … 15 (Proof/Spec.lean).

  The kernel program computes it layer by layer in four kernel regions: the input projection `x · Wihᵀ + (b_ih + b_hh)`
  of all fifteen joints at once (a 3840-row matrix product), then the serial walk down the tree, which keeps the joints'
  states in two scratch buffers of sixteen rows, reads the parent's row through a table of parents held in scalar memory
  and adds the recurrent term `h_par · Whhᵀ`; then the same two regions for the second layer.  The reference walks the
  tree joint by joint and computes both layers of a joint before it goes on.  At the ideal values (a float an extended
  real, every change of float format the identity) the two are the same function: the sums over the contracted axis
  are the same sums, the logistic function is `1 / (1 + e^(-x))` on both sides, and
      (x·Wihᵀ + h·Whhᵀ) + bias = (x·Wihᵀ + bias) + h·Whhᵀ
  by commutativity and associativity of addition on the extended reals alone, so no finiteness is used and the
  precondition is never opened.

  The frames: every weakly fair execution of either kernel program terminates without a fault and leaves the six
  argument arrays as launched (Proof/K/Run.lean at the word level, Proof/KI/Run.lean at the ideal values: @main's four
  stretches of host operations and four regions in turn, each region's proof data naming what every window's staging
  buffer holds after every grid point, the cell regions' also what the scratch rows hold); the reference's frame is its
  run with the result dropped.  The idealization rewrote nothing, so `preserves` is trivial.
-/
import proofs.«408307_j89713276879117_3_alg».proof.Defs
import proofs.«408307_j89713276879117_3_alg».proof.Proof.Gen.Kernel
import proofs.«408307_j89713276879117_3_alg».proof.Proof.Gen.KernelIdeal
import proofs.«408307_j89713276879117_3_alg».proof.Proof.Gen.ReferenceIdeal
import proofs.«408307_j89713276879117_3_alg».proof.Proof.Gen.Pre_finite_inputs
import proofs.«408307_j89713276879117_3_alg».proof.Proof.K.Run
import proofs.«408307_j89713276879117_3_alg».proof.Proof.KI.Run
import proofs.«408307_j89713276879117_3_alg».proof.Proof.KI.Value
import proofs.«408307_j89713276879117_3_alg».proof.Proof.Ref.RunSpec

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_r : Cert.frame_ReferenceIdeal := fun m ρ _ =>
  (θ_run Cert.ReferenceIdeal.defs _ _).mono (fun _ h c => (h c).2) (Cert.ReferenceIdeal.RefValue.run_spec m ρ)

/-- The ideal pass rewrote no operation. -/
theorem preserves : Cert.preserves_Kernel_KernelIdeal := trivial

/-- Both idealized programs end with their result array at the specification's function of the six arguments; the
    arguments agree, so the results are equal. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
